-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x4 : Shape := ⟨2, ![200000, 4]⟩
abbrev S6400000x1 : Shape := ⟨2, ![6400000, 1]⟩
abbrev S6400000x3 : Shape := ⟨2, ![6400000, 3]⟩
abbrev S3x1x12 : Shape := ⟨3, ![3, 1, 12]⟩
abbrev S3x1 : Shape := ⟨2, ![3, 1]⟩
abbrev S6400000 : Shape := ⟨1, ![6400000]⟩
abbrev S_ : Shape := ⟨0, ![]⟩

class Facts : Prop where
  bcast_S_S200000x4 : S_.BroadcastsInDim S200000x4 (![] : Fin 0 → Fin S200000x4.rank)
  reducesTo_S200000x4_S_d0_1 : S200000x4.ReducesTo [0, 1] S_
  h_S_ : 0 < S_.numel
  bcast_S_S6400000x1 : S_.BroadcastsInDim S6400000x1 (![] : Fin 0 → Fin S6400000x1.rank)
  reducesTo_S6400000x1_S_d0_1 : S6400000x1.ReducesTo [0, 1] S_
  bcast_S_S6400000x3 : S_.BroadcastsInDim S6400000x3 (![] : Fin 0 → Fin S6400000x3.rank)
  reducesTo_S6400000x3_S_d0_1 : S6400000x3.ReducesTo [0, 1] S_
  bcast_S_S3x1x12 : S_.BroadcastsInDim S3x1x12 (![] : Fin 0 → Fin S3x1x12.rank)
  reducesTo_S3x1x12_S_d0_1_2 : S3x1x12.ReducesTo [0, 1, 2] S_
  bcast_S_S3x1 : S_.BroadcastsInDim S3x1 (![] : Fin 0 → Fin S3x1.rank)
  reducesTo_S3x1_S_d0_1 : S3x1.ReducesTo [0, 1] S_
  bcast_S_S6400000 : S_.BroadcastsInDim S6400000 (![] : Fin 0 → Fin S6400000.rank)
  reducesTo_S6400000_S_d0 : S6400000.ReducesTo [0] S_

variable [Facts]

def fn_part2 {F : FTy → Type} [FloatOps F] (main_arg6 : IVec S6400000 32) (main_v30 : IVec S_ 1) (main_v32 : IVec S6400000 1) (main_c_12 : IVec S_ 32) : IVec S_ 1 :=
  let main_v33 : IVec S6400000 32 := broadcastInDim S6400000 ![] bcast_S_S6400000 main_c_12
  let main_v34 : IVec S6400000 1 := cmpi .slt main_arg6 main_v33
  let main_v35 : IVec S6400000 1 := andi main_v32 main_v34
  let main_c_13 : IVec S_ 1 := constantI S_ 1 1#1
  let main_v36 : IVec S_ 1 := (fun x v => Host.reduce IntOp.andi x v reducesTo_S6400000_S_d0 h_S_) main_v35 main_c_13
  let main_v37 : IVec S_ 1 := andi main_v30 main_v36
  main_v37

def fn_part1 {F : FTy → Type} [FloatOps F] (main_arg4 : FVec F S3x1 .f32) (main_arg5 : IVec S6400000 32) (main_arg6 : IVec S6400000 32) (main_v13 : IVec S_ 1) (main_v16 : IVec S3x1x12 1) : IVec S_ 1 :=
  let main_c_5 : IVec S_ 1 := constantI S_ 1 1#1
  let main_v17 : IVec S_ 1 := (fun x v => Host.reduce IntOp.andi x v reducesTo_S3x1x12_S_d0_1_2 h_S_) main_v16 main_c_5
  let main_v18 : IVec S_ 1 := andi main_v13 main_v17
  let main_v19 : FVec F S3x1 .f32 := Host.absf main_arg4
  let main_cst_6 : FVec F S_ .f32 := constant S_ .f32 0x7F800000#32
  let main_v20 : FVec F S3x1 .f32 := broadcastInDim S3x1 ![] bcast_S_S3x1 main_cst_6
  let main_v21 : IVec S3x1 1 := cmpf .olt main_v19 main_v20
  let main_c_7 : IVec S_ 1 := constantI S_ 1 1#1
  let main_v22 : IVec S_ 1 := (fun x v => Host.reduce IntOp.andi x v reducesTo_S3x1_S_d0_1 h_S_) main_v21 main_c_7
  let main_v23 : IVec S_ 1 := andi main_v18 main_v22
  let main_c_8 : IVec S_ 32 := constantI S_ 32 0#32
  let main_v24 : IVec S6400000 32 := broadcastInDim S6400000 ![] bcast_S_S6400000 main_c_8
  let main_v25 : IVec S6400000 1 := cmpi .sge main_arg5 main_v24
  let main_c_9 : IVec S_ 32 := constantI S_ 32 200000#32
  let main_v26 : IVec S6400000 32 := broadcastInDim S6400000 ![] bcast_S_S6400000 main_c_9
  let main_v27 : IVec S6400000 1 := cmpi .slt main_arg5 main_v26
  let main_v28 : IVec S6400000 1 := andi main_v25 main_v27
  let main_c_10 : IVec S_ 1 := constantI S_ 1 1#1
  let main_v29 : IVec S_ 1 := (fun x v => Host.reduce IntOp.andi x v reducesTo_S6400000_S_d0 h_S_) main_v28 main_c_10
  let main_v30 : IVec S_ 1 := andi main_v23 main_v29
  let main_c_11 : IVec S_ 32 := constantI S_ 32 0#32
  let main_v31 : IVec S6400000 32 := broadcastInDim S6400000 ![] bcast_S_S6400000 main_c_11
  let main_v32 : IVec S6400000 1 := cmpi .sge main_arg6 main_v31
  let main_c_12 : IVec S_ 32 := constantI S_ 32 200000#32
  fn_part2 (F := F) main_arg6 main_v30 main_v32 main_c_12

def fn {F : FTy → Type} [FloatOps F] (main_arg0 : FVec F S200000x4 .f32) (main_arg1 : FVec F S6400000x1 .f32) (main_arg2 : FVec F S6400000x3 .f32) (main_arg3 : FVec F S3x1x12 .f32) (main_arg4 : FVec F S3x1 .f32) (main_arg5 : IVec S6400000 32) (main_arg6 : IVec S6400000 32) : IVec S_ 1 :=
  let main_v0 : FVec F S200000x4 .f32 := Host.absf main_arg0
  let main_cst : FVec F S_ .f32 := constant S_ .f32 0x7F800000#32
  let main_v1 : FVec F S200000x4 .f32 := broadcastInDim S200000x4 ![] bcast_S_S200000x4 main_cst
  let main_v2 : IVec S200000x4 1 := cmpf .olt main_v0 main_v1
  let main_c : IVec S_ 1 := constantI S_ 1 1#1
  let main_v3 : IVec S_ 1 := (fun x v => Host.reduce IntOp.andi x v reducesTo_S200000x4_S_d0_1 h_S_) main_v2 main_c
  let main_v4 : FVec F S6400000x1 .f32 := Host.absf main_arg1
  let main_cst_0 : FVec F S_ .f32 := constant S_ .f32 0x7F800000#32
  let main_v5 : FVec F S6400000x1 .f32 := broadcastInDim S6400000x1 ![] bcast_S_S6400000x1 main_cst_0
  let main_v6 : IVec S6400000x1 1 := cmpf .olt main_v4 main_v5
  let main_c_1 : IVec S_ 1 := constantI S_ 1 1#1
  let main_v7 : IVec S_ 1 := (fun x v => Host.reduce IntOp.andi x v reducesTo_S6400000x1_S_d0_1 h_S_) main_v6 main_c_1
  let main_v8 : IVec S_ 1 := andi main_v3 main_v7
  let main_v9 : FVec F S6400000x3 .f32 := Host.absf main_arg2
  let main_cst_2 : FVec F S_ .f32 := constant S_ .f32 0x7F800000#32
  let main_v10 : FVec F S6400000x3 .f32 := broadcastInDim S6400000x3 ![] bcast_S_S6400000x3 main_cst_2
  let main_v11 : IVec S6400000x3 1 := cmpf .olt main_v9 main_v10
  let main_c_3 : IVec S_ 1 := constantI S_ 1 1#1
  let main_v12 : IVec S_ 1 := (fun x v => Host.reduce IntOp.andi x v reducesTo_S6400000x3_S_d0_1 h_S_) main_v11 main_c_3
  let main_v13 : IVec S_ 1 := andi main_v8 main_v12
  let main_v14 : FVec F S3x1x12 .f32 := Host.absf main_arg3
  let main_cst_4 : FVec F S_ .f32 := constant S_ .f32 0x7F800000#32
  let main_v15 : FVec F S3x1x12 .f32 := broadcastInDim S3x1x12 ![] bcast_S_S3x1x12 main_cst_4
  let main_v16 : IVec S3x1x12 1 := cmpf .olt main_v14 main_v15
  fn_part1 (F := F) main_arg4 main_arg5 main_arg6 main_v13 main_v16
-- ==== Kernel.lean ====
abbrev S200000x4 : Shape := ⟨2, ![200000, 4]⟩
abbrev S6400000x1 : Shape := ⟨2, ![6400000, 1]⟩
abbrev S6400000x3 : Shape := ⟨2, ![6400000, 3]⟩
abbrev S3x1x12 : Shape := ⟨3, ![3, 1, 12]⟩
abbrev S3x1 : Shape := ⟨2, ![3, 1]⟩
abbrev S6400000 : Shape := ⟨1, ![6400000]⟩
abbrev S_ : Shape := ⟨0, ![]⟩
abbrev S6400000x4 : Shape := ⟨2, ![6400000, 4]⟩
abbrev S200000 : Shape := ⟨1, ![200000]⟩
abbrev S200064x4 : Shape := ⟨2, ![200064, 4]⟩
abbrev S4x200064 : Shape := ⟨2, ![4, 200064]⟩
abbrev S200064 : Shape := ⟨1, ![200064]⟩
abbrev S1x200064 : Shape := ⟨2, ![1, 200064]⟩
abbrev S1x1x12 : Shape := ⟨3, ![1, 1, 12]⟩
abbrev S12 : Shape := ⟨1, ![12]⟩
abbrev S4 : Shape := ⟨1, ![4]⟩
abbrev S4x1 : Shape := ⟨2, ![4, 1]⟩
abbrev S1x1 : Shape := ⟨2, ![1, 1]⟩
abbrev S1 : Shape := ⟨1, ![1]⟩
abbrev S4x66688 : Shape := ⟨2, ![4, 66688]⟩
abbrev S1x66688 : Shape := ⟨2, ![1, 66688]⟩
abbrev S66688 : Shape := ⟨1, ![66688]⟩

abbrev nBuf : Space → Nat
  | .hbm => 198
  | .vmem => 66
  | .smem => 0
  | _ => 0

abbrev hbmTy0_0 (i : Nat) : BufTy := match i % 128 with
  | 0 => ⟨S200000x4, .f32⟩
  | 1 => ⟨S6400000x1, .f32⟩
  | 2 => ⟨S6400000x3, .f32⟩
  | 3 => ⟨S3x1x12, .f32⟩
  | 4 => ⟨S3x1, .f32⟩
  | 5 => ⟨S6400000, .i32⟩
  | 6 => ⟨S6400000, .i32⟩
  | 7 => ⟨S_, .i32⟩
  | 8 => ⟨S_, .i32⟩
  | 9 => ⟨S_, .i32⟩
  | 10 => ⟨S6400000, .i32⟩
  | 11 => ⟨S6400000, .i32⟩
  | 12 => ⟨S_, .i32⟩
  | 13 => ⟨S6400000, .i32⟩
  | 14 => ⟨S6400000, .i32⟩
  | 15 => ⟨S_, .i32⟩
  | 16 => ⟨S_, .i32⟩
  | 17 => ⟨S_, .i32⟩
  | 18 => ⟨S6400000, .i32⟩
  | 19 => ⟨S6400000, .i32⟩
  | 20 => ⟨S_, .i32⟩
  | 21 => ⟨S6400000, .i32⟩
  | 22 => ⟨S6400000, .i32⟩
  | 23 => ⟨S6400000x4, .f32⟩
  | 24 => ⟨S_, .f32⟩
  | 25 => ⟨S200000x4, .f32⟩
  | 26 => ⟨S6400000x1, .i32⟩
  | 27 => ⟨S200000x4, .f32⟩
  | 28 => ⟨S_, .f32⟩
  | 29 => ⟨S6400000, .f32⟩
  | 30 => ⟨S_, .f32⟩
  | 31 => ⟨S200000, .f32⟩
  | 32 => ⟨S6400000x1, .i32⟩
  | 33 => ⟨S200000, .f32⟩
  | 34 => ⟨S_, .i32⟩
  | 35 => ⟨S_, .f32⟩
  | 36 => ⟨S200064x4, .f32⟩
  | 37 => ⟨S4x200064, .f32⟩
  | 38 => ⟨S_, .i32⟩
  | 39 => ⟨S_, .f32⟩
  | 40 => ⟨S200064, .f32⟩
  | 41 => ⟨S1x200064, .f32⟩
  | 42 => ⟨S1x1x12, .f32⟩
  | 43 => ⟨S12, .f32⟩
  | 44 => ⟨S4, .f32⟩
  | 45 => ⟨S4x1, .f32⟩
  | 46 => ⟨S4, .f32⟩
  | 47 => ⟨S4x1, .f32⟩
  | 48 => ⟨S4, .f32⟩
  | 49 => ⟨S4x1, .f32⟩
  | 50 => ⟨S1x1, .f32⟩
  | 51 => ⟨S1, .f32⟩
  | 52 => ⟨S1x1, .f32⟩
  | 53 => ⟨S_, .i32⟩
  | 54 => ⟨S_, .f32⟩
  | 55 => ⟨S200064x4, .f32⟩
  | 56 => ⟨S4x200064, .f32⟩
  | 57 => ⟨S1x200064, .f32⟩
  | 58 => ⟨S1x200064, .f32⟩
  | 59 => ⟨S200064, .f32⟩
  | 60 => ⟨S200000, .f32⟩
  | 61 => ⟨S_, .i32⟩
  | 62 => ⟨S6400000, .i32⟩
  | 63 => ⟨S6400000, .i1⟩
  | 64 => ⟨S_, .i32⟩
  | 65 => ⟨S6400000, .i32⟩
  | 66 => ⟨S6400000, .i32⟩
  | 67 => ⟨S6400000, .i32⟩
  | 68 => ⟨S6400000x1, .i32⟩
  | 69 => ⟨S1, .i32⟩
  | 70 => ⟨S_, .i32⟩
  | 71 => ⟨S6400000x1, .i32⟩
  | 72 => ⟨S6400000x1, .i1⟩
  | 73 => ⟨S1x1, .i32⟩
  | 74 => ⟨S6400000x1, .i32⟩
  | 75 => ⟨S6400000x1, .i1⟩
  | 76 => ⟨S6400000x1, .i1⟩
  | 77 => ⟨S_, .i1⟩
  | 78 => ⟨S6400000, .i1⟩
  | 79 => ⟨S6400000, .f32⟩
  | 80 => ⟨S_, .f32⟩
  | 81 => ⟨S6400000, .f32⟩
  | 82 => ⟨S6400000, .f32⟩
  | 83 => ⟨S_, .f32⟩
  | 84 => ⟨S200000, .f32⟩
  | 85 => ⟨S6400000x1, .i32⟩
  | 86 => ⟨S200000, .f32⟩
  | 87 => ⟨S_, .i32⟩
  | 88 => ⟨S_, .f32⟩
  | 89 => ⟨S200064, .f32⟩
  | 90 => ⟨S1x200064, .f32⟩
  | 91 => ⟨S4x200064, .f32⟩
  | 92 => ⟨S200064x4, .f32⟩
  | 93 => ⟨S200000x4, .f32⟩
  | 94 => ⟨S1x1x12, .f32⟩
  | 95 => ⟨S12, .f32⟩
  | 96 => ⟨S4, .f32⟩
  | 97 => ⟨S4x1, .f32⟩
  | 98 => ⟨S4, .f32⟩
  | 99 => ⟨S4x1, .f32⟩
  | 100 => ⟨S4, .f32⟩
  | 101 => ⟨S4x1, .f32⟩
  | 102 => ⟨S1x1, .f32⟩
  | 103 => ⟨S1, .f32⟩
  | 104 => ⟨S1x1, .f32⟩
  | 105 => ⟨S_, .i32⟩
  | 106 => ⟨S_, .f32⟩
  | 107 => ⟨S200064x4, .f32⟩
  | 108 => ⟨S4x200064, .f32⟩
  | 109 => ⟨S1x200064, .f32⟩
  | 110 => ⟨S1x200064, .f32⟩
  | 111 => ⟨S200064, .f32⟩
  | 112 => ⟨S200000, .f32⟩
  | 113 => ⟨S_, .i32⟩
  | 114 => ⟨S6400000, .i32⟩
  | 115 => ⟨S6400000, .i1⟩
  | 116 => ⟨S_, .i32⟩
  | 117 => ⟨S6400000, .i32⟩
  | 118 => ⟨S6400000, .i32⟩
  | 119 => ⟨S6400000, .i32⟩
  | 120 => ⟨S6400000x1, .i32⟩
  | 121 => ⟨S1, .i32⟩
  | 122 => ⟨S_, .i32⟩
  | 123 => ⟨S6400000x1, .i32⟩
  | 124 => ⟨S6400000x1, .i1⟩
  | 125 => ⟨S1x1, .i32⟩
  | 126 => ⟨S6400000x1, .i32⟩
  | 127 => ⟨S6400000x1, .i1⟩
  | _ => ⟨S200000x4, .f32⟩

abbrev hbmTy0_1 (i : Nat) : BufTy := match i % 128 with
  | 0 => ⟨S6400000x1, .i1⟩
  | 1 => ⟨S_, .i1⟩
  | 2 => ⟨S6400000, .i1⟩
  | 3 => ⟨S6400000, .f32⟩
  | 4 => ⟨S_, .f32⟩
  | 5 => ⟨S6400000, .f32⟩
  | 6 => ⟨S6400000, .f32⟩
  | 7 => ⟨S_, .f32⟩
  | 8 => ⟨S200000, .f32⟩
  | 9 => ⟨S6400000x1, .i32⟩
  | 10 => ⟨S200000, .f32⟩
  | 11 => ⟨S_, .i32⟩
  | 12 => ⟨S_, .f32⟩
  | 13 => ⟨S200064, .f32⟩
  | 14 => ⟨S1x200064, .f32⟩
  | 15 => ⟨S4x200064, .f32⟩
  | 16 => ⟨S200064x4, .f32⟩
  | 17 => ⟨S200000x4, .f32⟩
  | 18 => ⟨S1x1x12, .f32⟩
  | 19 => ⟨S12, .f32⟩
  | 20 => ⟨S4, .f32⟩
  | 21 => ⟨S4x1, .f32⟩
  | 22 => ⟨S4, .f32⟩
  | 23 => ⟨S4x1, .f32⟩
  | 24 => ⟨S4, .f32⟩
  | 25 => ⟨S4x1, .f32⟩
  | 26 => ⟨S1x1, .f32⟩
  | 27 => ⟨S1, .f32⟩
  | 28 => ⟨S1x1, .f32⟩
  | 29 => ⟨S_, .i32⟩
  | 30 => ⟨S_, .f32⟩
  | 31 => ⟨S200064x4, .f32⟩
  | 32 => ⟨S4x200064, .f32⟩
  | 33 => ⟨S1x200064, .f32⟩
  | 34 => ⟨S1x200064, .f32⟩
  | 35 => ⟨S200064, .f32⟩
  | 36 => ⟨S200000, .f32⟩
  | 37 => ⟨S_, .i32⟩
  | 38 => ⟨S6400000, .i32⟩
  | 39 => ⟨S6400000, .i1⟩
  | 40 => ⟨S_, .i32⟩
  | 41 => ⟨S6400000, .i32⟩
  | 42 => ⟨S6400000, .i32⟩
  | 43 => ⟨S6400000, .i32⟩
  | 44 => ⟨S6400000x1, .i32⟩
  | 45 => ⟨S1, .i32⟩
  | 46 => ⟨S_, .i32⟩
  | 47 => ⟨S6400000x1, .i32⟩
  | 48 => ⟨S6400000x1, .i1⟩
  | 49 => ⟨S1x1, .i32⟩
  | 50 => ⟨S6400000x1, .i32⟩
  | 51 => ⟨S6400000x1, .i1⟩
  | 52 => ⟨S6400000x1, .i1⟩
  | 53 => ⟨S_, .i1⟩
  | 54 => ⟨S6400000, .i1⟩
  | 55 => ⟨S6400000, .f32⟩
  | 56 => ⟨S_, .f32⟩
  | 57 => ⟨S6400000, .f32⟩
  | 58 => ⟨S6400000, .f32⟩
  | 59 => ⟨S_, .f32⟩
  | 60 => ⟨S200000, .f32⟩
  | 61 => ⟨S6400000x1, .i32⟩
  | 62 => ⟨S200000, .f32⟩
  | 63 => ⟨S_, .i32⟩
  | 64 => ⟨S_, .f32⟩
  | 65 => ⟨S200064, .f32⟩
  | 66 => ⟨S1x200064, .f32⟩
  | 67 => ⟨S4x200064, .f32⟩
  | 68 => ⟨S200064x4, .f32⟩
  | 69 => ⟨S200000x4, .f32⟩
  | _ => ⟨S200000x4, .f32⟩

abbrev hbmTy (i : Nat) : BufTy := match i / 128 with
  | 0 => hbmTy0_0 i
  | 1 => hbmTy0_1 i
  | _ => ⟨S200000x4, .f32⟩

abbrev bufTy : (tb : Table) → Fin (tcTables nBuf tb) → BufTy
  | .hbm, ⟨i, _⟩ => hbmTy i
  | .local _ .vmem, ⟨0, _⟩ => ⟨S4x66688, .f32⟩
  | .local _ .vmem, ⟨1, _⟩ => ⟨S4x66688, .f32⟩
  | .local _ .vmem, ⟨2, _⟩ => ⟨S4x66688, .f32⟩
  | .local _ .vmem, ⟨3, _⟩ => ⟨S4x66688, .f32⟩
  | .local _ .vmem, ⟨4, _⟩ => ⟨S1x66688, .f32⟩
  | .local _ .vmem, ⟨5, _⟩ => ⟨S1x66688, .f32⟩
  | .local _ .vmem, ⟨6, _⟩ => ⟨S4x1, .f32⟩
  | .local _ .vmem, ⟨7, _⟩ => ⟨S4x1, .f32⟩
  | .local _ .vmem, ⟨8, _⟩ => ⟨S4x1, .f32⟩
  | .local _ .vmem, ⟨9, _⟩ => ⟨S1x1, .f32⟩
  | .local _ .vmem, ⟨10, _⟩ => ⟨S1x66688, .f32⟩
  | .local _ .vmem, ⟨11, _⟩ => ⟨S1x66688, .f32⟩
  | .local _ .vmem, ⟨12, _⟩ => ⟨S1x66688, .f32⟩
  | .local _ .vmem, ⟨13, _⟩ => ⟨S1x66688, .f32⟩
  | .local _ .vmem, ⟨14, _⟩ => ⟨S4x66688, .f32⟩
  | .local _ .vmem, ⟨15, _⟩ => ⟨S4x66688, .f32⟩
  | .local _ .vmem, ⟨16, _⟩ => ⟨S1x66688, .f32⟩
  | .local _ .vmem, ⟨17, _⟩ => ⟨S1x66688, .f32⟩
  | .local _ .vmem, ⟨18, _⟩ => ⟨S1x66688, .f32⟩
  | .local _ .vmem, ⟨19, _⟩ => ⟨S1x66688, .f32⟩
  | .local _ .vmem, ⟨20, _⟩ => ⟨S4x66688, .f32⟩
  | .local _ .vmem, ⟨21, _⟩ => ⟨S4x66688, .f32⟩
  | .local _ .vmem, ⟨22, _⟩ => ⟨S4x66688, .f32⟩
  | .local _ .vmem, ⟨23, _⟩ => ⟨S4x66688, .f32⟩
  | .local _ .vmem, ⟨24, _⟩ => ⟨S4x66688, .f32⟩
  | .local _ .vmem, ⟨25, _⟩ => ⟨S4x66688, .f32⟩
  | .local _ .vmem, ⟨26, _⟩ => ⟨S1x66688, .f32⟩
  | .local _ .vmem, ⟨27, _⟩ => ⟨S1x66688, .f32⟩
  | .local _ .vmem, ⟨28, _⟩ => ⟨S4x1, .f32⟩
  | .local _ .vmem, ⟨29, _⟩ => ⟨S4x1, .f32⟩
  | .local _ .vmem, ⟨30, _⟩ => ⟨S4x1, .f32⟩
  | .local _ .vmem, ⟨31, _⟩ => ⟨S1x1, .f32⟩
  | .local _ .vmem, ⟨32, _⟩ => ⟨S1x66688, .f32⟩
  | .local _ .vmem, ⟨33, _⟩ => ⟨S1x66688, .f32⟩
  | .local _ .vmem, ⟨34, _⟩ => ⟨S1x66688, .f32⟩
  | .local _ .vmem, ⟨35, _⟩ => ⟨S1x66688, .f32⟩
  | .local _ .vmem, ⟨36, _⟩ => ⟨S4x66688, .f32⟩
  | .local _ .vmem, ⟨37, _⟩ => ⟨S4x66688, .f32⟩
  | .local _ .vmem, ⟨38, _⟩ => ⟨S1x66688, .f32⟩
  | .local _ .vmem, ⟨39, _⟩ => ⟨S1x66688, .f32⟩
  | .local _ .vmem, ⟨40, _⟩ => ⟨S1x66688, .f32⟩
  | .local _ .vmem, ⟨41, _⟩ => ⟨S1x66688, .f32⟩
  | .local _ .vmem, ⟨42, _⟩ => ⟨S4x66688, .f32⟩
  | .local _ .vmem, ⟨43, _⟩ => ⟨S4x66688, .f32⟩
  | .local _ .vmem, ⟨44, _⟩ => ⟨S4x66688, .f32⟩
  | .local _ .vmem, ⟨45, _⟩ => ⟨S4x66688, .f32⟩
  | .local _ .vmem, ⟨46, _⟩ => ⟨S4x66688, .f32⟩
  | .local _ .vmem, ⟨47, _⟩ => ⟨S4x66688, .f32⟩
  | .local _ .vmem, ⟨48, _⟩ => ⟨S1x66688, .f32⟩
  | .local _ .vmem, ⟨49, _⟩ => ⟨S1x66688, .f32⟩
  | .local _ .vmem, ⟨50, _⟩ => ⟨S4x1, .f32⟩
  | .local _ .vmem, ⟨51, _⟩ => ⟨S4x1, .f32⟩
  | .local _ .vmem, ⟨52, _⟩ => ⟨S4x1, .f32⟩
  | .local _ .vmem, ⟨53, _⟩ => ⟨S1x1, .f32⟩
  | .local _ .vmem, ⟨54, _⟩ => ⟨S1x66688, .f32⟩
  | .local _ .vmem, ⟨55, _⟩ => ⟨S1x66688, .f32⟩
  | .local _ .vmem, ⟨56, _⟩ => ⟨S1x66688, .f32⟩
  | .local _ .vmem, ⟨57, _⟩ => ⟨S1x66688, .f32⟩
  | .local _ .vmem, ⟨58, _⟩ => ⟨S4x66688, .f32⟩
  | .local _ .vmem, ⟨59, _⟩ => ⟨S4x66688, .f32⟩
  | .local _ .vmem, ⟨60, _⟩ => ⟨S1x66688, .f32⟩
  | .local _ .vmem, ⟨61, _⟩ => ⟨S1x66688, .f32⟩
  | .local _ .vmem, ⟨62, _⟩ => ⟨S1x66688, .f32⟩
  | .local _ .vmem, ⟨63, _⟩ => ⟨S1x66688, .f32⟩
  | .local _ .vmem, ⟨64, _⟩ => ⟨S4x66688, .f32⟩
  | .local _ .vmem, ⟨65, _⟩ => ⟨S4x66688, .f32⟩
  | _, _ => ⟨S200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst_3 : Ref sig .tc := ⟨.hbm, 28, rfl⟩
abbrev main_v6 : Ref sig .tc := ⟨.hbm, 29, rfl⟩
abbrev main_cst_4 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c_5 : Ref sig .tc := ⟨.hbm, 34, rfl⟩
abbrev main_call2_v0 : Ref sig .tc := ⟨.hbm, 35, rfl⟩
abbrev main_v10 : Ref sig .tc := ⟨.hbm, 36, rfl⟩
abbrev main_v11 : Ref sig .tc := ⟨.hbm, 37, rfl⟩
abbrev main_c_6 : Ref sig .tc := ⟨.hbm, 38, rfl⟩
abbrev main_call3_v0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_7 : Ref sig .tc := ⟨.hbm, 53, rfl⟩
abbrev main_call4_v0 : Ref sig .tc := ⟨.hbm, 54, rfl⟩
abbrev main_v25 : Ref sig .tc := ⟨.hbm, 55, rfl⟩
abbrev main_v26 : Ref sig .tc := ⟨.hbm, 56, rfl⟩
abbrev main_v27_0 : Ref sig .tc := ⟨.hbm, 57, rfl⟩
abbrev main_v27_1 : Ref sig .tc := ⟨.hbm, 58, rfl⟩
abbrev main_v28 : Ref sig .tc := ⟨.hbm, 59, rfl⟩
abbrev main_v29 : Ref sig .tc := ⟨.hbm, 60, rfl⟩
abbrev main_call6_c : Ref sig .tc := ⟨.hbm, 61, rfl⟩
abbrev main_call6_v0 : Ref sig .tc := ⟨.hbm, 62, rfl⟩
abbrev main_call6_v1 : Ref sig .tc := ⟨.hbm, 63, rfl⟩
abbrev main_call6_c_0 : Ref sig .tc := ⟨.hbm, 64, rfl⟩
abbrev main_call6_v2 : Ref sig .tc := ⟨.hbm, 65, rfl⟩
abbrev main_call6_v3 : Ref sig .tc := ⟨.hbm, 66, rfl⟩
abbrev main_call6_v4 : Ref sig .tc := ⟨.hbm, 67, rfl⟩
abbrev main_call6_v5 : Ref sig .tc := ⟨.hbm, 68, rfl⟩
abbrev main_call6_c_1 : Ref sig .tc := ⟨.hbm, 69, rfl⟩
abbrev main_call6_c_2 : Ref sig .tc := ⟨.hbm, 70, rfl⟩
abbrev main_call6_v6 : Ref sig .tc := ⟨.hbm, 71, rfl⟩
abbrev main_call6_v7 : Ref sig .tc := ⟨.hbm, 72, rfl⟩
abbrev main_call6_v8 : Ref sig .tc := ⟨.hbm, 73, rfl⟩
abbrev main_call6_v9 : Ref sig .tc := ⟨.hbm, 74, rfl⟩
abbrev main_call6_v10 : Ref sig .tc := ⟨.hbm, 75, rfl⟩
abbrev main_call6_v11 : Ref sig .tc := ⟨.hbm, 76, rfl⟩
abbrev main_call6_c_3 : Ref sig .tc := ⟨.hbm, 77, rfl⟩
abbrev main_call6_v12 : Ref sig .tc := ⟨.hbm, 78, rfl⟩
abbrev main_call6_v13 : Ref sig .tc := ⟨.hbm, 79, rfl⟩
abbrev main_call6_cst : Ref sig .tc := ⟨.hbm, 80, rfl⟩
abbrev main_call6_v14 : Ref sig .tc := ⟨.hbm, 81, rfl⟩
abbrev main_v30 : Ref sig .tc := ⟨.hbm, 82, rfl⟩
abbrev main_cst_8 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_c_9 : Ref sig .tc := ⟨.hbm, 87, rfl⟩
abbrev main_call7_v0 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_c_10 : Ref sig .tc := ⟨.hbm, 105, rfl⟩
abbrev main_call9_v0 : Ref sig .tc := ⟨.hbm, 106, rfl⟩
abbrev main_v50 : Ref sig .tc := ⟨.hbm, 107, rfl⟩
abbrev main_v51 : Ref sig .tc := ⟨.hbm, 108, rfl⟩
abbrev main_v52_0 : Ref sig .tc := ⟨.hbm, 109, rfl⟩
abbrev main_v52_1 : Ref sig .tc := ⟨.hbm, 110, rfl⟩
abbrev main_v53 : Ref sig .tc := ⟨.hbm, 111, rfl⟩
abbrev main_v54 : Ref sig .tc := ⟨.hbm, 112, rfl⟩
abbrev main_call11_c : Ref sig .tc := ⟨.hbm, 113, rfl⟩
abbrev main_call11_v0 : Ref sig .tc := ⟨.hbm, 114, rfl⟩
abbrev main_call11_v1 : Ref sig .tc := ⟨.hbm, 115, rfl⟩
abbrev main_call11_c_0 : Ref sig .tc := ⟨.hbm, 116, rfl⟩
abbrev main_call11_v2 : Ref sig .tc := ⟨.hbm, 117, rfl⟩
abbrev main_call11_v3 : Ref sig .tc := ⟨.hbm, 118, rfl⟩
abbrev main_call11_v4 : Ref sig .tc := ⟨.hbm, 119, rfl⟩
abbrev main_call11_v5 : Ref sig .tc := ⟨.hbm, 120, rfl⟩
abbrev main_call11_c_1 : Ref sig .tc := ⟨.hbm, 121, rfl⟩
abbrev main_call11_c_2 : Ref sig .tc := ⟨.hbm, 122, rfl⟩
abbrev main_call11_v6 : Ref sig .tc := ⟨.hbm, 123, rfl⟩
abbrev main_call11_v7 : Ref sig .tc := ⟨.hbm, 124, rfl⟩
abbrev main_call11_v8 : Ref sig .tc := ⟨.hbm, 125, rfl⟩
abbrev main_call11_v9 : Ref sig .tc := ⟨.hbm, 126, rfl⟩
abbrev main_call11_v10 : Ref sig .tc := ⟨.hbm, 127, rfl⟩
abbrev main_call11_v11 : Ref sig .tc := ⟨.hbm, 128, rfl⟩
abbrev main_call11_c_3 : Ref sig .tc := ⟨.hbm, 129, rfl⟩
abbrev main_call11_v12 : Ref sig .tc := ⟨.hbm, 130, rfl⟩
abbrev main_call11_v13 : Ref sig .tc := ⟨.hbm, 131, rfl⟩
abbrev main_call11_cst : Ref sig .tc := ⟨.hbm, 132, rfl⟩
abbrev main_call11_v14 : Ref sig .tc := ⟨.hbm, 133, rfl⟩
abbrev main_v55 : Ref sig .tc := ⟨.hbm, 134, rfl⟩
abbrev main_cst_11 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_c_12 : Ref sig .tc := ⟨.hbm, 139, rfl⟩
abbrev main_call12_v0 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_c_13 : Ref sig .tc := ⟨.hbm, 157, rfl⟩
abbrev main_call14_v0 : Ref sig .tc := ⟨.hbm, 158, rfl⟩
abbrev main_v75 : Ref sig .tc := ⟨.hbm, 159, rfl⟩
abbrev main_v76 : Ref sig .tc := ⟨.hbm, 160, rfl⟩
abbrev main_v77_0 : Ref sig .tc := ⟨.hbm, 161, rfl⟩
abbrev main_v77_1 : Ref sig .tc := ⟨.hbm, 162, rfl⟩
abbrev main_v78 : Ref sig .tc := ⟨.hbm, 163, rfl⟩
abbrev main_v79 : Ref sig .tc := ⟨.hbm, 164, rfl⟩
abbrev main_call16_c : Ref sig .tc := ⟨.hbm, 165, rfl⟩
abbrev main_call16_v0 : Ref sig .tc := ⟨.hbm, 166, rfl⟩
abbrev main_call16_v1 : Ref sig .tc := ⟨.hbm, 167, rfl⟩
abbrev main_call16_c_0 : Ref sig .tc := ⟨.hbm, 168, rfl⟩
abbrev main_call16_v2 : Ref sig .tc := ⟨.hbm, 169, rfl⟩
abbrev main_call16_v3 : Ref sig .tc := ⟨.hbm, 170, rfl⟩
abbrev main_call16_v4 : Ref sig .tc := ⟨.hbm, 171, rfl⟩
abbrev main_call16_v5 : Ref sig .tc := ⟨.hbm, 172, rfl⟩
abbrev main_call16_c_1 : Ref sig .tc := ⟨.hbm, 173, rfl⟩
abbrev main_call16_c_2 : Ref sig .tc := ⟨.hbm, 174, rfl⟩
abbrev main_call16_v6 : Ref sig .tc := ⟨.hbm, 175, rfl⟩
abbrev main_call16_v7 : Ref sig .tc := ⟨.hbm, 176, rfl⟩
abbrev main_call16_v8 : Ref sig .tc := ⟨.hbm, 177, rfl⟩
abbrev main_call16_v9 : Ref sig .tc := ⟨.hbm, 178, rfl⟩
abbrev main_call16_v10 : Ref sig .tc := ⟨.hbm, 179, rfl⟩
abbrev main_call16_v11 : Ref sig .tc := ⟨.hbm, 180, rfl⟩
abbrev main_call16_c_3 : Ref sig .tc := ⟨.hbm, 181, rfl⟩
abbrev main_call16_v12 : Ref sig .tc := ⟨.hbm, 182, rfl⟩
abbrev main_call16_v13 : Ref sig .tc := ⟨.hbm, 183, rfl⟩
abbrev main_call16_cst : Ref sig .tc := ⟨.hbm, 184, rfl⟩
abbrev main_call16_v14 : Ref sig .tc := ⟨.hbm, 185, rfl⟩
abbrev main_v80 : Ref sig .tc := ⟨.hbm, 186, rfl⟩
abbrev main_cst_14 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_c_15 : Ref sig .tc := ⟨.hbm, 191, rfl⟩
abbrev main_call17_v0 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg7_1 : Ref sig .tc := ⟨.vmem, 55, rfl⟩
abbrev cc4_stg8_0 : Ref sig .tc := ⟨.vmem, 56, rfl⟩
abbrev cc4_stg8_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg3_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem7_1 : DmaSem sig := 55
abbrev cc4_sem8_0 : DmaSem sig := 56
abbrev cc4_sem8_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem2_1 : DmaSem sig := 63
abbrev cc5_sem3_0 : DmaSem sig := 64
abbrev cc5_sem3_1 : DmaSem sig := 65

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x66688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x66688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x66688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x66688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x66688 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x66688 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x66688 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x66688 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x66688 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![3], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4x66688 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x66688 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x66688 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x66688 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x66688 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![3], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S4x66688 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x66688 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x66688 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4x66688 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![3], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S4x66688 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4x66688 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x66688 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S4x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S4x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S4x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1x66688 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x66688 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![3], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S4x66688 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x66688 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x66688 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4x66688 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S6400000 : S_.BroadcastsInDim S6400000 (![] : Fin 0 → Fin S6400000.rank)
  concatenates_S6400000x1_S6400000x3_S6400000x4_d1 : Shape.Concatenates [S6400000x1, S6400000x3] S6400000x4 1
  bcast_S_S200000x4 : S_.BroadcastsInDim S200000x4 (![] : Fin 0 → Fin S200000x4.rank)
  bcast_S6400000_S6400000x1_0 : S6400000.BroadcastsInDim S6400000x1 (![0] : Fin 1 → Fin S6400000x1.rank)
  bcast_S_S200000 : S_.BroadcastsInDim S200000 (![] : Fin 0 → Fin S200000.rank)
  pads_S200000x4_S200064x4_0640_000 : S200000x4.Pads (![0, 0] : Fin 2 → Nat) ![64, 0] ![0, 0] S200064x4
  h_S_ : 0 < S_.numel
  transposes_S200064x4_S4x200064_1_0 : S200064x4.Transposes [1, 0] S4x200064
  pads_S200000_S200064_0640 : S200000.Pads (![0] : Fin 1 → Nat) ![64] ![0] S200064
  shapeCasts_S200064_S1x200064 : S200064.ShapeCasts S1x200064
  slices_S3x1x12_S1x1x12_0_0_0 : S3x1x12.Slices ![0, 0, 0] S1x1x12
  shapeCasts_S1x1x12_S12 : S1x1x12.ShapeCasts S12
  slices_S12_S4_0 : S12.Slices ![0] S4
  shapeCasts_S4_S4x1 : S4.ShapeCasts S4x1
  slices_S12_S4_4 : S12.Slices ![4] S4
  slices_S12_S4_8 : S12.Slices ![8] S4
  slices_S3x1_S1x1_0_0 : S3x1.Slices ![0, 0] S1x1
  shapeCasts_S1x1_S1 : S1x1.ShapeCasts S1
  shapeCasts_S1_S1x1 : S1.ShapeCasts S1x1
  inb_S4x66688_S4x66688_0_0 : ∀ a, (![0, 0] : Fin 2 → Nat) a + S4x66688.size a ≤ S4x66688.size a
  h_S4x66688 : 0 < S4x66688.numel
  shapeCasts_S4x66688_S4x66688 : S4x66688.ShapeCasts S4x66688
  inb_S1x66688_S1x66688_0_0 : ∀ a, (![0, 0] : Fin 2 → Nat) a + S1x66688.size a ≤ S1x66688.size a
  h_S1x66688 : 0 < S1x66688.numel
  shapeCasts_S1x66688_S1x66688 : S1x66688.ShapeCasts S1x66688
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S4x1_S4x66688 : S4x1.Broadcasts S4x66688
  reduces_S4x66688_S66688 : S4x66688.Reduces [0] S66688
  shapeCasts_S66688_S1x66688 : S66688.ShapeCasts S1x66688
  broadcasts_S1x1_S1x66688 : S1x1.Broadcasts S1x66688
  shapeCasts_S1x200064_S200064 : S1x200064.ShapeCasts S200064
  slices_S200064_S200000_0 : S200064.Slices ![0] S200000
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  broadcasts_S1x66688_S4x66688 : S1x66688.Broadcasts S4x66688
  transposes_S4x200064_S200064x4_1_0 : S4x200064.Transposes [1, 0] S200064x4
  slices_S200064x4_S200000x4_0_0 : S200064x4.Slices ![0, 0] S200000x4
  slices_S3x1x12_S1x1x12_1_0_0 : S3x1x12.Slices ![1, 0, 0] S1x1x12
  slices_S3x1_S1x1_1_0 : S3x1.Slices ![1, 0] S1x1
  slices_S3x1x12_S1x1x12_2_0_0 : S3x1x12.Slices ![2, 0, 0] S1x1x12
  slices_S3x1_S1x1_2_0 : S3x1.Slices ![2, 0] S1x1
  scatter_S200000x4_S6400000x1_S6400000x4_1_0_0_1_wf : ScatterDims.WF S200000x4 S6400000x1 S6400000x4 [1] [0] [0] 1
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x66688.size a ≤ S4x200064.size a
  hwx0_0 : ∀ i : grid0.Coords, EltTy.bits .f32 = 32 ∨ (Rect.block (s := S4x200064) S4x66688.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x66688.size a ≤ S4x200064.size a
  hwx0_1 : ∀ i : grid0.Coords, EltTy.bits .f32 = 32 ∨ (Rect.block (s := S4x200064) S4x66688.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x66688.size a ≤ S1x200064.size a
  hwx0_2 : ∀ i : grid0.Coords, EltTy.bits .f32 = 32 ∨ (Rect.block (s := S1x200064) S1x66688.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1.size a ≤ S4x1.size a
  hwx0_3 : ∀ i : grid0.Coords, EltTy.bits .f32 = 32 ∨ (Rect.block (s := S4x1) S4x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1.size a ≤ S4x1.size a
  hwx0_4 : ∀ i : grid0.Coords, EltTy.bits .f32 = 32 ∨ (Rect.block (s := S4x1) S4x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1.size a ≤ S4x1.size a
  hwx0_5 : ∀ i : grid0.Coords, EltTy.bits .f32 = 32 ∨ (Rect.block (s := S4x1) S4x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x66688.size a ≤ S1x200064.size a
  hwx0_7 : ∀ i : grid0.Coords, EltTy.bits .f32 = 32 ∨ (Rect.block (s := S1x200064) S1x66688.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x66688.size a ≤ S1x200064.size a
  hwx0_8 : ∀ i : grid0.Coords, EltTy.bits .f32 = 32 ∨ (Rect.block (s := S1x200064) S1x66688.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x66688.size a ≤ S4x200064.size a
  hwx1_0 : ∀ i : grid1.Coords, EltTy.bits .f32 = 32 ∨ (Rect.block (s := S4x200064) S4x66688.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x66688.size a ≤ S1x200064.size a
  hwx1_1 : ∀ i : grid1.Coords, EltTy.bits .f32 = 32 ∨ (Rect.block (s := S1x200064) S1x66688.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x66688.size a ≤ S1x200064.size a
  hwx1_2 : ∀ i : grid1.Coords, EltTy.bits .f32 = 32 ∨ (Rect.block (s := S1x200064) S1x66688.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x66688.size a ≤ S4x200064.size a
  hwx1_3 : ∀ i : grid1.Coords, EltTy.bits .f32 = 32 ∨ (Rect.block (s := S4x200064) S4x66688.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x66688.size a ≤ S4x200064.size a
  hwx2_0 : ∀ i : grid2.Coords, EltTy.bits .f32 = 32 ∨ (Rect.block (s := S4x200064) S4x66688.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x66688.size a ≤ S4x200064.size a
  hwx2_1 : ∀ i : grid2.Coords, EltTy.bits .f32 = 32 ∨ (Rect.block (s := S4x200064) S4x66688.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x66688.size a ≤ S1x200064.size a
  hwx2_2 : ∀ i : grid2.Coords, EltTy.bits .f32 = 32 ∨ (Rect.block (s := S1x200064) S1x66688.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x1.size a ≤ S4x1.size a
  hwx2_3 : ∀ i : grid2.Coords, EltTy.bits .f32 = 32 ∨ (Rect.block (s := S4x1) S4x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x1.size a ≤ S4x1.size a
  hwx2_4 : ∀ i : grid2.Coords, EltTy.bits .f32 = 32 ∨ (Rect.block (s := S4x1) S4x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4x1.size a ≤ S4x1.size a
  hwx2_5 : ∀ i : grid2.Coords, EltTy.bits .f32 = 32 ∨ (Rect.block (s := S4x1) S4x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x66688.size a ≤ S1x200064.size a
  hwx2_7 : ∀ i : grid2.Coords, EltTy.bits .f32 = 32 ∨ (Rect.block (s := S1x200064) S1x66688.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x66688.size a ≤ S1x200064.size a
  hwx2_8 : ∀ i : grid2.Coords, EltTy.bits .f32 = 32 ∨ (Rect.block (s := S1x200064) S1x66688.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x66688.size a ≤ S4x200064.size a
  hwx3_0 : ∀ i : grid3.Coords, EltTy.bits .f32 = 32 ∨ (Rect.block (s := S4x200064) S4x66688.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x66688.size a ≤ S1x200064.size a
  hwx3_1 : ∀ i : grid3.Coords, EltTy.bits .f32 = 32 ∨ (Rect.block (s := S1x200064) S1x66688.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x66688.size a ≤ S1x200064.size a
  hwx3_2 : ∀ i : grid3.Coords, EltTy.bits .f32 = 32 ∨ (Rect.block (s := S1x200064) S1x66688.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4x66688.size a ≤ S4x200064.size a
  hwx3_3 : ∀ i : grid3.Coords, EltTy.bits .f32 = 32 ∨ (Rect.block (s := S4x200064) S4x66688.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4x66688.size a ≤ S4x200064.size a
  hwx4_0 : ∀ i : grid4.Coords, EltTy.bits .f32 = 32 ∨ (Rect.block (s := S4x200064) S4x66688.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4x66688.size a ≤ S4x200064.size a
  hwx4_1 : ∀ i : grid4.Coords, EltTy.bits .f32 = 32 ∨ (Rect.block (s := S4x200064) S4x66688.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x66688.size a ≤ S1x200064.size a
  hwx4_2 : ∀ i : grid4.Coords, EltTy.bits .f32 = 32 ∨ (Rect.block (s := S1x200064) S1x66688.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4x1.size a ≤ S4x1.size a
  hwx4_3 : ∀ i : grid4.Coords, EltTy.bits .f32 = 32 ∨ (Rect.block (s := S4x1) S4x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S4x1.size a ≤ S4x1.size a
  hwx4_4 : ∀ i : grid4.Coords, EltTy.bits .f32 = 32 ∨ (Rect.block (s := S4x1) S4x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S4x1.size a ≤ S4x1.size a
  hwx4_5 : ∀ i : grid4.Coords, EltTy.bits .f32 = 32 ∨ (Rect.block (s := S4x1) S4x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x66688.size a ≤ S1x200064.size a
  hwx4_7 : ∀ i : grid4.Coords, EltTy.bits .f32 = 32 ∨ (Rect.block (s := S1x200064) S1x66688.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x66688.size a ≤ S1x200064.size a
  hwx4_8 : ∀ i : grid4.Coords, EltTy.bits .f32 = 32 ∨ (Rect.block (s := S1x200064) S1x66688.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4x66688.size a ≤ S4x200064.size a
  hwx5_0 : ∀ i : grid5.Coords, EltTy.bits .f32 = 32 ∨ (Rect.block (s := S4x200064) S4x66688.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x66688.size a ≤ S1x200064.size a
  hwx5_1 : ∀ i : grid5.Coords, EltTy.bits .f32 = 32 ∨ (Rect.block (s := S1x200064) S1x66688.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x66688.size a ≤ S1x200064.size a
  hwx5_2 : ∀ i : grid5.Coords, EltTy.bits .f32 = 32 ∨ (Rect.block (s := S1x200064) S1x66688.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4x66688.size a ≤ S4x200064.size a
  hwx5_3 : ∀ i : grid5.Coords, EltTy.bits .f32 = 32 ∨ (Rect.block (s := S4x200064) S4x66688.size (cc5_transform_3 i) (hinb5_3 i)).WholeWords (EltTy.packing .f32)

variable [Facts₀]

def scatter_S200000x4_S6400000x1_S6400000x4_1_0_0_1 : ScatterDims S200000x4 S6400000x1 S6400000x4 where
  updateWindowDims := [1]
  insertedWindowDims := [0]
  scatterDimsToOperandDims := [0]
  indexVectorDim := 1
  wf := scatter_S200000x4_S6400000x1_S6400000x4_1_0_0_1_wf
def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf

abbrev win0_0 : Pipeline.Window sig grid0 :=
  Pipeline.Window.ofSpec (Memref.whole main_v26) S4x66688.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4x66688.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x66688.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S4x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S4x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27_0) S1x66688.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v27_1) S1x66688.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v26) S4x66688.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x66688.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27_1) S1x66688.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S4x66688.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S4x66688.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S4x66688.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x66688.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S4x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S4x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S4x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52_0) S1x66688.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v52_1) S1x66688.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v51) S4x66688.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x66688.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52_1) S1x66688.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S4x66688.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v76) S4x66688.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S4x66688.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S1x66688.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v67) S4x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S4x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S4x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v74) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v77_0) S1x66688.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v77_1) S1x66688.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v76) S4x66688.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x66688.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v77_1) S1x66688.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v86) S4x66688.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S200000x4 : Shape := ⟨2, ![200000, 4]⟩
abbrev S6400000x1 : Shape := ⟨2, ![6400000, 1]⟩
abbrev S6400000x3 : Shape := ⟨2, ![6400000, 3]⟩
abbrev S3x1x12 : Shape := ⟨3, ![3, 1, 12]⟩
abbrev S3x1 : Shape := ⟨2, ![3, 1]⟩
abbrev S6400000 : Shape := ⟨1, ![6400000]⟩
abbrev S_ : Shape := ⟨0, ![]⟩
abbrev S6400000x4 : Shape := ⟨2, ![6400000, 4]⟩
abbrev S6400000x12 : Shape := ⟨2, ![6400000, 12]⟩
abbrev S1x1x12 : Shape := ⟨3, ![1, 1, 12]⟩
abbrev S1x12 : Shape := ⟨2, ![1, 12]⟩
abbrev S12x1 : Shape := ⟨2, ![12, 1]⟩
abbrev S1x1 : Shape := ⟨2, ![1, 1]⟩
abbrev S1 : Shape := ⟨1, ![1]⟩
abbrev S200000x1 : Shape := ⟨2, ![200000, 1]⟩

abbrev nBuf : Space → Nat
  | .hbm => 109
  | .vmem => 0
  | .smem => 0
  | _ => 0

abbrev bufTy : (tb : Table) → Fin (tcTables nBuf tb) → BufTy
  | .hbm, ⟨0, _⟩ => ⟨S200000x4, .f32⟩
  | .hbm, ⟨1, _⟩ => ⟨S6400000x1, .f32⟩
  | .hbm, ⟨2, _⟩ => ⟨S6400000x3, .f32⟩
  | .hbm, ⟨3, _⟩ => ⟨S3x1x12, .f32⟩
  | .hbm, ⟨4, _⟩ => ⟨S3x1, .f32⟩
  | .hbm, ⟨5, _⟩ => ⟨S6400000, .i32⟩
  | .hbm, ⟨6, _⟩ => ⟨S6400000, .i32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S6400000x4, .f32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000x4, .f32⟩
  | .hbm, ⟨25, _⟩ => ⟨S6400000x12, .f32⟩
  | .hbm, ⟨26, _⟩ => ⟨S1x1x12, .f32⟩
  | .hbm, ⟨27, _⟩ => ⟨S1x12, .f32⟩
  | .hbm, ⟨28, _⟩ => ⟨S12x1, .f32⟩
  | .hbm, ⟨29, _⟩ => ⟨S6400000x1, .f32⟩
  | .hbm, ⟨30, _⟩ => ⟨S1x1, .f32⟩
  | .hbm, ⟨31, _⟩ => ⟨S1, .f32⟩
  | .hbm, ⟨32, _⟩ => ⟨S1x1, .f32⟩
  | .hbm, ⟨33, _⟩ => ⟨S6400000x1, .f32⟩
  | .hbm, ⟨34, _⟩ => ⟨S6400000x1, .f32⟩
  | .hbm, ⟨35, _⟩ => ⟨S_, .f32⟩
  | .hbm, ⟨36, _⟩ => ⟨S200000x1, .f32⟩
  | .hbm, ⟨37, _⟩ => ⟨S6400000x1, .i32⟩
  | .hbm, ⟨38, _⟩ => ⟨S200000x1, .f32⟩
  | .hbm, ⟨39, _⟩ => ⟨S200000x4, .f32⟩
  | .hbm, ⟨40, _⟩ => ⟨S200000x4, .f32⟩
  | .hbm, ⟨41, _⟩ => ⟨S_, .i32⟩
  | .hbm, ⟨42, _⟩ => ⟨S6400000, .i32⟩
  | .hbm, ⟨43, _⟩ => ⟨S6400000, .i1⟩
  | .hbm, ⟨44, _⟩ => ⟨S_, .i32⟩
  | .hbm, ⟨45, _⟩ => ⟨S6400000, .i32⟩
  | .hbm, ⟨46, _⟩ => ⟨S6400000, .i32⟩
  | .hbm, ⟨47, _⟩ => ⟨S6400000, .i32⟩
  | .hbm, ⟨48, _⟩ => ⟨S6400000x1, .i32⟩
  | .hbm, ⟨49, _⟩ => ⟨S6400000x4, .f32⟩
  | .hbm, ⟨50, _⟩ => ⟨S_, .i32⟩
  | .hbm, ⟨51, _⟩ => ⟨S6400000, .i32⟩
  | .hbm, ⟨52, _⟩ => ⟨S6400000, .i1⟩
  | .hbm, ⟨53, _⟩ => ⟨S_, .i32⟩
  | .hbm, ⟨54, _⟩ => ⟨S6400000, .i32⟩
  | .hbm, ⟨55, _⟩ => ⟨S6400000, .i32⟩
  | .hbm, ⟨56, _⟩ => ⟨S6400000, .i32⟩
  | .hbm, ⟨57, _⟩ => ⟨S6400000x1, .i32⟩
  | .hbm, ⟨58, _⟩ => ⟨S6400000x4, .f32⟩
  | .hbm, ⟨59, _⟩ => ⟨S6400000x12, .f32⟩
  | .hbm, ⟨60, _⟩ => ⟨S1x1x12, .f32⟩
  | .hbm, ⟨61, _⟩ => ⟨S1x12, .f32⟩
  | .hbm, ⟨62, _⟩ => ⟨S12x1, .f32⟩
  | .hbm, ⟨63, _⟩ => ⟨S6400000x1, .f32⟩
  | .hbm, ⟨64, _⟩ => ⟨S1x1, .f32⟩
  | .hbm, ⟨65, _⟩ => ⟨S1, .f32⟩
  | .hbm, ⟨66, _⟩ => ⟨S1x1, .f32⟩
  | .hbm, ⟨67, _⟩ => ⟨S6400000x1, .f32⟩
  | .hbm, ⟨68, _⟩ => ⟨S6400000x1, .f32⟩
  | .hbm, ⟨69, _⟩ => ⟨S_, .f32⟩
  | .hbm, ⟨70, _⟩ => ⟨S200000x1, .f32⟩
  | .hbm, ⟨71, _⟩ => ⟨S6400000x1, .i32⟩
  | .hbm, ⟨72, _⟩ => ⟨S200000x1, .f32⟩
  | .hbm, ⟨73, _⟩ => ⟨S200000x4, .f32⟩
  | .hbm, ⟨74, _⟩ => ⟨S200000x4, .f32⟩
  | .hbm, ⟨75, _⟩ => ⟨S_, .i32⟩
  | .hbm, ⟨76, _⟩ => ⟨S6400000, .i32⟩
  | .hbm, ⟨77, _⟩ => ⟨S6400000, .i1⟩
  | .hbm, ⟨78, _⟩ => ⟨S_, .i32⟩
  | .hbm, ⟨79, _⟩ => ⟨S6400000, .i32⟩
  | .hbm, ⟨80, _⟩ => ⟨S6400000, .i32⟩
  | .hbm, ⟨81, _⟩ => ⟨S6400000, .i32⟩
  | .hbm, ⟨82, _⟩ => ⟨S6400000x1, .i32⟩
  | .hbm, ⟨83, _⟩ => ⟨S6400000x4, .f32⟩
  | .hbm, ⟨84, _⟩ => ⟨S_, .i32⟩
  | .hbm, ⟨85, _⟩ => ⟨S6400000, .i32⟩
  | .hbm, ⟨86, _⟩ => ⟨S6400000, .i1⟩
  | .hbm, ⟨87, _⟩ => ⟨S_, .i32⟩
  | .hbm, ⟨88, _⟩ => ⟨S6400000, .i32⟩
  | .hbm, ⟨89, _⟩ => ⟨S6400000, .i32⟩
  | .hbm, ⟨90, _⟩ => ⟨S6400000, .i32⟩
  | .hbm, ⟨91, _⟩ => ⟨S6400000x1, .i32⟩
  | .hbm, ⟨92, _⟩ => ⟨S6400000x4, .f32⟩
  | .hbm, ⟨93, _⟩ => ⟨S6400000x12, .f32⟩
  | .hbm, ⟨94, _⟩ => ⟨S1x1x12, .f32⟩
  | .hbm, ⟨95, _⟩ => ⟨S1x12, .f32⟩
  | .hbm, ⟨96, _⟩ => ⟨S12x1, .f32⟩
  | .hbm, ⟨97, _⟩ => ⟨S6400000x1, .f32⟩
  | .hbm, ⟨98, _⟩ => ⟨S1x1, .f32⟩
  | .hbm, ⟨99, _⟩ => ⟨S1, .f32⟩
  | .hbm, ⟨100, _⟩ => ⟨S1x1, .f32⟩
  | .hbm, ⟨101, _⟩ => ⟨S6400000x1, .f32⟩
  | .hbm, ⟨102, _⟩ => ⟨S6400000x1, .f32⟩
  | .hbm, ⟨103, _⟩ => ⟨S_, .f32⟩
  | .hbm, ⟨104, _⟩ => ⟨S200000x1, .f32⟩
  | .hbm, ⟨105, _⟩ => ⟨S6400000x1, .i32⟩
  | .hbm, ⟨106, _⟩ => ⟨S200000x1, .f32⟩
  | .hbm, ⟨107, _⟩ => ⟨S200000x4, .f32⟩
  | .hbm, ⟨108, _⟩ => ⟨S200000x4, .f32⟩
  | _, _ => ⟨S200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_8 : Ref sig .tc := ⟨.hbm, 75, rfl⟩
abbrev main_v58 : Ref sig .tc := ⟨.hbm, 76, rfl⟩
abbrev main_v59 : Ref sig .tc := ⟨.hbm, 77, rfl⟩
abbrev main_c_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_10 : Ref sig .tc := ⟨.hbm, 84, rfl⟩
abbrev main_v65 : Ref sig .tc := ⟨.hbm, 85, rfl⟩
abbrev main_v66 : Ref sig .tc := ⟨.hbm, 86, rfl⟩
abbrev main_c_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x4_S6400000x4_S6400000x1_S6400000x3_S6400000x12_d1 : Shape.Concatenates [S6400000x4, S6400000x4, S6400000x1, S6400000x3] S6400000x12 1
  slices_S3x1x12_S1x1x12_0_0_0 : S3x1x12.Slices ![0, 0, 0] S1x1x12
  shapeCasts_S1x1x12_S1x12 : S1x1x12.ShapeCasts S1x12
  transposes_S1x12_S12x1_1_0 : S1x12.Transposes [1, 0] S12x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  bcast_S_S200000x1 : S_.BroadcastsInDim S200000x1 (![] : Fin 0 → Fin S200000x1.rank)
  bcast_S200000x1_S200000x4_0_1 : S200000x1.BroadcastsInDim S200000x4 (![0, 1] : Fin 2 → Fin S200000x4.rank)
  slices_S3x1x12_S1x1x12_1_0_0 : S3x1x12.Slices ![1, 0, 0] S1x1x12
  slices_S3x1_S1x1_1_0 : S3x1.Slices ![1, 0] S1x1
  slices_S3x1x12_S1x1x12_2_0_0 : S3x1x12.Slices ![2, 0, 0] S1x1x12
  slices_S3x1_S1x1_2_0 : S3x1.Slices ![2, 0] S1x1
  gather_S200000x4_S6400000x1_S6400000x4_1_0_n_n_0_1_14_wf : GatherDims.WF S200000x4 S6400000x1 S6400000x4 [1] [0] [] [0] [] 1 ![1, 4]
  dot_S6400000x12_S12x1_S6400000x1_1_0_0_1_n_n_wf : DotDims.WF S6400000x12 S12x1 S6400000x1 [1] [0] [0] [1] [] []
  scatter_S200000x1_S6400000x1_S6400000x1_1_0_0_1_wf : ScatterDims.WF S200000x1 S6400000x1 S6400000x1 [1] [0] [0] 1

variable [Facts₀]

def gather_S200000x4_S6400000x1_S6400000x4_1_0_n_n_0_1_14 : GatherDims S200000x4 S6400000x1 S6400000x4 where
  offsetDims := [1]
  collapsedSliceDims := [0]
  operandBatchingDims := []
  startIndicesBatchingDims := []
  startIndexMap := [0]
  indexVectorDim := 1
  sliceSizes := ![1, 4]
  wf := gather_S200000x4_S6400000x1_S6400000x4_1_0_n_n_0_1_14_wf
def dot_S6400000x12_S12x1_S6400000x1_1_0_0_1_n_n : DotDims S6400000x12 S12x1 S6400000x1 where
  lhsContracting := [1]
  rhsContracting := [0]
  lhsNonContracting := [0]
  rhsNonContracting := [1]
  lhsBatch := []
  rhsBatch := []
  wf := dot_S6400000x12_S12x1_S6400000x1_1_0_0_1_n_n_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf

class Facts : Prop extends Facts₀ where

variable [Facts]
-- ==== Proof.NodeLayer.lean ====
/-
  One message-passing layer of the kernel's program as pure functions of arrays, at the ideal instance.

  A layer takes the node features z : [N, 4] (N = 200000) and, with the per-edge indices clamped into
  [0, N - 1], the layer-invariant per-node aggregates
      sauxT[f, n]  = sum over edges e with dst e = n of [r, r_hat] e f     (laid out [4, N + 64], zero padded)
      indegT[0, n] = number of edges e with dst e = n                       (laid out [1, N + 64], zero padded)
  and the layer's twelve weights w and bias b. The first kernel computes per node
      ysrc n  = sum_f z n f * w f
      other n = (sum_f z n f * w (4 + f)) * indeg n + sum_f saux n f * w (8 + f) + b * indeg n,
  the host gathers ysrc at the source of every edge and sums the gathered values by destination, and the
  second kernel adds scatter n + other n to each of the four features of node n.

  The definitions below are the printed host operations composed in the printed order, so that the contents
  of each buffer of the run is one of them applied to the contents of earlier buffers by unfolding alone.
-/
import proofs.«426513_j76897094467615_2_alg».proof.Proof.Gen.KernelIdeal
import Idealize.ShloMosaic.PureOps.Ideal
import Idealize.ShloMosaic.Lib.ValueIdx

noncomputable section

namespace Cert.KernelIdeal.NodeLayer

open Idealize.ShloMosaic Idealize.ShloMosaic.ValueIdx Cert.KernelIdeal Cert.KernelIdeal.Facts₀ Cert.KernelIdeal.Facts

/-- The index vector clamped into [0, 199999]: max with 0, then min with 199999. -/
def clipIdx (a : IVec S6400000 32) : IVec S6400000 32 :=
  minsi (broadcastInDim S6400000 ![] bcast_S_S6400000 (id (constantI S_ 32 199999#32)))
    (maxsi (broadcastInDim S6400000 ![] bcast_S_S6400000 (id (constantI S_ 32 0#32))) a)

/-- Node-major [N, 4] features zero padded to N + 64 rows and transposed to feature-major [4, N + 64]. -/
def padT (x : FVec Ideal S200000x4 .f32) : FVec Ideal S4x200064 .f32 :=
  transpose S4x200064 [1, 0]
    (pad S200064x4 ![0, 0] ![64, 0] ![0, 0] x (sitofp (F := Ideal) .f32 (constantI S_ 32 0#32)) pads_S200000x4_S200064x4_0640_000 h_S_)
    transposes_S200064x4_S4x200064_1_0

/-- A per-node vector [N] zero padded to N + 64 and laid out as one row [1, N + 64]. -/
def padRow (x : FVec Ideal S200000 .f32) : FVec Ideal S1x200064 .f32 :=
  fun i => shapeCast S1x200064
    (pad S200064 ![0] ![64] ![0] x (sitofp (F := Ideal) .f32 (constantI S_ 32 0#32)) pads_S200000_S200064_0640 h_S_)
    shapeCasts_S200064_S1x200064 i

/-- The edge attributes [r, r_hat] : [E, 4] summed by destination node, padded and transposed. -/
def sauxT (r : FVec Ideal S6400000x1 .f32) (rhat : FVec Ideal S6400000x3 .f32) (dstC : IVec S6400000 32) : FVec Ideal S4x200064 .f32 :=
  padT (Host.scatterAdd scatter_S200000x4_S6400000x1_S6400000x4_1_0_0_1
    (broadcastInDim S200000x4 ![] bcast_S_S200000x4 (constant (F := Ideal) S_ .f32 0x00000000#32))
    (broadcastInDim S6400000x1 ![0] bcast_S6400000_S6400000x1_0 dstC)
    (concatenate S6400000x4 1 [⟨S6400000x1, r⟩, ⟨S6400000x3, rhat⟩] concatenates_S6400000x1_S6400000x3_S6400000x4_d1))

/-- A per-edge vector summed by destination node. -/
def segSum (dstC : IVec S6400000 32) (g : FVec Ideal S6400000 .f32) : FVec Ideal S200000 .f32 :=
  Host.scatterAdd scatter_S200000_S6400000x1_S6400000_n_0_0_1
    (broadcastInDim S200000 ![] bcast_S_S200000 (constant (F := Ideal) S_ .f32 0x00000000#32))
    (broadcastInDim S6400000x1 ![0] bcast_S6400000_S6400000x1_0 dstC) g

/-- The in-degree of every node, as a padded row. -/
def indegT (dstC : IVec S6400000 32) : FVec Ideal S1x200064 .f32 :=
  padRow (segSum dstC (broadcastInDim S6400000 ![] bcast_S_S6400000 (constant (F := Ideal) S_ .f32 0x3F800000#32)))

/-- Four consecutive weights of the layer's twelve, from offset `o`, as a column [4, 1]. -/
def wcol (o : Fin 1 → Nat) (h : S12.Slices o S4) (w12 : FVec Ideal S12 .f32) : FVec Ideal S4x1 .f32 :=
  fun i => shapeCast S4x1 (extractStridedSlice S4 o w12 h) shapeCasts_S4_S4x1 i

/-- The twelve weights of a layer, sliced out of W : [3, 1, 12]. -/
def w12Of (o : Fin 3 → Nat) (h : S3x1x12.Slices o S1x1x12) (W : FVec Ideal S3x1x12 .f32) : FVec Ideal S12 .f32 :=
  fun i => shapeCast S12 (extractStridedSlice S1x1x12 o W h) shapeCasts_S1x1x12_S12 i

/-- The bias of a layer as a [1, 1] array, sliced out of b : [3, 1]. -/
def biasOf (o : Fin 2 → Nat) (h : S3x1.Slices o S1x1) (b : FVec Ideal S3x1 .f32) : FVec Ideal S1x1 .f32 :=
  fun i => shapeCast S1x1 (fun j => shapeCast S1 (extractStridedSlice S1x1 o b h) shapeCasts_S1x1_S1 j) shapeCasts_S1_S1x1 i

/-- The first N entries of a padded row, as a vector. -/
def unpadRow (y : FVec Ideal S1x200064 .f32) : FVec Ideal S200000 .f32 :=
  extractStridedSlice S200000 ![0] (fun i => shapeCast S200064 y shapeCasts_S1x200064_S200064 i) slices_S200064_S200000_0

/-- The node vector read at the (already clamped) source of every edge: jnp.take in its default mode, which
    wraps a negative index, reads with a clamp and fills a position whose index was out of range. -/
def takeSrc (y : FVec Ideal S200000 .f32) (srcC : IVec S6400000 32) : FVec Ideal S6400000 .f32 :=
  let wrapped : IVec S6400000 32 :=
    select (cmpi .slt srcC (broadcastInDim S6400000 ![] bcast_S_S6400000 (constantI S_ 32 0#32)))
      (addi srcC (broadcastInDim S6400000 ![] bcast_S_S6400000 (constantI S_ 32 200000#32))) srcC
  let col : IVec S6400000x1 32 := broadcastInDim S6400000x1 ![0] bcast_S6400000_S6400000x1_0 wrapped
  let inRange : IVec S6400000 1 :=
    Host.reduce IntOp.andi
      (andi (cmpi .sge col (broadcastInDim S6400000x1 ![] bcast_S_S6400000x1 (constantI S_ 32 0#32)))
        (cmpi .sle col (broadcastInDim S6400000x1 ![0, 1] bcast_S1x1_S6400000x1_0_1
          (broadcastInDim S1x1 ![1] bcast_S1_S1x1_1 (constantI S1 32 199999#32)))))
      (constantI S_ 1 1#1) reducesTo_S6400000x1_S6400000_d1 h_S_
  select inRange (Host.gather gather_S200000_S6400000x1_S6400000_n_0_n_n_0_1_1 y col)
    (broadcastInDim S6400000 ![] bcast_S_S6400000 (constant (F := Ideal) S_ .f32 0x7FC00000#32))

/-- Feature-major [4, N + 64] back to node-major [N, 4]. -/
def unpadT (x : FVec Ideal S4x200064 .f32) : FVec Ideal S200000x4 .f32 :=
  extractStridedSlice S200000x4 ![0, 0] (transpose S200064x4 [1, 0] x transposes_S4x200064_S200064x4_1_0) slices_S200064x4_S200000x4_0_0

/-- What the first kernel leaves in its first output array: per column n, sum_f zt[f, n] * wsrc[f, 0]. -/
def ysrcRow (zt : FVec Ideal S4x200064 .f32) (wsrc : FVec Ideal S4x1 .f32) : FVec Ideal S1x200064 .f32 :=
  fun i => ∑ f : Fin 4, zt (ix2 f (i 1)) * wsrc (ix2 f 0)

/-- What the first kernel leaves in its second output array: per column n,
    (sum_f zt[f, n] * wdst[f, 0]) * indeg[0, n] + sum_f saux[f, n] * waux[f, 0] + bias[0, 0] * indeg[0, n]. -/
def otherRow (zt saux : FVec Ideal S4x200064 .f32) (indeg : FVec Ideal S1x200064 .f32)
    (wdst waux : FVec Ideal S4x1 .f32) (bias : FVec Ideal S1x1 .f32) : FVec Ideal S1x200064 .f32 :=
  fun i => ((∑ f : Fin 4, zt (ix2 f (i 1)) * wdst (ix2 f 0)) * indeg (ix2 0 (i 1))
      + ∑ f : Fin 4, saux (ix2 f (i 1)) * waux (ix2 f 0))
    + bias (ix2 0 0) * indeg (ix2 0 (i 1))

/-- What the second kernel leaves in its output array: zt[f, n] + (scat[0, n] + other[0, n]). -/
def postArr (zt : FVec Ideal S4x200064 .f32) (scat other : FVec Ideal S1x200064 .f32) : FVec Ideal S4x200064 .f32 :=
  fun i => zt i + (scat (ix2 0 (i 1)) + other (ix2 0 (i 1)))

/-- One layer: the node features after it, from the node features before it. -/
def layer (saux : FVec Ideal S4x200064 .f32) (indeg : FVec Ideal S1x200064 .f32) (srcC dstC : IVec S6400000 32)
    (w12 : FVec Ideal S12 .f32) (bias : FVec Ideal S1x1 .f32) (z : FVec Ideal S200000x4 .f32) : FVec Ideal S200000x4 .f32 :=
  unpadT (postArr (padT z)
    (padRow (segSum dstC (takeSrc (unpadRow (ysrcRow (padT z) (wcol ![0] slices_S12_S4_0 w12))) srcC)))
    (otherRow (padT z) saux indeg (wcol ![4] slices_S12_S4_4 w12) (wcol ![8] slices_S12_S4_8 w12) bias))

/-- The whole program's first result: three layers from z, with the indices clamped and the aggregates of
    [r, r_hat] and of the in-degree computed once. -/
def result (z : FVec Ideal S200000x4 .f32) (r : FVec Ideal S6400000x1 .f32) (rhat : FVec Ideal S6400000x3 .f32)
    (W : FVec Ideal S3x1x12 .f32) (b : FVec Ideal S3x1 .f32) (src dst : IVec S6400000 32) : FVec Ideal S200000x4 .f32 :=
  let L := layer (sauxT r rhat (clipIdx dst)) (indegT (clipIdx dst)) (clipIdx src) (clipIdx dst)
  L (w12Of ![2, 0, 0] slices_S3x1x12_S1x1x12_2_0_0 W) (biasOf ![2, 0] slices_S3x1_S1x1_2_0 b)
    (L (w12Of ![1, 0, 0] slices_S3x1x12_S1x1x12_1_0_0 W) (biasOf ![1, 0] slices_S3x1_S1x1_1_0 b)
      (L (w12Of ![0, 0, 0] slices_S3x1x12_S1x1x12_0_0_0 W) (biasOf ![0, 0] slices_S3x1_S1x1_0_0 b) z))

end Cert.KernelIdeal.NodeLayer

end
-- ==== Proof.Stretch0a.lean ====
/-
  Before the first kernel: the clamped index vectors, the padded and transposed node features, and the weight
  and bias arguments, which no host operation writes.
-/
import proofs.«426513_j76897094467615_2_alg».proof.Proof.Gen.KernelIdeal.Launch
import proofs.«426513_j76897094467615_2_alg».proof.Proof.NodeLayer
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Facts₀ Cert.KernelIdeal.Facts Cert.KernelIdeal.Gen Cert.KernelIdeal.NodeLayer

variable (V : Valuation τ sig (Elt Ideal))

/-- The buffers after the eleven stretches of host operations before the first kernel. -/
abbrev S0a : Valuation τ sig (Elt Ideal) :=
  after hostOps0_10 (after hostOps0_9 (after hostOps0_8 (after hostOps0_7 (after hostOps0_6 (after hostOps0_5
    (after hostOps0_4 (after hostOps0_3 (after hostOps0_2 (after hostOps0_1 (after hostOps0 V))))))))))

set_option maxHeartbeats 2000000 in
theorem s0_src : S0a V (Proc.devRef .tc main_v0) = clipIdx (V (Proc.devRef .tc main_arg5)) := by
  show after _ _ _ = _
  after_results
  rfl

set_option maxHeartbeats 2000000 in
theorem s0_dst : S0a V (Proc.devRef .tc main_v1) = clipIdx (V (Proc.devRef .tc main_arg6)) := by
  show after _ _ _ = _
  after_results
  rfl

set_option maxHeartbeats 2000000 in
theorem s0_zt : S0a V (Proc.devRef .tc main_v26) = padT (V (Proc.devRef .tc main_arg0)) := by
  show after _ _ _ = _
  after_results
  rfl

set_option maxHeartbeats 2000000 in
theorem s0_W : S0a V (Proc.devRef .tc main_arg3) = V (Proc.devRef .tc main_arg3) := by
  show after _ _ _ = _
  after_results

set_option maxHeartbeats 2000000 in
theorem s0_b : S0a V (Proc.devRef .tc main_arg4) = V (Proc.devRef .tc main_arg4) := by
  show after _ _ _ = _
  after_results

end Cert.KernelIdeal.Stretch

end
-- ==== Proof.NodeLayerF.lean ====
/-
  The host-side functions of a layer at any float instance: the same compositions of the printed host
  operations as in NodeLayer.lean, with the float operations left abstract. At the ideal instance each is
  the function of NodeLayer.lean, by unfolding.
-/
import proofs.«426513_j76897094467615_2_alg».proof.Proof.NodeLayer

noncomputable section

namespace Cert.KernelIdeal.NodeLayerF

open Idealize.ShloMosaic Idealize.ShloMosaic.ValueIdx Cert.KernelIdeal Cert.KernelIdeal.Facts₀ Cert.KernelIdeal.Facts

variable {F : FTy → Type} [FloatOps F]

/-- Node-major [N, 4] features zero padded to N + 64 rows and transposed to feature-major [4, N + 64]. -/
def padT (x : FVec F S200000x4 .f32) : FVec F S4x200064 .f32 :=
  transpose S4x200064 [1, 0]
    (pad S200064x4 ![0, 0] ![64, 0] ![0, 0] x (sitofp (F := F) .f32 (constantI S_ 32 0#32)) pads_S200000x4_S200064x4_0640_000 h_S_)
    transposes_S200064x4_S4x200064_1_0

/-- A per-node vector [N] zero padded to N + 64 and laid out as one row [1, N + 64]. -/
def padRow (x : FVec F S200000 .f32) : FVec F S1x200064 .f32 :=
  fun i => shapeCast S1x200064
    (pad S200064 ![0] ![64] ![0] x (sitofp (F := F) .f32 (constantI S_ 32 0#32)) pads_S200000_S200064_0640 h_S_)
    shapeCasts_S200064_S1x200064 i

/-- The edge attributes [r, r_hat] : [E, 4] summed by destination node, padded and transposed. -/
def sauxT (r : FVec F S6400000x1 .f32) (rhat : FVec F S6400000x3 .f32) (dstC : IVec S6400000 32) : FVec F S4x200064 .f32 :=
  padT (Host.scatterAdd scatter_S200000x4_S6400000x1_S6400000x4_1_0_0_1
    (broadcastInDim S200000x4 ![] bcast_S_S200000x4 (constant (F := F) S_ .f32 0x00000000#32))
    (broadcastInDim S6400000x1 ![0] bcast_S6400000_S6400000x1_0 dstC)
    (concatenate S6400000x4 1 [⟨S6400000x1, r⟩, ⟨S6400000x3, rhat⟩] concatenates_S6400000x1_S6400000x3_S6400000x4_d1))

/-- A per-edge vector summed by destination node. -/
def segSum (dstC : IVec S6400000 32) (g : FVec F S6400000 .f32) : FVec F S200000 .f32 :=
  Host.scatterAdd scatter_S200000_S6400000x1_S6400000_n_0_0_1
    (broadcastInDim S200000 ![] bcast_S_S200000 (constant (F := F) S_ .f32 0x00000000#32))
    (broadcastInDim S6400000x1 ![0] bcast_S6400000_S6400000x1_0 dstC) g

/-- The in-degree of every node, as a padded row. -/
def indegT (dstC : IVec S6400000 32) : FVec F S1x200064 .f32 :=
  padRow (segSum dstC (broadcastInDim S6400000 ![] bcast_S_S6400000 (constant (F := F) S_ .f32 0x3F800000#32)))

/-- The first N entries of a padded row, as a vector. -/
def unpadRow (y : FVec F S1x200064 .f32) : FVec F S200000 .f32 :=
  extractStridedSlice S200000 ![0] (fun i => shapeCast S200064 y shapeCasts_S1x200064_S200064 i) slices_S200064_S200000_0

/-- The node vector read at the (already clamped) source of every edge: jnp.take in its default mode. -/
def takeSrc (y : FVec F S200000 .f32) (srcC : IVec S6400000 32) : FVec F S6400000 .f32 :=
  let wrapped : IVec S6400000 32 :=
    select (cmpi .slt srcC (broadcastInDim S6400000 ![] bcast_S_S6400000 (constantI S_ 32 0#32)))
      (addi srcC (broadcastInDim S6400000 ![] bcast_S_S6400000 (constantI S_ 32 200000#32))) srcC
  let col : IVec S6400000x1 32 := broadcastInDim S6400000x1 ![0] bcast_S6400000_S6400000x1_0 wrapped
  let inRange : IVec S6400000 1 :=
    Host.reduce IntOp.andi
      (andi (cmpi .sge col (broadcastInDim S6400000x1 ![] bcast_S_S6400000x1 (constantI S_ 32 0#32)))
        (cmpi .sle col (broadcastInDim S6400000x1 ![0, 1] bcast_S1x1_S6400000x1_0_1
          (broadcastInDim S1x1 ![1] bcast_S1_S1x1_1 (constantI S1 32 199999#32)))))
      (constantI S_ 1 1#1) reducesTo_S6400000x1_S6400000_d1 h_S_
  select inRange (Host.gather gather_S200000_S6400000x1_S6400000_n_0_n_n_0_1_1 y col)
    (broadcastInDim S6400000 ![] bcast_S_S6400000 (constant (F := F) S_ .f32 0x7FC00000#32))

/-! At the ideal instance these are the functions of NodeLayer.lean. -/

theorem sauxT_ideal (r : FVec Ideal S6400000x1 .f32) (rhat : FVec Ideal S6400000x3 .f32) (dstC : IVec S6400000 32) :
    sauxT (F := Ideal) r rhat dstC = NodeLayer.sauxT r rhat dstC := rfl
theorem indegT_ideal (dstC : IVec S6400000 32) : indegT (F := Ideal) dstC = NodeLayer.indegT dstC := rfl
theorem scat_ideal (dstC srcC : IVec S6400000 32) (y : FVec Ideal S1x200064 .f32) :
    padRow (F := Ideal) (segSum dstC (takeSrc (unpadRow y) srcC))
      = NodeLayer.padRow (NodeLayer.segSum dstC (NodeLayer.takeSrc (NodeLayer.unpadRow y) srcC)) := rfl

end Cert.KernelIdeal.NodeLayerF

end
-- ==== Proof.Stretch0b.lean ====
/-
  Before the first kernel: the two layer-invariant aggregates, the edge attributes summed by destination and the
  in-degree, each padded and laid out feature-major. Read at any float instance first (there the sums are
  abstract operations and the two sides are the same text), then at the ideal one.
-/
import proofs.«426513_j76897094467615_2_alg».proof.Proof.Gen.KernelIdeal.Launch
import proofs.«426513_j76897094467615_2_alg».proof.Proof.NodeLayer
import proofs.«426513_j76897094467615_2_alg».proof.Proof.NodeLayerF
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Facts₀ Cert.KernelIdeal.Facts Cert.KernelIdeal.Gen Cert.KernelIdeal.NodeLayer

section AnyInstance
variable {F : FTy → Type} [FloatOps F] (U : Valuation τ sig (Elt F))

/-- The buffers after the eleven stretches of host operations before the first kernel. -/
abbrev S0b : Valuation τ sig (Elt F) :=
  after hostOps0_10 (after hostOps0_9 (after hostOps0_8 (after hostOps0_7 (after hostOps0_6 (after hostOps0_5
    (after hostOps0_4 (after hostOps0_3 (after hostOps0_2 (after hostOps0_1 (after hostOps0 U))))))))))

set_option maxHeartbeats 4000000 in
theorem s0_saux_any : S0b U (Proc.devRef .tc main_v11) = NodeLayerF.sauxT (U (Proc.devRef .tc main_arg1)) (U (Proc.devRef .tc main_arg2)) (clipIdx (U (Proc.devRef .tc main_arg6))) := by
  show after _ _ _ = _
  after_results
  try simp only [TRef.ofBuf, TRef.toBuf, cast_eq]
  rfl

set_option maxHeartbeats 4000000 in
theorem s0_indeg_any : S0b U (Proc.devRef .tc main_v13) = NodeLayerF.indegT (F := F) (clipIdx (U (Proc.devRef .tc main_arg6))) := by
  show after _ _ _ = _
  after_results
  try simp only [TRef.ofBuf, TRef.toBuf, cast_eq]
  rfl

end AnyInstance

variable (V : Valuation τ sig (Elt Ideal))

theorem s0_saux : S0b V (Proc.devRef .tc main_v11) = sauxT (V (Proc.devRef .tc main_arg1)) (V (Proc.devRef .tc main_arg2)) (clipIdx (V (Proc.devRef .tc main_arg6))) :=
  (s0_saux_any V).trans (NodeLayerF.sauxT_ideal _ _ _)

theorem s0_indeg : S0b V (Proc.devRef .tc main_v13) = indegT (clipIdx (V (Proc.devRef .tc main_arg6))) :=
  (s0_indeg_any V).trans (NodeLayerF.indegT_ideal _)

end Cert.KernelIdeal.Stretch

end
-- ==== Proof.Stretch0c.lean ====
/-
  Before the first kernel: the first layer's three weight columns and its bias, sliced out of W and b.
-/
import proofs.«426513_j76897094467615_2_alg».proof.Proof.Gen.KernelIdeal.Launch
import proofs.«426513_j76897094467615_2_alg».proof.Proof.NodeLayer
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Facts₀ Cert.KernelIdeal.Facts Cert.KernelIdeal.Gen Cert.KernelIdeal.NodeLayer

variable (V : Valuation τ sig (Elt Ideal))

/-- The buffers after the eleven stretches of host operations before the first kernel. -/
abbrev S0c : Valuation τ sig (Elt Ideal) :=
  after hostOps0_10 (after hostOps0_9 (after hostOps0_8 (after hostOps0_7 (after hostOps0_6 (after hostOps0_5
    (after hostOps0_4 (after hostOps0_3 (after hostOps0_2 (after hostOps0_1 (after hostOps0 V))))))))))

set_option maxHeartbeats 2000000 in
theorem s0_wsrc : S0c V (Proc.devRef .tc main_v17) = wcol ![0] Facts₀.slices_S12_S4_0 (w12Of ![0, 0, 0] Facts₀.slices_S3x1x12_S1x1x12_0_0_0 (V (Proc.devRef .tc main_arg3))) := by
  show after _ _ _ = _
  after_results
  rfl

set_option maxHeartbeats 2000000 in
theorem s0_wdst : S0c V (Proc.devRef .tc main_v19) = wcol ![4] Facts₀.slices_S12_S4_4 (w12Of ![0, 0, 0] Facts₀.slices_S3x1x12_S1x1x12_0_0_0 (V (Proc.devRef .tc main_arg3))) := by
  show after _ _ _ = _
  after_results
  rfl

set_option maxHeartbeats 2000000 in
theorem s0_waux : S0c V (Proc.devRef .tc main_v21) = wcol ![8] Facts₀.slices_S12_S4_8 (w12Of ![0, 0, 0] Facts₀.slices_S3x1x12_S1x1x12_0_0_0 (V (Proc.devRef .tc main_arg3))) := by
  show after _ _ _ = _
  after_results
  rfl

set_option maxHeartbeats 2000000 in
theorem s0_bias : S0c V (Proc.devRef .tc main_v24) = biasOf ![0, 0] Facts₀.slices_S3x1_S1x1_0_0 (V (Proc.devRef .tc main_arg4)) := by
  show after _ _ _ = _
  after_results
  rfl

end Cert.KernelIdeal.Stretch

end
-- ==== Proof.Stretch1.lean ====
/-
  The host operations between a layer's two kernels: the first kernel's source term is un-padded, gathered at the
  source of every edge, summed by destination, padded and laid out as a row again. Everything else is kept.

  The gather-by-source is a called function, printed over typed references whose contents are transported along
  type equations that are identities; it is restated here over the buffers themselves, operation by operation,
  so that what a buffer holds afterwards is the same text as the function of NodeLayer.lean. The operations are
  read at any float instance first (there the sums are abstract operations), then at the ideal one.
-/
import proofs.«426513_j76897094467615_2_alg».proof.Proof.Gen.KernelIdeal.Launch
import proofs.«426513_j76897094467615_2_alg».proof.Proof.NodeLayer
import proofs.«426513_j76897094467615_2_alg».proof.Proof.NodeLayerF
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Gen

section AnyInstance
variable {F : FTy → Type} [FloatOps F] (U : Valuation τ sig (Elt F))

/-- The 22 operations of the gather-by-source, over the buffers themselves. -/
abbrev take1 : List (HloOp τ sig (Elt F)) :=
  [ StableHlo.nullary main_call6_c (constantI S_ 32 0#32),
    StableHlo.unary main_call6_c main_call6_v0 ((broadcastInDim S6400000 ![] bcast_S_S6400000) : (⟨S_, .i32⟩ : BufTy).Contents (Elt F) → (⟨S6400000, .i32⟩ : BufTy).Contents (Elt F)),
    StableHlo.binary main_v0 main_call6_v0 main_call6_v1 ((cmpi .slt) : (⟨S6400000, .i32⟩ : BufTy).Contents (Elt F) → (⟨S6400000, .i32⟩ : BufTy).Contents (Elt F) → (⟨S6400000, .i1⟩ : BufTy).Contents (Elt F)),
    StableHlo.nullary main_call6_c_0 (constantI S_ 32 200000#32),
    StableHlo.unary main_call6_c_0 main_call6_v2 ((broadcastInDim S6400000 ![] bcast_S_S6400000) : (⟨S_, .i32⟩ : BufTy).Contents (Elt F) → (⟨S6400000, .i32⟩ : BufTy).Contents (Elt F)),
    StableHlo.binary main_v0 main_call6_v2 main_call6_v3 (addi : (⟨S6400000, .i32⟩ : BufTy).Contents (Elt F) → (⟨S6400000, .i32⟩ : BufTy).Contents (Elt F) → (⟨S6400000, .i32⟩ : BufTy).Contents (Elt F)),
    StableHlo.ternary main_call6_v1 main_call6_v3 main_v0 main_call6_v4 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_call6_v4 main_call6_v5 ((broadcastInDim S6400000x1 ![0] bcast_S6400000_S6400000x1_0) : (⟨S6400000, .i32⟩ : BufTy).Contents (Elt F) → (⟨S6400000x1, .i32⟩ : BufTy).Contents (Elt F)),
    StableHlo.nullary main_call6_c_1 (constantI S1 32 199999#32),
    StableHlo.nullary main_call6_c_2 (constantI S_ 32 0#32),
    StableHlo.unary main_call6_c_2 main_call6_v6 ((broadcastInDim S6400000x1 ![] bcast_S_S6400000x1) : (⟨S_, .i32⟩ : BufTy).Contents (Elt F) → (⟨S6400000x1, .i32⟩ : BufTy).Contents (Elt F)),
    StableHlo.binary main_call6_v5 main_call6_v6 main_call6_v7 ((cmpi .sge) : (⟨S6400000x1, .i32⟩ : BufTy).Contents (Elt F) → (⟨S6400000x1, .i32⟩ : BufTy).Contents (Elt F) → (⟨S6400000x1, .i1⟩ : BufTy).Contents (Elt F)),
    StableHlo.unary main_call6_c_1 main_call6_v8 ((broadcastInDim S1x1 ![1] bcast_S1_S1x1_1) : (⟨S1, .i32⟩ : BufTy).Contents (Elt F) → (⟨S1x1, .i32⟩ : BufTy).Contents (Elt F)),
    StableHlo.unary main_call6_v8 main_call6_v9 ((broadcastInDim S6400000x1 ![0, 1] bcast_S1x1_S6400000x1_0_1) : (⟨S1x1, .i32⟩ : BufTy).Contents (Elt F) → (⟨S6400000x1, .i32⟩ : BufTy).Contents (Elt F)),
    StableHlo.binary main_call6_v5 main_call6_v9 main_call6_v10 ((cmpi .sle) : (⟨S6400000x1, .i32⟩ : BufTy).Contents (Elt F) → (⟨S6400000x1, .i32⟩ : BufTy).Contents (Elt F) → (⟨S6400000x1, .i1⟩ : BufTy).Contents (Elt F)),
    StableHlo.binary main_call6_v7 main_call6_v10 main_call6_v11 (andi : (⟨S6400000x1, .i1⟩ : BufTy).Contents (Elt F) → (⟨S6400000x1, .i1⟩ : BufTy).Contents (Elt F) → (⟨S6400000x1, .i1⟩ : BufTy).Contents (Elt F)),
    StableHlo.nullary main_call6_c_3 (constantI S_ 1 1#1),
    StableHlo.binary main_call6_v11 main_call6_c_3 main_call6_v12 ((fun x v => Host.reduce IntOp.andi x v reducesTo_S6400000x1_S6400000_d1 h_S_) : (⟨S6400000x1, .i1⟩ : BufTy).Contents (Elt F) → (⟨S_, .i1⟩ : BufTy).Contents (Elt F) → (⟨S6400000, .i1⟩ : BufTy).Contents (Elt F)),
    StableHlo.binary main_v29 main_call6_v5 main_call6_v13 ((fun x i => Host.gather gather_S200000_S6400000x1_S6400000_n_0_n_n_0_1_1 x i) : (⟨S200000, .f32⟩ : BufTy).Contents (Elt F) → (⟨S6400000x1, .i32⟩ : BufTy).Contents (Elt F) → (⟨S6400000, .f32⟩ : BufTy).Contents (Elt F)),
    StableHlo.nullary main_call6_cst (constant S_ .f32 0x7FC00000#32),
    StableHlo.unary main_call6_cst main_call6_v14 ((broadcastInDim S6400000 ![] bcast_S_S6400000) : (⟨S_, .f32⟩ : BufTy).Contents (Elt F) → (⟨S6400000, .f32⟩ : BufTy).Contents (Elt F)),
    StableHlo.ternary main_call6_v12 main_call6_v13 main_call6_v14 main_v30 (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)) ]

/-- The range mask's reduction over typed references is the operation over the buffers, whatever the reduction. -/
theorem take1_reduce (g : (⟨S6400000x1, .i1⟩ : BufTy).Contents (Elt F) → (⟨S_, .i1⟩ : BufTy).Contents (Elt F) → (⟨S6400000, .i1⟩ : BufTy).Contents (Elt F)) :
    (StableHlo.TRef.binary (.of main_call6_v11 : StableHlo.TRef sig ⟨S6400000x1, .i1⟩) (.of main_call6_c_3 : StableHlo.TRef sig ⟨S_, .i1⟩) (.of main_call6_v12 : StableHlo.TRef sig ⟨S6400000, .i1⟩) g : HloOp τ sig (Elt F)) = StableHlo.binary main_call6_v11 main_call6_c_3 main_call6_v12 g := rfl

set_option maxHeartbeats 4000000 in
/-- The called function's operations are those over the buffers, one by one. -/
theorem take1_eq : (hostOps1_1 : List (HloOp τ sig (Elt F))) = take1 := by
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (take1_reduce _) ?_
  refine congrArg₂ List.cons rfl ?_
  refine congrArg₂ List.cons rfl ?_
  refine congrArg₂ List.cons rfl ?_
  refine congrArg₂ List.cons rfl ?_
  rfl

/-- The buffers after the five stretches of host operations between the two kernels. -/
abbrev S1 : Valuation τ sig (Elt F) :=
  after hostOps1_4 (after hostOps1_3 (after hostOps1_2 (after hostOps1_1 (after hostOps1 U))))

set_option maxHeartbeats 4000000 in
theorem s1_scat_any : S1 U (Proc.devRef .tc main_v35)
    = NodeLayerF.padRow (NodeLayerF.segSum (U (Proc.devRef .tc main_v1)) (NodeLayerF.takeSrc (NodeLayerF.unpadRow (U (Proc.devRef .tc main_v27_0))) (U (Proc.devRef .tc main_v0)))) := by
  show after _ (after _ (after _ (after hostOps1_1 _))) _ = _
  rw [take1_eq]
  after_results
  rfl

end AnyInstance

open Cert.KernelIdeal.NodeLayer

variable (V : Valuation τ sig (Elt Ideal))

theorem s1_scat : S1 V (Proc.devRef .tc main_v35) = padRow (segSum (V (Proc.devRef .tc main_v1)) (takeSrc (unpadRow (V (Proc.devRef .tc main_v27_0))) (V (Proc.devRef .tc main_v0)))) :=
  (s1_scat_any V).trans (NodeLayerF.scat_ideal _ _ _)

set_option maxHeartbeats 4000000 in
theorem s1_zt : S1 V (Proc.devRef .tc main_v26) = V (Proc.devRef .tc main_v26) := by
  show after _ (after _ (after _ (after hostOps1_1 _))) _ = _
  rw [take1_eq]
  after_results

set_option maxHeartbeats 4000000 in
theorem s1_other : S1 V (Proc.devRef .tc main_v27_1) = V (Proc.devRef .tc main_v27_1) := by
  show after _ (after _ (after _ (after hostOps1_1 _))) _ = _
  rw [take1_eq]
  after_results

set_option maxHeartbeats 4000000 in
theorem s1_src : S1 V (Proc.devRef .tc main_v0) = V (Proc.devRef .tc main_v0) := by
  show after _ (after _ (after _ (after hostOps1_1 _))) _ = _
  rw [take1_eq]
  after_results

set_option maxHeartbeats 4000000 in
theorem s1_dst : S1 V (Proc.devRef .tc main_v1) = V (Proc.devRef .tc main_v1) := by
  show after _ (after _ (after _ (after hostOps1_1 _))) _ = _
  rw [take1_eq]
  after_results

set_option maxHeartbeats 4000000 in
theorem s1_saux : S1 V (Proc.devRef .tc main_v11) = V (Proc.devRef .tc main_v11) := by
  show after _ (after _ (after _ (after hostOps1_1 _))) _ = _
  rw [take1_eq]
  after_results

set_option maxHeartbeats 4000000 in
theorem s1_indeg : S1 V (Proc.devRef .tc main_v13) = V (Proc.devRef .tc main_v13) := by
  show after _ (after _ (after _ (after hostOps1_1 _))) _ = _
  rw [take1_eq]
  after_results

set_option maxHeartbeats 4000000 in
theorem s1_W : S1 V (Proc.devRef .tc main_arg3) = V (Proc.devRef .tc main_arg3) := by
  show after _ (after _ (after _ (after hostOps1_1 _))) _ = _
  rw [take1_eq]
  after_results

set_option maxHeartbeats 4000000 in
theorem s1_b : S1 V (Proc.devRef .tc main_arg4) = V (Proc.devRef .tc main_arg4) := by
  show after _ (after _ (after _ (after hostOps1_1 _))) _ = _
  rw [take1_eq]
  after_results

end Cert.KernelIdeal.Stretch

end
-- ==== Proof.Stretch2.lean ====
/-
  The host operations between two layers: the updated features are un-padded to [N, 4] and padded and
  transposed again, and the next layer's weight columns and bias are sliced out of W and b.
-/
import proofs.«426513_j76897094467615_2_alg».proof.Proof.Gen.KernelIdeal.Launch
import proofs.«426513_j76897094467615_2_alg».proof.Proof.NodeLayer
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Facts₀ Cert.KernelIdeal.Facts Cert.KernelIdeal.Gen Cert.KernelIdeal.NodeLayer

variable (V : Valuation τ sig (Elt Ideal))

/-- The buffers after the three stretches of host operations between two layers. -/
abbrev S2 : Valuation τ sig (Elt Ideal) :=
  after hostOps2_2 (after hostOps2_1 (after hostOps2 V))

set_option maxHeartbeats 2000000 in
theorem s2_zt : S2 V (Proc.devRef .tc main_v51) = padT (unpadT (V (Proc.devRef .tc main_v36))) := by
  show after _ _ _ = _
  after_results
  rfl

set_option maxHeartbeats 2000000 in
theorem s2_wsrc : S2 V (Proc.devRef .tc main_v42) = wcol ![0] Facts₀.slices_S12_S4_0 (w12Of ![1, 0, 0] Facts₀.slices_S3x1x12_S1x1x12_1_0_0 (V (Proc.devRef .tc main_arg3))) := by
  show after _ _ _ = _
  after_results
  rfl

set_option maxHeartbeats 2000000 in
theorem s2_wdst : S2 V (Proc.devRef .tc main_v44) = wcol ![4] Facts₀.slices_S12_S4_4 (w12Of ![1, 0, 0] Facts₀.slices_S3x1x12_S1x1x12_1_0_0 (V (Proc.devRef .tc main_arg3))) := by
  show after _ _ _ = _
  after_results
  rfl

set_option maxHeartbeats 2000000 in
theorem s2_waux : S2 V (Proc.devRef .tc main_v46) = wcol ![8] Facts₀.slices_S12_S4_8 (w12Of ![1, 0, 0] Facts₀.slices_S3x1x12_S1x1x12_1_0_0 (V (Proc.devRef .tc main_arg3))) := by
  show after _ _ _ = _
  after_results
  rfl

set_option maxHeartbeats 2000000 in
theorem s2_bias : S2 V (Proc.devRef .tc main_v49) = biasOf ![1, 0] Facts₀.slices_S3x1_S1x1_1_0 (V (Proc.devRef .tc main_arg4)) := by
  show after _ _ _ = _
  after_results
  rfl

set_option maxHeartbeats 2000000 in
theorem s2_src : S2 V (Proc.devRef .tc main_v0) = V (Proc.devRef .tc main_v0) := by
  show after _ _ _ = _
  after_results

set_option maxHeartbeats 2000000 in
theorem s2_dst : S2 V (Proc.devRef .tc main_v1) = V (Proc.devRef .tc main_v1) := by
  show after _ _ _ = _
  after_results

set_option maxHeartbeats 2000000 in
theorem s2_saux : S2 V (Proc.devRef .tc main_v11) = V (Proc.devRef .tc main_v11) := by
  show after _ _ _ = _
  after_results

set_option maxHeartbeats 2000000 in
theorem s2_indeg : S2 V (Proc.devRef .tc main_v13) = V (Proc.devRef .tc main_v13) := by
  show after _ _ _ = _
  after_results

set_option maxHeartbeats 2000000 in
theorem s2_W : S2 V (Proc.devRef .tc main_arg3) = V (Proc.devRef .tc main_arg3) := by
  show after _ _ _ = _
  after_results

set_option maxHeartbeats 2000000 in
theorem s2_b : S2 V (Proc.devRef .tc main_arg4) = V (Proc.devRef .tc main_arg4) := by
  show after _ _ _ = _
  after_results

end Cert.KernelIdeal.Stretch

end
-- ==== Proof.Stretch3.lean ====
/-
  The host operations between a layer's two kernels: the first kernel's source term is un-padded, gathered at the
  source of every edge, summed by destination, padded and laid out as a row again. Everything else is kept.

  The gather-by-source is a called function, printed over typed references whose contents are transported along
  type equations that are identities; it is restated here over the buffers themselves, operation by operation,
  so that what a buffer holds afterwards is the same text as the function of NodeLayer.lean. The operations are
  read at any float instance first (there the sums are abstract operations), then at the ideal one.
-/
import proofs.«426513_j76897094467615_2_alg».proof.Proof.Gen.KernelIdeal.Launch
import proofs.«426513_j76897094467615_2_alg».proof.Proof.NodeLayer
import proofs.«426513_j76897094467615_2_alg».proof.Proof.NodeLayerF
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Gen

section AnyInstance
variable {F : FTy → Type} [FloatOps F] (U : Valuation τ sig (Elt F))

/-- The 22 operations of the gather-by-source, over the buffers themselves. -/
abbrev take3 : List (HloOp τ sig (Elt F)) :=
  [ StableHlo.nullary main_call11_c (constantI S_ 32 0#32),
    StableHlo.unary main_call11_c main_call11_v0 ((broadcastInDim S6400000 ![] bcast_S_S6400000) : (⟨S_, .i32⟩ : BufTy).Contents (Elt F) → (⟨S6400000, .i32⟩ : BufTy).Contents (Elt F)),
    StableHlo.binary main_v0 main_call11_v0 main_call11_v1 ((cmpi .slt) : (⟨S6400000, .i32⟩ : BufTy).Contents (Elt F) → (⟨S6400000, .i32⟩ : BufTy).Contents (Elt F) → (⟨S6400000, .i1⟩ : BufTy).Contents (Elt F)),
    StableHlo.nullary main_call11_c_0 (constantI S_ 32 200000#32),
    StableHlo.unary main_call11_c_0 main_call11_v2 ((broadcastInDim S6400000 ![] bcast_S_S6400000) : (⟨S_, .i32⟩ : BufTy).Contents (Elt F) → (⟨S6400000, .i32⟩ : BufTy).Contents (Elt F)),
    StableHlo.binary main_v0 main_call11_v2 main_call11_v3 (addi : (⟨S6400000, .i32⟩ : BufTy).Contents (Elt F) → (⟨S6400000, .i32⟩ : BufTy).Contents (Elt F) → (⟨S6400000, .i32⟩ : BufTy).Contents (Elt F)),
    StableHlo.ternary main_call11_v1 main_call11_v3 main_v0 main_call11_v4 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_call11_v4 main_call11_v5 ((broadcastInDim S6400000x1 ![0] bcast_S6400000_S6400000x1_0) : (⟨S6400000, .i32⟩ : BufTy).Contents (Elt F) → (⟨S6400000x1, .i32⟩ : BufTy).Contents (Elt F)),
    StableHlo.nullary main_call11_c_1 (constantI S1 32 199999#32),
    StableHlo.nullary main_call11_c_2 (constantI S_ 32 0#32),
    StableHlo.unary main_call11_c_2 main_call11_v6 ((broadcastInDim S6400000x1 ![] bcast_S_S6400000x1) : (⟨S_, .i32⟩ : BufTy).Contents (Elt F) → (⟨S6400000x1, .i32⟩ : BufTy).Contents (Elt F)),
    StableHlo.binary main_call11_v5 main_call11_v6 main_call11_v7 ((cmpi .sge) : (⟨S6400000x1, .i32⟩ : BufTy).Contents (Elt F) → (⟨S6400000x1, .i32⟩ : BufTy).Contents (Elt F) → (⟨S6400000x1, .i1⟩ : BufTy).Contents (Elt F)),
    StableHlo.unary main_call11_c_1 main_call11_v8 ((broadcastInDim S1x1 ![1] bcast_S1_S1x1_1) : (⟨S1, .i32⟩ : BufTy).Contents (Elt F) → (⟨S1x1, .i32⟩ : BufTy).Contents (Elt F)),
    StableHlo.unary main_call11_v8 main_call11_v9 ((broadcastInDim S6400000x1 ![0, 1] bcast_S1x1_S6400000x1_0_1) : (⟨S1x1, .i32⟩ : BufTy).Contents (Elt F) → (⟨S6400000x1, .i32⟩ : BufTy).Contents (Elt F)),
    StableHlo.binary main_call11_v5 main_call11_v9 main_call11_v10 ((cmpi .sle) : (⟨S6400000x1, .i32⟩ : BufTy).Contents (Elt F) → (⟨S6400000x1, .i32⟩ : BufTy).Contents (Elt F) → (⟨S6400000x1, .i1⟩ : BufTy).Contents (Elt F)),
    StableHlo.binary main_call11_v7 main_call11_v10 main_call11_v11 (andi : (⟨S6400000x1, .i1⟩ : BufTy).Contents (Elt F) → (⟨S6400000x1, .i1⟩ : BufTy).Contents (Elt F) → (⟨S6400000x1, .i1⟩ : BufTy).Contents (Elt F)),
    StableHlo.nullary main_call11_c_3 (constantI S_ 1 1#1),
    StableHlo.binary main_call11_v11 main_call11_c_3 main_call11_v12 ((fun x v => Host.reduce IntOp.andi x v reducesTo_S6400000x1_S6400000_d1 h_S_) : (⟨S6400000x1, .i1⟩ : BufTy).Contents (Elt F) → (⟨S_, .i1⟩ : BufTy).Contents (Elt F) → (⟨S6400000, .i1⟩ : BufTy).Contents (Elt F)),
    StableHlo.binary main_v54 main_call11_v5 main_call11_v13 ((fun x i => Host.gather gather_S200000_S6400000x1_S6400000_n_0_n_n_0_1_1 x i) : (⟨S200000, .f32⟩ : BufTy).Contents (Elt F) → (⟨S6400000x1, .i32⟩ : BufTy).Contents (Elt F) → (⟨S6400000, .f32⟩ : BufTy).Contents (Elt F)),
    StableHlo.nullary main_call11_cst (constant S_ .f32 0x7FC00000#32),
    StableHlo.unary main_call11_cst main_call11_v14 ((broadcastInDim S6400000 ![] bcast_S_S6400000) : (⟨S_, .f32⟩ : BufTy).Contents (Elt F) → (⟨S6400000, .f32⟩ : BufTy).Contents (Elt F)),
    StableHlo.ternary main_call11_v12 main_call11_v13 main_call11_v14 main_v55 (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)) ]

/-- The range mask's reduction over typed references is the operation over the buffers, whatever the reduction. -/
theorem take3_reduce (g : (⟨S6400000x1, .i1⟩ : BufTy).Contents (Elt F) → (⟨S_, .i1⟩ : BufTy).Contents (Elt F) → (⟨S6400000, .i1⟩ : BufTy).Contents (Elt F)) :
    (StableHlo.TRef.binary (.of main_call11_v11 : StableHlo.TRef sig ⟨S6400000x1, .i1⟩) (.of main_call11_c_3 : StableHlo.TRef sig ⟨S_, .i1⟩) (.of main_call11_v12 : StableHlo.TRef sig ⟨S6400000, .i1⟩) g : HloOp τ sig (Elt F)) = StableHlo.binary main_call11_v11 main_call11_c_3 main_call11_v12 g := rfl

set_option maxHeartbeats 4000000 in
/-- The called function's operations are those over the buffers, one by one. -/
theorem take3_eq : (hostOps3_1 : List (HloOp τ sig (Elt F))) = take3 := by
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (take3_reduce _) ?_
  refine congrArg₂ List.cons rfl ?_
  refine congrArg₂ List.cons rfl ?_
  refine congrArg₂ List.cons rfl ?_
  refine congrArg₂ List.cons rfl ?_
  rfl

/-- The buffers after the five stretches of host operations between the two kernels. -/
abbrev S3 : Valuation τ sig (Elt F) :=
  after hostOps3_4 (after hostOps3_3 (after hostOps3_2 (after hostOps3_1 (after hostOps3 U))))

set_option maxHeartbeats 4000000 in
theorem s3_scat_any : S3 U (Proc.devRef .tc main_v60)
    = NodeLayerF.padRow (NodeLayerF.segSum (U (Proc.devRef .tc main_v1)) (NodeLayerF.takeSrc (NodeLayerF.unpadRow (U (Proc.devRef .tc main_v52_0))) (U (Proc.devRef .tc main_v0)))) := by
  show after _ (after _ (after _ (after hostOps3_1 _))) _ = _
  rw [take3_eq]
  after_results
  rfl

end AnyInstance

open Cert.KernelIdeal.NodeLayer

variable (V : Valuation τ sig (Elt Ideal))

theorem s3_scat : S3 V (Proc.devRef .tc main_v60) = padRow (segSum (V (Proc.devRef .tc main_v1)) (takeSrc (unpadRow (V (Proc.devRef .tc main_v52_0))) (V (Proc.devRef .tc main_v0)))) :=
  (s3_scat_any V).trans (NodeLayerF.scat_ideal _ _ _)

set_option maxHeartbeats 4000000 in
theorem s3_zt : S3 V (Proc.devRef .tc main_v51) = V (Proc.devRef .tc main_v51) := by
  show after _ (after _ (after _ (after hostOps3_1 _))) _ = _
  rw [take3_eq]
  after_results

set_option maxHeartbeats 4000000 in
theorem s3_other : S3 V (Proc.devRef .tc main_v52_1) = V (Proc.devRef .tc main_v52_1) := by
  show after _ (after _ (after _ (after hostOps3_1 _))) _ = _
  rw [take3_eq]
  after_results

set_option maxHeartbeats 4000000 in
theorem s3_src : S3 V (Proc.devRef .tc main_v0) = V (Proc.devRef .tc main_v0) := by
  show after _ (after _ (after _ (after hostOps3_1 _))) _ = _
  rw [take3_eq]
  after_results

set_option maxHeartbeats 4000000 in
theorem s3_dst : S3 V (Proc.devRef .tc main_v1) = V (Proc.devRef .tc main_v1) := by
  show after _ (after _ (after _ (after hostOps3_1 _))) _ = _
  rw [take3_eq]
  after_results

set_option maxHeartbeats 4000000 in
theorem s3_saux : S3 V (Proc.devRef .tc main_v11) = V (Proc.devRef .tc main_v11) := by
  show after _ (after _ (after _ (after hostOps3_1 _))) _ = _
  rw [take3_eq]
  after_results

set_option maxHeartbeats 4000000 in
theorem s3_indeg : S3 V (Proc.devRef .tc main_v13) = V (Proc.devRef .tc main_v13) := by
  show after _ (after _ (after _ (after hostOps3_1 _))) _ = _
  rw [take3_eq]
  after_results

set_option maxHeartbeats 4000000 in
theorem s3_W : S3 V (Proc.devRef .tc main_arg3) = V (Proc.devRef .tc main_arg3) := by
  show after _ (after _ (after _ (after hostOps3_1 _))) _ = _
  rw [take3_eq]
  after_results

set_option maxHeartbeats 4000000 in
theorem s3_b : S3 V (Proc.devRef .tc main_arg4) = V (Proc.devRef .tc main_arg4) := by
  show after _ (after _ (after _ (after hostOps3_1 _))) _ = _
  rw [take3_eq]
  after_results

end Cert.KernelIdeal.Stretch

end
-- ==== Proof.Stretch4.lean ====
/-
  The host operations between two layers: the updated features are un-padded to [N, 4] and padded and
  transposed again, and the next layer's weight columns and bias are sliced out of W and b.
-/
import proofs.«426513_j76897094467615_2_alg».proof.Proof.Gen.KernelIdeal.Launch
import proofs.«426513_j76897094467615_2_alg».proof.Proof.NodeLayer
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Facts₀ Cert.KernelIdeal.Facts Cert.KernelIdeal.Gen Cert.KernelIdeal.NodeLayer

variable (V : Valuation τ sig (Elt Ideal))

/-- The buffers after the three stretches of host operations between two layers. -/
abbrev S4 : Valuation τ sig (Elt Ideal) :=
  after hostOps4_2 (after hostOps4_1 (after hostOps4 V))

set_option maxHeartbeats 2000000 in
theorem s4_zt : S4 V (Proc.devRef .tc main_v76) = padT (unpadT (V (Proc.devRef .tc main_v61))) := by
  show after _ _ _ = _
  after_results
  rfl

set_option maxHeartbeats 2000000 in
theorem s4_wsrc : S4 V (Proc.devRef .tc main_v67) = wcol ![0] Facts₀.slices_S12_S4_0 (w12Of ![2, 0, 0] Facts₀.slices_S3x1x12_S1x1x12_2_0_0 (V (Proc.devRef .tc main_arg3))) := by
  show after _ _ _ = _
  after_results
  rfl

set_option maxHeartbeats 2000000 in
theorem s4_wdst : S4 V (Proc.devRef .tc main_v69) = wcol ![4] Facts₀.slices_S12_S4_4 (w12Of ![2, 0, 0] Facts₀.slices_S3x1x12_S1x1x12_2_0_0 (V (Proc.devRef .tc main_arg3))) := by
  show after _ _ _ = _
  after_results
  rfl

set_option maxHeartbeats 2000000 in
theorem s4_waux : S4 V (Proc.devRef .tc main_v71) = wcol ![8] Facts₀.slices_S12_S4_8 (w12Of ![2, 0, 0] Facts₀.slices_S3x1x12_S1x1x12_2_0_0 (V (Proc.devRef .tc main_arg3))) := by
  show after _ _ _ = _
  after_results
  rfl

set_option maxHeartbeats 2000000 in
theorem s4_bias : S4 V (Proc.devRef .tc main_v74) = biasOf ![2, 0] Facts₀.slices_S3x1_S1x1_2_0 (V (Proc.devRef .tc main_arg4)) := by
  show after _ _ _ = _
  after_results
  rfl

set_option maxHeartbeats 2000000 in
theorem s4_src : S4 V (Proc.devRef .tc main_v0) = V (Proc.devRef .tc main_v0) := by
  show after _ _ _ = _
  after_results

set_option maxHeartbeats 2000000 in
theorem s4_dst : S4 V (Proc.devRef .tc main_v1) = V (Proc.devRef .tc main_v1) := by
  show after _ _ _ = _
  after_results

set_option maxHeartbeats 2000000 in
theorem s4_saux : S4 V (Proc.devRef .tc main_v11) = V (Proc.devRef .tc main_v11) := by
  show after _ _ _ = _
  after_results

set_option maxHeartbeats 2000000 in
theorem s4_indeg : S4 V (Proc.devRef .tc main_v13) = V (Proc.devRef .tc main_v13) := by
  show after _ _ _ = _
  after_results

end Cert.KernelIdeal.Stretch

end
-- ==== Proof.Stretch5.lean ====
/-
  The host operations between a layer's two kernels: the first kernel's source term is un-padded, gathered at the
  source of every edge, summed by destination, padded and laid out as a row again. Everything else is kept.

  The gather-by-source is a called function, printed over typed references whose contents are transported along
  type equations that are identities; it is restated here over the buffers themselves, operation by operation,
  so that what a buffer holds afterwards is the same text as the function of NodeLayer.lean. The operations are
  read at any float instance first (there the sums are abstract operations), then at the ideal one.
-/
import proofs.«426513_j76897094467615_2_alg».proof.Proof.Gen.KernelIdeal.Launch
import proofs.«426513_j76897094467615_2_alg».proof.Proof.NodeLayer
import proofs.«426513_j76897094467615_2_alg».proof.Proof.NodeLayerF
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Gen

section AnyInstance
variable {F : FTy → Type} [FloatOps F] (U : Valuation τ sig (Elt F))

/-- The 22 operations of the gather-by-source, over the buffers themselves. -/
abbrev take5 : List (HloOp τ sig (Elt F)) :=
  [ StableHlo.nullary main_call16_c (constantI S_ 32 0#32),
    StableHlo.unary main_call16_c main_call16_v0 ((broadcastInDim S6400000 ![] bcast_S_S6400000) : (⟨S_, .i32⟩ : BufTy).Contents (Elt F) → (⟨S6400000, .i32⟩ : BufTy).Contents (Elt F)),
    StableHlo.binary main_v0 main_call16_v0 main_call16_v1 ((cmpi .slt) : (⟨S6400000, .i32⟩ : BufTy).Contents (Elt F) → (⟨S6400000, .i32⟩ : BufTy).Contents (Elt F) → (⟨S6400000, .i1⟩ : BufTy).Contents (Elt F)),
    StableHlo.nullary main_call16_c_0 (constantI S_ 32 200000#32),
    StableHlo.unary main_call16_c_0 main_call16_v2 ((broadcastInDim S6400000 ![] bcast_S_S6400000) : (⟨S_, .i32⟩ : BufTy).Contents (Elt F) → (⟨S6400000, .i32⟩ : BufTy).Contents (Elt F)),
    StableHlo.binary main_v0 main_call16_v2 main_call16_v3 (addi : (⟨S6400000, .i32⟩ : BufTy).Contents (Elt F) → (⟨S6400000, .i32⟩ : BufTy).Contents (Elt F) → (⟨S6400000, .i32⟩ : BufTy).Contents (Elt F)),
    StableHlo.ternary main_call16_v1 main_call16_v3 main_v0 main_call16_v4 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_call16_v4 main_call16_v5 ((broadcastInDim S6400000x1 ![0] bcast_S6400000_S6400000x1_0) : (⟨S6400000, .i32⟩ : BufTy).Contents (Elt F) → (⟨S6400000x1, .i32⟩ : BufTy).Contents (Elt F)),
    StableHlo.nullary main_call16_c_1 (constantI S1 32 199999#32),
    StableHlo.nullary main_call16_c_2 (constantI S_ 32 0#32),
    StableHlo.unary main_call16_c_2 main_call16_v6 ((broadcastInDim S6400000x1 ![] bcast_S_S6400000x1) : (⟨S_, .i32⟩ : BufTy).Contents (Elt F) → (⟨S6400000x1, .i32⟩ : BufTy).Contents (Elt F)),
    StableHlo.binary main_call16_v5 main_call16_v6 main_call16_v7 ((cmpi .sge) : (⟨S6400000x1, .i32⟩ : BufTy).Contents (Elt F) → (⟨S6400000x1, .i32⟩ : BufTy).Contents (Elt F) → (⟨S6400000x1, .i1⟩ : BufTy).Contents (Elt F)),
    StableHlo.unary main_call16_c_1 main_call16_v8 ((broadcastInDim S1x1 ![1] bcast_S1_S1x1_1) : (⟨S1, .i32⟩ : BufTy).Contents (Elt F) → (⟨S1x1, .i32⟩ : BufTy).Contents (Elt F)),
    StableHlo.unary main_call16_v8 main_call16_v9 ((broadcastInDim S6400000x1 ![0, 1] bcast_S1x1_S6400000x1_0_1) : (⟨S1x1, .i32⟩ : BufTy).Contents (Elt F) → (⟨S6400000x1, .i32⟩ : BufTy).Contents (Elt F)),
    StableHlo.binary main_call16_v5 main_call16_v9 main_call16_v10 ((cmpi .sle) : (⟨S6400000x1, .i32⟩ : BufTy).Contents (Elt F) → (⟨S6400000x1, .i32⟩ : BufTy).Contents (Elt F) → (⟨S6400000x1, .i1⟩ : BufTy).Contents (Elt F)),
    StableHlo.binary main_call16_v7 main_call16_v10 main_call16_v11 (andi : (⟨S6400000x1, .i1⟩ : BufTy).Contents (Elt F) → (⟨S6400000x1, .i1⟩ : BufTy).Contents (Elt F) → (⟨S6400000x1, .i1⟩ : BufTy).Contents (Elt F)),
    StableHlo.nullary main_call16_c_3 (constantI S_ 1 1#1),
    StableHlo.binary main_call16_v11 main_call16_c_3 main_call16_v12 ((fun x v => Host.reduce IntOp.andi x v reducesTo_S6400000x1_S6400000_d1 h_S_) : (⟨S6400000x1, .i1⟩ : BufTy).Contents (Elt F) → (⟨S_, .i1⟩ : BufTy).Contents (Elt F) → (⟨S6400000, .i1⟩ : BufTy).Contents (Elt F)),
    StableHlo.binary main_v79 main_call16_v5 main_call16_v13 ((fun x i => Host.gather gather_S200000_S6400000x1_S6400000_n_0_n_n_0_1_1 x i) : (⟨S200000, .f32⟩ : BufTy).Contents (Elt F) → (⟨S6400000x1, .i32⟩ : BufTy).Contents (Elt F) → (⟨S6400000, .f32⟩ : BufTy).Contents (Elt F)),
    StableHlo.nullary main_call16_cst (constant S_ .f32 0x7FC00000#32),
    StableHlo.unary main_call16_cst main_call16_v14 ((broadcastInDim S6400000 ![] bcast_S_S6400000) : (⟨S_, .f32⟩ : BufTy).Contents (Elt F) → (⟨S6400000, .f32⟩ : BufTy).Contents (Elt F)),
    StableHlo.ternary main_call16_v12 main_call16_v13 main_call16_v14 main_v80 (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)) ]

/-- The range mask's reduction over typed references is the operation over the buffers, whatever the reduction. -/
theorem take5_reduce (g : (⟨S6400000x1, .i1⟩ : BufTy).Contents (Elt F) → (⟨S_, .i1⟩ : BufTy).Contents (Elt F) → (⟨S6400000, .i1⟩ : BufTy).Contents (Elt F)) :
    (StableHlo.TRef.binary (.of main_call16_v11 : StableHlo.TRef sig ⟨S6400000x1, .i1⟩) (.of main_call16_c_3 : StableHlo.TRef sig ⟨S_, .i1⟩) (.of main_call16_v12 : StableHlo.TRef sig ⟨S6400000, .i1⟩) g : HloOp τ sig (Elt F)) = StableHlo.binary main_call16_v11 main_call16_c_3 main_call16_v12 g := rfl

set_option maxHeartbeats 4000000 in
/-- The called function's operations are those over the buffers, one by one. -/
theorem take5_eq : (hostOps5_1 : List (HloOp τ sig (Elt F))) = take5 := by
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (take5_reduce _) ?_
  refine congrArg₂ List.cons rfl ?_
  refine congrArg₂ List.cons rfl ?_
  refine congrArg₂ List.cons rfl ?_
  refine congrArg₂ List.cons rfl ?_
  rfl

/-- The buffers after the five stretches of host operations between the two kernels. -/
abbrev S5 : Valuation τ sig (Elt F) :=
  after hostOps5_4 (after hostOps5_3 (after hostOps5_2 (after hostOps5_1 (after hostOps5 U))))

set_option maxHeartbeats 4000000 in
theorem s5_scat_any : S5 U (Proc.devRef .tc main_v85)
    = NodeLayerF.padRow (NodeLayerF.segSum (U (Proc.devRef .tc main_v1)) (NodeLayerF.takeSrc (NodeLayerF.unpadRow (U (Proc.devRef .tc main_v77_0))) (U (Proc.devRef .tc main_v0)))) := by
  show after _ (after _ (after _ (after hostOps5_1 _))) _ = _
  rw [take5_eq]
  after_results
  rfl

end AnyInstance

open Cert.KernelIdeal.NodeLayer

variable (V : Valuation τ sig (Elt Ideal))

theorem s5_scat : S5 V (Proc.devRef .tc main_v85) = padRow (segSum (V (Proc.devRef .tc main_v1)) (takeSrc (unpadRow (V (Proc.devRef .tc main_v77_0))) (V (Proc.devRef .tc main_v0)))) :=
  (s5_scat_any V).trans (NodeLayerF.scat_ideal _ _ _)

set_option maxHeartbeats 4000000 in
theorem s5_zt : S5 V (Proc.devRef .tc main_v76) = V (Proc.devRef .tc main_v76) := by
  show after _ (after _ (after _ (after hostOps5_1 _))) _ = _
  rw [take5_eq]
  after_results

set_option maxHeartbeats 4000000 in
theorem s5_other : S5 V (Proc.devRef .tc main_v77_1) = V (Proc.devRef .tc main_v77_1) := by
  show after _ (after _ (after _ (after hostOps5_1 _))) _ = _
  rw [take5_eq]
  after_results

end Cert.KernelIdeal.Stretch

end
-- ==== Proof.Stretch6.lean ====
/-
  The host operations after the last kernel: the updated features un-padded to [N, 4].
-/
import proofs.«426513_j76897094467615_2_alg».proof.Proof.Gen.KernelIdeal.Launch
import proofs.«426513_j76897094467615_2_alg».proof.Proof.NodeLayer
import Idealize.ShloMosaic.Lib.StableHlo.Run

set_option maxRecDepth 16384

noncomputable section

namespace Cert.KernelIdeal.Stretch

open Idealize.ShloMosaic Idealize.ShloMosaic.TcCoe Idealize.ShloMosaic.StableHlo Idealize.SL.Sem
open Cert.KernelIdeal Cert.KernelIdeal.Facts₀ Cert.KernelIdeal.Facts Cert.KernelIdeal.Gen Cert.KernelIdeal.NodeLayer

variable (V : Valuation τ sig (Elt Ideal))

/-- The buffers after the last stretch of host operations. -/
abbrev S6 : Valuation τ sig (Elt Ideal) := after hostOps6 V

set_option maxHeartbeats 2000000 in
theorem s6_out : S6 V (Proc.devRef .tc main_v88) = unpadT (V (Proc.devRef .tc main_v86)) := by
  show after _ _ _ = _
  after_results
  rfl

end Cert.KernelIdeal.Stretch

end
-- ==== Proof.RegionPre0.lean ====
/-
  What the first kernel (per node: the gather's source term and the node-level terms) leaves in its two output
  arrays, as functions of the arrays it finds, index by index.

  The grid has three points; point t handles columns [66688 t, 66688 (t + 1)) of every [·, 200064] array and the
  whole of the small [4, 1] and [1, 1] arrays. At a column n the body stores
      out 7 [0, n] = sum_f z[f, n] * wsrc[f, 0]
      out 8 [0, n] = (sum_f z[f, n] * wdst[f, 0]) * indeg[0, n] + sum_f saux[f, n] * waux[f, 0] + bias[0, 0] * indeg[0, n].
  The three blocks tile the arrays, so each output array is that function of the input arrays everywhere.
-/
import proofs.«426513_j76897094467615_2_alg».proof.Proof.Gen.KernelIdeal.Frame
import proofs.«426513_j76897094467615_2_alg».proof.Proof.NodeLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.NodeLayer

variable (V : (c : Dev nD) → (b : Ref sig .tc) → Buf (Elt Ideal) ((c : Thread nD τ).loc b))

/-- The zero offsets of a whole-buffer access. -/
private theorem hz : (![0, 0] : Fin 2 → Nat) = fun _ => 0 :=
  funext fun a => match a with | ⟨0, _⟩ => rfl | ⟨1, _⟩ => rfl

/-- A column [a, 1] broadcast to [a, b] reads, at (p, c), the column's entry of row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the four rows of a [4, b] vector, read at column q. -/
private theorem rowSum_apply {b : ℕ} (v : FVec Ideal ⟨2, ![4, b]⟩ .f32) (h : (⟨2, ![4, b]⟩ : Shape).Reduces [0] ⟨1, ![b]⟩)
    (hφ : FKind.Formats .f32) (hacc : (0x00000000#32 : BitVec 32) = 0x00000000#32) (q : Fin b) :
    multiReduction (F := Ideal) .add [0] ⟨1, ![b]⟩ v 0x00000000#32 h hφ hacc (ix1 q) = ∑ f : Fin 4, v (ix2 f q) := by
  refine (Ideal.multiReduction_add_single v 0x00000000#32 h hφ hacc (ix1 q)).trans ?_
  refine Finset.sum_congr rfl fun f _ => congrArg v ?_
  funext a
  match a with
  | ⟨0, _⟩ => rfl
  | ⟨1, _⟩ => rfl

/-- The rows of a [4, 66688] vector weighted by a column [4, 1] and summed, read at column q. -/
private theorem weightedSum_apply (x : FVec Ideal S4x66688 .f32) (w : FVec Ideal S4x1 .f32) (hb : S4x1.Broadcasts S4x66688)
    (hr : S4x66688.Reduces [0] S66688) (hφ : FKind.Formats .f32) (hacc : (0x00000000#32 : BitVec 32) = 0x00000000#32)
    (q : Fin 66688) :
    multiReduction (F := Ideal) .add [0] S66688 (mulf x (broadcastTo S4x66688 w hb)) 0x00000000#32 hr hφ hacc (ix1 q)
      = ∑ f : Fin 4, x (ix2 f q) * w (ix2 f (0 : Fin 1)) :=
  (rowSum_apply _ hr hφ hacc q).trans
    (Finset.sum_congr rfl fun f _ => by rw [mulf_apply, broadcastTo_a1_ab_apply])

/-- The source term's payload at column q: sum over the rows f of x0[f, q] * w[f, 0]. -/
private theorem k0_pay2_apply (x0 : Vec Ideal S4x66688 .f32) (x3 : Vec Ideal S4x1 .f32) (u : Fin 1) (q : Fin 66688) :
    k0_pay2 x0 x3 (ix2 u q) = ∑ f : Fin 4, x0 (ix2 f q) * x3 (ix2 f (0 : Fin 1)) := by
  unfold k0_pay2 k0_pay1
  refine (shapeCast_a_1a_apply _ _ u q).trans ?_
  refine (rowSum_apply _ _ _ _ q).trans ?_
  refine Finset.sum_congr rfl fun f _ => ?_
  rw [mulf_apply, shapeCast_self, broadcastTo_a1_ab_apply, shapeCast_self]

/-- The node-level terms' payload at column q. -/
private theorem k0_pay3_apply (x0 x1 : Vec Ideal S4x66688 .f32) (x2 : Vec Ideal S1x66688 .f32) (x4 x5 : Vec Ideal S4x1 .f32)
    (x6 : Vec Ideal S1x1 .f32) (u : Fin 1) (q : Fin 66688) :
    k0_pay3 x0 x1 x2 x4 x5 x6 (ix2 u q)
      = ((∑ f : Fin 4, x0 (ix2 f q) * x4 (ix2 f (0 : Fin 1))) * x2 (ix2 u q)
          + ∑ f : Fin 4, x1 (ix2 f q) * x5 (ix2 f (0 : Fin 1)))
        + x6 (ix2 (0 : Fin 1) (0 : Fin 1)) * x2 (ix2 u q) := by
  obtain rfl : u = 0 := Subsingleton.elim _ _
  unfold k0_pay3 k0_pay1
  dsimp only
  simp only [addf_apply, mulf_apply, shapeCast_self, shapeCast_a_1a_apply, broadcastTo_a1_ab_apply]
  exact congrArg₂ (· + ·)
    (congrArg₂ (· + ·) (congrArg (· * x2 (ix2 0 q)) (weightedSum_apply x0 x4 _ _ _ _ q)) (weightedSum_apply x1 x5 _ _ _ _ q))
    rfl

/-- The printed index maps over the three grid points: a [·, 66688] block of point t is block (0, t) of its array, and
    the small arrays are taken whole at every point. -/
private theorem index_facts0 : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = t.val)
    ∧ (win0_8.index t (0 : Fin 2) = 0 ∧ win0_8.index t (1 : Fin 2) = t.val) :=
  (by decide +kernel : ∀ t : Fin grid0.N, _)

/-- Window 0's block at point t, at row f and column q of the block, is its array at row f and column 66688 t + q. -/
private theorem iblk0_0_apply (c : Dev nD) (t : Fin cfg0.N) (f : Fin 4) (q : Fin 66688) (n : Fin 200064)
    (hn : n.val = t.val * 66688 + q.val) : iblk0 V c 0 t (ix2 f q) = V c main_v26 (ix2 f n) := by
  obtain ⟨⟨e0, e1⟩, -⟩ := index_facts0 t
  show V c main_v26 (((cfg0.win 0).blk t).view.emb (ix2 f q)) = V c main_v26 (ix2 f n)
  refine congrArg (V c main_v26) (funext fun a => Fin.ext ?_)
  match a with
  | ⟨0, _⟩ => show win0_0.index t (0 : Fin 2) * 4 + 1 * f.val = f.val; omega
  | ⟨1, _⟩ => show win0_0.index t (1 : Fin 2) * 66688 + 1 * q.val = n.val; omega

/-- Window 3's block at any point is its whole array. -/
private theorem iblk0_3_apply (c : Dev nD) (t : Fin cfg0.N) (f : Fin 4) :
    iblk0 V c 3 t (ix2 f (0 : Fin 1)) = V c main_v17 (ix2 f (0 : Fin 1)) := by
  obtain ⟨-, -, -, ⟨e0, e1⟩, -⟩ := index_facts0 t
  show V c main_v17 (((cfg0.win 3).blk t).view.emb (ix2 f (0 : Fin 1))) = V c main_v17 (ix2 f (0 : Fin 1))
  refine congrArg (V c main_v17) (funext fun a => Fin.ext ?_)
  match a with
  | ⟨0, _⟩ => show win0_3.index t (0 : Fin 2) * 4 + 1 * f.val = f.val; omega
  | ⟨1, _⟩ => show win0_3.index t (1 : Fin 2) * 1 + 1 * 0 = 0; omega

/-- What point t writes back to the source term's array is its block of the source term's row. -/
private theorem flushed0_7_eq (c : Dev nD) (t : Fin cfg0.N) :
    (dat0 (F := Ideal) V c).flushed 7 t
      = ((cfg0.win 7).blk t).view.read (Elt Ideal) (ysrcRow (V c main_v26) (V c main_v17)) := by
  show (cfg0.win 7).cut (grid0.coords t) ((dat0 V c).after 7 t) = _
  rw [after0_7]
  unfold out0_7
  rw [View.canon_unit_zero hz]
  simp only [View.ld_unit_zero (S := S4x66688) hz, View.ld_unit_zero (S := S4x1) hz]
  obtain ⟨-, -, -, -, -, -, -, ⟨e0, e1⟩, -⟩ := index_facts0 t
  funext j
  obtain ⟨u, q, rfl⟩ : ∃ (u : Fin 1) (q : Fin 66688), j = ix2 u q := ⟨j 0, j 1, eq_ix2 j⟩
  show k0_pay2 (iblk0 V c 0 t) (iblk0 V c 3 t) (ix2 u q)
    = ysrcRow (V c main_v26) (V c main_v17) (((cfg0.win 7).blk t).view.emb (ix2 u q))
  refine (k0_pay2_apply _ _ u q).trans ?_
  refine Finset.sum_congr rfl fun f _ => congrArg₂ (· * ·) (iblk0_0_apply V c t f q _ ?_) (iblk0_3_apply V c t f)
  show win0_7.index t (1 : Fin 2) * 66688 + 1 * q.val = t.val * 66688 + q.val
  omega

/-- An index of the source term's array is in point t's block iff each coordinate is in the block's range on its axis. -/
private theorem mem_blk0_7 (t : Fin cfg0.N) (i : S1x200064.Idx) :
    i ∈ ((cfg0.win 7).blk t).view.set
      ↔ ∀ a : Fin 2, win0_7.index t a * S1x66688.size a ≤ (i a).val
          ∧ (i a).val < win0_7.index t a * S1x66688.size a + S1x66688.size a := by
  show i ∈ ((View.whole main_v27_0).slice (win0_7.rect t)).set ↔ _
  rw [View.set_slice_whole, Rect.mem_set_unit]
  exact Iff.rfl

/-- Column n of the source term's array is in the block of point n / 66688, and 3 * 66688 = 200064: the blocks cover it. -/
private theorem covered0_7 (i : S1x200064.Idx) :
    ∃ t : Fin cfg0.N, (cfg0.win 7).flush t = true ∧ i ∈ ((cfg0.win 7).blk t).view.set := by
  have hi0 : (i 0).val < 1 := (i 0).isLt
  have hi1 : (i 1).val < 200064 := (i 1).isLt
  obtain ⟨t, ht⟩ : ∃ t : Fin cfg0.N, t.val = (i 1).val / 66688 :=
    ⟨⟨(i 1).val / 66688, Nat.lt_of_lt_of_eq (by omega : (i 1).val / 66688 < 3) (by decide : 3 = grid0.N)⟩, rfl⟩
  obtain ⟨-, -, -, -, -, -, -, ⟨e0, e1⟩, -⟩ := index_facts0 t
  refine ⟨t, flush0_7 t, ?_⟩
  rw [mem_blk0_7]
  intro a
  match a with
  | ⟨0, _⟩ =>
    show win0_7.index t (0 : Fin 2) * 1 ≤ (i 0).val ∧ (i 0).val < win0_7.index t (0 : Fin 2) * 1 + 1
    omega
  | ⟨1, _⟩ =>
    show win0_7.index t (1 : Fin 2) * 66688 ≤ (i 1).val ∧ (i 1).val < win0_7.index t (1 : Fin 2) * 66688 + 66688
    omega

/-- Region 0: the source term's array after the run. -/
theorem pre0_ysrc (c : Dev nD) :
    (dat0 (F := Ideal) V c).arrAt 7 cfg0.N = ysrcRow (V c main_v26) (V c main_v17) :=
  (dat0 (F := Ideal) V c).arrAt_eq_of_cover 7 (ysrcRow (V c main_v26) (V c main_v17))
    (fun t _ => flushed0_7_eq V c t) covered0_7

/-- Window 1's block at point t, at row f and column q of the block, is its array at row f and column 66688 t + q. -/
private theorem iblk0_1_apply (c : Dev nD) (t : Fin cfg0.N) (f : Fin 4) (q : Fin 66688) (n : Fin 200064)
    (hn : n.val = t.val * 66688 + q.val) : iblk0 V c 1 t (ix2 f q) = V c main_v11 (ix2 f n) := by
  obtain ⟨-, ⟨e0, e1⟩, -⟩ := index_facts0 t
  show V c main_v11 (((cfg0.win 1).blk t).view.emb (ix2 f q)) = V c main_v11 (ix2 f n)
  refine congrArg (V c main_v11) (funext fun a => Fin.ext ?_)
  match a with
  | ⟨0, _⟩ => show win0_1.index t (0 : Fin 2) * 4 + 1 * f.val = f.val; omega
  | ⟨1, _⟩ => show win0_1.index t (1 : Fin 2) * 66688 + 1 * q.val = n.val; omega

/-- Window 2's block at point t, at column q of its one row, is its array's row at column 66688 t + q. -/
private theorem iblk0_2_apply (c : Dev nD) (t : Fin cfg0.N) (u : Fin 1) (q : Fin 66688) (n : Fin 200064)
    (hn : n.val = t.val * 66688 + q.val) : iblk0 V c 2 t (ix2 u q) = V c main_v13 (ix2 (0 : Fin 1) n) := by
  obtain ⟨-, -, ⟨e0, e1⟩, -⟩ := index_facts0 t
  have hu : u.val < 1 := u.isLt
  show V c main_v13 (((cfg0.win 2).blk t).view.emb (ix2 u q)) = V c main_v13 (ix2 (0 : Fin 1) n)
  refine congrArg (V c main_v13) (funext fun a => Fin.ext ?_)
  match a with
  | ⟨0, _⟩ => show win0_2.index t (0 : Fin 2) * 1 + 1 * u.val = 0; omega
  | ⟨1, _⟩ => show win0_2.index t (1 : Fin 2) * 66688 + 1 * q.val = n.val; omega

/-- Window 4's block at any point is its whole array. -/
private theorem iblk0_4_apply (c : Dev nD) (t : Fin cfg0.N) (f : Fin 4) :
    iblk0 V c 4 t (ix2 f (0 : Fin 1)) = V c main_v19 (ix2 f (0 : Fin 1)) := by
  obtain ⟨-, -, -, -, ⟨e0, e1⟩, -⟩ := index_facts0 t
  show V c main_v19 (((cfg0.win 4).blk t).view.emb (ix2 f (0 : Fin 1))) = V c main_v19 (ix2 f (0 : Fin 1))
  refine congrArg (V c main_v19) (funext fun a => Fin.ext ?_)
  match a with
  | ⟨0, _⟩ => show win0_4.index t (0 : Fin 2) * 4 + 1 * f.val = f.val; omega
  | ⟨1, _⟩ => show win0_4.index t (1 : Fin 2) * 1 + 1 * 0 = 0; omega

/-- Window 5's block at any point is its whole array. -/
private theorem iblk0_5_apply (c : Dev nD) (t : Fin cfg0.N) (f : Fin 4) :
    iblk0 V c 5 t (ix2 f (0 : Fin 1)) = V c main_v21 (ix2 f (0 : Fin 1)) := by
  obtain ⟨-, -, -, -, -, ⟨e0, e1⟩, -⟩ := index_facts0 t
  show V c main_v21 (((cfg0.win 5).blk t).view.emb (ix2 f (0 : Fin 1))) = V c main_v21 (ix2 f (0 : Fin 1))
  refine congrArg (V c main_v21) (funext fun a => Fin.ext ?_)
  match a with
  | ⟨0, _⟩ => show win0_5.index t (0 : Fin 2) * 4 + 1 * f.val = f.val; omega
  | ⟨1, _⟩ => show win0_5.index t (1 : Fin 2) * 1 + 1 * 0 = 0; omega

/-- Window 6's block at any point is its whole one-entry array. -/
private theorem iblk0_6_apply (c : Dev nD) (t : Fin cfg0.N) :
    iblk0 V c 6 t (ix2 (0 : Fin 1) (0 : Fin 1)) = V c main_v24 (ix2 (0 : Fin 1) (0 : Fin 1)) := by
  obtain ⟨-, -, -, -, -, -, ⟨e0, e1⟩, -⟩ := index_facts0 t
  show V c main_v24 (((cfg0.win 6).blk t).view.emb (ix2 (0 : Fin 1) (0 : Fin 1))) = V c main_v24 (ix2 (0 : Fin 1) (0 : Fin 1))
  refine congrArg (V c main_v24) (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

/-- What point t writes back to the node-level terms' array is its block of the node-level terms' row. -/
private theorem flushed0_8_eq (c : Dev nD) (t : Fin cfg0.N) :
    (dat0 (F := Ideal) V c).flushed 8 t
      = ((cfg0.win 8).blk t).view.read (Elt Ideal)
          (otherRow (V c main_v26) (V c main_v11) (V c main_v13) (V c main_v19) (V c main_v21) (V c main_v24)) := by
  show (cfg0.win 8).cut (grid0.coords t) ((dat0 V c).after 8 t) = _
  rw [after0_8]
  unfold out0_8
  rw [View.canon_unit_zero hz]
  simp only [View.ld_unit_zero (S := S4x66688) hz, View.ld_unit_zero (S := S1x66688) hz, View.ld_unit_zero (S := S4x1) hz,
    View.ld_unit_zero (S := S1x1) hz]
  obtain ⟨-, -, -, -, -, -, -, -, ⟨e0, e1⟩⟩ := index_facts0 t
  funext j
  obtain ⟨u, q, rfl⟩ : ∃ (u : Fin 1) (q : Fin 66688), j = ix2 u q := ⟨j 0, j 1, eq_ix2 j⟩
  show k0_pay3 (iblk0 V c 0 t) (iblk0 V c 1 t) (iblk0 V c 2 t) (iblk0 V c 4 t) (iblk0 V c 5 t) (iblk0 V c 6 t) (ix2 u q)
    = otherRow (V c main_v26) (V c main_v11) (V c main_v13) (V c main_v19) (V c main_v21) (V c main_v24)
        (((cfg0.win 8).blk t).view.emb (ix2 u q))
  refine (k0_pay3_apply _ _ _ _ _ _ u q).trans ?_
  have hn : (((cfg0.win 8).blk t).view.emb (ix2 u q) 1).val = t.val * 66688 + q.val := by
    show win0_8.index t (1 : Fin 2) * 66688 + 1 * q.val = t.val * 66688 + q.val
    omega
  exact congrArg₂ (· + ·)
    (congrArg₂ (· + ·)
      (congrArg₂ (· * ·)
        (Finset.sum_congr rfl fun f _ => congrArg₂ (· * ·) (iblk0_0_apply V c t f q _ hn) (iblk0_4_apply V c t f))
        (iblk0_2_apply V c t u q _ hn))
      (Finset.sum_congr rfl fun f _ => congrArg₂ (· * ·) (iblk0_1_apply V c t f q _ hn) (iblk0_5_apply V c t f)))
    (congrArg₂ (· * ·) (iblk0_6_apply V c t) (iblk0_2_apply V c t u q _ hn))

/-- An index of the node-level terms' array is in point t's block iff each coordinate is in the block's range on its axis. -/
private theorem mem_blk0_8 (t : Fin cfg0.N) (i : S1x200064.Idx) :
    i ∈ ((cfg0.win 8).blk t).view.set
      ↔ ∀ a : Fin 2, win0_8.index t a * S1x66688.size a ≤ (i a).val
          ∧ (i a).val < win0_8.index t a * S1x66688.size a + S1x66688.size a := by
  show i ∈ ((View.whole main_v27_1).slice (win0_8.rect t)).set ↔ _
  rw [View.set_slice_whole, Rect.mem_set_unit]
  exact Iff.rfl

/-- Column n of the node-level terms' array is in the block of point n / 66688, and 3 * 66688 = 200064: the blocks cover it. -/
private theorem covered0_8 (i : S1x200064.Idx) :
    ∃ t : Fin cfg0.N, (cfg0.win 8).flush t = true ∧ i ∈ ((cfg0.win 8).blk t).view.set := by
  have hi0 : (i 0).val < 1 := (i 0).isLt
  have hi1 : (i 1).val < 200064 := (i 1).isLt
  obtain ⟨t, ht⟩ : ∃ t : Fin cfg0.N, t.val = (i 1).val / 66688 :=
    ⟨⟨(i 1).val / 66688, Nat.lt_of_lt_of_eq (by omega : (i 1).val / 66688 < 3) (by decide : 3 = grid0.N)⟩, rfl⟩
  obtain ⟨-, -, -, -, -, -, -, -, ⟨e0, e1⟩⟩ := index_facts0 t
  refine ⟨t, flush0_8 t, ?_⟩
  rw [mem_blk0_8]
  intro a
  match a with
  | ⟨0, _⟩ =>
    show win0_8.index t (0 : Fin 2) * 1 ≤ (i 0).val ∧ (i 0).val < win0_8.index t (0 : Fin 2) * 1 + 1
    omega
  | ⟨1, _⟩ =>
    show win0_8.index t (1 : Fin 2) * 66688 ≤ (i 1).val ∧ (i 1).val < win0_8.index t (1 : Fin 2) * 66688 + 66688
    omega

/-- Region 0: the node-level terms' array after the run. -/
theorem pre0_other (c : Dev nD) :
    (dat0 (F := Ideal) V c).arrAt 8 cfg0.N
      = otherRow (V c main_v26) (V c main_v11) (V c main_v13) (V c main_v19) (V c main_v21) (V c main_v24) :=
  (dat0 (F := Ideal) V c).arrAt_eq_of_cover 8
    (otherRow (V c main_v26) (V c main_v11) (V c main_v13) (V c main_v19) (V c main_v21) (V c main_v24))
    (fun t _ => flushed0_8_eq V c t) covered0_8

end Cert.KernelIdeal.RegionValue

end
-- ==== Proof.RegionPost1.lean ====
/-
  What the second kernel (the residual update) leaves in its output array, as a function of the arrays it
  finds, index by index.

  The grid has three points; point t handles columns [66688 t, 66688 (t + 1)). At (f, n) the body stores
      out[f, n] = z[f, n] + (scatter[0, n] + other[0, n]).
  The three blocks tile the array, so the output array is that function of the input arrays everywhere.
-/
import proofs.«426513_j76897094467615_2_alg».proof.Proof.Gen.KernelIdeal.Frame
import proofs.«426513_j76897094467615_2_alg».proof.Proof.NodeLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.NodeLayer

variable (V : (c : Dev nD) → (b : Ref sig .tc) → Buf (Elt Ideal) ((c : Thread nD τ).loc b))

/-- The two zero offsets of a whole-buffer access, as the constant function. -/
private theorem post1_zero : (![0, 0] : Fin 2 → Nat) = fun _ => 0 :=
  funext fun a => by match a with | ⟨0, _⟩ => rfl | ⟨1, _⟩ => rfl

/-- The body's stored value at row p, column q of its block: z + (scatter + other) of that column. -/
private theorem post1_pay_apply (x0 : Vec Ideal S4x66688 .f32) (x1 x2 : Vec Ideal S1x66688 .f32) (p : Fin 4) (q : Fin 66688) :
    k1_pay1 (F := Ideal) x1 x2 x0 (ix2 p q) = x0 (ix2 p q) + (x1 (ix2 0 q) + x2 (ix2 0 q)) := by
  unfold k1_pay1
  simp only [shapeCast_self]
  rw [addf_apply, broadcastTo_1b_ab_apply, addf_apply]

/-- The printed index maps over the three grid points: every window's block index is (0, t). -/
private theorem post1_idx : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- Window 0's block at point t, read at (p, q), is the array read at (p, 66688 t + q). -/
private theorem post1_blk0 (c : Dev nD) (t : Fin cfg1.N) (p : Fin 4) (q : Fin 66688) (i : S4x200064.Idx)
    (h0 : (i 0).val = p.val) (h1 : (i 1).val = 66688 * t.val + q.val) :
    iblk1 V c 0 t (ix2 p q) = V c main_v26 i := by
  obtain ⟨e0, e1, -⟩ := post1_idx t
  show V c main_v26 (((cfg1.win 0).blk t).view.emb (ix2 p q)) = V c main_v26 i
  refine congrArg _ (funext fun a => Fin.ext ?_)
  match a with
  | ⟨0, _⟩ => show win1_0.index t (0 : Fin 2) * 4 + 1 * p.val = (i 0).val; rw [e0, h0]; omega
  | ⟨1, _⟩ => show win1_0.index t (1 : Fin 2) * 66688 + 1 * q.val = (i 1).val; rw [e1, h1]; omega

/-- Window 1's block at point t, read at (0, q), is the array read at (0, 66688 t + q). -/
private theorem post1_blk1 (c : Dev nD) (t : Fin cfg1.N) (q : Fin 66688) (i : S1x200064.Idx)
    (h1 : (i 1).val = 66688 * t.val + q.val) :
    iblk1 V c 1 t (ix2 0 q) = V c main_v35 i := by
  obtain ⟨-, -, e0, e1, -⟩ := post1_idx t
  show V c main_v35 (((cfg1.win 1).blk t).view.emb (ix2 0 q)) = V c main_v35 i
  refine congrArg _ (funext fun a => Fin.ext ?_)
  match a with
  | ⟨0, _⟩ => show win1_1.index t (0 : Fin 2) * 1 + 1 * 0 = (i 0).val; have hi : (i 0).val < 1 := (i 0).isLt; rw [e0]; omega
  | ⟨1, _⟩ => show win1_1.index t (1 : Fin 2) * 66688 + 1 * q.val = (i 1).val; rw [e1, h1]; omega

/-- Window 2's block at point t, read at (0, q), is the array read at (0, 66688 t + q). -/
private theorem post1_blk2 (c : Dev nD) (t : Fin cfg1.N) (q : Fin 66688) (i : S1x200064.Idx)
    (h1 : (i 1).val = 66688 * t.val + q.val) :
    iblk1 V c 2 t (ix2 0 q) = V c main_v27_1 i := by
  obtain ⟨-, -, -, -, e0, e1, -⟩ := post1_idx t
  show V c main_v27_1 (((cfg1.win 2).blk t).view.emb (ix2 0 q)) = V c main_v27_1 i
  refine congrArg _ (funext fun a => Fin.ext ?_)
  match a with
  | ⟨0, _⟩ => show win1_2.index t (0 : Fin 2) * 1 + 1 * 0 = (i 0).val; have hi : (i 0).val < 1 := (i 0).isLt; rw [e0]; omega
  | ⟨1, _⟩ => show win1_2.index t (1 : Fin 2) * 66688 + 1 * q.val = (i 1).val; rw [e1, h1]; omega

/-- The output block's index (p, q) at point t sits at (p, 66688 t + q) of the array. -/
private theorem post1_emb (t : Fin cfg1.N) (p : Fin 4) (q : Fin 66688) :
    ((((cfg1.win 3).blk t).view.emb (ix2 p q) : S4x200064.Idx) 0).val = p.val
    ∧ ((((cfg1.win 3).blk t).view.emb (ix2 p q) : S4x200064.Idx) 1).val = 66688 * t.val + q.val := by
  obtain ⟨-, -, -, -, -, -, e0, e1⟩ := post1_idx t
  constructor
  · show win1_3.index t (0 : Fin 2) * 4 + 1 * p.val = p.val; rw [e0]; omega
  · show win1_3.index t (1 : Fin 2) * 66688 + 1 * q.val = 66688 * t.val + q.val; rw [e1]; omega

/-- What point t writes back is block t of the residual update of the arrays the region finds. -/
private theorem post1_flushed (c : Dev nD) (t : Fin cfg1.N) :
    (dat1 (F := Ideal) V c).flushed 3 t
      = ((cfg1.win 3).blk t).view.read (Elt Ideal) (postArr (V c main_v26) (V c main_v35) (V c main_v27_1)) := by
  show (cfg1.win 3).cut (grid1.coords t) ((dat1 (F := Ideal) V c).after 3 t) = _
  rw [after1_3]
  unfold out1_3
  rw [View.canon_unit_zero post1_zero]
  simp only [View.ld_unit_zero (S := S1x66688) post1_zero, View.ld_unit_zero (S := S4x66688) post1_zero]
  funext j
  obtain ⟨p, q, rfl⟩ : ∃ (p : Fin 4) (q : Fin 66688), j = ix2 p q := ⟨j 0, j 1, eq_ix2 j⟩
  obtain ⟨h0, h1⟩ := post1_emb t p q
  show k1_pay1 (F := Ideal) (iblk1 V c 1 t) (iblk1 V c 2 t) (iblk1 V c 0 t) (ix2 p q)
    = postArr (V c main_v26) (V c main_v35) (V c main_v27_1) (((cfg1.win 3).blk t).view.emb (ix2 p q))
  rw [post1_pay_apply]
  unfold postArr
  rw [post1_blk0 V c t p q _ h0 h1, post1_blk1 V c t q (ix2 0 ((((cfg1.win 3).blk t).view.emb (ix2 p q) : S4x200064.Idx) 1)) h1,
    post1_blk2 V c t q (ix2 0 ((((cfg1.win 3).blk t).view.emb (ix2 p q) : S4x200064.Idx) 1)) h1]

/-- An index of the array is in point t's block iff each coordinate is in the block's range on its axis. -/
private theorem post1_mem_blk (t : Fin cfg1.N) (i : S4x200064.Idx) :
    i ∈ ((cfg1.win 3).blk t).view.set ↔ ∀ a : Fin 2, win1_3.index t a * S4x66688.size a ≤ (i a).val ∧ (i a).val < win1_3.index t a * S4x66688.size a + S4x66688.size a := by
  show i ∈ ((View.whole main_v36).slice (win1_3.rect t)).set ↔ _
  rw [View.set_slice_whole, Rect.mem_set_unit]
  exact Iff.rfl

/-- The three blocks tile the array: column n lies in the block of point n / 66688. -/
private theorem post1_cover (i : S4x200064.Idx) :
    ∃ t : Fin cfg1.N, (cfg1.win 3).flush t = true ∧ i ∈ ((cfg1.win 3).blk t).view.set := by
  have hi0 : (i 0).val < 4 := (i 0).isLt
  have hi1 : (i 1).val < 200064 := (i 1).isLt
  have hN : (i 1).val / 66688 < cfg1.N := by show (i 1).val / 66688 < 3; omega
  refine ⟨⟨(i 1).val / 66688, hN⟩, flush1_3 _, ?_⟩
  obtain ⟨-, -, -, -, -, -, e0, e1⟩ := post1_idx ⟨(i 1).val / 66688, hN⟩
  rw [post1_mem_blk]
  intro a
  match a with
  | ⟨0, _⟩ =>
    show win1_3.index ⟨(i 1).val / 66688, hN⟩ (0 : Fin 2) * 4 ≤ (i 0).val ∧ (i 0).val < win1_3.index ⟨(i 1).val / 66688, hN⟩ (0 : Fin 2) * 4 + 4
    rw [e0]; omega
  | ⟨1, _⟩ =>
    show win1_3.index ⟨(i 1).val / 66688, hN⟩ (1 : Fin 2) * 66688 ≤ (i 1).val ∧ (i 1).val < win1_3.index ⟨(i 1).val / 66688, hN⟩ (1 : Fin 2) * 66688 + 66688
    rw [e1]; show (i 1).val / 66688 * 66688 ≤ (i 1).val ∧ (i 1).val < (i 1).val / 66688 * 66688 + 66688; omega

/-- Region 1: the updated features' array after the run. -/
theorem post1_out (c : Dev nD) :
    (dat1 (F := Ideal) V c).arrAt 3 cfg1.N = postArr (V c main_v26) (V c main_v35) (V c main_v27_1) :=
  (dat1 (F := Ideal) V c).arrAt_eq_of_cover 3 (postArr (V c main_v26) (V c main_v35) (V c main_v27_1))
    (fun t _ => post1_flushed V c t) post1_cover

end Cert.KernelIdeal.RegionValue

end
-- ==== Proof.RegionPre2.lean ====
/-
  What the first kernel (per node: the gather's source term and the node-level terms) leaves in its two output
  arrays, as functions of the arrays it finds, index by index.

  The grid has three points; point t handles columns [66688 t, 66688 (t + 1)) of every [·, 200064] array and the
  whole of the small [4, 1] and [1, 1] arrays. At a column n the body stores
      out 7 [0, n] = sum_f z[f, n] * wsrc[f, 0]
      out 8 [0, n] = (sum_f z[f, n] * wdst[f, 0]) * indeg[0, n] + sum_f saux[f, n] * waux[f, 0] + bias[0, 0] * indeg[0, n].
  The three blocks tile the arrays, so each output array is that function of the input arrays everywhere.
-/
import proofs.«426513_j76897094467615_2_alg».proof.Proof.Gen.KernelIdeal.Frame
import proofs.«426513_j76897094467615_2_alg».proof.Proof.NodeLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.NodeLayer

variable (V : (c : Dev nD) → (b : Ref sig .tc) → Buf (Elt Ideal) ((c : Thread nD τ).loc b))

/-- The zero offsets of a whole-buffer access. -/
private theorem hz : (![0, 0] : Fin 2 → Nat) = fun _ => 0 :=
  funext fun a => match a with | ⟨0, _⟩ => rfl | ⟨1, _⟩ => rfl

/-- A column [a, 1] broadcast to [a, b] reads, at (p, c), the column's entry of row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the four rows of a [4, b] vector, read at column q. -/
private theorem rowSum_apply {b : ℕ} (v : FVec Ideal ⟨2, ![4, b]⟩ .f32) (h : (⟨2, ![4, b]⟩ : Shape).Reduces [0] ⟨1, ![b]⟩)
    (hφ : FKind.Formats .f32) (hacc : (0x00000000#32 : BitVec 32) = 0x00000000#32) (q : Fin b) :
    multiReduction (F := Ideal) .add [0] ⟨1, ![b]⟩ v 0x00000000#32 h hφ hacc (ix1 q) = ∑ f : Fin 4, v (ix2 f q) := by
  refine (Ideal.multiReduction_add_single v 0x00000000#32 h hφ hacc (ix1 q)).trans ?_
  refine Finset.sum_congr rfl fun f _ => congrArg v ?_
  funext a
  match a with
  | ⟨0, _⟩ => rfl
  | ⟨1, _⟩ => rfl

/-- The rows of a [4, 66688] vector weighted by a column [4, 1] and summed, read at column q. -/
private theorem weightedSum_apply (x : FVec Ideal S4x66688 .f32) (w : FVec Ideal S4x1 .f32) (hb : S4x1.Broadcasts S4x66688)
    (hr : S4x66688.Reduces [0] S66688) (hφ : FKind.Formats .f32) (hacc : (0x00000000#32 : BitVec 32) = 0x00000000#32)
    (q : Fin 66688) :
    multiReduction (F := Ideal) .add [0] S66688 (mulf x (broadcastTo S4x66688 w hb)) 0x00000000#32 hr hφ hacc (ix1 q)
      = ∑ f : Fin 4, x (ix2 f q) * w (ix2 f (0 : Fin 1)) :=
  (rowSum_apply _ hr hφ hacc q).trans
    (Finset.sum_congr rfl fun f _ => by rw [mulf_apply, broadcastTo_a1_ab_apply])

/-- The source term's payload at column q: sum over the rows f of x0[f, q] * w[f, 0]. -/
private theorem k2_pay2_apply (x0 : Vec Ideal S4x66688 .f32) (x3 : Vec Ideal S4x1 .f32) (u : Fin 1) (q : Fin 66688) :
    k2_pay2 x0 x3 (ix2 u q) = ∑ f : Fin 4, x0 (ix2 f q) * x3 (ix2 f (0 : Fin 1)) := by
  unfold k2_pay2 k2_pay1
  refine (shapeCast_a_1a_apply _ _ u q).trans ?_
  refine (rowSum_apply _ _ _ _ q).trans ?_
  refine Finset.sum_congr rfl fun f _ => ?_
  rw [mulf_apply, shapeCast_self, broadcastTo_a1_ab_apply, shapeCast_self]

/-- The node-level terms' payload at column q. -/
private theorem k2_pay3_apply (x0 x1 : Vec Ideal S4x66688 .f32) (x2 : Vec Ideal S1x66688 .f32) (x4 x5 : Vec Ideal S4x1 .f32)
    (x6 : Vec Ideal S1x1 .f32) (u : Fin 1) (q : Fin 66688) :
    k2_pay3 x0 x1 x2 x4 x5 x6 (ix2 u q)
      = ((∑ f : Fin 4, x0 (ix2 f q) * x4 (ix2 f (0 : Fin 1))) * x2 (ix2 u q)
          + ∑ f : Fin 4, x1 (ix2 f q) * x5 (ix2 f (0 : Fin 1)))
        + x6 (ix2 (0 : Fin 1) (0 : Fin 1)) * x2 (ix2 u q) := by
  obtain rfl : u = 0 := Subsingleton.elim _ _
  unfold k2_pay3 k2_pay1
  dsimp only
  simp only [addf_apply, mulf_apply, shapeCast_self, shapeCast_a_1a_apply, broadcastTo_a1_ab_apply]
  exact congrArg₂ (· + ·)
    (congrArg₂ (· + ·) (congrArg (· * x2 (ix2 0 q)) (weightedSum_apply x0 x4 _ _ _ _ q)) (weightedSum_apply x1 x5 _ _ _ _ q))
    rfl

/-- The printed index maps over the three grid points: a [·, 66688] block of point t is block (0, t) of its array, and
    the small arrays are taken whole at every point. -/
private theorem index_facts0 : ∀ t : Fin cfg2.N,
    (win2_0.index t (0 : Fin 2) = 0 ∧ win2_0.index t (1 : Fin 2) = t.val)
    ∧ (win2_1.index t (0 : Fin 2) = 0 ∧ win2_1.index t (1 : Fin 2) = t.val)
    ∧ (win2_2.index t (0 : Fin 2) = 0 ∧ win2_2.index t (1 : Fin 2) = t.val)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = t.val)
    ∧ (win2_8.index t (0 : Fin 2) = 0 ∧ win2_8.index t (1 : Fin 2) = t.val) :=
  (by decide +kernel : ∀ t : Fin grid2.N, _)

/-- Window 0's block at point t, at row f and column q of the block, is its array at row f and column 66688 t + q. -/
private theorem iblk0_0_apply (c : Dev nD) (t : Fin cfg2.N) (f : Fin 4) (q : Fin 66688) (n : Fin 200064)
    (hn : n.val = t.val * 66688 + q.val) : iblk2 V c 0 t (ix2 f q) = V c main_v51 (ix2 f n) := by
  obtain ⟨⟨e0, e1⟩, -⟩ := index_facts0 t
  show V c main_v51 (((cfg2.win 0).blk t).view.emb (ix2 f q)) = V c main_v51 (ix2 f n)
  refine congrArg (V c main_v51) (funext fun a => Fin.ext ?_)
  match a with
  | ⟨0, _⟩ => show win2_0.index t (0 : Fin 2) * 4 + 1 * f.val = f.val; omega
  | ⟨1, _⟩ => show win2_0.index t (1 : Fin 2) * 66688 + 1 * q.val = n.val; omega

/-- Window 3's block at any point is its whole array. -/
private theorem iblk0_3_apply (c : Dev nD) (t : Fin cfg2.N) (f : Fin 4) :
    iblk2 V c 3 t (ix2 f (0 : Fin 1)) = V c main_v42 (ix2 f (0 : Fin 1)) := by
  obtain ⟨-, -, -, ⟨e0, e1⟩, -⟩ := index_facts0 t
  show V c main_v42 (((cfg2.win 3).blk t).view.emb (ix2 f (0 : Fin 1))) = V c main_v42 (ix2 f (0 : Fin 1))
  refine congrArg (V c main_v42) (funext fun a => Fin.ext ?_)
  match a with
  | ⟨0, _⟩ => show win2_3.index t (0 : Fin 2) * 4 + 1 * f.val = f.val; omega
  | ⟨1, _⟩ => show win2_3.index t (1 : Fin 2) * 1 + 1 * 0 = 0; omega

/-- What point t writes back to the source term's array is its block of the source term's row. -/
private theorem flushed0_7_eq (c : Dev nD) (t : Fin cfg2.N) :
    (dat2 (F := Ideal) V c).flushed 7 t
      = ((cfg2.win 7).blk t).view.read (Elt Ideal) (ysrcRow (V c main_v51) (V c main_v42)) := by
  show (cfg2.win 7).cut (grid2.coords t) ((dat2 V c).after 7 t) = _
  rw [after2_7]
  unfold out2_7
  rw [View.canon_unit_zero hz]
  simp only [View.ld_unit_zero (S := S4x66688) hz, View.ld_unit_zero (S := S4x1) hz]
  obtain ⟨-, -, -, -, -, -, -, ⟨e0, e1⟩, -⟩ := index_facts0 t
  funext j
  obtain ⟨u, q, rfl⟩ : ∃ (u : Fin 1) (q : Fin 66688), j = ix2 u q := ⟨j 0, j 1, eq_ix2 j⟩
  show k2_pay2 (iblk2 V c 0 t) (iblk2 V c 3 t) (ix2 u q)
    = ysrcRow (V c main_v51) (V c main_v42) (((cfg2.win 7).blk t).view.emb (ix2 u q))
  refine (k2_pay2_apply _ _ u q).trans ?_
  refine Finset.sum_congr rfl fun f _ => congrArg₂ (· * ·) (iblk0_0_apply V c t f q _ ?_) (iblk0_3_apply V c t f)
  show win2_7.index t (1 : Fin 2) * 66688 + 1 * q.val = t.val * 66688 + q.val
  omega

/-- An index of the source term's array is in point t's block iff each coordinate is in the block's range on its axis. -/
private theorem mem_blk0_7 (t : Fin cfg2.N) (i : S1x200064.Idx) :
    i ∈ ((cfg2.win 7).blk t).view.set
      ↔ ∀ a : Fin 2, win2_7.index t a * S1x66688.size a ≤ (i a).val
          ∧ (i a).val < win2_7.index t a * S1x66688.size a + S1x66688.size a := by
  show i ∈ ((View.whole main_v52_0).slice (win2_7.rect t)).set ↔ _
  rw [View.set_slice_whole, Rect.mem_set_unit]
  exact Iff.rfl

/-- Column n of the source term's array is in the block of point n / 66688, and 3 * 66688 = 200064: the blocks cover it. -/
private theorem covered0_7 (i : S1x200064.Idx) :
    ∃ t : Fin cfg2.N, (cfg2.win 7).flush t = true ∧ i ∈ ((cfg2.win 7).blk t).view.set := by
  have hi0 : (i 0).val < 1 := (i 0).isLt
  have hi1 : (i 1).val < 200064 := (i 1).isLt
  obtain ⟨t, ht⟩ : ∃ t : Fin cfg2.N, t.val = (i 1).val / 66688 :=
    ⟨⟨(i 1).val / 66688, Nat.lt_of_lt_of_eq (by omega : (i 1).val / 66688 < 3) (by decide : 3 = grid2.N)⟩, rfl⟩
  obtain ⟨-, -, -, -, -, -, -, ⟨e0, e1⟩, -⟩ := index_facts0 t
  refine ⟨t, flush2_7 t, ?_⟩
  rw [mem_blk0_7]
  intro a
  match a with
  | ⟨0, _⟩ =>
    show win2_7.index t (0 : Fin 2) * 1 ≤ (i 0).val ∧ (i 0).val < win2_7.index t (0 : Fin 2) * 1 + 1
    omega
  | ⟨1, _⟩ =>
    show win2_7.index t (1 : Fin 2) * 66688 ≤ (i 1).val ∧ (i 1).val < win2_7.index t (1 : Fin 2) * 66688 + 66688
    omega

/-- Region 2: the source term's array after the run. -/
theorem pre2_ysrc (c : Dev nD) :
    (dat2 (F := Ideal) V c).arrAt 7 cfg2.N = ysrcRow (V c main_v51) (V c main_v42) :=
  (dat2 (F := Ideal) V c).arrAt_eq_of_cover 7 (ysrcRow (V c main_v51) (V c main_v42))
    (fun t _ => flushed0_7_eq V c t) covered0_7

/-- Window 1's block at point t, at row f and column q of the block, is its array at row f and column 66688 t + q. -/
private theorem iblk0_1_apply (c : Dev nD) (t : Fin cfg2.N) (f : Fin 4) (q : Fin 66688) (n : Fin 200064)
    (hn : n.val = t.val * 66688 + q.val) : iblk2 V c 1 t (ix2 f q) = V c main_v11 (ix2 f n) := by
  obtain ⟨-, ⟨e0, e1⟩, -⟩ := index_facts0 t
  show V c main_v11 (((cfg2.win 1).blk t).view.emb (ix2 f q)) = V c main_v11 (ix2 f n)
  refine congrArg (V c main_v11) (funext fun a => Fin.ext ?_)
  match a with
  | ⟨0, _⟩ => show win2_1.index t (0 : Fin 2) * 4 + 1 * f.val = f.val; omega
  | ⟨1, _⟩ => show win2_1.index t (1 : Fin 2) * 66688 + 1 * q.val = n.val; omega

/-- Window 2's block at point t, at column q of its one row, is its array's row at column 66688 t + q. -/
private theorem iblk0_2_apply (c : Dev nD) (t : Fin cfg2.N) (u : Fin 1) (q : Fin 66688) (n : Fin 200064)
    (hn : n.val = t.val * 66688 + q.val) : iblk2 V c 2 t (ix2 u q) = V c main_v13 (ix2 (0 : Fin 1) n) := by
  obtain ⟨-, -, ⟨e0, e1⟩, -⟩ := index_facts0 t
  have hu : u.val < 1 := u.isLt
  show V c main_v13 (((cfg2.win 2).blk t).view.emb (ix2 u q)) = V c main_v13 (ix2 (0 : Fin 1) n)
  refine congrArg (V c main_v13) (funext fun a => Fin.ext ?_)
  match a with
  | ⟨0, _⟩ => show win2_2.index t (0 : Fin 2) * 1 + 1 * u.val = 0; omega
  | ⟨1, _⟩ => show win2_2.index t (1 : Fin 2) * 66688 + 1 * q.val = n.val; omega

/-- Window 4's block at any point is its whole array. -/
private theorem iblk0_4_apply (c : Dev nD) (t : Fin cfg2.N) (f : Fin 4) :
    iblk2 V c 4 t (ix2 f (0 : Fin 1)) = V c main_v44 (ix2 f (0 : Fin 1)) := by
  obtain ⟨-, -, -, -, ⟨e0, e1⟩, -⟩ := index_facts0 t
  show V c main_v44 (((cfg2.win 4).blk t).view.emb (ix2 f (0 : Fin 1))) = V c main_v44 (ix2 f (0 : Fin 1))
  refine congrArg (V c main_v44) (funext fun a => Fin.ext ?_)
  match a with
  | ⟨0, _⟩ => show win2_4.index t (0 : Fin 2) * 4 + 1 * f.val = f.val; omega
  | ⟨1, _⟩ => show win2_4.index t (1 : Fin 2) * 1 + 1 * 0 = 0; omega

/-- Window 5's block at any point is its whole array. -/
private theorem iblk0_5_apply (c : Dev nD) (t : Fin cfg2.N) (f : Fin 4) :
    iblk2 V c 5 t (ix2 f (0 : Fin 1)) = V c main_v46 (ix2 f (0 : Fin 1)) := by
  obtain ⟨-, -, -, -, -, ⟨e0, e1⟩, -⟩ := index_facts0 t
  show V c main_v46 (((cfg2.win 5).blk t).view.emb (ix2 f (0 : Fin 1))) = V c main_v46 (ix2 f (0 : Fin 1))
  refine congrArg (V c main_v46) (funext fun a => Fin.ext ?_)
  match a with
  | ⟨0, _⟩ => show win2_5.index t (0 : Fin 2) * 4 + 1 * f.val = f.val; omega
  | ⟨1, _⟩ => show win2_5.index t (1 : Fin 2) * 1 + 1 * 0 = 0; omega

/-- Window 6's block at any point is its whole one-entry array. -/
private theorem iblk0_6_apply (c : Dev nD) (t : Fin cfg2.N) :
    iblk2 V c 6 t (ix2 (0 : Fin 1) (0 : Fin 1)) = V c main_v49 (ix2 (0 : Fin 1) (0 : Fin 1)) := by
  obtain ⟨-, -, -, -, -, -, ⟨e0, e1⟩, -⟩ := index_facts0 t
  show V c main_v49 (((cfg2.win 6).blk t).view.emb (ix2 (0 : Fin 1) (0 : Fin 1))) = V c main_v49 (ix2 (0 : Fin 1) (0 : Fin 1))
  refine congrArg (V c main_v49) (funext fun a => Fin.ext ?_)
  match a with
  | ⟨0, _⟩ => show win2_6.index t (0 : Fin 2) * 1 + 1 * 0 = 0; omega
  | ⟨1, _⟩ => show win2_6.index t (1 : Fin 2) * 1 + 1 * 0 = 0; omega

/-- What point t writes back to the node-level terms' array is its block of the node-level terms' row. -/
private theorem flushed0_8_eq (c : Dev nD) (t : Fin cfg2.N) :
    (dat2 (F := Ideal) V c).flushed 8 t
      = ((cfg2.win 8).blk t).view.read (Elt Ideal)
          (otherRow (V c main_v51) (V c main_v11) (V c main_v13) (V c main_v44) (V c main_v46) (V c main_v49)) := by
  show (cfg2.win 8).cut (grid2.coords t) ((dat2 V c).after 8 t) = _
  rw [after2_8]
  unfold out2_8
  rw [View.canon_unit_zero hz]
  simp only [View.ld_unit_zero (S := S4x66688) hz, View.ld_unit_zero (S := S1x66688) hz, View.ld_unit_zero (S := S4x1) hz,
    View.ld_unit_zero (S := S1x1) hz]
  obtain ⟨-, -, -, -, -, -, -, -, ⟨e0, e1⟩⟩ := index_facts0 t
  funext j
  obtain ⟨u, q, rfl⟩ : ∃ (u : Fin 1) (q : Fin 66688), j = ix2 u q := ⟨j 0, j 1, eq_ix2 j⟩
  show k2_pay3 (iblk2 V c 0 t) (iblk2 V c 1 t) (iblk2 V c 2 t) (iblk2 V c 4 t) (iblk2 V c 5 t) (iblk2 V c 6 t) (ix2 u q)
    = otherRow (V c main_v51) (V c main_v11) (V c main_v13) (V c main_v44) (V c main_v46) (V c main_v49)
        (((cfg2.win 8).blk t).view.emb (ix2 u q))
  refine (k2_pay3_apply _ _ _ _ _ _ u q).trans ?_
  have hn : (((cfg2.win 8).blk t).view.emb (ix2 u q) 1).val = t.val * 66688 + q.val := by
    show win2_8.index t (1 : Fin 2) * 66688 + 1 * q.val = t.val * 66688 + q.val
    omega
  exact congrArg₂ (· + ·)
    (congrArg₂ (· + ·)
      (congrArg₂ (· * ·)
        (Finset.sum_congr rfl fun f _ => congrArg₂ (· * ·) (iblk0_0_apply V c t f q _ hn) (iblk0_4_apply V c t f))
        (iblk0_2_apply V c t u q _ hn))
      (Finset.sum_congr rfl fun f _ => congrArg₂ (· * ·) (iblk0_1_apply V c t f q _ hn) (iblk0_5_apply V c t f)))
    (congrArg₂ (· * ·) (iblk0_6_apply V c t) (iblk0_2_apply V c t u q _ hn))

/-- An index of the node-level terms' array is in point t's block iff each coordinate is in the block's range on its axis. -/
private theorem mem_blk0_8 (t : Fin cfg2.N) (i : S1x200064.Idx) :
    i ∈ ((cfg2.win 8).blk t).view.set
      ↔ ∀ a : Fin 2, win2_8.index t a * S1x66688.size a ≤ (i a).val
          ∧ (i a).val < win2_8.index t a * S1x66688.size a + S1x66688.size a := by
  show i ∈ ((View.whole main_v52_1).slice (win2_8.rect t)).set ↔ _
  rw [View.set_slice_whole, Rect.mem_set_unit]
  exact Iff.rfl

/-- Column n of the node-level terms' array is in the block of point n / 66688, and 3 * 66688 = 200064: the blocks cover it. -/
private theorem covered0_8 (i : S1x200064.Idx) :
    ∃ t : Fin cfg2.N, (cfg2.win 8).flush t = true ∧ i ∈ ((cfg2.win 8).blk t).view.set := by
  have hi0 : (i 0).val < 1 := (i 0).isLt
  have hi1 : (i 1).val < 200064 := (i 1).isLt
  obtain ⟨t, ht⟩ : ∃ t : Fin cfg2.N, t.val = (i 1).val / 66688 :=
    ⟨⟨(i 1).val / 66688, Nat.lt_of_lt_of_eq (by omega : (i 1).val / 66688 < 3) (by decide : 3 = grid2.N)⟩, rfl⟩
  obtain ⟨-, -, -, -, -, -, -, -, ⟨e0, e1⟩⟩ := index_facts0 t
  refine ⟨t, flush2_8 t, ?_⟩
  rw [mem_blk0_8]
  intro a
  match a with
  | ⟨0, _⟩ =>
    show win2_8.index t (0 : Fin 2) * 1 ≤ (i 0).val ∧ (i 0).val < win2_8.index t (0 : Fin 2) * 1 + 1
    omega
  | ⟨1, _⟩ =>
    show win2_8.index t (1 : Fin 2) * 66688 ≤ (i 1).val ∧ (i 1).val < win2_8.index t (1 : Fin 2) * 66688 + 66688
    omega

/-- Region 2: the node-level terms' array after the run. -/
theorem pre2_other (c : Dev nD) :
    (dat2 (F := Ideal) V c).arrAt 8 cfg2.N
      = otherRow (V c main_v51) (V c main_v11) (V c main_v13) (V c main_v44) (V c main_v46) (V c main_v49) :=
  (dat2 (F := Ideal) V c).arrAt_eq_of_cover 8
    (otherRow (V c main_v51) (V c main_v11) (V c main_v13) (V c main_v44) (V c main_v46) (V c main_v49))
    (fun t _ => flushed0_8_eq V c t) covered0_8

end Cert.KernelIdeal.RegionValue

end
-- ==== Proof.RegionPost3.lean ====
/-
  What the second kernel (the residual update) leaves in its output array, as a function of the arrays it
  finds, index by index.

  The grid has three points; point t handles columns [66688 t, 66688 (t + 1)). At (f, n) the body stores
      out[f, n] = z[f, n] + (scatter[0, n] + other[0, n]).
  The three blocks tile the array, so the output array is that function of the input arrays everywhere.
-/
import proofs.«426513_j76897094467615_2_alg».proof.Proof.Gen.KernelIdeal.Frame
import proofs.«426513_j76897094467615_2_alg».proof.Proof.NodeLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.NodeLayer

variable (V : (c : Dev nD) → (b : Ref sig .tc) → Buf (Elt Ideal) ((c : Thread nD τ).loc b))

/-- The two zero offsets of a whole-buffer access, as the constant function. -/
private theorem post3_zero : (![0, 0] : Fin 2 → Nat) = fun _ => 0 :=
  funext fun a => by match a with | ⟨0, _⟩ => rfl | ⟨1, _⟩ => rfl

/-- The body's stored value at row p, column q of its block: z + (scatter + other) of that column. -/
private theorem post3_pay_apply (x0 : Vec Ideal S4x66688 .f32) (x1 x2 : Vec Ideal S1x66688 .f32) (p : Fin 4) (q : Fin 66688) :
    k3_pay1 (F := Ideal) x1 x2 x0 (ix2 p q) = x0 (ix2 p q) + (x1 (ix2 0 q) + x2 (ix2 0 q)) := by
  unfold k3_pay1
  simp only [shapeCast_self]
  rw [addf_apply, broadcastTo_1b_ab_apply, addf_apply]

/-- The printed index maps over the three grid points: every window's block index is (0, t). -/
private theorem post3_idx : ∀ t : Fin cfg3.N,
    win3_0.index t (0 : Fin 2) = 0 ∧ win3_0.index t (1 : Fin 2) = t.val
    ∧ win3_1.index t (0 : Fin 2) = 0 ∧ win3_1.index t (1 : Fin 2) = t.val
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

/-- Window 0's block at point t, read at (p, q), is the array read at (p, 66688 t + q). -/
private theorem post3_blk0 (c : Dev nD) (t : Fin cfg3.N) (p : Fin 4) (q : Fin 66688) (i : S4x200064.Idx)
    (h0 : (i 0).val = p.val) (h1 : (i 1).val = 66688 * t.val + q.val) :
    iblk3 V c 0 t (ix2 p q) = V c main_v51 i := by
  obtain ⟨e0, e1, -⟩ := post3_idx t
  show V c main_v51 (((cfg3.win 0).blk t).view.emb (ix2 p q)) = V c main_v51 i
  refine congrArg _ (funext fun a => Fin.ext ?_)
  match a with
  | ⟨0, _⟩ => show win3_0.index t (0 : Fin 2) * 4 + 1 * p.val = (i 0).val; rw [e0, h0]; omega
  | ⟨1, _⟩ => show win3_0.index t (1 : Fin 2) * 66688 + 1 * q.val = (i 1).val; rw [e1, h1]; omega

/-- Window 1's block at point t, read at (0, q), is the array read at (0, 66688 t + q). -/
private theorem post3_blk1 (c : Dev nD) (t : Fin cfg3.N) (q : Fin 66688) (i : S1x200064.Idx)
    (h1 : (i 1).val = 66688 * t.val + q.val) :
    iblk3 V c 1 t (ix2 0 q) = V c main_v60 i := by
  obtain ⟨-, -, e0, e1, -⟩ := post3_idx t
  show V c main_v60 (((cfg3.win 1).blk t).view.emb (ix2 0 q)) = V c main_v60 i
  refine congrArg _ (funext fun a => Fin.ext ?_)
  match a with
  | ⟨0, _⟩ => show win3_1.index t (0 : Fin 2) * 1 + 1 * 0 = (i 0).val; have hi : (i 0).val < 1 := (i 0).isLt; rw [e0]; omega
  | ⟨1, _⟩ => show win3_1.index t (1 : Fin 2) * 66688 + 1 * q.val = (i 1).val; rw [e1, h1]; omega

/-- Window 2's block at point t, read at (0, q), is the array read at (0, 66688 t + q). -/
private theorem post3_blk2 (c : Dev nD) (t : Fin cfg3.N) (q : Fin 66688) (i : S1x200064.Idx)
    (h1 : (i 1).val = 66688 * t.val + q.val) :
    iblk3 V c 2 t (ix2 0 q) = V c main_v52_1 i := by
  obtain ⟨-, -, -, -, e0, e1, -⟩ := post3_idx t
  show V c main_v52_1 (((cfg3.win 2).blk t).view.emb (ix2 0 q)) = V c main_v52_1 i
  refine congrArg _ (funext fun a => Fin.ext ?_)
  match a with
  | ⟨0, _⟩ => show win3_2.index t (0 : Fin 2) * 1 + 1 * 0 = (i 0).val; have hi : (i 0).val < 1 := (i 0).isLt; rw [e0]; omega
  | ⟨1, _⟩ => show win3_2.index t (1 : Fin 2) * 66688 + 1 * q.val = (i 1).val; rw [e1, h1]; omega

/-- The output block's index (p, q) at point t sits at (p, 66688 t + q) of the array. -/
private theorem post3_emb (t : Fin cfg3.N) (p : Fin 4) (q : Fin 66688) :
    ((((cfg3.win 3).blk t).view.emb (ix2 p q) : S4x200064.Idx) 0).val = p.val
    ∧ ((((cfg3.win 3).blk t).view.emb (ix2 p q) : S4x200064.Idx) 1).val = 66688 * t.val + q.val := by
  obtain ⟨-, -, -, -, -, -, e0, e1⟩ := post3_idx t
  constructor
  · show win3_3.index t (0 : Fin 2) * 4 + 1 * p.val = p.val; rw [e0]; omega
  · show win3_3.index t (1 : Fin 2) * 66688 + 1 * q.val = 66688 * t.val + q.val; rw [e1]; omega

/-- What point t writes back is block t of the residual update of the arrays the region finds. -/
private theorem post3_flushed (c : Dev nD) (t : Fin cfg3.N) :
    (dat3 (F := Ideal) V c).flushed 3 t
      = ((cfg3.win 3).blk t).view.read (Elt Ideal) (postArr (V c main_v51) (V c main_v60) (V c main_v52_1)) := by
  show (cfg3.win 3).cut (grid3.coords t) ((dat3 (F := Ideal) V c).after 3 t) = _
  rw [after3_3]
  unfold out3_3
  rw [View.canon_unit_zero post3_zero]
  simp only [View.ld_unit_zero (S := S1x66688) post3_zero, View.ld_unit_zero (S := S4x66688) post3_zero]
  funext j
  obtain ⟨p, q, rfl⟩ : ∃ (p : Fin 4) (q : Fin 66688), j = ix2 p q := ⟨j 0, j 1, eq_ix2 j⟩
  obtain ⟨h0, h1⟩ := post3_emb t p q
  show k3_pay1 (F := Ideal) (iblk3 V c 1 t) (iblk3 V c 2 t) (iblk3 V c 0 t) (ix2 p q)
    = postArr (V c main_v51) (V c main_v60) (V c main_v52_1) (((cfg3.win 3).blk t).view.emb (ix2 p q))
  rw [post3_pay_apply]
  unfold postArr
  rw [post3_blk0 V c t p q _ h0 h1, post3_blk1 V c t q (ix2 0 ((((cfg3.win 3).blk t).view.emb (ix2 p q) : S4x200064.Idx) 1)) h1,
    post3_blk2 V c t q (ix2 0 ((((cfg3.win 3).blk t).view.emb (ix2 p q) : S4x200064.Idx) 1)) h1]

/-- An index of the array is in point t's block iff each coordinate is in the block's range on its axis. -/
private theorem post3_mem_blk (t : Fin cfg3.N) (i : S4x200064.Idx) :
    i ∈ ((cfg3.win 3).blk t).view.set ↔ ∀ a : Fin 2, win3_3.index t a * S4x66688.size a ≤ (i a).val ∧ (i a).val < win3_3.index t a * S4x66688.size a + S4x66688.size a := by
  show i ∈ ((View.whole main_v61).slice (win3_3.rect t)).set ↔ _
  rw [View.set_slice_whole, Rect.mem_set_unit]
  exact Iff.rfl

/-- The three blocks tile the array: column n lies in the block of point n / 66688. -/
private theorem post3_cover (i : S4x200064.Idx) :
    ∃ t : Fin cfg3.N, (cfg3.win 3).flush t = true ∧ i ∈ ((cfg3.win 3).blk t).view.set := by
  have hi0 : (i 0).val < 4 := (i 0).isLt
  have hi1 : (i 1).val < 200064 := (i 1).isLt
  have hN : (i 1).val / 66688 < cfg3.N := by show (i 1).val / 66688 < 3; omega
  refine ⟨⟨(i 1).val / 66688, hN⟩, flush3_3 _, ?_⟩
  obtain ⟨-, -, -, -, -, -, e0, e1⟩ := post3_idx ⟨(i 1).val / 66688, hN⟩
  rw [post3_mem_blk]
  intro a
  match a with
  | ⟨0, _⟩ =>
    show win3_3.index ⟨(i 1).val / 66688, hN⟩ (0 : Fin 2) * 4 ≤ (i 0).val ∧ (i 0).val < win3_3.index ⟨(i 1).val / 66688, hN⟩ (0 : Fin 2) * 4 + 4
    rw [e0]; omega
  | ⟨1, _⟩ =>
    show win3_3.index ⟨(i 1).val / 66688, hN⟩ (1 : Fin 2) * 66688 ≤ (i 1).val ∧ (i 1).val < win3_3.index ⟨(i 1).val / 66688, hN⟩ (1 : Fin 2) * 66688 + 66688
    rw [e1]; show (i 1).val / 66688 * 66688 ≤ (i 1).val ∧ (i 1).val < (i 1).val / 66688 * 66688 + 66688; omega

/-- Region 3: the updated features' array after the run. -/
theorem post3_out (c : Dev nD) :
    (dat3 (F := Ideal) V c).arrAt 3 cfg3.N = postArr (V c main_v51) (V c main_v60) (V c main_v52_1) :=
  (dat3 (F := Ideal) V c).arrAt_eq_of_cover 3 (postArr (V c main_v51) (V c main_v60) (V c main_v52_1))
    (fun t _ => post3_flushed V c t) post3_cover

end Cert.KernelIdeal.RegionValue

end
-- ==== Proof.RegionPre4.lean ====
/-
  What the first kernel (per node: the gather's source term and the node-level terms) leaves in its two output
  arrays, as functions of the arrays it finds, index by index.

  The grid has three points; point t handles columns [66688 t, 66688 (t + 1)) of every [·, 200064] array and the
  whole of the small [4, 1] and [1, 1] arrays. At a column n the body stores
      out 7 [0, n] = sum_f z[f, n] * wsrc[f, 0]
      out 8 [0, n] = (sum_f z[f, n] * wdst[f, 0]) * indeg[0, n] + sum_f saux[f, n] * waux[f, 0] + bias[0, 0] * indeg[0, n].
  The three blocks tile the arrays, so each output array is that function of the input arrays everywhere.
-/
import proofs.«426513_j76897094467615_2_alg».proof.Proof.Gen.KernelIdeal.Frame
import proofs.«426513_j76897094467615_2_alg».proof.Proof.NodeLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.NodeLayer

variable (V : (c : Dev nD) → (b : Ref sig .tc) → Buf (Elt Ideal) ((c : Thread nD τ).loc b))

/-- The zero offsets of a whole-buffer access. -/
private theorem hz : (![0, 0] : Fin 2 → Nat) = fun _ => 0 :=
  funext fun a => match a with | ⟨0, _⟩ => rfl | ⟨1, _⟩ => rfl

/-- A column [a, 1] broadcast to [a, b] reads, at (p, c), the column's entry of row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the four rows of a [4, b] vector, read at column q. -/
private theorem rowSum_apply {b : ℕ} (v : FVec Ideal ⟨2, ![4, b]⟩ .f32) (h : (⟨2, ![4, b]⟩ : Shape).Reduces [0] ⟨1, ![b]⟩)
    (hφ : FKind.Formats .f32) (hacc : (0x00000000#32 : BitVec 32) = 0x00000000#32) (q : Fin b) :
    multiReduction (F := Ideal) .add [0] ⟨1, ![b]⟩ v 0x00000000#32 h hφ hacc (ix1 q) = ∑ f : Fin 4, v (ix2 f q) := by
  refine (Ideal.multiReduction_add_single v 0x00000000#32 h hφ hacc (ix1 q)).trans ?_
  refine Finset.sum_congr rfl fun f _ => congrArg v ?_
  funext a
  match a with
  | ⟨0, _⟩ => rfl
  | ⟨1, _⟩ => rfl

/-- The rows of a [4, 66688] vector weighted by a column [4, 1] and summed, read at column q. -/
private theorem weightedSum_apply (x : FVec Ideal S4x66688 .f32) (w : FVec Ideal S4x1 .f32) (hb : S4x1.Broadcasts S4x66688)
    (hr : S4x66688.Reduces [0] S66688) (hφ : FKind.Formats .f32) (hacc : (0x00000000#32 : BitVec 32) = 0x00000000#32)
    (q : Fin 66688) :
    multiReduction (F := Ideal) .add [0] S66688 (mulf x (broadcastTo S4x66688 w hb)) 0x00000000#32 hr hφ hacc (ix1 q)
      = ∑ f : Fin 4, x (ix2 f q) * w (ix2 f (0 : Fin 1)) :=
  (rowSum_apply _ hr hφ hacc q).trans
    (Finset.sum_congr rfl fun f _ => by rw [mulf_apply, broadcastTo_a1_ab_apply])

/-- The source term's payload at column q: sum over the rows f of x0[f, q] * w[f, 0]. -/
private theorem k4_pay2_apply (x0 : Vec Ideal S4x66688 .f32) (x3 : Vec Ideal S4x1 .f32) (u : Fin 1) (q : Fin 66688) :
    k4_pay2 x0 x3 (ix2 u q) = ∑ f : Fin 4, x0 (ix2 f q) * x3 (ix2 f (0 : Fin 1)) := by
  unfold k4_pay2 k4_pay1
  refine (shapeCast_a_1a_apply _ _ u q).trans ?_
  refine (rowSum_apply _ _ _ _ q).trans ?_
  refine Finset.sum_congr rfl fun f _ => ?_
  rw [mulf_apply, shapeCast_self, broadcastTo_a1_ab_apply, shapeCast_self]

/-- The node-level terms' payload at column q. -/
private theorem k4_pay3_apply (x0 x1 : Vec Ideal S4x66688 .f32) (x2 : Vec Ideal S1x66688 .f32) (x4 x5 : Vec Ideal S4x1 .f32)
    (x6 : Vec Ideal S1x1 .f32) (u : Fin 1) (q : Fin 66688) :
    k4_pay3 x0 x1 x2 x4 x5 x6 (ix2 u q)
      = ((∑ f : Fin 4, x0 (ix2 f q) * x4 (ix2 f (0 : Fin 1))) * x2 (ix2 u q)
          + ∑ f : Fin 4, x1 (ix2 f q) * x5 (ix2 f (0 : Fin 1)))
        + x6 (ix2 (0 : Fin 1) (0 : Fin 1)) * x2 (ix2 u q) := by
  obtain rfl : u = 0 := Subsingleton.elim _ _
  unfold k4_pay3 k4_pay1
  dsimp only
  simp only [addf_apply, mulf_apply, shapeCast_self, shapeCast_a_1a_apply, broadcastTo_a1_ab_apply]
  exact congrArg₂ (· + ·)
    (congrArg₂ (· + ·) (congrArg (· * x2 (ix2 0 q)) (weightedSum_apply x0 x4 _ _ _ _ q)) (weightedSum_apply x1 x5 _ _ _ _ q))
    rfl

/-- The printed index maps over the three grid points: a [·, 66688] block of point t is block (0, t) of its array, and
    the small arrays are taken whole at every point. -/
private theorem index_facts0 : ∀ t : Fin cfg4.N,
    (win4_0.index t (0 : Fin 2) = 0 ∧ win4_0.index t (1 : Fin 2) = t.val)
    ∧ (win4_1.index t (0 : Fin 2) = 0 ∧ win4_1.index t (1 : Fin 2) = t.val)
    ∧ (win4_2.index t (0 : Fin 2) = 0 ∧ win4_2.index t (1 : Fin 2) = t.val)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = t.val)
    ∧ (win4_8.index t (0 : Fin 2) = 0 ∧ win4_8.index t (1 : Fin 2) = t.val) :=
  (by decide +kernel : ∀ t : Fin grid4.N, _)

/-- Window 0's block at point t, at row f and column q of the block, is its array at row f and column 66688 t + q. -/
private theorem iblk0_0_apply (c : Dev nD) (t : Fin cfg4.N) (f : Fin 4) (q : Fin 66688) (n : Fin 200064)
    (hn : n.val = t.val * 66688 + q.val) : iblk4 V c 0 t (ix2 f q) = V c main_v76 (ix2 f n) := by
  obtain ⟨⟨e0, e1⟩, -⟩ := index_facts0 t
  show V c main_v76 (((cfg4.win 0).blk t).view.emb (ix2 f q)) = V c main_v76 (ix2 f n)
  refine congrArg (V c main_v76) (funext fun a => Fin.ext ?_)
  match a with
  | ⟨0, _⟩ => show win4_0.index t (0 : Fin 2) * 4 + 1 * f.val = f.val; omega
  | ⟨1, _⟩ => show win4_0.index t (1 : Fin 2) * 66688 + 1 * q.val = n.val; omega

/-- Window 3's block at any point is its whole array. -/
private theorem iblk0_3_apply (c : Dev nD) (t : Fin cfg4.N) (f : Fin 4) :
    iblk4 V c 3 t (ix2 f (0 : Fin 1)) = V c main_v67 (ix2 f (0 : Fin 1)) := by
  obtain ⟨-, -, -, ⟨e0, e1⟩, -⟩ := index_facts0 t
  show V c main_v67 (((cfg4.win 3).blk t).view.emb (ix2 f (0 : Fin 1))) = V c main_v67 (ix2 f (0 : Fin 1))
  refine congrArg (V c main_v67) (funext fun a => Fin.ext ?_)
  match a with
  | ⟨0, _⟩ => show win4_3.index t (0 : Fin 2) * 4 + 1 * f.val = f.val; omega
  | ⟨1, _⟩ => show win4_3.index t (1 : Fin 2) * 1 + 1 * 0 = 0; omega

/-- What point t writes back to the source term's array is its block of the source term's row. -/
private theorem flushed0_7_eq (c : Dev nD) (t : Fin cfg4.N) :
    (dat4 (F := Ideal) V c).flushed 7 t
      = ((cfg4.win 7).blk t).view.read (Elt Ideal) (ysrcRow (V c main_v76) (V c main_v67)) := by
  show (cfg4.win 7).cut (grid4.coords t) ((dat4 V c).after 7 t) = _
  rw [after4_7]
  unfold out4_7
  rw [View.canon_unit_zero hz]
  simp only [View.ld_unit_zero (S := S4x66688) hz, View.ld_unit_zero (S := S4x1) hz]
  obtain ⟨-, -, -, -, -, -, -, ⟨e0, e1⟩, -⟩ := index_facts0 t
  funext j
  obtain ⟨u, q, rfl⟩ : ∃ (u : Fin 1) (q : Fin 66688), j = ix2 u q := ⟨j 0, j 1, eq_ix2 j⟩
  show k4_pay2 (iblk4 V c 0 t) (iblk4 V c 3 t) (ix2 u q)
    = ysrcRow (V c main_v76) (V c main_v67) (((cfg4.win 7).blk t).view.emb (ix2 u q))
  refine (k4_pay2_apply _ _ u q).trans ?_
  refine Finset.sum_congr rfl fun f _ => congrArg₂ (· * ·) (iblk0_0_apply V c t f q _ ?_) (iblk0_3_apply V c t f)
  show win4_7.index t (1 : Fin 2) * 66688 + 1 * q.val = t.val * 66688 + q.val
  omega

/-- An index of the source term's array is in point t's block iff each coordinate is in the block's range on its axis. -/
private theorem mem_blk0_7 (t : Fin cfg4.N) (i : S1x200064.Idx) :
    i ∈ ((cfg4.win 7).blk t).view.set
      ↔ ∀ a : Fin 2, win4_7.index t a * S1x66688.size a ≤ (i a).val
          ∧ (i a).val < win4_7.index t a * S1x66688.size a + S1x66688.size a := by
  show i ∈ ((View.whole main_v77_0).slice (win4_7.rect t)).set ↔ _
  rw [View.set_slice_whole, Rect.mem_set_unit]
  exact Iff.rfl

/-- Column n of the source term's array is in the block of point n / 66688, and 3 * 66688 = 200064: the blocks cover it. -/
private theorem covered0_7 (i : S1x200064.Idx) :
    ∃ t : Fin cfg4.N, (cfg4.win 7).flush t = true ∧ i ∈ ((cfg4.win 7).blk t).view.set := by
  have hi0 : (i 0).val < 1 := (i 0).isLt
  have hi1 : (i 1).val < 200064 := (i 1).isLt
  obtain ⟨t, ht⟩ : ∃ t : Fin cfg4.N, t.val = (i 1).val / 66688 :=
    ⟨⟨(i 1).val / 66688, Nat.lt_of_lt_of_eq (by omega : (i 1).val / 66688 < 3) (by decide : 3 = grid4.N)⟩, rfl⟩
  obtain ⟨-, -, -, -, -, -, -, ⟨e0, e1⟩, -⟩ := index_facts0 t
  refine ⟨t, flush4_7 t, ?_⟩
  rw [mem_blk0_7]
  intro a
  match a with
  | ⟨0, _⟩ =>
    show win4_7.index t (0 : Fin 2) * 1 ≤ (i 0).val ∧ (i 0).val < win4_7.index t (0 : Fin 2) * 1 + 1
    omega
  | ⟨1, _⟩ =>
    show win4_7.index t (1 : Fin 2) * 66688 ≤ (i 1).val ∧ (i 1).val < win4_7.index t (1 : Fin 2) * 66688 + 66688
    omega

/-- Region 4: the source term's array after the run. -/
theorem pre4_ysrc (c : Dev nD) :
    (dat4 (F := Ideal) V c).arrAt 7 cfg4.N = ysrcRow (V c main_v76) (V c main_v67) :=
  (dat4 (F := Ideal) V c).arrAt_eq_of_cover 7 (ysrcRow (V c main_v76) (V c main_v67))
    (fun t _ => flushed0_7_eq V c t) covered0_7

/-- Window 1's block at point t, at row f and column q of the block, is its array at row f and column 66688 t + q. -/
private theorem iblk0_1_apply (c : Dev nD) (t : Fin cfg4.N) (f : Fin 4) (q : Fin 66688) (n : Fin 200064)
    (hn : n.val = t.val * 66688 + q.val) : iblk4 V c 1 t (ix2 f q) = V c main_v11 (ix2 f n) := by
  obtain ⟨-, ⟨e0, e1⟩, -⟩ := index_facts0 t
  show V c main_v11 (((cfg4.win 1).blk t).view.emb (ix2 f q)) = V c main_v11 (ix2 f n)
  refine congrArg (V c main_v11) (funext fun a => Fin.ext ?_)
  match a with
  | ⟨0, _⟩ => show win4_1.index t (0 : Fin 2) * 4 + 1 * f.val = f.val; omega
  | ⟨1, _⟩ => show win4_1.index t (1 : Fin 2) * 66688 + 1 * q.val = n.val; omega

/-- Window 2's block at point t, at column q of its one row, is its array's row at column 66688 t + q. -/
private theorem iblk0_2_apply (c : Dev nD) (t : Fin cfg4.N) (u : Fin 1) (q : Fin 66688) (n : Fin 200064)
    (hn : n.val = t.val * 66688 + q.val) : iblk4 V c 2 t (ix2 u q) = V c main_v13 (ix2 (0 : Fin 1) n) := by
  obtain ⟨-, -, ⟨e0, e1⟩, -⟩ := index_facts0 t
  have hu : u.val < 1 := u.isLt
  show V c main_v13 (((cfg4.win 2).blk t).view.emb (ix2 u q)) = V c main_v13 (ix2 (0 : Fin 1) n)
  refine congrArg (V c main_v13) (funext fun a => Fin.ext ?_)
  match a with
  | ⟨0, _⟩ => show win4_2.index t (0 : Fin 2) * 1 + 1 * u.val = 0; omega
  | ⟨1, _⟩ => show win4_2.index t (1 : Fin 2) * 66688 + 1 * q.val = n.val; omega

/-- Window 4's block at any point is its whole array. -/
private theorem iblk0_4_apply (c : Dev nD) (t : Fin cfg4.N) (f : Fin 4) :
    iblk4 V c 4 t (ix2 f (0 : Fin 1)) = V c main_v69 (ix2 f (0 : Fin 1)) := by
  obtain ⟨-, -, -, -, ⟨e0, e1⟩, -⟩ := index_facts0 t
  show V c main_v69 (((cfg4.win 4).blk t).view.emb (ix2 f (0 : Fin 1))) = V c main_v69 (ix2 f (0 : Fin 1))
  refine congrArg (V c main_v69) (funext fun a => Fin.ext ?_)
  match a with
  | ⟨0, _⟩ => show win4_4.index t (0 : Fin 2) * 4 + 1 * f.val = f.val; omega
  | ⟨1, _⟩ => show win4_4.index t (1 : Fin 2) * 1 + 1 * 0 = 0; omega

/-- Window 5's block at any point is its whole array. -/
private theorem iblk0_5_apply (c : Dev nD) (t : Fin cfg4.N) (f : Fin 4) :
    iblk4 V c 5 t (ix2 f (0 : Fin 1)) = V c main_v71 (ix2 f (0 : Fin 1)) := by
  obtain ⟨-, -, -, -, -, ⟨e0, e1⟩, -⟩ := index_facts0 t
  show V c main_v71 (((cfg4.win 5).blk t).view.emb (ix2 f (0 : Fin 1))) = V c main_v71 (ix2 f (0 : Fin 1))
  refine congrArg (V c main_v71) (funext fun a => Fin.ext ?_)
  match a with
  | ⟨0, _⟩ => show win4_5.index t (0 : Fin 2) * 4 + 1 * f.val = f.val; omega
  | ⟨1, _⟩ => show win4_5.index t (1 : Fin 2) * 1 + 1 * 0 = 0; omega

/-- Window 6's block at any point is its whole one-entry array. -/
private theorem iblk0_6_apply (c : Dev nD) (t : Fin cfg4.N) :
    iblk4 V c 6 t (ix2 (0 : Fin 1) (0 : Fin 1)) = V c main_v74 (ix2 (0 : Fin 1) (0 : Fin 1)) := by
  obtain ⟨-, -, -, -, -, -, ⟨e0, e1⟩, -⟩ := index_facts0 t
  show V c main_v74 (((cfg4.win 6).blk t).view.emb (ix2 (0 : Fin 1) (0 : Fin 1))) = V c main_v74 (ix2 (0 : Fin 1) (0 : Fin 1))
  refine congrArg (V c main_v74) (funext fun a => Fin.ext ?_)
  match a with
  | ⟨0, _⟩ => show win4_6.index t (0 : Fin 2) * 1 + 1 * 0 = 0; omega
  | ⟨1, _⟩ => show win4_6.index t (1 : Fin 2) * 1 + 1 * 0 = 0; omega

/-- What point t writes back to the node-level terms' array is its block of the node-level terms' row. -/
private theorem flushed0_8_eq (c : Dev nD) (t : Fin cfg4.N) :
    (dat4 (F := Ideal) V c).flushed 8 t
      = ((cfg4.win 8).blk t).view.read (Elt Ideal)
          (otherRow (V c main_v76) (V c main_v11) (V c main_v13) (V c main_v69) (V c main_v71) (V c main_v74)) := by
  show (cfg4.win 8).cut (grid4.coords t) ((dat4 V c).after 8 t) = _
  rw [after4_8]
  unfold out4_8
  rw [View.canon_unit_zero hz]
  simp only [View.ld_unit_zero (S := S4x66688) hz, View.ld_unit_zero (S := S1x66688) hz, View.ld_unit_zero (S := S4x1) hz,
    View.ld_unit_zero (S := S1x1) hz]
  obtain ⟨-, -, -, -, -, -, -, -, ⟨e0, e1⟩⟩ := index_facts0 t
  funext j
  obtain ⟨u, q, rfl⟩ : ∃ (u : Fin 1) (q : Fin 66688), j = ix2 u q := ⟨j 0, j 1, eq_ix2 j⟩
  show k4_pay3 (iblk4 V c 0 t) (iblk4 V c 1 t) (iblk4 V c 2 t) (iblk4 V c 4 t) (iblk4 V c 5 t) (iblk4 V c 6 t) (ix2 u q)
    = otherRow (V c main_v76) (V c main_v11) (V c main_v13) (V c main_v69) (V c main_v71) (V c main_v74)
        (((cfg4.win 8).blk t).view.emb (ix2 u q))
  refine (k4_pay3_apply _ _ _ _ _ _ u q).trans ?_
  have hn : (((cfg4.win 8).blk t).view.emb (ix2 u q) 1).val = t.val * 66688 + q.val := by
    show win4_8.index t (1 : Fin 2) * 66688 + 1 * q.val = t.val * 66688 + q.val
    omega
  exact congrArg₂ (· + ·)
    (congrArg₂ (· + ·)
      (congrArg₂ (· * ·)
        (Finset.sum_congr rfl fun f _ => congrArg₂ (· * ·) (iblk0_0_apply V c t f q _ hn) (iblk0_4_apply V c t f))
        (iblk0_2_apply V c t u q _ hn))
      (Finset.sum_congr rfl fun f _ => congrArg₂ (· * ·) (iblk0_1_apply V c t f q _ hn) (iblk0_5_apply V c t f)))
    (congrArg₂ (· * ·) (iblk0_6_apply V c t) (iblk0_2_apply V c t u q _ hn))

/-- An index of the node-level terms' array is in point t's block iff each coordinate is in the block's range on its axis. -/
private theorem mem_blk0_8 (t : Fin cfg4.N) (i : S1x200064.Idx) :
    i ∈ ((cfg4.win 8).blk t).view.set
      ↔ ∀ a : Fin 2, win4_8.index t a * S1x66688.size a ≤ (i a).val
          ∧ (i a).val < win4_8.index t a * S1x66688.size a + S1x66688.size a := by
  show i ∈ ((View.whole main_v77_1).slice (win4_8.rect t)).set ↔ _
  rw [View.set_slice_whole, Rect.mem_set_unit]
  exact Iff.rfl

/-- Column n of the node-level terms' array is in the block of point n / 66688, and 3 * 66688 = 200064: the blocks cover it. -/
private theorem covered0_8 (i : S1x200064.Idx) :
    ∃ t : Fin cfg4.N, (cfg4.win 8).flush t = true ∧ i ∈ ((cfg4.win 8).blk t).view.set := by
  have hi0 : (i 0).val < 1 := (i 0).isLt
  have hi1 : (i 1).val < 200064 := (i 1).isLt
  obtain ⟨t, ht⟩ : ∃ t : Fin cfg4.N, t.val = (i 1).val / 66688 :=
    ⟨⟨(i 1).val / 66688, Nat.lt_of_lt_of_eq (by omega : (i 1).val / 66688 < 3) (by decide : 3 = grid4.N)⟩, rfl⟩
  obtain ⟨-, -, -, -, -, -, -, -, ⟨e0, e1⟩⟩ := index_facts0 t
  refine ⟨t, flush4_8 t, ?_⟩
  rw [mem_blk0_8]
  intro a
  match a with
  | ⟨0, _⟩ =>
    show win4_8.index t (0 : Fin 2) * 1 ≤ (i 0).val ∧ (i 0).val < win4_8.index t (0 : Fin 2) * 1 + 1
    omega
  | ⟨1, _⟩ =>
    show win4_8.index t (1 : Fin 2) * 66688 ≤ (i 1).val ∧ (i 1).val < win4_8.index t (1 : Fin 2) * 66688 + 66688
    omega

/-- Region 4: the node-level terms' array after the run. -/
theorem pre4_other (c : Dev nD) :
    (dat4 (F := Ideal) V c).arrAt 8 cfg4.N
      = otherRow (V c main_v76) (V c main_v11) (V c main_v13) (V c main_v69) (V c main_v71) (V c main_v74) :=
  (dat4 (F := Ideal) V c).arrAt_eq_of_cover 8
    (otherRow (V c main_v76) (V c main_v11) (V c main_v13) (V c main_v69) (V c main_v71) (V c main_v74))
    (fun t _ => flushed0_8_eq V c t) covered0_8

end Cert.KernelIdeal.RegionValue

end
-- ==== Proof.RegionPost5.lean ====
/-
  What the second kernel (the residual update) leaves in its output array, as a function of the arrays it
  finds, index by index.

  The grid has three points; point t handles columns [66688 t, 66688 (t + 1)). At (f, n) the body stores
      out[f, n] = z[f, n] + (scatter[0, n] + other[0, n]).
  The three blocks tile the array, so the output array is that function of the input arrays everywhere.
-/
import proofs.«426513_j76897094467615_2_alg».proof.Proof.Gen.KernelIdeal.Frame
import proofs.«426513_j76897094467615_2_alg».proof.Proof.NodeLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.NodeLayer

variable (V : (c : Dev nD) → (b : Ref sig .tc) → Buf (Elt Ideal) ((c : Thread nD τ).loc b))

/-- The two zero offsets of a whole-buffer access, as the constant function. -/
private theorem post5_zero : (![0, 0] : Fin 2 → Nat) = fun _ => 0 :=
  funext fun a => by match a with | ⟨0, _⟩ => rfl | ⟨1, _⟩ => rfl

/-- The body's stored value at row p, column q of its block: z + (scatter + other) of that column. -/
private theorem post5_pay_apply (x0 : Vec Ideal S4x66688 .f32) (x1 x2 : Vec Ideal S1x66688 .f32) (p : Fin 4) (q : Fin 66688) :
    k5_pay1 (F := Ideal) x1 x2 x0 (ix2 p q) = x0 (ix2 p q) + (x1 (ix2 0 q) + x2 (ix2 0 q)) := by
  unfold k5_pay1
  simp only [shapeCast_self]
  rw [addf_apply, broadcastTo_1b_ab_apply, addf_apply]

/-- The printed index maps over the three grid points: every window's block index is (0, t). -/
private theorem post5_idx : ∀ t : Fin cfg5.N,
    win5_0.index t (0 : Fin 2) = 0 ∧ win5_0.index t (1 : Fin 2) = t.val
    ∧ win5_1.index t (0 : Fin 2) = 0 ∧ win5_1.index t (1 : Fin 2) = t.val
    ∧ win5_2.index t (0 : Fin 2) = 0 ∧ win5_2.index t (1 : Fin 2) = t.val
    ∧ win5_3.index t (0 : Fin 2) = 0 ∧ win5_3.index t (1 : Fin 2) = t.val :=
  (by decide +kernel : ∀ t : Fin grid5.N, _)

/-- Window 0's block at point t, read at (p, q), is the array read at (p, 66688 t + q). -/
private theorem post5_blk0 (c : Dev nD) (t : Fin cfg5.N) (p : Fin 4) (q : Fin 66688) (i : S4x200064.Idx)
    (h0 : (i 0).val = p.val) (h1 : (i 1).val = 66688 * t.val + q.val) :
    iblk5 V c 0 t (ix2 p q) = V c main_v76 i := by
  obtain ⟨e0, e1, -⟩ := post5_idx t
  show V c main_v76 (((cfg5.win 0).blk t).view.emb (ix2 p q)) = V c main_v76 i
  refine congrArg _ (funext fun a => Fin.ext ?_)
  match a with
  | ⟨0, _⟩ => show win5_0.index t (0 : Fin 2) * 4 + 1 * p.val = (i 0).val; rw [e0, h0]; omega
  | ⟨1, _⟩ => show win5_0.index t (1 : Fin 2) * 66688 + 1 * q.val = (i 1).val; rw [e1, h1]; omega

/-- Window 1's block at point t, read at (0, q), is the array read at (0, 66688 t + q). -/
private theorem post5_blk1 (c : Dev nD) (t : Fin cfg5.N) (q : Fin 66688) (i : S1x200064.Idx)
    (h1 : (i 1).val = 66688 * t.val + q.val) :
    iblk5 V c 1 t (ix2 0 q) = V c main_v85 i := by
  obtain ⟨-, -, e0, e1, -⟩ := post5_idx t
  show V c main_v85 (((cfg5.win 1).blk t).view.emb (ix2 0 q)) = V c main_v85 i
  refine congrArg _ (funext fun a => Fin.ext ?_)
  match a with
  | ⟨0, _⟩ => show win5_1.index t (0 : Fin 2) * 1 + 1 * 0 = (i 0).val; have hi : (i 0).val < 1 := (i 0).isLt; rw [e0]; omega
  | ⟨1, _⟩ => show win5_1.index t (1 : Fin 2) * 66688 + 1 * q.val = (i 1).val; rw [e1, h1]; omega

/-- Window 2's block at point t, read at (0, q), is the array read at (0, 66688 t + q). -/
private theorem post5_blk2 (c : Dev nD) (t : Fin cfg5.N) (q : Fin 66688) (i : S1x200064.Idx)
    (h1 : (i 1).val = 66688 * t.val + q.val) :
    iblk5 V c 2 t (ix2 0 q) = V c main_v77_1 i := by
  obtain ⟨-, -, -, -, e0, e1, -⟩ := post5_idx t
  show V c main_v77_1 (((cfg5.win 2).blk t).view.emb (ix2 0 q)) = V c main_v77_1 i
  refine congrArg _ (funext fun a => Fin.ext ?_)
  match a with
  | ⟨0, _⟩ => show win5_2.index t (0 : Fin 2) * 1 + 1 * 0 = (i 0).val; have hi : (i 0).val < 1 := (i 0).isLt; rw [e0]; omega
  | ⟨1, _⟩ => show win5_2.index t (1 : Fin 2) * 66688 + 1 * q.val = (i 1).val; rw [e1, h1]; omega

/-- The output block's index (p, q) at point t sits at (p, 66688 t + q) of the array. -/
private theorem post5_emb (t : Fin cfg5.N) (p : Fin 4) (q : Fin 66688) :
    ((((cfg5.win 3).blk t).view.emb (ix2 p q) : S4x200064.Idx) 0).val = p.val
    ∧ ((((cfg5.win 3).blk t).view.emb (ix2 p q) : S4x200064.Idx) 1).val = 66688 * t.val + q.val := by
  obtain ⟨-, -, -, -, -, -, e0, e1⟩ := post5_idx t
  constructor
  · show win5_3.index t (0 : Fin 2) * 4 + 1 * p.val = p.val; rw [e0]; omega
  · show win5_3.index t (1 : Fin 2) * 66688 + 1 * q.val = 66688 * t.val + q.val; rw [e1]; omega

/-- What point t writes back is block t of the residual update of the arrays the region finds. -/
private theorem post5_flushed (c : Dev nD) (t : Fin cfg5.N) :
    (dat5 (F := Ideal) V c).flushed 3 t
      = ((cfg5.win 3).blk t).view.read (Elt Ideal) (postArr (V c main_v76) (V c main_v85) (V c main_v77_1)) := by
  show (cfg5.win 3).cut (grid5.coords t) ((dat5 (F := Ideal) V c).after 3 t) = _
  rw [after5_3]
  unfold out5_3
  rw [View.canon_unit_zero post5_zero]
  simp only [View.ld_unit_zero (S := S1x66688) post5_zero, View.ld_unit_zero (S := S4x66688) post5_zero]
  funext j
  obtain ⟨p, q, rfl⟩ : ∃ (p : Fin 4) (q : Fin 66688), j = ix2 p q := ⟨j 0, j 1, eq_ix2 j⟩
  obtain ⟨h0, h1⟩ := post5_emb t p q
  show k5_pay1 (F := Ideal) (iblk5 V c 1 t) (iblk5 V c 2 t) (iblk5 V c 0 t) (ix2 p q)
    = postArr (V c main_v76) (V c main_v85) (V c main_v77_1) (((cfg5.win 3).blk t).view.emb (ix2 p q))
  rw [post5_pay_apply]
  unfold postArr
  rw [post5_blk0 V c t p q _ h0 h1, post5_blk1 V c t q (ix2 0 ((((cfg5.win 3).blk t).view.emb (ix2 p q) : S4x200064.Idx) 1)) h1,
    post5_blk2 V c t q (ix2 0 ((((cfg5.win 3).blk t).view.emb (ix2 p q) : S4x200064.Idx) 1)) h1]

/-- An index of the array is in point t's block iff each coordinate is in the block's range on its axis. -/
private theorem post5_mem_blk (t : Fin cfg5.N) (i : S4x200064.Idx) :
    i ∈ ((cfg5.win 3).blk t).view.set ↔ ∀ a : Fin 2, win5_3.index t a * S4x66688.size a ≤ (i a).val ∧ (i a).val < win5_3.index t a * S4x66688.size a + S4x66688.size a := by
  show i ∈ ((View.whole main_v86).slice (win5_3.rect t)).set ↔ _
  rw [View.set_slice_whole, Rect.mem_set_unit]
  exact Iff.rfl

/-- The three blocks tile the array: column n lies in the block of point n / 66688. -/
private theorem post5_cover (i : S4x200064.Idx) :
    ∃ t : Fin cfg5.N, (cfg5.win 3).flush t = true ∧ i ∈ ((cfg5.win 3).blk t).view.set := by
  have hi0 : (i 0).val < 4 := (i 0).isLt
  have hi1 : (i 1).val < 200064 := (i 1).isLt
  have hN : (i 1).val / 66688 < cfg5.N := by show (i 1).val / 66688 < 3; omega
  refine ⟨⟨(i 1).val / 66688, hN⟩, flush5_3 _, ?_⟩
  obtain ⟨-, -, -, -, -, -, e0, e1⟩ := post5_idx ⟨(i 1).val / 66688, hN⟩
  rw [post5_mem_blk]
  intro a
  match a with
  | ⟨0, _⟩ =>
    show win5_3.index ⟨(i 1).val / 66688, hN⟩ (0 : Fin 2) * 4 ≤ (i 0).val ∧ (i 0).val < win5_3.index ⟨(i 1).val / 66688, hN⟩ (0 : Fin 2) * 4 + 4
    rw [e0]; omega
  | ⟨1, _⟩ =>
    show win5_3.index ⟨(i 1).val / 66688, hN⟩ (1 : Fin 2) * 66688 ≤ (i 1).val ∧ (i 1).val < win5_3.index ⟨(i 1).val / 66688, hN⟩ (1 : Fin 2) * 66688 + 66688
    rw [e1]; show (i 1).val / 66688 * 66688 ≤ (i 1).val ∧ (i 1).val < (i 1).val / 66688 * 66688 + 66688; omega

/-- Region 5: the updated features' array after the run. -/
theorem post5_out (c : Dev nD) :
    (dat5 (F := Ideal) V c).arrAt 3 cfg5.N = postArr (V c main_v76) (V c main_v85) (V c main_v77_1) :=
  (dat5 (F := Ideal) V c).arrAt_eq_of_cover 3 (postArr (V c main_v76) (V c main_v85) (V c main_v77_1))
    (fun t _ => post5_flushed V c t) post5_cover

end Cert.KernelIdeal.RegionValue

end
-- ==== Proof.KernelChain.lean ====
/-
  The contents of the first result's buffer at the end of the kernel program's run, as three layers of the node
  features from the argument arrays.

  The run's buffer contents at each boundary are a fold from the launch memory: a stretch of host operations
  applies them, a kernel region replaces its output arrays by what its write-backs leave and keeps everything
  else. Walking the fold forward, at each boundary the buffers still to be read hold: the clamped indices, the two
  layer-invariant aggregates, the weight and bias arguments, the current layer's weight columns and bias, and
  the current node features (padded and transposed) — until the last stretch un-pads the third layer's output.
-/
import proofs.«426513_j76897094467615_2_alg».proof.Proof.Gen.KernelIdeal.Frame
import proofs.«426513_j76897094467615_2_alg».proof.Proof.NodeLayer
import proofs.«426513_j76897094467615_2_alg».proof.Proof.Stretch0a
import proofs.«426513_j76897094467615_2_alg».proof.Proof.Stretch0b
import proofs.«426513_j76897094467615_2_alg».proof.Proof.Stretch0c
import proofs.«426513_j76897094467615_2_alg».proof.Proof.Stretch1
import proofs.«426513_j76897094467615_2_alg».proof.Proof.Stretch2
import proofs.«426513_j76897094467615_2_alg».proof.Proof.Stretch3
import proofs.«426513_j76897094467615_2_alg».proof.Proof.Stretch4
import proofs.«426513_j76897094467615_2_alg».proof.Proof.Stretch5
import proofs.«426513_j76897094467615_2_alg».proof.Proof.Stretch6
import proofs.«426513_j76897094467615_2_alg».proof.Proof.RegionPre0
import proofs.«426513_j76897094467615_2_alg».proof.Proof.RegionPost1
import proofs.«426513_j76897094467615_2_alg».proof.Proof.RegionPre2
import proofs.«426513_j76897094467615_2_alg».proof.Proof.RegionPost3
import proofs.«426513_j76897094467615_2_alg».proof.Proof.RegionPre4
import proofs.«426513_j76897094467615_2_alg».proof.Proof.RegionPost5
import Idealize.ShloMosaic.Lib.Pipeline.Value

set_option maxRecDepth 16384

noncomputable section

namespace Cert.KernelIdeal.ChainValue

open Idealize.ShloMosaic Idealize.ShloMosaic.TcCoe Idealize.SL.Sem
open Idealize.ShloMosaic.Pipeline (Dat Cfg Window)
open Cert.KernelIdeal Cert.KernelIdeal.Gen Cert.KernelIdeal.NodeLayer Cert.KernelIdeal.Stretch Cert.KernelIdeal.RegionValue

variable (m : (ℓ : Loc nD τ sig) → Buf (Elt Ideal) ℓ) (ρ : Dev nD → PrngReg) (c : Dev nD)

/-! ## The values the boundaries hold, from the argument arrays -/

/-- The clamped source indices. -/
abbrev srcC : IVec S6400000 32 := clipIdx (m ((c : Thread nD τ).loc main_arg5))
/-- The clamped destination indices. -/
abbrev dstC : IVec S6400000 32 := clipIdx (m ((c : Thread nD τ).loc main_arg6))
/-- The edge attributes summed by destination. -/
abbrev SA : FVec Ideal S4x200064 .f32 := sauxT (m ((c : Thread nD τ).loc main_arg1)) (m ((c : Thread nD τ).loc main_arg2)) (dstC m c)
/-- The in-degrees. -/
abbrev ID : FVec Ideal S1x200064 .f32 := indegT (dstC m c)
/-- Layer l's twelve weights. -/
abbrev w0 : FVec Ideal S12 .f32 := w12Of ![0, 0, 0] Facts₀.slices_S3x1x12_S1x1x12_0_0_0 (m ((c : Thread nD τ).loc main_arg3))
abbrev w1 : FVec Ideal S12 .f32 := w12Of ![1, 0, 0] Facts₀.slices_S3x1x12_S1x1x12_1_0_0 (m ((c : Thread nD τ).loc main_arg3))
abbrev w2 : FVec Ideal S12 .f32 := w12Of ![2, 0, 0] Facts₀.slices_S3x1x12_S1x1x12_2_0_0 (m ((c : Thread nD τ).loc main_arg3))
/-- Layer l's bias. -/
abbrev b0 : FVec Ideal S1x1 .f32 := biasOf ![0, 0] Facts₀.slices_S3x1_S1x1_0_0 (m ((c : Thread nD τ).loc main_arg4))
abbrev b1 : FVec Ideal S1x1 .f32 := biasOf ![1, 0] Facts₀.slices_S3x1_S1x1_1_0 (m ((c : Thread nD τ).loc main_arg4))
abbrev b2 : FVec Ideal S1x1 .f32 := biasOf ![2, 0] Facts₀.slices_S3x1_S1x1_2_0 (m ((c : Thread nD τ).loc main_arg4))
/-- The three weight columns of twelve weights. -/
abbrev ws (w : FVec Ideal S12 .f32) : FVec Ideal S4x1 .f32 := wcol ![0] Facts₀.slices_S12_S4_0 w
abbrev wd (w : FVec Ideal S12 .f32) : FVec Ideal S4x1 .f32 := wcol ![4] Facts₀.slices_S12_S4_4 w
abbrev wa (w : FVec Ideal S12 .f32) : FVec Ideal S4x1 .f32 := wcol ![8] Facts₀.slices_S12_S4_8 w
/-- The node features before layer 0, 1, 2 and after layer 2. -/
abbrev z0 : FVec Ideal S200000x4 .f32 := m ((c : Thread nD τ).loc main_arg0)
abbrev z1 : FVec Ideal S200000x4 .f32 := layer (SA m c) (ID m c) (srcC m c) (dstC m c) (w0 m c) (b0 m c) (z0 m c)
abbrev z2 : FVec Ideal S200000x4 .f32 := layer (SA m c) (ID m c) (srcC m c) (dstC m c) (w1 m c) (b1 m c) (z1 m c)
abbrev z3 : FVec Ideal S200000x4 .f32 := layer (SA m c) (ID m c) (srcC m c) (dstC m c) (w2 m c) (b2 m c) (z2 m c)
/-- A layer's gathered-and-summed source term, as a padded row. -/
abbrev scatOf (w : FVec Ideal S12 .f32) (z : FVec Ideal S200000x4 .f32) : FVec Ideal S1x200064 .f32 :=
  padRow (segSum (dstC m c) (takeSrc (unpadRow (ysrcRow (padT z) (ws w))) (srcC m c)))
/-- A layer's node-level terms. -/
abbrev otherOf (w : FVec Ideal S12 .f32) (b : FVec Ideal S1x1 .f32) (z : FVec Ideal S200000x4 .f32) : FVec Ideal S1x200064 .f32 :=
  otherRow (padT z) (SA m c) (ID m c) (wd w) (wa w) b

/-! ## Entry of region 0 (after the host operations before the first kernel) -/

theorem e0_zt : W11 m ρ c (Proc.devRef .tc main_v26) = padT (z0 m c) := s0_zt (W0 m ρ c)
theorem e0_saux : W11 m ρ c (Proc.devRef .tc main_v11) = SA m c := s0_saux (W0 m ρ c)
theorem e0_indeg : W11 m ρ c (Proc.devRef .tc main_v13) = ID m c := s0_indeg (W0 m ρ c)
theorem e0_wsrc : W11 m ρ c (Proc.devRef .tc main_v17) = ws (w0 m c) := s0_wsrc (W0 m ρ c)
theorem e0_wdst : W11 m ρ c (Proc.devRef .tc main_v19) = wd (w0 m c) := s0_wdst (W0 m ρ c)
theorem e0_waux : W11 m ρ c (Proc.devRef .tc main_v21) = wa (w0 m c) := s0_waux (W0 m ρ c)
theorem e0_bias : W11 m ρ c (Proc.devRef .tc main_v24) = b0 m c := s0_bias (W0 m ρ c)
theorem e0_src : W11 m ρ c (Proc.devRef .tc main_v0) = srcC m c := s0_src (W0 m ρ c)
theorem e0_dst : W11 m ρ c (Proc.devRef .tc main_v1) = dstC m c := s0_dst (W0 m ρ c)
theorem e0_W : W11 m ρ c (Proc.devRef .tc main_arg3) = m ((c : Thread nD τ).loc main_arg3) := s0_W (W0 m ρ c)
theorem e0_b : W11 m ρ c (Proc.devRef .tc main_arg4) = m ((c : Thread nD τ).loc main_arg4) := s0_b (W0 m ρ c)

/-! ## Exit of region 0 -/

theorem x0_ysrc : W12 m ρ c (Proc.devRef .tc main_v27_0) = ysrcRow (padT (z0 m c)) (ws (w0 m c)) := by
  refine (W12_arr m ρ c 7).trans ((pre0_ysrc (V11 m ρ) c).trans ?_)
  show ysrcRow (W11 m ρ c (Proc.devRef .tc main_v26)) (W11 m ρ c (Proc.devRef .tc main_v17)) = _
  rw [e0_zt, e0_wsrc]
theorem x0_other : W12 m ρ c (Proc.devRef .tc main_v27_1) = otherOf m c (w0 m c) (b0 m c) (z0 m c) := by
  refine (W12_arr m ρ c 8).trans ((pre0_other (V11 m ρ) c).trans ?_)
  show otherRow (W11 m ρ c (Proc.devRef .tc main_v26)) (W11 m ρ c (Proc.devRef .tc main_v11)) (W11 m ρ c (Proc.devRef .tc main_v13))
      (W11 m ρ c (Proc.devRef .tc main_v19)) (W11 m ρ c (Proc.devRef .tc main_v21)) (W11 m ρ c (Proc.devRef .tc main_v24)) = _
  rw [e0_zt, e0_saux, e0_indeg, e0_wdst, e0_waux, e0_bias]
theorem x0_zt : W12 m ρ c (Proc.devRef .tc main_v26) = padT (z0 m c) :=
  (W12_arr m ρ c 0).trans ((((dat0 (F := Ideal) (V11 m ρ) c).arrAt_in 0 rfl cfg0.N).trans (A_eq0 (V11 m ρ) c 0)).trans (e0_zt m ρ c))
theorem x0_saux : W12 m ρ c (Proc.devRef .tc main_v11) = SA m c :=
  (W12_arr m ρ c 1).trans ((((dat0 (F := Ideal) (V11 m ρ) c).arrAt_in 1 rfl cfg0.N).trans (A_eq0 (V11 m ρ) c 1)).trans (e0_saux m ρ c))
theorem x0_indeg : W12 m ρ c (Proc.devRef .tc main_v13) = ID m c :=
  (W12_arr m ρ c 2).trans ((((dat0 (F := Ideal) (V11 m ρ) c).arrAt_in 2 rfl cfg0.N).trans (A_eq0 (V11 m ρ) c 2)).trans (e0_indeg m ρ c))
theorem x0_src : W12 m ρ c (Proc.devRef .tc main_v0) = srcC m c := (W12_of_ne m ρ c main_v0 (by decide)).trans (e0_src m ρ c)
theorem x0_dst : W12 m ρ c (Proc.devRef .tc main_v1) = dstC m c := (W12_of_ne m ρ c main_v1 (by decide)).trans (e0_dst m ρ c)
theorem x0_W : W12 m ρ c (Proc.devRef .tc main_arg3) = m ((c : Thread nD τ).loc main_arg3) := (W12_of_ne m ρ c main_arg3 (by decide)).trans (e0_W m ρ c)
theorem x0_b : W12 m ρ c (Proc.devRef .tc main_arg4) = m ((c : Thread nD τ).loc main_arg4) := (W12_of_ne m ρ c main_arg4 (by decide)).trans (e0_b m ρ c)

/-! ## Entry of region 1 -/

theorem e1_scat : W17 m ρ c (Proc.devRef .tc main_v35) = scatOf m c (w0 m c) (z0 m c) := by
  refine (s1_scat (W12 m ρ c)).trans ?_
  rw [x0_dst, x0_ysrc, x0_src]
theorem e1_zt : W17 m ρ c (Proc.devRef .tc main_v26) = padT (z0 m c) := (s1_zt (W12 m ρ c)).trans (x0_zt m ρ c)
theorem e1_other : W17 m ρ c (Proc.devRef .tc main_v27_1) = otherOf m c (w0 m c) (b0 m c) (z0 m c) := (s1_other (W12 m ρ c)).trans (x0_other m ρ c)
theorem e1_src : W17 m ρ c (Proc.devRef .tc main_v0) = srcC m c := (s1_src (W12 m ρ c)).trans (x0_src m ρ c)
theorem e1_dst : W17 m ρ c (Proc.devRef .tc main_v1) = dstC m c := (s1_dst (W12 m ρ c)).trans (x0_dst m ρ c)
theorem e1_saux : W17 m ρ c (Proc.devRef .tc main_v11) = SA m c := (s1_saux (W12 m ρ c)).trans (x0_saux m ρ c)
theorem e1_indeg : W17 m ρ c (Proc.devRef .tc main_v13) = ID m c := (s1_indeg (W12 m ρ c)).trans (x0_indeg m ρ c)
theorem e1_W : W17 m ρ c (Proc.devRef .tc main_arg3) = m ((c : Thread nD τ).loc main_arg3) := (s1_W (W12 m ρ c)).trans (x0_W m ρ c)
theorem e1_b : W17 m ρ c (Proc.devRef .tc main_arg4) = m ((c : Thread nD τ).loc main_arg4) := (s1_b (W12 m ρ c)).trans (x0_b m ρ c)

/-! ## Exit of region 1: the features after layer 0, padded and transposed -/

theorem x1_out : W18 m ρ c (Proc.devRef .tc main_v36) = postArr (padT (z0 m c)) (scatOf m c (w0 m c) (z0 m c)) (otherOf m c (w0 m c) (b0 m c) (z0 m c)) := by
  refine (W18_arr m ρ c 3).trans ((post1_out (V17 m ρ) c).trans ?_)
  show postArr (W17 m ρ c (Proc.devRef .tc main_v26)) (W17 m ρ c (Proc.devRef .tc main_v35)) (W17 m ρ c (Proc.devRef .tc main_v27_1)) = _
  rw [e1_zt, e1_scat, e1_other]
theorem x1_src : W18 m ρ c (Proc.devRef .tc main_v0) = srcC m c := (W18_of_ne m ρ c main_v0 (by decide)).trans (e1_src m ρ c)
theorem x1_dst : W18 m ρ c (Proc.devRef .tc main_v1) = dstC m c := (W18_of_ne m ρ c main_v1 (by decide)).trans (e1_dst m ρ c)
theorem x1_saux : W18 m ρ c (Proc.devRef .tc main_v11) = SA m c := (W18_of_ne m ρ c main_v11 (by decide)).trans (e1_saux m ρ c)
theorem x1_indeg : W18 m ρ c (Proc.devRef .tc main_v13) = ID m c := (W18_of_ne m ρ c main_v13 (by decide)).trans (e1_indeg m ρ c)
theorem x1_W : W18 m ρ c (Proc.devRef .tc main_arg3) = m ((c : Thread nD τ).loc main_arg3) := (W18_of_ne m ρ c main_arg3 (by decide)).trans (e1_W m ρ c)
theorem x1_b : W18 m ρ c (Proc.devRef .tc main_arg4) = m ((c : Thread nD τ).loc main_arg4) := (W18_of_ne m ρ c main_arg4 (by decide)).trans (e1_b m ρ c)

/-! ## Entry of region 2: layer 1's weights and bias sliced, the features after layer 0 padded and transposed again -/

theorem e2_zt : W21 m ρ c (Proc.devRef .tc main_v51) = padT (z1 m c) := by
  refine (s2_zt (W18 m ρ c)).trans ?_
  rw [x1_out]
  rfl
theorem e2_wsrc : W21 m ρ c (Proc.devRef .tc main_v42) = ws (w1 m c) := by
  refine (s2_wsrc (W18 m ρ c)).trans ?_
  rw [x1_W]
theorem e2_wdst : W21 m ρ c (Proc.devRef .tc main_v44) = wd (w1 m c) := by
  refine (s2_wdst (W18 m ρ c)).trans ?_
  rw [x1_W]
theorem e2_waux : W21 m ρ c (Proc.devRef .tc main_v46) = wa (w1 m c) := by
  refine (s2_waux (W18 m ρ c)).trans ?_
  rw [x1_W]
theorem e2_bias : W21 m ρ c (Proc.devRef .tc main_v49) = b1 m c := by
  refine (s2_bias (W18 m ρ c)).trans ?_
  rw [x1_b]
theorem e2_src : W21 m ρ c (Proc.devRef .tc main_v0) = srcC m c := (s2_src (W18 m ρ c)).trans (x1_src m ρ c)
theorem e2_dst : W21 m ρ c (Proc.devRef .tc main_v1) = dstC m c := (s2_dst (W18 m ρ c)).trans (x1_dst m ρ c)
theorem e2_saux : W21 m ρ c (Proc.devRef .tc main_v11) = SA m c := (s2_saux (W18 m ρ c)).trans (x1_saux m ρ c)
theorem e2_indeg : W21 m ρ c (Proc.devRef .tc main_v13) = ID m c := (s2_indeg (W18 m ρ c)).trans (x1_indeg m ρ c)
theorem e2_W : W21 m ρ c (Proc.devRef .tc main_arg3) = m ((c : Thread nD τ).loc main_arg3) := (s2_W (W18 m ρ c)).trans (x1_W m ρ c)
theorem e2_b : W21 m ρ c (Proc.devRef .tc main_arg4) = m ((c : Thread nD τ).loc main_arg4) := (s2_b (W18 m ρ c)).trans (x1_b m ρ c)

/-! ## Exit of region 2 -/

theorem x2_ysrc : W22 m ρ c (Proc.devRef .tc main_v52_0) = ysrcRow (padT (z1 m c)) (ws (w1 m c)) := by
  refine (W22_arr m ρ c 7).trans ((pre2_ysrc (V21 m ρ) c).trans ?_)
  show ysrcRow (W21 m ρ c (Proc.devRef .tc main_v51)) (W21 m ρ c (Proc.devRef .tc main_v42)) = _
  rw [e2_zt, e2_wsrc]
theorem x2_other : W22 m ρ c (Proc.devRef .tc main_v52_1) = otherOf m c (w1 m c) (b1 m c) (z1 m c) := by
  refine (W22_arr m ρ c 8).trans ((pre2_other (V21 m ρ) c).trans ?_)
  show otherRow (W21 m ρ c (Proc.devRef .tc main_v51)) (W21 m ρ c (Proc.devRef .tc main_v11)) (W21 m ρ c (Proc.devRef .tc main_v13))
      (W21 m ρ c (Proc.devRef .tc main_v44)) (W21 m ρ c (Proc.devRef .tc main_v46)) (W21 m ρ c (Proc.devRef .tc main_v49)) = _
  rw [e2_zt, e2_saux, e2_indeg, e2_wdst, e2_waux, e2_bias]
theorem x2_zt : W22 m ρ c (Proc.devRef .tc main_v51) = padT (z1 m c) :=
  (W22_arr m ρ c 0).trans ((((dat2 (F := Ideal) (V21 m ρ) c).arrAt_in 0 rfl cfg2.N).trans (A_eq2 (V21 m ρ) c 0)).trans (e2_zt m ρ c))
theorem x2_saux : W22 m ρ c (Proc.devRef .tc main_v11) = SA m c :=
  (W22_arr m ρ c 1).trans ((((dat2 (F := Ideal) (V21 m ρ) c).arrAt_in 1 rfl cfg2.N).trans (A_eq2 (V21 m ρ) c 1)).trans (e2_saux m ρ c))
theorem x2_indeg : W22 m ρ c (Proc.devRef .tc main_v13) = ID m c :=
  (W22_arr m ρ c 2).trans ((((dat2 (F := Ideal) (V21 m ρ) c).arrAt_in 2 rfl cfg2.N).trans (A_eq2 (V21 m ρ) c 2)).trans (e2_indeg m ρ c))
theorem x2_src : W22 m ρ c (Proc.devRef .tc main_v0) = srcC m c := (W22_of_ne m ρ c main_v0 (by decide)).trans (e2_src m ρ c)
theorem x2_dst : W22 m ρ c (Proc.devRef .tc main_v1) = dstC m c := (W22_of_ne m ρ c main_v1 (by decide)).trans (e2_dst m ρ c)
theorem x2_W : W22 m ρ c (Proc.devRef .tc main_arg3) = m ((c : Thread nD τ).loc main_arg3) := (W22_of_ne m ρ c main_arg3 (by decide)).trans (e2_W m ρ c)
theorem x2_b : W22 m ρ c (Proc.devRef .tc main_arg4) = m ((c : Thread nD τ).loc main_arg4) := (W22_of_ne m ρ c main_arg4 (by decide)).trans (e2_b m ρ c)

/-! ## Entry of region 3 -/

theorem e3_scat : W27 m ρ c (Proc.devRef .tc main_v60) = scatOf m c (w1 m c) (z1 m c) := by
  refine (s3_scat (W22 m ρ c)).trans ?_
  rw [x2_dst, x2_ysrc, x2_src]
theorem e3_zt : W27 m ρ c (Proc.devRef .tc main_v51) = padT (z1 m c) := (s3_zt (W22 m ρ c)).trans (x2_zt m ρ c)
theorem e3_other : W27 m ρ c (Proc.devRef .tc main_v52_1) = otherOf m c (w1 m c) (b1 m c) (z1 m c) := (s3_other (W22 m ρ c)).trans (x2_other m ρ c)
theorem e3_src : W27 m ρ c (Proc.devRef .tc main_v0) = srcC m c := (s3_src (W22 m ρ c)).trans (x2_src m ρ c)
theorem e3_dst : W27 m ρ c (Proc.devRef .tc main_v1) = dstC m c := (s3_dst (W22 m ρ c)).trans (x2_dst m ρ c)
theorem e3_saux : W27 m ρ c (Proc.devRef .tc main_v11) = SA m c := (s3_saux (W22 m ρ c)).trans (x2_saux m ρ c)
theorem e3_indeg : W27 m ρ c (Proc.devRef .tc main_v13) = ID m c := (s3_indeg (W22 m ρ c)).trans (x2_indeg m ρ c)
theorem e3_W : W27 m ρ c (Proc.devRef .tc main_arg3) = m ((c : Thread nD τ).loc main_arg3) := (s3_W (W22 m ρ c)).trans (x2_W m ρ c)
theorem e3_b : W27 m ρ c (Proc.devRef .tc main_arg4) = m ((c : Thread nD τ).loc main_arg4) := (s3_b (W22 m ρ c)).trans (x2_b m ρ c)

/-! ## Exit of region 3: the features after layer 1, padded and transposed -/

theorem x3_out : W28 m ρ c (Proc.devRef .tc main_v61) = postArr (padT (z1 m c)) (scatOf m c (w1 m c) (z1 m c)) (otherOf m c (w1 m c) (b1 m c) (z1 m c)) := by
  refine (W28_arr m ρ c 3).trans ((post3_out (V27 m ρ) c).trans ?_)
  show postArr (W27 m ρ c (Proc.devRef .tc main_v51)) (W27 m ρ c (Proc.devRef .tc main_v60)) (W27 m ρ c (Proc.devRef .tc main_v52_1)) = _
  rw [e3_zt, e3_scat, e3_other]
theorem x3_src : W28 m ρ c (Proc.devRef .tc main_v0) = srcC m c := (W28_of_ne m ρ c main_v0 (by decide)).trans (e3_src m ρ c)
theorem x3_dst : W28 m ρ c (Proc.devRef .tc main_v1) = dstC m c := (W28_of_ne m ρ c main_v1 (by decide)).trans (e3_dst m ρ c)
theorem x3_saux : W28 m ρ c (Proc.devRef .tc main_v11) = SA m c := (W28_of_ne m ρ c main_v11 (by decide)).trans (e3_saux m ρ c)
theorem x3_indeg : W28 m ρ c (Proc.devRef .tc main_v13) = ID m c := (W28_of_ne m ρ c main_v13 (by decide)).trans (e3_indeg m ρ c)
theorem x3_W : W28 m ρ c (Proc.devRef .tc main_arg3) = m ((c : Thread nD τ).loc main_arg3) := (W28_of_ne m ρ c main_arg3 (by decide)).trans (e3_W m ρ c)
theorem x3_b : W28 m ρ c (Proc.devRef .tc main_arg4) = m ((c : Thread nD τ).loc main_arg4) := (W28_of_ne m ρ c main_arg4 (by decide)).trans (e3_b m ρ c)

/-! ## Entry of region 4: layer 2's weights and bias sliced, the features after layer 1 padded and transposed again -/

theorem e4_zt : W31 m ρ c (Proc.devRef .tc main_v76) = padT (z2 m c) := by
  refine (s4_zt (W28 m ρ c)).trans ?_
  rw [x3_out]
  rfl
theorem e4_wsrc : W31 m ρ c (Proc.devRef .tc main_v67) = ws (w2 m c) := by
  refine (s4_wsrc (W28 m ρ c)).trans ?_
  rw [x3_W]
theorem e4_wdst : W31 m ρ c (Proc.devRef .tc main_v69) = wd (w2 m c) := by
  refine (s4_wdst (W28 m ρ c)).trans ?_
  rw [x3_W]
theorem e4_waux : W31 m ρ c (Proc.devRef .tc main_v71) = wa (w2 m c) := by
  refine (s4_waux (W28 m ρ c)).trans ?_
  rw [x3_W]
theorem e4_bias : W31 m ρ c (Proc.devRef .tc main_v74) = b2 m c := by
  refine (s4_bias (W28 m ρ c)).trans ?_
  rw [x3_b]
theorem e4_src : W31 m ρ c (Proc.devRef .tc main_v0) = srcC m c := (s4_src (W28 m ρ c)).trans (x3_src m ρ c)
theorem e4_dst : W31 m ρ c (Proc.devRef .tc main_v1) = dstC m c := (s4_dst (W28 m ρ c)).trans (x3_dst m ρ c)
theorem e4_saux : W31 m ρ c (Proc.devRef .tc main_v11) = SA m c := (s4_saux (W28 m ρ c)).trans (x3_saux m ρ c)
theorem e4_indeg : W31 m ρ c (Proc.devRef .tc main_v13) = ID m c := (s4_indeg (W28 m ρ c)).trans (x3_indeg m ρ c)

/-! ## Exit of region 4 -/

theorem x4_ysrc : W32 m ρ c (Proc.devRef .tc main_v77_0) = ysrcRow (padT (z2 m c)) (ws (w2 m c)) := by
  refine (W32_arr m ρ c 7).trans ((pre4_ysrc (V31 m ρ) c).trans ?_)
  show ysrcRow (W31 m ρ c (Proc.devRef .tc main_v76)) (W31 m ρ c (Proc.devRef .tc main_v67)) = _
  rw [e4_zt, e4_wsrc]
theorem x4_other : W32 m ρ c (Proc.devRef .tc main_v77_1) = otherOf m c (w2 m c) (b2 m c) (z2 m c) := by
  refine (W32_arr m ρ c 8).trans ((pre4_other (V31 m ρ) c).trans ?_)
  show otherRow (W31 m ρ c (Proc.devRef .tc main_v76)) (W31 m ρ c (Proc.devRef .tc main_v11)) (W31 m ρ c (Proc.devRef .tc main_v13))
      (W31 m ρ c (Proc.devRef .tc main_v69)) (W31 m ρ c (Proc.devRef .tc main_v71)) (W31 m ρ c (Proc.devRef .tc main_v74)) = _
  rw [e4_zt, e4_saux, e4_indeg, e4_wdst, e4_waux, e4_bias]
theorem x4_zt : W32 m ρ c (Proc.devRef .tc main_v76) = padT (z2 m c) :=
  (W32_arr m ρ c 0).trans ((((dat4 (F := Ideal) (V31 m ρ) c).arrAt_in 0 rfl cfg4.N).trans (A_eq4 (V31 m ρ) c 0)).trans (e4_zt m ρ c))
theorem x4_src : W32 m ρ c (Proc.devRef .tc main_v0) = srcC m c := (W32_of_ne m ρ c main_v0 (by decide)).trans (e4_src m ρ c)
theorem x4_dst : W32 m ρ c (Proc.devRef .tc main_v1) = dstC m c := (W32_of_ne m ρ c main_v1 (by decide)).trans (e4_dst m ρ c)

/-! ## Entry of region 5 -/

theorem e5_scat : W37 m ρ c (Proc.devRef .tc main_v85) = scatOf m c (w2 m c) (z2 m c) := by
  refine (s5_scat (W32 m ρ c)).trans ?_
  rw [x4_dst, x4_ysrc, x4_src]
theorem e5_zt : W37 m ρ c (Proc.devRef .tc main_v76) = padT (z2 m c) := (s5_zt (W32 m ρ c)).trans (x4_zt m ρ c)
theorem e5_other : W37 m ρ c (Proc.devRef .tc main_v77_1) = otherOf m c (w2 m c) (b2 m c) (z2 m c) := (s5_other (W32 m ρ c)).trans (x4_other m ρ c)

/-! ## Exit of region 5: the features after layer 2, padded and transposed -/

theorem x5_out : W38 m ρ c (Proc.devRef .tc main_v86) = postArr (padT (z2 m c)) (scatOf m c (w2 m c) (z2 m c)) (otherOf m c (w2 m c) (b2 m c) (z2 m c)) := by
  refine (W38_arr m ρ c 3).trans ((post5_out (V37 m ρ) c).trans ?_)
  show postArr (W37 m ρ c (Proc.devRef .tc main_v76)) (W37 m ρ c (Proc.devRef .tc main_v85)) (W37 m ρ c (Proc.devRef .tc main_v77_1)) = _
  rw [e5_zt, e5_scat, e5_other]

/-! ## The end of the run -/

/-- The first result's buffer ends at the three layers of the argument arrays. -/
theorem final : W39 m ρ c (Proc.devRef .tc main_v88)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (s6_out (W38 m ρ c)).trans ?_
  rw [x5_out]
  rfl

end Cert.KernelIdeal.ChainValue

end
-- ==== Proof.LayerSpec.lean ====
/-
  The message-passing layer over the real numbers, in the two arrangements the programs compute.

  Nodes n carry four features z n f; an edge e has a source s e, a destination d e and four attributes a e g.
  A layer has twelve weights w and a bias b. The edge's input vector is the concatenation
      x e = (z (s e) 0..3, z (d e) 0..3, a e 0..3)
  and its message is  sum_k x e k * w k + b.  Every feature of node n receives the sum of the messages of the
  edges whose destination is n.

  The second arrangement pulls the linear map through the gather and the sum: with cnt n the number of edges
  into n,
      sum_{d e = n} (sum_g z (s e) g * w g)
        + ((sum_g z n g * w (4 + g)) * cnt n + sum_g (sum_{d e = n} a e g) * w (8 + g)) + b * cnt n.
  The two are equal because on the edges into n the destination's features are z n, a constant of the sum.
-/
import Idealize.ShloMosaic.PureOps.Ideal

noncomputable section

namespace Cert.LayerSpec

open scoped BigOperators

variable {E N : Type} [Fintype E] [DecidableEq N]

/-- Entry k of an edge's twelve-entry input vector. -/
def inpt (z : N → Fin 4 → ℝ) (a : E → Fin 4 → ℝ) (s d : E → N) (e : E) (k : Fin 12) : ℝ :=
  if h : k.val < 4 then z (s e) ⟨k.val, h⟩
  else if h2 : k.val < 8 then z (d e) ⟨k.val - 4, by omega⟩
  else a e ⟨k.val - 8, by omega⟩

/-- The edges into node n. -/
def into (d : E → N) (n : N) : Finset E := Finset.univ.filter fun e => d e = n

/-- One layer, each edge's message computed from its concatenated input vector. -/
def layerR (z : N → Fin 4 → ℝ) (a : E → Fin 4 → ℝ) (w : Fin 12 → ℝ) (b : ℝ) (s d : E → N) (n : N) (f : Fin 4) : ℝ :=
  z n f + ∑ e ∈ into d n, ((∑ k : Fin 12, inpt z a s d e k * w k) + b)

/-- One layer, the linear map applied per node before the gather and after the sum. -/
def klayerR (z : N → Fin 4 → ℝ) (a : E → Fin 4 → ℝ) (w : Fin 12 → ℝ) (b : ℝ) (s d : E → N) (n : N) (f : Fin 4) : ℝ :=
  z n f + ((∑ e ∈ into d n, ∑ g : Fin 4, z (s e) g * w ⟨g.val, by omega⟩)
    + ((((∑ g : Fin 4, z n g * w ⟨4 + g.val, by omega⟩) * (∑ _e ∈ into d n, (1 : ℝ))
        + ∑ g : Fin 4, (∑ e ∈ into d n, a e g) * w ⟨8 + g.val, by omega⟩))
      + b * (∑ _e ∈ into d n, (1 : ℝ))))

/-- A sum over twelve indices is the sum of its three blocks of four. -/
private theorem sum_twelve (F : Fin 12 → ℝ) :
    (∑ k : Fin 12, F k)
      = (∑ g : Fin 4, F ⟨g.val, by omega⟩) + (∑ g : Fin 4, F ⟨4 + g.val, by omega⟩)
        + (∑ g : Fin 4, F ⟨8 + g.val, by omega⟩) := by
  have h1 := Fin.sum_univ_add (a := 8) (b := 4) F
  have h2 := Fin.sum_univ_add (a := 4) (b := 4) (fun i : Fin 8 => F (Fin.castAdd 4 i))
  rw [h1, h2]
  rfl

/-- The first four entries of the input vector are the source's features. -/
private theorem inpt_src (z : N → Fin 4 → ℝ) (a : E → Fin 4 → ℝ) (s d : E → N) (e : E) (g : Fin 4) :
    inpt z a s d e ⟨g.val, by omega⟩ = z (s e) g := by
  unfold inpt
  rw [dif_pos (show (⟨g.val, by omega⟩ : Fin 12).val < 4 from g.isLt)]

/-- The middle four entries of the input vector are the destination's features. -/
private theorem inpt_dst (z : N → Fin 4 → ℝ) (a : E → Fin 4 → ℝ) (s d : E → N) (e : E) (g : Fin 4) :
    inpt z a s d e ⟨4 + g.val, by omega⟩ = z (d e) g := by
  unfold inpt
  rw [dif_neg (show ¬ (⟨4 + g.val, by omega⟩ : Fin 12).val < 4 from by simp),
    dif_pos (show (⟨4 + g.val, by omega⟩ : Fin 12).val < 8 from by have := g.isLt; simp; omega)]
  congr 1
  apply Fin.ext
  simp

/-- The last four entries of the input vector are the edge's attributes. -/
private theorem inpt_attr (z : N → Fin 4 → ℝ) (a : E → Fin 4 → ℝ) (s d : E → N) (e : E) (g : Fin 4) :
    inpt z a s d e ⟨8 + g.val, by omega⟩ = a e g := by
  unfold inpt
  rw [dif_neg (show ¬ (⟨8 + g.val, by omega⟩ : Fin 12).val < 4 from by simp; omega),
    dif_neg (show ¬ (⟨8 + g.val, by omega⟩ : Fin 12).val < 8 from by simp)]
  congr 1
  apply Fin.ext
  simp

/-- An edge's message splits into the source's, the destination's and the attributes' parts. -/
theorem message_split (z : N → Fin 4 → ℝ) (a : E → Fin 4 → ℝ) (w : Fin 12 → ℝ) (s d : E → N) (e : E) :
    (∑ k : Fin 12, inpt z a s d e k * w k)
      = (∑ g : Fin 4, z (s e) g * w ⟨g.val, by omega⟩) + (∑ g : Fin 4, z (d e) g * w ⟨4 + g.val, by omega⟩)
        + (∑ g : Fin 4, a e g * w ⟨8 + g.val, by omega⟩) := by
  rw [sum_twelve]
  simp only [inpt_src, inpt_dst, inpt_attr]

/-- The two arrangements of a layer are the same real number. -/
theorem klayerR_eq_layerR (z : N → Fin 4 → ℝ) (a : E → Fin 4 → ℝ) (w : Fin 12 → ℝ) (b : ℝ) (s d : E → N) (n : N) (f : Fin 4) :
    klayerR z a w b s d n f = layerR z a w b s d n f := by
  unfold klayerR layerR
  have hmsg : ∀ e ∈ into d n, (∑ k : Fin 12, inpt z a s d e k * w k) + b
      = (∑ g : Fin 4, z (s e) g * w ⟨g.val, by omega⟩)
        + (∑ g : Fin 4, z n g * w ⟨4 + g.val, by omega⟩) * 1
        + (∑ g : Fin 4, a e g * w ⟨8 + g.val, by omega⟩) + b * 1 := by
    intro e he
    have hd : d e = n := (Finset.mem_filter.mp he).2
    rw [message_split, hd, mul_one, mul_one]
  have hattr : (∑ e ∈ into d n, ∑ g : Fin 4, a e g * w ⟨8 + g.val, by omega⟩)
      = ∑ g : Fin 4, (∑ e ∈ into d n, a e g) * w ⟨8 + g.val, by omega⟩ := by
    rw [Finset.sum_comm]
    exact Finset.sum_congr rfl fun g _ => (Finset.sum_mul _ _ _).symm
  rw [Finset.sum_congr rfl hmsg, Finset.sum_add_distrib, Finset.sum_add_distrib, Finset.sum_add_distrib,
    ← Finset.mul_sum, ← Finset.mul_sum, hattr]
  ring

/-- Three layers, layer i with weights w i and bias b i. -/
def net3R (z : N → Fin 4 → ℝ) (a : E → Fin 4 → ℝ) (w : Fin 3 → Fin 12 → ℝ) (b : Fin 3 → ℝ) (s d : E → N) : N → Fin 4 → ℝ :=
  layerR (layerR (layerR z a (w 0) (b 0) s d) a (w 1) (b 1) s d) a (w 2) (b 2) s d

/-- A finite sum of real numbers, read in the extended reals. -/
theorem coe_sum {ι : Type} (S : Finset ι) (f : ι → ℝ) : ((∑ i ∈ S, f i : ℝ) : EReal) = ∑ i ∈ S, (f i : EReal) := by
  classical
  refine Finset.induction_on S ?_ ?_
  · rw [Finset.sum_empty, Finset.sum_empty, EReal.coe_zero]
  · intro i T hi ih
    rw [Finset.sum_insert hi, Finset.sum_insert hi, EReal.coe_add, ih]

end Cert.LayerSpec

end
-- ==== Proof.IndexRead.lean ====
/-
  A host scatter-add whose indices name ROWS of the operand, read at one entry.

  jax's segment_sum(data, ids) is a scatter-add into zeros whose scatter indices are the column of ids:
  update e (a scalar, or row e of a matrix) is added to operand row ids e, and dropped when ids e is not a row.
  When every id is a row, the entry at row n is the operand's entry plus the sum of the updates of the
  edges e with ids e = n.
-/
import Idealize.ShloMosaic.PureOps.Ideal
import Idealize.ShloMosaic.PureOps.Contract
import Idealize.ShloMosaic.Lib.ValueIdx

noncomputable section

namespace Cert.IndexRead

open Idealize.ShloMosaic Idealize.ShloMosaic.ValueIdx
open scoped BigOperators

/-- An entry of a list that is a one-element list is that element. -/
private theorem getElem_singleton_of_eq {α : Type} {l : List α} {a : α} (hl : l = [a]) (i : Nat) (h : i < l.length) :
    l[i]'h = a := by
  subst hl
  match i, h with
  | 0, _ => rfl

/-! ## The vector form: where update e lands -/

section Vec
variable {N E w : Nat} (d : ScatterDims ⟨1, ![N]⟩ ⟨2, ![E, 1]⟩ ⟨1, ![E]⟩)

/-- The operand's one axis is inserted: the window coordinate on it is 0. -/
private theorem vec_window (hiw : d.insertedWindowDims = [0]) (j : (⟨1, ![E]⟩ : Shape).Idx) : d.window j 0 = 0 := by
  unfold ScatterDims.window
  rw [dif_neg]
  show (0 : Fin 1) ∉ Shape.kept _ d.insertedWindowDims
  rw [hiw]; simp [Shape.kept]

/-- With no window axes, the updates' one axis is their scatter axis. -/
private theorem vec_uScatter (huw : d.updateWindowDims = []) : d.uScatter = [0] := by
  show Shape.kept _ d.updateWindowDims = [0]
  rw [huw]; rfl

/-- The start on the operand's axis is the index word of row (j 0) of the index column, read signed. -/
private theorem vec_start (huw : d.updateWindowDims = []) (hsd : d.scatterDimsToOperandDims = [0])
    (hiv : d.indexVectorDim = 1) (j : (⟨1, ![E]⟩ : Shape).Idx) (idx : IVec ⟨2, ![E, 1]⟩ w) :
    d.start j idx 0 = (idx (ix2 (j 0) 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    exact congrArg (fun a => (j a).val) (getElem_singleton_of_eq (vec_uScatter d huw) _ _)
  | ⟨1, _⟩ =>
    unfold ScatterDims.siIdx
    rw [dif_pos (by rw [hiv])]
    apply Fin.ext
    show List.idxOf (0 : Fin 1) d.scatterDimsToOperandDims = 0
    rw [hsd]; simp

/-- When every id is a row, update j lands on row t (j 0). -/
private theorem vec_resultIdx (huw : d.updateWindowDims = []) (hiw : d.insertedWindowDims = [0])
    (hsd : d.scatterDimsToOperandDims = [0]) (hiv : d.indexVectorDim = 1)
    (idx : IVec ⟨2, ![E, 1]⟩ w) (t : Fin E → Fin N) (ht : ∀ e : Fin E, (idx (ix2 e 0)).toInt = ((t e).val : ℤ))
    (j : (⟨1, ![E]⟩ : Shape).Idx) : d.resultIdx? j idx = some (ix1 (t (j 0))) := by
  have hsum : ∀ a : Fin 1, d.start j idx a + (d.window j a : ℤ) = ((t (j 0)).val : ℤ) := by
    intro a
    obtain rfl : a = 0 := Subsingleton.elim _ _
    rw [vec_start d huw hsd hiv, vec_window d hiw]
    simp only [Nat.cast_zero, add_zero]
    exact ht (j 0)
  unfold ScatterDims.resultIdx?
  rw [dif_pos]
  · congr 1
    funext a
    obtain rfl : a = 0 := Subsingleton.elim _ _
    apply Fin.ext
    show (d.start j idx 0 + (d.window j 0 : ℤ)).toNat = (t (j 0)).val
    rw [hsum]; simp
  · intro a
    rw [hsum]
    obtain rfl : a = 0 := Subsingleton.elim _ _
    have := (t (j 0)).isLt
    show 0 ≤ ((t (j 0)).val : ℤ) ∧ ((t (j 0)).val : ℤ) < (N : ℤ)
    omega

end Vec

/-- A vector of per-edge scalars added by row id: entry n is the operand's plus the sum over the edges whose id is n. -/
theorem scatterAdd_vec_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![E, 1]⟩ w) (upd : FVec Ideal ⟨1, ![E]⟩ φ)
    (t : Fin E → Fin N) (ht : ∀ e : Fin E, (idx (ix2 e 0)).toInt = ((t e).val : ℤ)) (n : Fin N) :
    Host.scatterAdd d x idx upd (ix1 n) = x (ix1 n) + ∑ e ∈ Finset.univ.filter (fun e : Fin E => t e = n), upd (ix1 e) := by
  show Ideal.hostScatterAdd d x idx upd (ix1 n) = _
  unfold Ideal.hostScatterAdd
  congr 1
  have hres := vec_resultIdx d huw hiw hsd hiv idx t ht
  -- the updates landing on row n are those of the edges e with t e = n: re-index the sum by the edge
  refine Finset.sum_bij (fun j _ => (j 0 : Fin E)) ?_ ?_ ?_ ?_
  · intro j hj
    have h1 := (Finset.mem_filter.1 hj).2
    rw [hres j] at h1
    have h2 := congrFun (Option.some.inj h1) 0
    exact Finset.mem_filter.2 ⟨Finset.mem_univ _, h2⟩
  · intro j _ j' _ h
    rw [eq_ix1 j, eq_ix1 j']
    exact congrArg ix1 h
  · intro e he
    have h1 := (Finset.mem_filter.1 he).2
    refine ⟨ix1 e, Finset.mem_filter.2 ⟨Finset.mem_univ _, ?_⟩, rfl⟩
    rw [hres (ix1 e)]
    exact congrArg (fun m => some (ix1 m)) h1
  · intro j _
    exact congrArg upd (eq_ix1 j)

/-! ## The rows form: where update (e, g') lands -/

section Rows
variable {N E C w : Nat} (d : ScatterDims ⟨2, ![N, C]⟩ ⟨2, ![E, 1]⟩ ⟨2, ![E, C]⟩)

/-- The operand's axis that is not inserted is axis 1. -/
private theorem rows_sKept (hiw : d.insertedWindowDims = [0]) : d.sKept = [1] := by
  show Shape.kept _ d.insertedWindowDims = [1]
  rw [hiw]; rfl

/-- The updates' axis that is not a window axis is axis 0: their scatter axis. -/
private theorem rows_uScatter (huw : d.updateWindowDims = [1]) : d.uScatter = [0] := by
  show Shape.kept _ d.updateWindowDims = [0]
  rw [huw]; rfl

/-- Axis 0 of the operand is inserted: the window coordinate on it is 0. -/
private theorem rows_window0 (hiw : d.insertedWindowDims = [0]) (j : (⟨2, ![E, C]⟩ : Shape).Idx) : d.window j 0 = 0 := by
  unfold ScatterDims.window
  rw [dif_neg]
  rw [rows_sKept d hiw]; simp

/-- On axis 1 of the operand the window coordinate is the update index's coordinate 1. -/
private theorem rows_window1 (huw : d.updateWindowDims = [1]) (hiw : d.insertedWindowDims = [0])
    (j : (⟨2, ![E, C]⟩ : Shape).Idx) : d.window j 1 = (j 1).val := by
  have hm : (1 : Fin 2) ∈ d.sKept := by rw [rows_sKept d hiw]; exact List.mem_singleton.mpr rfl
  unfold ScatterDims.window
  rw [dif_pos hm]
  exact congrArg (fun a => (j a).val) (getElem_singleton_of_eq huw _ _)

/-- The start on axis 0 of the operand is the index word of row (j 0) of the index column, read signed. -/
private theorem rows_start0 (huw : d.updateWindowDims = [1]) (hsd : d.scatterDimsToOperandDims = [0])
    (hiv : d.indexVectorDim = 1) (j : (⟨2, ![E, C]⟩ : Shape).Idx) (idx : IVec ⟨2, ![E, 1]⟩ w) :
    d.start j idx 0 = (idx (ix2 (j 0) 0)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    exact congrArg (fun a => (j a).val) (getElem_singleton_of_eq (rows_uScatter d huw) _ _)
  | ⟨1, _⟩ =>
    unfold ScatterDims.siIdx
    rw [dif_pos (by rw [hiv])]
    apply Fin.ext
    show List.idxOf (0 : Fin 2) d.scatterDimsToOperandDims = 0
    rw [hsd]; simp

/-- The index map does not name axis 1 of the operand: the start on it is 0. -/
private theorem rows_start1 (hsd : d.scatterDimsToOperandDims = [0])
    (j : (⟨2, ![E, C]⟩ : Shape).Idx) (idx : IVec ⟨2, ![E, 1]⟩ w) : d.start j idx 1 = 0 := by
  unfold ScatterDims.start
  rw [dif_neg]
  rw [hsd]; simp

/-- When every id is a row, update j lands on entry (t (j 0), j 1). -/
private theorem rows_resultIdx (huw : d.updateWindowDims = [1]) (hiw : d.insertedWindowDims = [0])
    (hsd : d.scatterDimsToOperandDims = [0]) (hiv : d.indexVectorDim = 1)
    (idx : IVec ⟨2, ![E, 1]⟩ w) (t : Fin E → Fin N) (ht : ∀ e : Fin E, (idx (ix2 e 0)).toInt = ((t e).val : ℤ))
    (j : (⟨2, ![E, C]⟩ : Shape).Idx) : d.resultIdx? j idx = some (ix2 (t (j 0)) (j 1 : Fin C)) := by
  have h0 : d.start j idx 0 + (d.window j 0 : ℤ) = ((t (j 0)).val : ℤ) := by
    rw [rows_start0 d huw hsd hiv, rows_window0 d hiw]
    simp only [Nat.cast_zero, add_zero]
    exact ht (j 0)
  have h1 : d.start j idx 1 + (d.window j 1 : ℤ) = ((j 1).val : ℤ) := by
    rw [rows_start1 d hsd, rows_window1 d huw hiw]
    simp only [zero_add]
  unfold ScatterDims.resultIdx?
  rw [dif_pos]
  · congr 1
    funext a
    match a with
    | ⟨0, _⟩ =>
      apply Fin.ext
      show (d.start j idx 0 + (d.window j 0 : ℤ)).toNat = (t (j 0)).val
      rw [h0]; simp
    | ⟨1, _⟩ =>
      apply Fin.ext
      show (d.start j idx 1 + (d.window j 1 : ℤ)).toNat = (j 1).val
      rw [h1]; simp
  · intro a
    match a with
    | ⟨0, _⟩ =>
      show 0 ≤ d.start j idx 0 + (d.window j 0 : ℤ) ∧ d.start j idx 0 + (d.window j 0 : ℤ) < (N : ℤ)
      rw [h0]
      have := (t (j 0)).isLt
      omega
    | ⟨1, _⟩ =>
      show 0 ≤ d.start j idx 1 + (d.window j 1 : ℤ) ∧ d.start j idx 1 + (d.window j 1 : ℤ) < (C : ℤ)
      rw [h1]
      have := idx2_lt1 j
      omega

end Rows

/-- A matrix of per-edge rows added by row id: entry (n, g) is the operand's plus the sum over the edges whose id
    is n of their entry g. -/
theorem scatterAdd_rows_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![E, 1]⟩ w) (upd : FVec Ideal ⟨2, ![E, C]⟩ φ)
    (t : Fin E → Fin N) (ht : ∀ e : Fin E, (idx (ix2 e 0)).toInt = ((t e).val : ℤ)) (n : Fin N) (g : Fin C) :
    Host.scatterAdd d x idx upd (ix2 n g)
      = x (ix2 n g) + ∑ e ∈ Finset.univ.filter (fun e : Fin E => t e = n), upd (ix2 e g) := by
  show Ideal.hostScatterAdd d x idx upd (ix2 n g) = _
  unfold Ideal.hostScatterAdd
  congr 1
  have hres := rows_resultIdx d huw hiw hsd hiv idx t ht
  have hmem : ∀ j : (⟨2, ![E, C]⟩ : Shape).Idx, d.resultIdx? j idx = some (ix2 n g) → t (j 0) = n ∧ (j 1 : Fin C) = g := by
    intro j h1
    rw [hres j] at h1
    have h2 := Option.some.inj h1
    exact ⟨congrFun h2 0, congrFun h2 1⟩
  -- the updates landing on entry (n, g) are the entries g of the edges e with t e = n: re-index the sum by the edge
  refine Finset.sum_bij (fun j _ => (j 0 : Fin E)) ?_ ?_ ?_ ?_
  · intro j hj
    exact Finset.mem_filter.2 ⟨Finset.mem_univ _, (hmem j (Finset.mem_filter.1 hj).2).1⟩
  · intro j hj j' hj' h
    have e1 := (hmem j (Finset.mem_filter.1 hj).2).2
    have e2 := (hmem j' (Finset.mem_filter.1 hj').2).2
    rw [eq_ix2 j, eq_ix2 j']
    funext a
    match a with
    | ⟨0, _⟩ => exact h
    | ⟨1, _⟩ => exact e1.trans e2.symm
  · intro e he
    have h1 := (Finset.mem_filter.1 he).2
    refine ⟨ix2 e g, Finset.mem_filter.2 ⟨Finset.mem_univ _, ?_⟩, rfl⟩
    rw [hres (ix2 e g)]
    exact congrArg (fun m => some (ix2 m g)) h1
  · intro j hj
    have e1 := (hmem j (Finset.mem_filter.1 hj).2).2
    refine (congrArg upd (eq_ix2 j)).trans ?_
    exact congrArg (fun c => upd (ix2 (j 0) c)) e1

end Cert.IndexRead

end
-- ==== Proof.GatherRead.lean ====
/-
  A host gather whose indices name ROWS of the operand, read at one entry.

  jax's table[ids] is a gather of whole rows with the column of ids as start indices: row e of the result is
  operand row ids e, the id read signed and clamped into the table — the identity on an id that is a row.
-/
import Idealize.ShloMosaic.PureOps.Ideal
import Idealize.ShloMosaic.Lib.ValueIdx
import Idealize.ShloMosaic.Lib.StableHlo.Predicate

noncomputable section

namespace Cert.IndexRead

open Idealize.ShloMosaic Idealize.ShloMosaic.ValueIdx

/-- The rank-1 index built from a coordinate, in its two spellings. -/
private theorem ix1_eq_ofFin {n : Nat} (k : Fin n) : ix1 k = Shape.Idx.ofFin k := by
  funext a
  match a with
  | ⟨0, _⟩ => exact Fin.ext rfl

/-- Row p of an [n × 1] column is the index (p, 0). -/
private theorem ixP_eq_ix2 {n : Nat} (p : Fin n) : StableHlo.Predicate.ixP p = ix2 p (0 : Fin 1) := by
  funext a
  match a with
  | ⟨0, _⟩ => rfl
  | ⟨1, _⟩ => rfl

/-- An axis of a rank-2 shape other than axis 1 is axis 0. -/
private theorem fin2_eq_zero (X : Fin 2) (h : X ≠ 1) : X = 0 := by
  match X with
  | ⟨0, _⟩ => rfl
  | ⟨1, _⟩ => exact absurd rfl h

/-- Whole rows gathered by row id: entry (e, g) of the result is the operand at (id e, g). -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![E, 1]⟩ w)
    (t : Fin E → Fin N) (ht : ∀ e : Fin E, (idx (ix2 e 0)).toInt = ((t e).val : ℤ)) (e : Fin E) (g : Fin C) :
    Host.gather d x idx (ix2 e g) = x (ix2 (t e) g) := by
  -- no operand axis is a batching axis
  have hb : ∀ a : Fin 2, a ∉ d.operandBatchingDims := fun a => by rw [hob]; exact List.not_mem_nil
  -- the start index has one component
  have hl : d.startIndexMap.length = 1 := by rw [hsim]; rfl
  -- every batch axis of the result is axis 0, every offset axis is axis 1
  have hbd : ∀ X ∈ d.batchDims, ((ix2 e g : (⟨2, ![E, C]⟩ : Shape).Idx) X).val = e.val := by
    intro X hX
    have hX2 : X ∉ d.offsetDims := by
      have := (List.mem_filter.1 hX).2
      simpa using this
    rw [hoff] at hX2
    have hX0 : X = 0 := fin2_eq_zero X (fun h => hX2 (List.mem_singleton.mpr h))
    subst hX0; rfl
  have hod : ∀ X ∈ d.offsetDims, ((ix2 e g : (⟨2, ![E, C]⟩ : Shape).Idx) X).val = g.val := by
    intro X hX
    rw [hoff] at hX
    have hX1 : X = 1 := List.mem_singleton.mp hX
    subst hX1; rfl
  -- the start index of entry (e, g) is read at (e, 0)
  have hsi : ∀ c : Fin d.startIndexMap.length, d.siIdx (ix2 e g) c = ix2 e 0 := by
    intro c
    have hc : c.val = 0 := by have := c.isLt; omega
    funext b
    match b with
    | ⟨0, _⟩ =>
      unfold GatherDims.siIdx
      rw [dif_neg (by rw [hivd]; simp)]
      unfold GatherDims.siCoord
      apply Fin.ext
      simp only [Fin.val_cast]
      exact hbd _ (List.getElem_mem _)
    | ⟨1, _⟩ =>
      unfold GatherDims.siIdx
      rw [dif_pos (by rw [hivd])]
      apply Fin.ext
      exact hc
  -- the collapsed, start-indexed axis: the clamped row id
  have h0 : (d.operandIdx (ix2 e g) idx 0).val = (t e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = (t e).val
    rw [hsl, hsi, ht, Int.toNat_natCast]
    have := (t e).isLt
    omega
  -- the offset axis: no start component, the column itself
  have h1 : (d.operandIdx (ix2 e g) idx 1).val = g.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start,
      dif_neg hm, Nat.zero_add]
    unfold GatherDims.offCoord
    rw [dif_pos hk]
    exact hod _ (List.getElem_mem _)
  unfold Host.gather
  congr 1
  funext a
  apply Fin.ext
  match a with
  | ⟨0, _⟩ => exact h0
  | ⟨1, _⟩ => exact h1

/-- Scalars gathered by id out of a vector: entry e of the result is the operand at id e. -/
theorem gather_vec_apply {α : Type} {N E w : Nat} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w)
    (t : Fin E → Fin N) (ht : ∀ e : Fin E, (idx (ix2 e 0)).toInt = ((t e).val : ℤ)) (e : Fin E) :
    Host.gather d x idx (ix1 e) = x (ix1 (t e)) := by
  have hlt := (t e).isLt
  have hN : 0 < N := by omega
  rw [ix1_eq_ofFin, ix1_eq_ofFin, StableHlo.Predicate.gather_take d hcoll hob hsim hivd x idx e hN]
  congr 2
  apply Fin.ext
  show min (idx (StableHlo.Predicate.ixP e)).toInt.toNat (N - 1) = (t e).val
  rw [ixP_eq_ix2, ht, Int.toNat_natCast]
  omega

end Cert.IndexRead

end
-- ==== Proof.RefLayer.lean ====
/-
  One message-passing layer of the reference as a pure function of arrays, and that layer read at one entry
  on inputs that are real numbers and indices that name nodes: it is the layer of the specification in its
  first arrangement (each edge's message from its concatenated input vector), read in the extended reals.

  Entry (n, f) is  z n f + agg n  where agg n is the sum over the edges e whose destination is n of
      sum_k x e k * w k + b,    x e = (z (s e) 0..3, z (d e) 0..3, r e, r_hat e 0..2),
  the gathers reading whole rows of z, the product a contraction over the twelve columns, the sum a scatter-add
  into zeros by the column of destinations.
-/
import proofs.«426513_j76897094467615_2_alg».proof.Proof.Gen.ReferenceIdeal
import proofs.«426513_j76897094467615_2_alg».proof.Proof.LayerSpec
import proofs.«426513_j76897094467615_2_alg».proof.Proof.IndexRead
import proofs.«426513_j76897094467615_2_alg».proof.Proof.GatherRead
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Facts₀
open Cert.LayerSpec Cert.IndexRead

/-- One layer of the reference: the features z updated from the edge inputs, with the weights as a column [12, 1],
    the bias already broadcast over the edges, the (wrapped) source and destination indices as columns for the two
    gathers and the raw destination indices as a column for the sum by destination. -/
def refLayer (z : FVec Ideal S200000x4 .f32) (r : FVec Ideal S6400000x1 .f32) (rhat : FVec Ideal S6400000x3 .f32)
    (wcol : FVec Ideal S12x1 .f32) (bcol : FVec Ideal S6400000x1 .f32)
    (srcCol dstCol dstRaw : IVec S6400000x1 32) : FVec Ideal S200000x4 .f32 :=
  addf z (broadcastInDim S200000x4 ![0, 1] bcast_S200000x1_S200000x4_0_1
    (Host.scatterAdd scatter_S200000x1_S6400000x1_S6400000x1_1_0_0_1
      (broadcastInDim S200000x1 ![] bcast_S_S200000x1 (constant (F := Ideal) S_ .f32 0x00000000#32))
      dstRaw
      (addf (Host.dotGeneral dot_S6400000x12_S12x1_S6400000x1_1_0_0_1_n_n none
          (concatenate S6400000x12 1
            [⟨S6400000x4, Host.gather gather_S200000x4_S6400000x1_S6400000x4_1_0_n_n_0_1_14 z srcCol⟩,
             ⟨S6400000x4, Host.gather gather_S200000x4_S6400000x1_S6400000x4_1_0_n_n_0_1_14 z dstCol⟩,
             ⟨S6400000x1, r⟩, ⟨S6400000x3, rhat⟩]
            concatenates_S6400000x4_S6400000x4_S6400000x1_S6400000x3_S6400000x12_d1)
          wcol)
        bcol)))

/-- Row l of W as the weight column [12, 1] of layer l: slice, drop the unit axis, transpose. -/
def wcolOf (o : Fin 3 → Nat) (h : S3x1x12.Slices o S1x1x12) (W : FVec Ideal S3x1x12 .f32) : FVec Ideal S12x1 .f32 :=
  transpose S12x1 [1, 0] (fun i => shapeCast S1x12 (extractStridedSlice S1x1x12 o W h) shapeCasts_S1x1x12_S1x12 i)
    transposes_S1x12_S12x1_1_0

/-- Entry l of b broadcast over the edges as a column [E, 1]. -/
def bcolOf (o : Fin 2 → Nat) (h : S3x1.Slices o S1x1) (b : FVec Ideal S3x1 .f32) : FVec Ideal S6400000x1 .f32 :=
  broadcastInDim S6400000x1 ![0, 1] bcast_S1x1_S6400000x1_0_1
    (broadcastInDim S1x1 ![1] bcast_S1_S1x1_1
      (fun i => shapeCast S1 (extractStridedSlice S1x1 o b h) shapeCasts_S1x1_S1 i))

/-- An index vector with a negative index wrapped by + 200000, as a column [E, 1] (what z[idx] gathers with). -/
def wrapCol (a : IVec S6400000 32) : IVec S6400000x1 32 :=
  broadcastInDim S6400000x1 ![0] bcast_S6400000_S6400000x1_0
    (select (cmpi .slt a (broadcastInDim S6400000 ![] bcast_S_S6400000 (constantI S_ 32 0#32)))
      (addi a (broadcastInDim S6400000 ![] bcast_S_S6400000 (constantI S_ 32 200000#32))) a)

/-- An index vector as a column [E, 1] (what the sum by destination scatters with). -/
def rawCol (a : IVec S6400000 32) : IVec S6400000x1 32 :=
  broadcastInDim S6400000x1 ![0] bcast_S6400000_S6400000x1_0 a

/-- The reference's first result: three layers from z, layer l with row l of W and entry l of b. -/
def refResult (z : FVec Ideal S200000x4 .f32) (r : FVec Ideal S6400000x1 .f32) (rhat : FVec Ideal S6400000x3 .f32)
    (W : FVec Ideal S3x1x12 .f32) (b : FVec Ideal S3x1 .f32) (src dst : IVec S6400000 32) : FVec Ideal S200000x4 .f32 :=
  refLayer
    (refLayer
      (refLayer z r rhat (wcolOf ![0, 0, 0] slices_S3x1x12_S1x1x12_0_0_0 W) (bcolOf ![0, 0] slices_S3x1_S1x1_0_0 b)
        (wrapCol src) (wrapCol dst) (rawCol dst))
      r rhat (wcolOf ![1, 0, 0] slices_S3x1x12_S1x1x12_1_0_0 W) (bcolOf ![1, 0] slices_S3x1_S1x1_1_0 b)
      (wrapCol src) (wrapCol dst) (rawCol dst))
    r rhat (wcolOf ![2, 0, 0] slices_S3x1x12_S1x1x12_2_0_0 W) (bcolOf ![2, 0] slices_S3x1_S1x1_2_0 b)
    (wrapCol src) (wrapCol dst) (rawCol dst)

/-! ## The contraction over the twelve columns, read at one entry -/

/-- Axis 0 of the left operand's index is the result's row. -/
private theorem dot_lhs_0 (i : S6400000x1.Idx) (q : dot_S6400000x12_S12x1_S6400000x1_1_0_0_1_n_n.contr.Idx) :
    (dot_S6400000x12_S12x1_S6400000x1_1_0_0_1_n_n.lhsIdx i q 0).val = (i 0).val := by
  unfold DotDims.lhsIdx
  rw [dif_neg (show ¬(0 : Fin S6400000x12.rank) ∈ dot_S6400000x12_S12x1_S6400000x1_1_0_0_1_n_n.lhsBatch by decide),
    dif_pos (show (0 : Fin S6400000x12.rank) ∈ dot_S6400000x12_S12x1_S6400000x1_1_0_0_1_n_n.lhsNonContracting by decide)]
  rfl

/-- Axis 1 of the left operand's index is the contracted coordinate. -/
private theorem dot_lhs_1 (i : S6400000x1.Idx) (q : dot_S6400000x12_S12x1_S6400000x1_1_0_0_1_n_n.contr.Idx) :
    (dot_S6400000x12_S12x1_S6400000x1_1_0_0_1_n_n.lhsIdx i q 1).val = (q ⟨0, by decide⟩).val :=
  dot_S6400000x12_S12x1_S6400000x1_1_0_0_1_n_n.lhsIdx_val_of_single rfl i q

/-- Axis 0 of the right operand's index is the contracted coordinate. -/
private theorem dot_rhs_0 (i : S6400000x1.Idx) (q : dot_S6400000x12_S12x1_S6400000x1_1_0_0_1_n_n.contr.Idx) :
    (dot_S6400000x12_S12x1_S6400000x1_1_0_0_1_n_n.rhsIdx i q 0).val = (q ⟨0, by decide⟩).val :=
  dot_S6400000x12_S12x1_S6400000x1_1_0_0_1_n_n.rhsIdx_val_of_single rfl i q

/-- Axis 1 of the right operand's index is the result's column. -/
private theorem dot_rhs_1 (i : S6400000x1.Idx) (q : dot_S6400000x12_S12x1_S6400000x1_1_0_0_1_n_n.contr.Idx) :
    (dot_S6400000x12_S12x1_S6400000x1_1_0_0_1_n_n.rhsIdx i q 1).val = (i 1).val := by
  unfold DotDims.rhsIdx
  rw [dif_neg (show ¬(1 : Fin S12x1.rank) ∈ dot_S6400000x12_S12x1_S6400000x1_1_0_0_1_n_n.rhsBatch by decide),
    dif_pos (show (1 : Fin S12x1.rank) ∈ dot_S6400000x12_S12x1_S6400000x1_1_0_0_1_n_n.rhsNonContracting by decide)]
  rfl

/-- The product of the edge inputs [E, 12] with a weight column [12, 1] at (e, 0): the sum over the twelve columns. -/
private theorem dot_apply (y0 : FVec Ideal S6400000x12 .f32) (y1 : FVec Ideal S12x1 .f32) (e : Fin 6400000) :
    Host.dotGeneral dot_S6400000x12_S12x1_S6400000x1_1_0_0_1_n_n none y0 y1 (ix2 e 0)
      = ∑ k : Fin 12, y0 (ix2 e k) * y1 (ix2 k 0) := by
  simp only [Host.dotGeneral]
  rw [Ideal.dotGeneral_apply,
    ← Equiv.sum_comp (ValueIdx.contrEquiv1 dot_S6400000x12_S12x1_S6400000x1_1_0_0_1_n_n 12 rfl rfl).symm]
  refine Finset.sum_congr rfl fun k _ => ?_
  have hk := ValueIdx.contrEquiv1_symm_val dot_S6400000x12_S12x1_S6400000x1_1_0_0_1_n_n 12 rfl rfl k
  have el : dot_S6400000x12_S12x1_S6400000x1_1_0_0_1_n_n.lhsIdx (ix2 e 0)
      ((ValueIdx.contrEquiv1 dot_S6400000x12_S12x1_S6400000x1_1_0_0_1_n_n 12 rfl rfl).symm k) = ix2 e k :=
    funext fun a => Fin.ext (by
      match a with
      | ⟨0, _⟩ => exact dot_lhs_0 _ _
      | ⟨1, _⟩ => exact (dot_lhs_1 _ _).trans hk)
  have er : dot_S6400000x12_S12x1_S6400000x1_1_0_0_1_n_n.rhsIdx (ix2 e 0)
      ((ValueIdx.contrEquiv1 dot_S6400000x12_S12x1_S6400000x1_1_0_0_1_n_n 12 rfl rfl).symm k) = ix2 k 0 :=
    funext fun a => Fin.ext (by
      match a with
      | ⟨0, _⟩ => exact (dot_rhs_0 _ _).trans hk
      | ⟨1, _⟩ => exact dot_rhs_1 _ _)
  rw [el, er]

/-! ## The four pieces joined along the columns, read at one entry -/

/-- Columns 0..3 of the joined rows are the first piece's. -/
private theorem concat_apply_0 (A B : FVec Ideal S6400000x4 .f32) (C : FVec Ideal S6400000x1 .f32)
    (D : FVec Ideal S6400000x3 .f32) (e : Fin 6400000) (k : Fin 12) (hk : k.val < 4) :
    concatenate S6400000x12 1 [⟨S6400000x4, A⟩, ⟨S6400000x4, B⟩, ⟨S6400000x1, C⟩, ⟨S6400000x3, D⟩]
        concatenates_S6400000x4_S6400000x4_S6400000x1_S6400000x3_S6400000x12_d1 (ix2 e k)
      = A (ix2 e ⟨k.val, hk⟩) := by
  refine concatenate_apply_piece 1 [⟨S6400000x4, A⟩, ⟨S6400000x4, B⟩, ⟨S6400000x1, C⟩, ⟨S6400000x3, D⟩]
    concatenates_S6400000x4_S6400000x4_S6400000x1_S6400000x3_S6400000x12_d1 (ix2 e k) 0 (by decide : (0 : Nat) < 4) S6400000x4 A rfl rfl 0 rfl (ix2 e ⟨k.val, hk⟩) ?_ ?_
  · intro b hb
    match b with
    | ⟨0, _⟩ => rfl
    | ⟨1, _⟩ => exact absurd rfl hb
  · exact Nat.zero_add _

/-- Columns 4..7 of the joined rows are the second piece's. -/
private theorem concat_apply_1 (A B : FVec Ideal S6400000x4 .f32) (C : FVec Ideal S6400000x1 .f32)
    (D : FVec Ideal S6400000x3 .f32) (e : Fin 6400000) (k : Fin 12) (hk4 : 4 ≤ k.val) (hk : k.val < 8) :
    concatenate S6400000x12 1 [⟨S6400000x4, A⟩, ⟨S6400000x4, B⟩, ⟨S6400000x1, C⟩, ⟨S6400000x3, D⟩]
        concatenates_S6400000x4_S6400000x4_S6400000x1_S6400000x3_S6400000x12_d1 (ix2 e k)
      = B (ix2 e ⟨k.val - 4, by omega⟩) := by
  refine concatenate_apply_piece 1 [⟨S6400000x4, A⟩, ⟨S6400000x4, B⟩, ⟨S6400000x1, C⟩, ⟨S6400000x3, D⟩]
    concatenates_S6400000x4_S6400000x4_S6400000x1_S6400000x3_S6400000x12_d1 (ix2 e k) 1 (by decide : (1 : Nat) < 4) S6400000x4 B rfl rfl 4 rfl
    (ix2 e ⟨k.val - 4, by omega⟩) ?_ ?_
  · intro b hb
    match b with
    | ⟨0, _⟩ => rfl
    | ⟨1, _⟩ => exact absurd rfl hb
  · show 4 + (k.val - 4) = k.val
    omega

/-- Column 8 of the joined rows is the third piece's one column. -/
private theorem concat_apply_2 (A B : FVec Ideal S6400000x4 .f32) (C : FVec Ideal S6400000x1 .f32)
    (D : FVec Ideal S6400000x3 .f32) (e : Fin 6400000) (k : Fin 12) (hk : k.val = 8) :
    concatenate S6400000x12 1 [⟨S6400000x4, A⟩, ⟨S6400000x4, B⟩, ⟨S6400000x1, C⟩, ⟨S6400000x3, D⟩]
        concatenates_S6400000x4_S6400000x4_S6400000x1_S6400000x3_S6400000x12_d1 (ix2 e k)
      = C (ix2 e 0) := by
  refine concatenate_apply_piece 1 [⟨S6400000x4, A⟩, ⟨S6400000x4, B⟩, ⟨S6400000x1, C⟩, ⟨S6400000x3, D⟩]
    concatenates_S6400000x4_S6400000x4_S6400000x1_S6400000x3_S6400000x12_d1 (ix2 e k) 2 (by decide : (2 : Nat) < 4) S6400000x1 C rfl rfl 8 rfl (ix2 e 0) ?_ ?_
  · intro b hb
    match b with
    | ⟨0, _⟩ => rfl
    | ⟨1, _⟩ => exact absurd rfl hb
  · show 8 + 0 = k.val
    omega

/-- Columns 9..11 of the joined rows are the fourth piece's. -/
private theorem concat_apply_3 (A B : FVec Ideal S6400000x4 .f32) (C : FVec Ideal S6400000x1 .f32)
    (D : FVec Ideal S6400000x3 .f32) (e : Fin 6400000) (k : Fin 12) (hk : 9 ≤ k.val) :
    concatenate S6400000x12 1 [⟨S6400000x4, A⟩, ⟨S6400000x4, B⟩, ⟨S6400000x1, C⟩, ⟨S6400000x3, D⟩]
        concatenates_S6400000x4_S6400000x4_S6400000x1_S6400000x3_S6400000x12_d1 (ix2 e k)
      = D (ix2 e ⟨k.val - 9, by have := k.isLt; omega⟩) := by
  refine concatenate_apply_piece 1 [⟨S6400000x4, A⟩, ⟨S6400000x4, B⟩, ⟨S6400000x1, C⟩, ⟨S6400000x3, D⟩]
    concatenates_S6400000x4_S6400000x4_S6400000x1_S6400000x3_S6400000x12_d1 (ix2 e k) 3 (by decide : (3 : Nat) < 4) S6400000x3 D rfl rfl 9 rfl
    (ix2 e ⟨k.val - 9, by have := k.isLt; omega⟩) ?_ ?_
  · intro b hb
    match b with
    | ⟨0, _⟩ => rfl
    | ⟨1, _⟩ => exact absurd rfl hb
  · show 9 + (k.val - 9) = k.val
    omega

/-! ## The joined row is the edge's input vector -/

/-- Entry (e, k) of the joined rows — the source's features, the destination's, the edge's radius and its direction —
    is entry k of the specification's input vector of edge e. -/
private theorem row_apply
    (z : FVec Ideal S200000x4 .f32) (z' : Fin 200000 → Fin 4 → ℝ) (hz : ∀ n f, z (ix2 n f) = (z' n f : EReal))
    (r : FVec Ideal S6400000x1 .f32) (rhat : FVec Ideal S6400000x3 .f32) (a' : Fin 6400000 → Fin 4 → ℝ)
    (hr : ∀ e : Fin 6400000, r (ix2 e 0) = (a' e 0 : EReal))
    (hrhat : ∀ (e : Fin 6400000) (k : Fin 3), rhat (ix2 e k) = (a' e ⟨k.val + 1, by omega⟩ : EReal))
    (srcCol dstCol : IVec S6400000x1 32) (s d : Fin 6400000 → Fin 200000)
    (hs : ∀ e : Fin 6400000, (srcCol (ix2 e 0)).toInt = ((s e).val : ℤ))
    (hd : ∀ e : Fin 6400000, (dstCol (ix2 e 0)).toInt = ((d e).val : ℤ))
    (e : Fin 6400000) (k : Fin 12) :
    concatenate S6400000x12 1
        [⟨S6400000x4, Host.gather gather_S200000x4_S6400000x1_S6400000x4_1_0_n_n_0_1_14 z srcCol⟩,
         ⟨S6400000x4, Host.gather gather_S200000x4_S6400000x1_S6400000x4_1_0_n_n_0_1_14 z dstCol⟩,
         ⟨S6400000x1, r⟩, ⟨S6400000x3, rhat⟩]
        concatenates_S6400000x4_S6400000x4_S6400000x1_S6400000x3_S6400000x12_d1 (ix2 e k)
      = ((inpt z' a' s d e k : ℝ) : EReal) := by
  -- a gather of whole rows by a column of node indices reads the named node's row
  have hg : ∀ (idx : IVec S6400000x1 32) (t : Fin 6400000 → Fin 200000),
      (∀ e : Fin 6400000, (idx (ix2 e 0)).toInt = ((t e).val : ℤ)) → ∀ (e : Fin 6400000) (g : Fin 4),
      Host.gather gather_S200000x4_S6400000x1_S6400000x4_1_0_n_n_0_1_14 z idx (ix2 e g) = z (ix2 (t e) g) :=
    fun idx t ht e g =>
      gather_rows_apply gather_S200000x4_S6400000x1_S6400000x4_1_0_n_n_0_1_14 rfl rfl rfl rfl rfl rfl rfl z idx t ht e g
  by_cases h4 : k.val < 4
  · rw [concat_apply_0 _ _ _ _ e k h4, hg srcCol s hs, hz]
    unfold inpt
    rw [dif_pos h4]
  · by_cases h8 : k.val < 8
    · rw [concat_apply_1 _ _ _ _ e k (by omega) h8, hg dstCol d hd, hz]
      unfold inpt
      rw [dif_neg h4, dif_pos h8]
    · by_cases h9 : k.val = 8
      · rw [concat_apply_2 _ _ _ _ e k h9, hr]
        unfold inpt
        rw [dif_neg h4, dif_neg h8]
        exact congrArg (fun j : Fin 4 => ((a' e j : ℝ) : EReal)) (Fin.ext (by show 0 = k.val - 8; omega))
      · have hk := k.isLt
        rw [concat_apply_3 _ _ _ _ e k (by omega), hrhat]
        unfold inpt
        rw [dif_neg h4, dif_neg h8]
        exact congrArg (fun j : Fin 4 => ((a' e j : ℝ) : EReal)) (Fin.ext (by show k.val - 9 + 1 = k.val - 8; omega))

/-! ## The broadcast of the aggregate over the four features -/

/-- A column [N, 1] broadcast over four columns reads, at (n, f), the column at (n, 0). -/
private theorem bcast_col_apply {α : Type} (v : S200000x1.Idx → α) (n : Fin 200000) (f : Fin 4) :
    broadcastInDim S200000x4 ![0, 1] bcast_S200000x1_S200000x4_0_1 v (ix2 n f) = v (ix2 n 0) := by
  simp only [broadcastInDim]
  congr 1
  funext a
  match a with
  | ⟨0, _⟩ =>
    apply Fin.ext
    split
    · next h1 =>
      change 200000 = 1 at h1
      omega
    · rfl
  | ⟨1, _⟩ =>
    apply Fin.ext
    split
    · rfl
    · next h => exact absurd rfl h

/-- The reference's layer at entry (n, f), on real inputs and node indices, is the specification's layer. -/
theorem refLayer_apply
    (z : FVec Ideal S200000x4 .f32) (z' : Fin 200000 → Fin 4 → ℝ) (hz : ∀ n f, z (ix2 n f) = (z' n f : EReal))
    (r : FVec Ideal S6400000x1 .f32) (rhat : FVec Ideal S6400000x3 .f32) (a' : Fin 6400000 → Fin 4 → ℝ)
    (hr : ∀ e : Fin 6400000, r (ix2 e 0) = (a' e 0 : EReal))
    (hrhat : ∀ (e : Fin 6400000) (k : Fin 3), rhat (ix2 e k) = (a' e ⟨k.val + 1, by omega⟩ : EReal))
    (wcol : FVec Ideal S12x1 .f32) (w' : Fin 12 → ℝ) (hw : ∀ k : Fin 12, wcol (ix2 k 0) = (w' k : EReal))
    (bcol : FVec Ideal S6400000x1 .f32) (b' : ℝ) (hb : ∀ e : Fin 6400000, bcol (ix2 e 0) = (b' : EReal))
    (srcCol dstCol dstRaw : IVec S6400000x1 32) (s d : Fin 6400000 → Fin 200000)
    (hs : ∀ e : Fin 6400000, (srcCol (ix2 e 0)).toInt = ((s e).val : ℤ))
    (hd : ∀ e : Fin 6400000, (dstCol (ix2 e 0)).toInt = ((d e).val : ℤ))
    (hd' : ∀ e : Fin 6400000, (dstRaw (ix2 e 0)).toInt = ((d e).val : ℤ))
    (n : Fin 200000) (f : Fin 4) :
    refLayer z r rhat wcol bcol srcCol dstCol dstRaw (ix2 n f) = ((layerR z' a' w' b' s d n f : ℝ) : EReal) := by
  -- the message of edge e: its input vector against the weights, plus the bias, a real number
  have hmsg : ∀ e : Fin 6400000,
      addf (Host.dotGeneral dot_S6400000x12_S12x1_S6400000x1_1_0_0_1_n_n none
          (concatenate S6400000x12 1
            [⟨S6400000x4, Host.gather gather_S200000x4_S6400000x1_S6400000x4_1_0_n_n_0_1_14 z srcCol⟩,
             ⟨S6400000x4, Host.gather gather_S200000x4_S6400000x1_S6400000x4_1_0_n_n_0_1_14 z dstCol⟩,
             ⟨S6400000x1, r⟩, ⟨S6400000x3, rhat⟩]
            concatenates_S6400000x4_S6400000x4_S6400000x1_S6400000x3_S6400000x12_d1)
          wcol) bcol (ix2 e 0)
        = (((∑ k : Fin 12, inpt z' a' s d e k * w' k) + b' : ℝ) : EReal) := by
    intro e
    rw [addf_apply, dot_apply, hb, EReal.coe_add, coe_sum]
    refine congrArg (· + (b' : EReal)) (Finset.sum_congr rfl fun k _ => ?_)
    rw [row_apply z z' hz r rhat a' hr hrhat srcCol dstCol s d hs hd e k, hw k, EReal.coe_mul]
  -- the aggregate starts from zero
  have hzero : broadcastInDim S200000x1 ![] bcast_S_S200000x1 (constant (F := Ideal) S_ .f32 0x00000000#32) (ix2 n 0)
      = (0 : EReal) := Ideal.ofBits_zero_f32
  unfold refLayer
  rw [addf_apply, bcast_col_apply,
    scatterAdd_rows_apply scatter_S200000x1_S6400000x1_S6400000x1_1_0_0_1 rfl rfl rfl rfl _ dstRaw _ d hd' n 0,
    hzero, zero_add, hz, Finset.sum_congr rfl fun e _ => hmsg e, ← coe_sum, ← EReal.coe_add]
  rfl

end Cert.ReferenceIdeal.RefValue

end
-- ==== Proof.RefRun.lean ====
/-
  The reference program's run, read back layer by layer.

  The reference's @main is 102 host operations: three times the 34 operations of one layer. Run from any buffer
  contents, the operations of a layer leave, in the layer's result buffer, the layer (as the pure function of
  RefLayer.lean) of the features in the buffer they start from, and leave the arguments alone. So the whole
  line leaves the three layers composed, and every weakly fair execution of the program ends there.
-/
import proofs.«426513_j76897094467615_2_alg».proof.Proof.Gen.ReferenceIdeal
import proofs.«426513_j76897094467615_2_alg».proof.Proof.RefLayer
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

section Ops
variable {F : FTy → Type} [FloatOps F]

/-- The first layer's 34 operations, in order. -/
abbrev opsA : List (HloOp τ sig (Elt F)) :=
  [ nullary main_c (constantI S_ 32 0#32),
    unary main_c main_v0 (broadcastInDim S6400000 ![] bcast_S_S6400000 : (⟨S_, .i32⟩ : BufTy).Contents (Elt F) → (⟨S6400000, .i32⟩ : BufTy).Contents (Elt F)),
    binary main_arg5 main_v0 main_v1 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 200000#32),
    unary main_c_0 main_v2 (broadcastInDim S6400000 ![] bcast_S_S6400000 : (⟨S_, .i32⟩ : BufTy).Contents (Elt F) → (⟨S6400000, .i32⟩ : BufTy).Contents (Elt F)),
    binary main_arg5 main_v2 main_v3 (addi : (⟨S6400000, .i32⟩ : BufTy).Contents (Elt F) → (⟨S6400000, .i32⟩ : BufTy).Contents (Elt F) → (⟨S6400000, .i32⟩ : BufTy).Contents (Elt F)),
    ternary main_v1 main_v3 main_arg5 main_v4 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v4 main_v5 (broadcastInDim S6400000x1 ![0] bcast_S6400000_S6400000x1_0 : (⟨S6400000, .i32⟩ : BufTy).Contents (Elt F) → (⟨S6400000x1, .i32⟩ : BufTy).Contents (Elt F)),
    binary main_arg0 main_v5 main_v6 ((fun x i => Host.gather gather_S200000x4_S6400000x1_S6400000x4_1_0_n_n_0_1_14 x i) : (⟨S200000x4, .f32⟩ : BufTy).Contents (Elt F) → (⟨S6400000x1, .i32⟩ : BufTy).Contents (Elt F) → (⟨S6400000x4, .f32⟩ : BufTy).Contents (Elt F)),
    nullary main_c_1 (constantI S_ 32 0#32),
    unary main_c_1 main_v7 (broadcastInDim S6400000 ![] bcast_S_S6400000 : (⟨S_, .i32⟩ : BufTy).Contents (Elt F) → (⟨S6400000, .i32⟩ : BufTy).Contents (Elt F)),
    binary main_arg6 main_v7 main_v8 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 200000#32),
    unary main_c_2 main_v9 (broadcastInDim S6400000 ![] bcast_S_S6400000 : (⟨S_, .i32⟩ : BufTy).Contents (Elt F) → (⟨S6400000, .i32⟩ : BufTy).Contents (Elt F)),
    binary main_arg6 main_v9 main_v10 (addi : (⟨S6400000, .i32⟩ : BufTy).Contents (Elt F) → (⟨S6400000, .i32⟩ : BufTy).Contents (Elt F) → (⟨S6400000, .i32⟩ : BufTy).Contents (Elt F)),
    ternary main_v8 main_v10 main_arg6 main_v11 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v11 main_v12 (broadcastInDim S6400000x1 ![0] bcast_S6400000_S6400000x1_0 : (⟨S6400000, .i32⟩ : BufTy).Contents (Elt F) → (⟨S6400000x1, .i32⟩ : BufTy).Contents (Elt F)),
    binary main_arg0 main_v12 main_v13 ((fun x i => Host.gather gather_S200000x4_S6400000x1_S6400000x4_1_0_n_n_0_1_14 x i) : (⟨S200000x4, .f32⟩ : BufTy).Contents (Elt F) → (⟨S6400000x1, .i32⟩ : BufTy).Contents (Elt F) → (⟨S6400000x4, .f32⟩ : BufTy).Contents (Elt F)),
    nary ![main_v6, main_v13, main_arg1, main_arg2] main_v14 (fun u => concatenate S6400000x12 1 [⟨S6400000x4, u 0⟩, ⟨S6400000x4, u 1⟩, ⟨S6400000x1, u 2⟩, ⟨S6400000x3, u 3⟩] concatenates_S6400000x4_S6400000x4_S6400000x1_S6400000x3_S6400000x12_d1),
    unary main_arg3 main_v15 ((extractStridedSlice S1x1x12 ![0, 0, 0] · slices_S3x1x12_S1x1x12_0_0_0) : (⟨S3x1x12, .f32⟩ : BufTy).Contents (Elt F) → (⟨S1x1x12, .f32⟩ : BufTy).Contents (Elt F)),
    reshape main_v15 main_v16 rfl shapeCasts_S1x1x12_S1x12,
    unary main_v16 main_v17 ((transpose S12x1 [1, 0] · transposes_S1x12_S12x1_1_0) : (⟨S1x12, .f32⟩ : BufTy).Contents (Elt F) → (⟨S12x1, .f32⟩ : BufTy).Contents (Elt F)),
    binary main_v14 main_v17 main_v18 ((fun l r => Host.dotGeneral dot_S6400000x12_S12x1_S6400000x1_1_0_0_1_n_n none l r) : (⟨S6400000x12, .f32⟩ : BufTy).Contents (Elt F) → (⟨S12x1, .f32⟩ : BufTy).Contents (Elt F) → (⟨S6400000x1, .f32⟩ : BufTy).Contents (Elt F)),
    unary main_arg4 main_v19 ((extractStridedSlice S1x1 ![0, 0] · slices_S3x1_S1x1_0_0) : (⟨S3x1, .f32⟩ : BufTy).Contents (Elt F) → (⟨S1x1, .f32⟩ : BufTy).Contents (Elt F)),
    reshape main_v19 main_v20 rfl shapeCasts_S1x1_S1,
    unary main_v20 main_v21 (broadcastInDim S1x1 ![1] bcast_S1_S1x1_1 : (⟨S1, .f32⟩ : BufTy).Contents (Elt F) → (⟨S1x1, .f32⟩ : BufTy).Contents (Elt F)),
    unary main_v21 main_v22 (broadcastInDim S6400000x1 ![0, 1] bcast_S1x1_S6400000x1_0_1 : (⟨S1x1, .f32⟩ : BufTy).Contents (Elt F) → (⟨S6400000x1, .f32⟩ : BufTy).Contents (Elt F)),
    binary main_v18 main_v22 main_v23 (addf : (⟨S6400000x1, .f32⟩ : BufTy).Contents (Elt F) → (⟨S6400000x1, .f32⟩ : BufTy).Contents (Elt F) → (⟨S6400000x1, .f32⟩ : BufTy).Contents (Elt F)),
    nullary main_cst (constant S_ .f32 0x00000000#32),
    unary main_cst main_v24 (broadcastInDim S200000x1 ![] bcast_S_S200000x1 : (⟨S_, .f32⟩ : BufTy).Contents (Elt F) → (⟨S200000x1, .f32⟩ : BufTy).Contents (Elt F)),
    unary main_arg6 main_v25 (broadcastInDim S6400000x1 ![0] bcast_S6400000_S6400000x1_0 : (⟨S6400000, .i32⟩ : BufTy).Contents (Elt F) → (⟨S6400000x1, .i32⟩ : BufTy).Contents (Elt F)),
    ternary main_v24 main_v25 main_v23 main_v26 ((fun x i u => Host.scatterAdd scatter_S200000x1_S6400000x1_S6400000x1_1_0_0_1 x i u) : (⟨S200000x1, .f32⟩ : BufTy).Contents (Elt F) → (⟨S6400000x1, .i32⟩ : BufTy).Contents (Elt F) → (⟨S6400000x1, .f32⟩ : BufTy).Contents (Elt F) → (⟨S200000x1, .f32⟩ : BufTy).Contents (Elt F)),
    unary main_v26 main_v27 (broadcastInDim S200000x4 ![0, 1] bcast_S200000x1_S200000x4_0_1 : (⟨S200000x1, .f32⟩ : BufTy).Contents (Elt F) → (⟨S200000x4, .f32⟩ : BufTy).Contents (Elt F)),
    binary main_arg0 main_v27 main_v28 (addf : (⟨S200000x4, .f32⟩ : BufTy).Contents (Elt F) → (⟨S200000x4, .f32⟩ : BufTy).Contents (Elt F) → (⟨S200000x4, .f32⟩ : BufTy).Contents (Elt F)) ]

/-- The second layer's 34 operations, in order. -/
abbrev opsB : List (HloOp τ sig (Elt F)) :=
  [ nullary main_c_3 (constantI S_ 32 0#32),
    unary main_c_3 main_v29 (broadcastInDim S6400000 ![] bcast_S_S6400000 : (⟨S_, .i32⟩ : BufTy).Contents (Elt F) → (⟨S6400000, .i32⟩ : BufTy).Contents (Elt F)),
    binary main_arg5 main_v29 main_v30 (cmpi .slt : (⟨S6400000, .i32⟩ : BufTy).Contents (Elt F) → (⟨S6400000, .i32⟩ : BufTy).Contents (Elt F) → (⟨S6400000, .i1⟩ : BufTy).Contents (Elt F)),
    nullary main_c_4 (constantI S_ 32 200000#32),
    unary main_c_4 main_v31 (broadcastInDim S6400000 ![] bcast_S_S6400000 : (⟨S_, .i32⟩ : BufTy).Contents (Elt F) → (⟨S6400000, .i32⟩ : BufTy).Contents (Elt F)),
    binary main_arg5 main_v31 main_v32 (addi : (⟨S6400000, .i32⟩ : BufTy).Contents (Elt F) → (⟨S6400000, .i32⟩ : BufTy).Contents (Elt F) → (⟨S6400000, .i32⟩ : BufTy).Contents (Elt F)),
    ternary main_v30 main_v32 main_arg5 main_v33 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v33 main_v34 (broadcastInDim S6400000x1 ![0] bcast_S6400000_S6400000x1_0 : (⟨S6400000, .i32⟩ : BufTy).Contents (Elt F) → (⟨S6400000x1, .i32⟩ : BufTy).Contents (Elt F)),
    binary main_v28 main_v34 main_v35 ((fun x i => Host.gather gather_S200000x4_S6400000x1_S6400000x4_1_0_n_n_0_1_14 x i) : (⟨S200000x4, .f32⟩ : BufTy).Contents (Elt F) → (⟨S6400000x1, .i32⟩ : BufTy).Contents (Elt F) → (⟨S6400000x4, .f32⟩ : BufTy).Contents (Elt F)),
    nullary main_c_5 (constantI S_ 32 0#32),
    unary main_c_5 main_v36 (broadcastInDim S6400000 ![] bcast_S_S6400000 : (⟨S_, .i32⟩ : BufTy).Contents (Elt F) → (⟨S6400000, .i32⟩ : BufTy).Contents (Elt F)),
    binary main_arg6 main_v36 main_v37 (cmpi .slt : (⟨S6400000, .i32⟩ : BufTy).Contents (Elt F) → (⟨S6400000, .i32⟩ : BufTy).Contents (Elt F) → (⟨S6400000, .i1⟩ : BufTy).Contents (Elt F)),
    nullary main_c_6 (constantI S_ 32 200000#32),
    unary main_c_6 main_v38 (broadcastInDim S6400000 ![] bcast_S_S6400000 : (⟨S_, .i32⟩ : BufTy).Contents (Elt F) → (⟨S6400000, .i32⟩ : BufTy).Contents (Elt F)),
    binary main_arg6 main_v38 main_v39 (addi : (⟨S6400000, .i32⟩ : BufTy).Contents (Elt F) → (⟨S6400000, .i32⟩ : BufTy).Contents (Elt F) → (⟨S6400000, .i32⟩ : BufTy).Contents (Elt F)),
    ternary main_v37 main_v39 main_arg6 main_v40 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v40 main_v41 (broadcastInDim S6400000x1 ![0] bcast_S6400000_S6400000x1_0 : (⟨S6400000, .i32⟩ : BufTy).Contents (Elt F) → (⟨S6400000x1, .i32⟩ : BufTy).Contents (Elt F)),
    binary main_v28 main_v41 main_v42 ((fun x i => Host.gather gather_S200000x4_S6400000x1_S6400000x4_1_0_n_n_0_1_14 x i) : (⟨S200000x4, .f32⟩ : BufTy).Contents (Elt F) → (⟨S6400000x1, .i32⟩ : BufTy).Contents (Elt F) → (⟨S6400000x4, .f32⟩ : BufTy).Contents (Elt F)),
    nary ![main_v35, main_v42, main_arg1, main_arg2] main_v43 (fun u => concatenate S6400000x12 1 [⟨S6400000x4, u 0⟩, ⟨S6400000x4, u 1⟩, ⟨S6400000x1, u 2⟩, ⟨S6400000x3, u 3⟩] concatenates_S6400000x4_S6400000x4_S6400000x1_S6400000x3_S6400000x12_d1),
    unary main_arg3 main_v44 ((extractStridedSlice S1x1x12 ![1, 0, 0] · slices_S3x1x12_S1x1x12_1_0_0) : (⟨S3x1x12, .f32⟩ : BufTy).Contents (Elt F) → (⟨S1x1x12, .f32⟩ : BufTy).Contents (Elt F)),
    reshape main_v44 main_v45 rfl shapeCasts_S1x1x12_S1x12,
    unary main_v45 main_v46 ((transpose S12x1 [1, 0] · transposes_S1x12_S12x1_1_0) : (⟨S1x12, .f32⟩ : BufTy).Contents (Elt F) → (⟨S12x1, .f32⟩ : BufTy).Contents (Elt F)),
    binary main_v43 main_v46 main_v47 ((fun l r => Host.dotGeneral dot_S6400000x12_S12x1_S6400000x1_1_0_0_1_n_n none l r) : (⟨S6400000x12, .f32⟩ : BufTy).Contents (Elt F) → (⟨S12x1, .f32⟩ : BufTy).Contents (Elt F) → (⟨S6400000x1, .f32⟩ : BufTy).Contents (Elt F)),
    unary main_arg4 main_v48 ((extractStridedSlice S1x1 ![1, 0] · slices_S3x1_S1x1_1_0) : (⟨S3x1, .f32⟩ : BufTy).Contents (Elt F) → (⟨S1x1, .f32⟩ : BufTy).Contents (Elt F)),
    reshape main_v48 main_v49 rfl shapeCasts_S1x1_S1,
    unary main_v49 main_v50 (broadcastInDim S1x1 ![1] bcast_S1_S1x1_1 : (⟨S1, .f32⟩ : BufTy).Contents (Elt F) → (⟨S1x1, .f32⟩ : BufTy).Contents (Elt F)),
    unary main_v50 main_v51 (broadcastInDim S6400000x1 ![0, 1] bcast_S1x1_S6400000x1_0_1 : (⟨S1x1, .f32⟩ : BufTy).Contents (Elt F) → (⟨S6400000x1, .f32⟩ : BufTy).Contents (Elt F)),
    binary main_v47 main_v51 main_v52 (addf : (⟨S6400000x1, .f32⟩ : BufTy).Contents (Elt F) → (⟨S6400000x1, .f32⟩ : BufTy).Contents (Elt F) → (⟨S6400000x1, .f32⟩ : BufTy).Contents (Elt F)),
    nullary main_cst_7 (constant S_ .f32 0x00000000#32),
    unary main_cst_7 main_v53 (broadcastInDim S200000x1 ![] bcast_S_S200000x1 : (⟨S_, .f32⟩ : BufTy).Contents (Elt F) → (⟨S200000x1, .f32⟩ : BufTy).Contents (Elt F)),
    unary main_arg6 main_v54 (broadcastInDim S6400000x1 ![0] bcast_S6400000_S6400000x1_0 : (⟨S6400000, .i32⟩ : BufTy).Contents (Elt F) → (⟨S6400000x1, .i32⟩ : BufTy).Contents (Elt F)),
    ternary main_v53 main_v54 main_v52 main_v55 ((fun x i u => Host.scatterAdd scatter_S200000x1_S6400000x1_S6400000x1_1_0_0_1 x i u) : (⟨S200000x1, .f32⟩ : BufTy).Contents (Elt F) → (⟨S6400000x1, .i32⟩ : BufTy).Contents (Elt F) → (⟨S6400000x1, .f32⟩ : BufTy).Contents (Elt F) → (⟨S200000x1, .f32⟩ : BufTy).Contents (Elt F)),
    unary main_v55 main_v56 (broadcastInDim S200000x4 ![0, 1] bcast_S200000x1_S200000x4_0_1 : (⟨S200000x1, .f32⟩ : BufTy).Contents (Elt F) → (⟨S200000x4, .f32⟩ : BufTy).Contents (Elt F)),
    binary main_v28 main_v56 main_v57 (addf : (⟨S200000x4, .f32⟩ : BufTy).Contents (Elt F) → (⟨S200000x4, .f32⟩ : BufTy).Contents (Elt F) → (⟨S200000x4, .f32⟩ : BufTy).Contents (Elt F)) ]

/-- The third layer's 34 operations, in order. -/
abbrev opsC : List (HloOp τ sig (Elt F)) :=
  [ nullary main_c_8 (constantI S_ 32 0#32),
    unary main_c_8 main_v58 (broadcastInDim S6400000 ![] bcast_S_S6400000 : (⟨S_, .i32⟩ : BufTy).Contents (Elt F) → (⟨S6400000, .i32⟩ : BufTy).Contents (Elt F)),
    binary main_arg5 main_v58 main_v59 (cmpi .slt : (⟨S6400000, .i32⟩ : BufTy).Contents (Elt F) → (⟨S6400000, .i32⟩ : BufTy).Contents (Elt F) → (⟨S6400000, .i1⟩ : BufTy).Contents (Elt F)),
    nullary main_c_9 (constantI S_ 32 200000#32),
    unary main_c_9 main_v60 (broadcastInDim S6400000 ![] bcast_S_S6400000 : (⟨S_, .i32⟩ : BufTy).Contents (Elt F) → (⟨S6400000, .i32⟩ : BufTy).Contents (Elt F)),
    binary main_arg5 main_v60 main_v61 (addi : (⟨S6400000, .i32⟩ : BufTy).Contents (Elt F) → (⟨S6400000, .i32⟩ : BufTy).Contents (Elt F) → (⟨S6400000, .i32⟩ : BufTy).Contents (Elt F)),
    ternary main_v59 main_v61 main_arg5 main_v62 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v62 main_v63 (broadcastInDim S6400000x1 ![0] bcast_S6400000_S6400000x1_0 : (⟨S6400000, .i32⟩ : BufTy).Contents (Elt F) → (⟨S6400000x1, .i32⟩ : BufTy).Contents (Elt F)),
    binary main_v57 main_v63 main_v64 ((fun x i => Host.gather gather_S200000x4_S6400000x1_S6400000x4_1_0_n_n_0_1_14 x i) : (⟨S200000x4, .f32⟩ : BufTy).Contents (Elt F) → (⟨S6400000x1, .i32⟩ : BufTy).Contents (Elt F) → (⟨S6400000x4, .f32⟩ : BufTy).Contents (Elt F)),
    nullary main_c_10 (constantI S_ 32 0#32),
    unary main_c_10 main_v65 (broadcastInDim S6400000 ![] bcast_S_S6400000 : (⟨S_, .i32⟩ : BufTy).Contents (Elt F) → (⟨S6400000, .i32⟩ : BufTy).Contents (Elt F)),
    binary main_arg6 main_v65 main_v66 (cmpi .slt : (⟨S6400000, .i32⟩ : BufTy).Contents (Elt F) → (⟨S6400000, .i32⟩ : BufTy).Contents (Elt F) → (⟨S6400000, .i1⟩ : BufTy).Contents (Elt F)),
    nullary main_c_11 (constantI S_ 32 200000#32),
    unary main_c_11 main_v67 (broadcastInDim S6400000 ![] bcast_S_S6400000 : (⟨S_, .i32⟩ : BufTy).Contents (Elt F) → (⟨S6400000, .i32⟩ : BufTy).Contents (Elt F)),
    binary main_arg6 main_v67 main_v68 (addi : (⟨S6400000, .i32⟩ : BufTy).Contents (Elt F) → (⟨S6400000, .i32⟩ : BufTy).Contents (Elt F) → (⟨S6400000, .i32⟩ : BufTy).Contents (Elt F)),
    ternary main_v66 main_v68 main_arg6 main_v69 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v69 main_v70 (broadcastInDim S6400000x1 ![0] bcast_S6400000_S6400000x1_0 : (⟨S6400000, .i32⟩ : BufTy).Contents (Elt F) → (⟨S6400000x1, .i32⟩ : BufTy).Contents (Elt F)),
    binary main_v57 main_v70 main_v71 ((fun x i => Host.gather gather_S200000x4_S6400000x1_S6400000x4_1_0_n_n_0_1_14 x i) : (⟨S200000x4, .f32⟩ : BufTy).Contents (Elt F) → (⟨S6400000x1, .i32⟩ : BufTy).Contents (Elt F) → (⟨S6400000x4, .f32⟩ : BufTy).Contents (Elt F)),
    nary ![main_v64, main_v71, main_arg1, main_arg2] main_v72 (fun u => concatenate S6400000x12 1 [⟨S6400000x4, u 0⟩, ⟨S6400000x4, u 1⟩, ⟨S6400000x1, u 2⟩, ⟨S6400000x3, u 3⟩] concatenates_S6400000x4_S6400000x4_S6400000x1_S6400000x3_S6400000x12_d1),
    unary main_arg3 main_v73 ((extractStridedSlice S1x1x12 ![2, 0, 0] · slices_S3x1x12_S1x1x12_2_0_0) : (⟨S3x1x12, .f32⟩ : BufTy).Contents (Elt F) → (⟨S1x1x12, .f32⟩ : BufTy).Contents (Elt F)),
    reshape main_v73 main_v74 rfl shapeCasts_S1x1x12_S1x12,
    unary main_v74 main_v75 ((transpose S12x1 [1, 0] · transposes_S1x12_S12x1_1_0) : (⟨S1x12, .f32⟩ : BufTy).Contents (Elt F) → (⟨S12x1, .f32⟩ : BufTy).Contents (Elt F)),
    binary main_v72 main_v75 main_v76 ((fun l r => Host.dotGeneral dot_S6400000x12_S12x1_S6400000x1_1_0_0_1_n_n none l r) : (⟨S6400000x12, .f32⟩ : BufTy).Contents (Elt F) → (⟨S12x1, .f32⟩ : BufTy).Contents (Elt F) → (⟨S6400000x1, .f32⟩ : BufTy).Contents (Elt F)),
    unary main_arg4 main_v77 ((extractStridedSlice S1x1 ![2, 0] · slices_S3x1_S1x1_2_0) : (⟨S3x1, .f32⟩ : BufTy).Contents (Elt F) → (⟨S1x1, .f32⟩ : BufTy).Contents (Elt F)),
    reshape main_v77 main_v78 rfl shapeCasts_S1x1_S1,
    unary main_v78 main_v79 (broadcastInDim S1x1 ![1] bcast_S1_S1x1_1 : (⟨S1, .f32⟩ : BufTy).Contents (Elt F) → (⟨S1x1, .f32⟩ : BufTy).Contents (Elt F)),
    unary main_v79 main_v80 (broadcastInDim S6400000x1 ![0, 1] bcast_S1x1_S6400000x1_0_1 : (⟨S1x1, .f32⟩ : BufTy).Contents (Elt F) → (⟨S6400000x1, .f32⟩ : BufTy).Contents (Elt F)),
    binary main_v76 main_v80 main_v81 (addf : (⟨S6400000x1, .f32⟩ : BufTy).Contents (Elt F) → (⟨S6400000x1, .f32⟩ : BufTy).Contents (Elt F) → (⟨S6400000x1, .f32⟩ : BufTy).Contents (Elt F)),
    nullary main_cst_12 (constant S_ .f32 0x00000000#32),
    unary main_cst_12 main_v82 (broadcastInDim S200000x1 ![] bcast_S_S200000x1 : (⟨S_, .f32⟩ : BufTy).Contents (Elt F) → (⟨S200000x1, .f32⟩ : BufTy).Contents (Elt F)),
    unary main_arg6 main_v83 (broadcastInDim S6400000x1 ![0] bcast_S6400000_S6400000x1_0 : (⟨S6400000, .i32⟩ : BufTy).Contents (Elt F) → (⟨S6400000x1, .i32⟩ : BufTy).Contents (Elt F)),
    ternary main_v82 main_v83 main_v81 main_v84 ((fun x i u => Host.scatterAdd scatter_S200000x1_S6400000x1_S6400000x1_1_0_0_1 x i u) : (⟨S200000x1, .f32⟩ : BufTy).Contents (Elt F) → (⟨S6400000x1, .i32⟩ : BufTy).Contents (Elt F) → (⟨S6400000x1, .f32⟩ : BufTy).Contents (Elt F) → (⟨S200000x1, .f32⟩ : BufTy).Contents (Elt F)),
    unary main_v84 main_v85 (broadcastInDim S200000x4 ![0, 1] bcast_S200000x1_S200000x4_0_1 : (⟨S200000x1, .f32⟩ : BufTy).Contents (Elt F) → (⟨S200000x4, .f32⟩ : BufTy).Contents (Elt F)),
    binary main_v57 main_v85 main_v86 (addf : (⟨S200000x4, .f32⟩ : BufTy).Contents (Elt F) → (⟨S200000x4, .f32⟩ : BufTy).Contents (Elt F) → (⟨S200000x4, .f32⟩ : BufTy).Contents (Elt F)) ]

/-- @main's 102 operations, in order. -/
abbrev ops : List (HloOp τ sig (Elt F)) := opsA ++ (opsB ++ opsC)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., binary_bufs_sub ..⟩

/-- Two lines run one after the other: the second from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Ops

variable (V : Valuation τ sig (Elt Ideal))

set_option maxHeartbeats 4000000 in
/-- The operations of layer 0 leave the layer of the features they find. -/
theorem stageA : after (opsA (F := Ideal)) V (Proc.devRef .tc main_v28)
    = refLayer (V (Proc.devRef .tc main_arg0)) (V (Proc.devRef .tc main_arg1)) (V (Proc.devRef .tc main_arg2))
        (wcolOf ![0, 0, 0] Facts₀.slices_S3x1x12_S1x1x12_0_0_0 (V (Proc.devRef .tc main_arg3)))
        (bcolOf ![0, 0] Facts₀.slices_S3x1_S1x1_0_0 (V (Proc.devRef .tc main_arg4)))
        (wrapCol (V (Proc.devRef .tc main_arg5))) (wrapCol (V (Proc.devRef .tc main_arg6))) (rawCol (V (Proc.devRef .tc main_arg6))) := by
  after_results
  rfl

set_option maxHeartbeats 2000000 in
theorem keptA_arg0 : after (opsA (F := Ideal)) V (Proc.devRef .tc main_arg0) = V (Proc.devRef .tc main_arg0) := by
  after_results

set_option maxHeartbeats 2000000 in
theorem keptA_arg1 : after (opsA (F := Ideal)) V (Proc.devRef .tc main_arg1) = V (Proc.devRef .tc main_arg1) := by
  after_results

set_option maxHeartbeats 2000000 in
theorem keptA_arg2 : after (opsA (F := Ideal)) V (Proc.devRef .tc main_arg2) = V (Proc.devRef .tc main_arg2) := by
  after_results

set_option maxHeartbeats 2000000 in
theorem keptA_arg3 : after (opsA (F := Ideal)) V (Proc.devRef .tc main_arg3) = V (Proc.devRef .tc main_arg3) := by
  after_results

set_option maxHeartbeats 2000000 in
theorem keptA_arg4 : after (opsA (F := Ideal)) V (Proc.devRef .tc main_arg4) = V (Proc.devRef .tc main_arg4) := by
  after_results

set_option maxHeartbeats 2000000 in
theorem keptA_arg5 : after (opsA (F := Ideal)) V (Proc.devRef .tc main_arg5) = V (Proc.devRef .tc main_arg5) := by
  after_results

set_option maxHeartbeats 2000000 in
theorem keptA_arg6 : after (opsA (F := Ideal)) V (Proc.devRef .tc main_arg6) = V (Proc.devRef .tc main_arg6) := by
  after_results

set_option maxHeartbeats 4000000 in
/-- The operations of layer 1 leave the layer of the features they find. -/
theorem stageB : after (opsB (F := Ideal)) V (Proc.devRef .tc main_v57)
    = refLayer (V (Proc.devRef .tc main_v28)) (V (Proc.devRef .tc main_arg1)) (V (Proc.devRef .tc main_arg2))
        (wcolOf ![1, 0, 0] Facts₀.slices_S3x1x12_S1x1x12_1_0_0 (V (Proc.devRef .tc main_arg3)))
        (bcolOf ![1, 0] Facts₀.slices_S3x1_S1x1_1_0 (V (Proc.devRef .tc main_arg4)))
        (wrapCol (V (Proc.devRef .tc main_arg5))) (wrapCol (V (Proc.devRef .tc main_arg6))) (rawCol (V (Proc.devRef .tc main_arg6))) := by
  after_results
  rfl

set_option maxHeartbeats 2000000 in
theorem keptB_arg1 : after (opsB (F := Ideal)) V (Proc.devRef .tc main_arg1) = V (Proc.devRef .tc main_arg1) := by
  after_results

set_option maxHeartbeats 2000000 in
theorem keptB_arg2 : after (opsB (F := Ideal)) V (Proc.devRef .tc main_arg2) = V (Proc.devRef .tc main_arg2) := by
  after_results

set_option maxHeartbeats 2000000 in
theorem keptB_arg3 : after (opsB (F := Ideal)) V (Proc.devRef .tc main_arg3) = V (Proc.devRef .tc main_arg3) := by
  after_results

set_option maxHeartbeats 2000000 in
theorem keptB_arg4 : after (opsB (F := Ideal)) V (Proc.devRef .tc main_arg4) = V (Proc.devRef .tc main_arg4) := by
  after_results

set_option maxHeartbeats 2000000 in
theorem keptB_arg5 : after (opsB (F := Ideal)) V (Proc.devRef .tc main_arg5) = V (Proc.devRef .tc main_arg5) := by
  after_results

set_option maxHeartbeats 2000000 in
theorem keptB_arg6 : after (opsB (F := Ideal)) V (Proc.devRef .tc main_arg6) = V (Proc.devRef .tc main_arg6) := by
  after_results

set_option maxHeartbeats 4000000 in
/-- The operations of layer 2 leave the layer of the features they find. -/
theorem stageC : after (opsC (F := Ideal)) V (Proc.devRef .tc main_v86)
    = refLayer (V (Proc.devRef .tc main_v57)) (V (Proc.devRef .tc main_arg1)) (V (Proc.devRef .tc main_arg2))
        (wcolOf ![2, 0, 0] Facts₀.slices_S3x1x12_S1x1x12_2_0_0 (V (Proc.devRef .tc main_arg3)))
        (bcolOf ![2, 0] Facts₀.slices_S3x1_S1x1_2_0 (V (Proc.devRef .tc main_arg4)))
        (wrapCol (V (Proc.devRef .tc main_arg5))) (wrapCol (V (Proc.devRef .tc main_arg6))) (rawCol (V (Proc.devRef .tc main_arg6))) := by
  after_results
  rfl

set_option maxHeartbeats 2000000 in
theorem keptC_arg0 : after (opsC (F := Ideal)) V (Proc.devRef .tc main_arg0) = V (Proc.devRef .tc main_arg0) := by
  after_results

set_option maxHeartbeats 2000000 in
theorem keptC_arg1 : after (opsC (F := Ideal)) V (Proc.devRef .tc main_arg1) = V (Proc.devRef .tc main_arg1) := by
  after_results

set_option maxHeartbeats 2000000 in
theorem keptC_arg2 : after (opsC (F := Ideal)) V (Proc.devRef .tc main_arg2) = V (Proc.devRef .tc main_arg2) := by
  after_results

set_option maxHeartbeats 2000000 in
theorem keptC_arg3 : after (opsC (F := Ideal)) V (Proc.devRef .tc main_arg3) = V (Proc.devRef .tc main_arg3) := by
  after_results

set_option maxHeartbeats 2000000 in
theorem keptC_arg4 : after (opsC (F := Ideal)) V (Proc.devRef .tc main_arg4) = V (Proc.devRef .tc main_arg4) := by
  after_results

set_option maxHeartbeats 2000000 in
theorem keptC_arg5 : after (opsC (F := Ideal)) V (Proc.devRef .tc main_arg5) = V (Proc.devRef .tc main_arg5) := by
  after_results

set_option maxHeartbeats 2000000 in
theorem keptC_arg6 : after (opsC (F := Ideal)) V (Proc.devRef .tc main_arg6) = V (Proc.devRef .tc main_arg6) := by
  after_results

set_option maxHeartbeats 2000000 in
theorem keptB_arg0 : after (opsB (F := Ideal)) V (Proc.devRef .tc main_arg0) = V (Proc.devRef .tc main_arg0) := by
  after_results

/-- The whole line leaves the three layers composed in the first result's buffer. -/
theorem after_ops_result :
    after (ops (F := Ideal)) V (Proc.devRef .tc main_v86)
      = refResult (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [after_append, after_append, stageC, stageB, stageA]
  rw [keptB_arg1, keptB_arg2, keptB_arg3, keptB_arg4, keptB_arg5, keptB_arg6]
  rw [keptA_arg1, keptA_arg2, keptA_arg3, keptA_arg4, keptA_arg5, keptA_arg6]
  rfl

/-- The whole line leaves each argument alone. -/
theorem after_ops_arg (b : Ref sig .tc)
    (hb : b = main_arg0 ∨ b = main_arg1 ∨ b = main_arg2 ∨ b = main_arg3 ∨ b = main_arg4 ∨ b = main_arg5 ∨ b = main_arg6) :
    after (ops (F := Ideal)) V (Proc.devRef .tc b) = V (Proc.devRef .tc b) := by
  rw [after_append, after_append]
  rcases hb with rfl | rfl | rfl | rfl | rfl | rfl | rfl
  · rw [keptC_arg0, keptB_arg0, keptA_arg0]
  · rw [keptC_arg1, keptB_arg1, keptA_arg1]
  · rw [keptC_arg2, keptB_arg2, keptA_arg2]
  · rw [keptC_arg3, keptB_arg3, keptA_arg3]
  · rw [keptC_arg4, keptB_arg4, keptA_arg4]
  · rw [keptC_arg5, keptB_arg5, keptA_arg5]
  · rw [keptC_arg6, keptB_arg6, keptA_arg6]

/-- On every device, from any memory with zero counters: every weakly fair execution of @main terminates with the
    first result at the three layers of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v86)
        = refResult (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v86).trans (after_ops_result (launchContents m c)),
       (h c main_arg0).trans (after_ops_arg (launchContents m c) main_arg0 (Or.inl rfl)),
       (h c main_arg1).trans (after_ops_arg (launchContents m c) main_arg1 (Or.inr (Or.inl rfl))),
       (h c main_arg2).trans (after_ops_arg (launchContents m c) main_arg2 (Or.inr (Or.inr (Or.inl rfl)))),
       (h c main_arg3).trans (after_ops_arg (launchContents m c) main_arg3 (Or.inr (Or.inr (Or.inr (Or.inl rfl))))),
       (h c main_arg4).trans (after_ops_arg (launchContents m c) main_arg4 (Or.inr (Or.inr (Or.inr (Or.inr (Or.inl rfl)))))),
       (h c main_arg5).trans (after_ops_arg (launchContents m c) main_arg5 (Or.inr (Or.inr (Or.inr (Or.inr (Or.inr (Or.inl rfl))))))),
       (h c main_arg6).trans (after_ops_arg (launchContents m c) main_arg6 (Or.inr (Or.inr (Or.inr (Or.inr (Or.inr (Or.inr rfl)))))))⟩)
    (run_seq scopedRefs_eq scopedSems_eq defs main (fun _ => ops) main_eq (fun _ => ops_sub) m ρ)

end Cert.ReferenceIdeal.RefValue

end
-- ==== Proof.PreDecode.lean ====
/-
  What the precondition says of the inputs: every entry of the five float arrays is a real number (not an
  infinity), and every entry of the two index arrays, read as a signed integer, lies in [0, 200000).

  The precondition is the conjunction of seven reductions by "and": five of |x| < +inf over a float array,
  two of (0 <= i) and (i < 200000) over an index array. A reduction by "and" from the initial value true is
  true exactly when every entry is; |x| < +inf on the extended reals excludes exactly the two infinities.
-/
import proofs.«426513_j76897094467615_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs Cert.Pre_finite_inputs.Gen

/-- The result of a reduction over all axes has one index. -/
private instance : Subsingleton S_.Idx := ⟨fun a b => funext fun d => d.elim0⟩

/-- An extended real whose absolute value is below +inf (the pattern 0x7F800000) is a real number:
    both infinities have absolute value +inf. -/
private theorem real_of_abs_lt_inf (v : EReal)
    (e : Ideal.cmp .olt (max v (-v)) (Ideal.ofBits .f32 0x7F800000#32) = 1#1) : ∃ x : ℝ, v = (x : EReal) := by
  have htop : Ideal.ofBits .f32 0x7F800000#32 = (⊤ : EReal) := by simp [Ideal.ofBits, Ideal.ieee]
  rw [htop] at e
  have hlt : max v (-v) < (⊤ : EReal) := by
    by_contra hn
    have e' : BitVec.ofBool (decide (max v (-v) < (⊤ : EReal))) = 1#1 := e
    rw [decide_eq_false hn] at e'
    exact absurd e' (by decide)
  induction v using EReal.rec with
  | bot => simp at hlt
  | coe x => exact ⟨x, rfl⟩
  | top => simp at hlt

/-- One entry of the comparison |x| < +inf, the bound broadcast from a scalar: when it is one, the entry is real. -/
private theorem real_of_entry {s : Shape} (x : FVec Ideal s .f32) (hb : S_.BroadcastsInDim s (![] : Fin 0 → Fin s.rank)) (i : s.Idx)
    (e : cmpf .olt (Host.absf x) (broadcastInDim s ![] hb (constant S_ .f32 0x7F800000#32)) i = 1#1) :
    ∃ y : ℝ, x i = (y : EReal) :=
  real_of_abs_lt_inf (x i) e

/-- A word that is at least 0 and below 200000 in the signed order, read as a signed integer. -/
private theorem node_of_word (a : BitVec 32)
    (e : IntOp.andi (IntOp.cmpi .sge a 0#32) (IntOp.cmpi .slt a 200000#32) = 1#1) : 0 ≤ a.toInt ∧ a.toInt < 200000 := by
  obtain ⟨h0, h1⟩ := IntOp.andi_eq_one.1 e
  have h0' := IntOp.cmpi_sge.1 h0
  have h1' := IntOp.cmpi_slt.1 h1
  rw [show (0#32 : BitVec 32).toInt = 0 from by decide] at h0'
  rw [show (200000#32 : BitVec 32).toInt = 200000 from by decide] at h1'
  exact ⟨h0', h1'⟩

/-- One entry of (0 <= i) and (i < 200000), both bounds broadcast from scalars: when it is one, the index is a node. -/
private theorem node_of_entry {s : Shape} (a : IVec s 32) (hb : S_.BroadcastsInDim s (![] : Fin 0 → Fin s.rank)) (i : s.Idx)
    (e : andi (cmpi .sge a (broadcastInDim s ![] hb (constantI S_ 32 0#32)))
      (cmpi .slt a (broadcastInDim s ![] hb (constantI S_ 32 200000#32))) i = 1#1) :
    0 ≤ (a i).toInt ∧ (a i).toInt < 200000 :=
  node_of_word (a i) e

/-- A conjunction of two scalar truth values that is one has both one. -/
private theorem both_of_andi {p q : IVec S_ 1} (e : andi p q ix0 = 1#1) : p ix0 = 1#1 ∧ q ix0 = 1#1 :=
  IntOp.andi_eq_one.1 e

/-- The precondition, all ones, gives: each float entry is a real number, each index is a node. -/
theorem of_pre (z : FVec Ideal S200000x4 .f32) (r : FVec Ideal S6400000x1 .f32) (rhat : FVec Ideal S6400000x3 .f32)
    (W : FVec Ideal S3x1x12 .f32) (b : FVec Ideal S3x1 .f32) (src dst : IVec S6400000 32)
    (h : Cert.Pre_finite_inputs.fn (F := Ideal) z r rhat W b src dst = fun _ => 1#1) :
    (∀ i, ∃ x : ℝ, z i = (x : EReal)) ∧ (∀ i, ∃ x : ℝ, r i = (x : EReal)) ∧ (∀ i, ∃ x : ℝ, rhat i = (x : EReal))
    ∧ (∀ i, ∃ x : ℝ, W i = (x : EReal)) ∧ (∀ i, ∃ x : ℝ, b i = (x : EReal))
    ∧ (∀ i, 0 ≤ (src i).toInt ∧ (src i).toInt < 200000) ∧ (∀ i, 0 ≤ (dst i).toInt ∧ (dst i).toInt < 200000) := by
  have h0 := congrFun h ix0
  dsimp only [fn, fn_part1, fn_part2] at h0
  obtain ⟨h6, hdst⟩ := both_of_andi h0
  obtain ⟨h5, hsrc⟩ := both_of_andi h6
  obtain ⟨h4, hb⟩ := both_of_andi h5
  obtain ⟨h3, hW⟩ := both_of_andi h4
  obtain ⟨h2, hrhat⟩ := both_of_andi h3
  obtain ⟨hz, hr⟩ := both_of_andi h2
  refine ⟨fun i => ?_, fun i => ?_, fun i => ?_, fun i => ?_, fun i => ?_, fun i => ?_, fun i => ?_⟩
  · exact real_of_entry z _ i (Host.reduce_andi_all _ _ _ _ ix0 hz i)
  · exact real_of_entry r _ i (Host.reduce_andi_all _ _ _ _ ix0 hr i)
  · exact real_of_entry rhat _ i (Host.reduce_andi_all _ _ _ _ ix0 hrhat i)
  · exact real_of_entry W _ i (Host.reduce_andi_all _ _ _ _ ix0 hW i)
  · exact real_of_entry b _ i (Host.reduce_andi_all _ _ _ _ ix0 hb i)
  · exact node_of_entry src _ i (Host.reduce_andi_all _ _ _ _ ix0 hsrc i)
  · exact node_of_entry dst _ i (Host.reduce_andi_all _ _ _ _ ix0 hdst i)

end Cert.Pre_finite_inputs.Decode

end
-- ==== Proof.LayoutRead.lean ====
/-
  The layout operations of a layer read at one entry: padding the node axis with 64 zeros, the transposes
  between node-major [N, 4] and feature-major [4, N + 64], a vector as a one-row matrix, the slices that pick a
  layer's weights and bias, the concatenation [r, r_hat], an index vector as a column, and the constant arrays.
-/
import proofs.«426513_j76897094467615_2_alg».proof.Proof.NodeLayer
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.KernelVsHost
import Idealize.ShloMosaic.Lib.IdealHost

noncomputable section

namespace Cert.KernelIdeal.NodeLayer

open Idealize.ShloMosaic Idealize.ShloMosaic.ValueIdx Cert.KernelIdeal Cert.KernelIdeal.Facts₀ Cert.KernelIdeal.Facts

/-- The padding value, the integer zero converted, is the real zero. -/
private theorem padValue_eq :
    (sitofp (F := Ideal) .f32 (constantI S_ 32 0#32)) (Shape.Idx.first h_S_) = 0 := by
  show ((((0#32 : BitVec 32).toInt : ℤ) : ℝ) : EReal) = 0
  simp

/-- Padded and transposed features: entry (f, n) is x (n, f) on a node, zero on the 64 padding columns. -/
theorem padT_apply (x : FVec Ideal S200000x4 .f32) (f : Fin 4) (n : Fin 200064) :
    padT x (ix2 f n) = if h : n.val < 200000 then x (ix2 ⟨n.val, h⟩ f) else 0 := by
  unfold padT
  refine (transpose_ix2_apply _ transposes_S200064x4_S4x200064_1_0 f n).trans ?_
  by_cases h : n.val < 200000
  · rw [dif_pos h]
    exact pad_apply_of_inside _ _ _ x _ pads_S200000x4_S200064x4_0640_000 h_S_ (ix2 n f) (ix2 ⟨n.val, h⟩ f) (fun a => by
      match a with
      | ⟨0, _⟩ => show n.val = 0 + n.val * (0 + 1); omega
      | ⟨1, _⟩ => show f.val = 0 + f.val * (0 + 1); omega)
  · rw [dif_neg h]
    refine (pad_apply_of_not_inside _ _ _ x _ pads_S200000x4_S200064x4_0640_000 h_S_ (ix2 n f) (0 : Fin 2) (by
      show ¬(0 ≤ n.val ∧ (n.val - 0) % 1 = 0 ∧ (n.val - 0) / 1 < 200000)
      omega)).trans padValue_eq

/-- A padded row: entry (0, n) is x n on a node, zero on the 64 padding columns. -/
theorem padRow_apply (x : FVec Ideal S200000 .f32) (n : Fin 200064) :
    padRow x (ix2 0 n) = if h : n.val < 200000 then x (ix1 ⟨n.val, h⟩) else 0 := by
  unfold padRow
  refine (shapeCast_a_1a_apply _ shapeCasts_S200064_S1x200064 0 n).trans ?_
  by_cases h : n.val < 200000
  · rw [dif_pos h]
    exact pad_apply_of_inside _ _ _ x _ pads_S200000_S200064_0640 h_S_ (ix1 n) (ix1 ⟨n.val, h⟩) (fun a => by
      match a with
      | ⟨0, _⟩ => show n.val = 0 + n.val * (0 + 1); omega)
  · rw [dif_neg h]
    refine (pad_apply_of_not_inside _ _ _ x _ pads_S200000_S200064_0640 h_S_ (ix1 n) (0 : Fin 1) (by
      show ¬(0 ≤ n.val ∧ (n.val - 0) % 1 = 0 ∧ (n.val - 0) / 1 < 200000)
      omega)).trans padValue_eq

/-- The first N entries of a row. -/
theorem unpadRow_apply (y : FVec Ideal S1x200064 .f32) (n : Fin 200000) :
    unpadRow y (ix1 n) = y (ix2 0 ⟨n.val, by omega⟩) := by
  unfold unpadRow
  refine (extractStridedSlice_apply _ _ slices_S200064_S200000_0 (ix1 n) (ix1 ⟨n.val, by omega⟩) (fun a => by
    match a with
    | ⟨0, _⟩ => show n.val = 0 + n.val; omega)).trans ?_
  exact shapeCast_1a_a_apply y shapeCasts_S1x200064_S200064 ⟨n.val, by omega⟩

/-- Feature-major back to node-major: entry (n, f) is x (f, n). -/
theorem unpadT_apply (x : FVec Ideal S4x200064 .f32) (n : Fin 200000) (f : Fin 4) :
    unpadT x (ix2 n f) = x (ix2 f ⟨n.val, by omega⟩) := by
  unfold unpadT
  refine (slice2_axis0_apply 0 _ slices_S200064x4_S200000x4_0_0 n f ⟨n.val, by omega⟩ (by
    show n.val = 0 + n.val; omega)).trans ?_
  exact transpose_ix2_apply x transposes_S4x200064_S200064x4_1_0 ⟨n.val, by omega⟩ f

/-- A weight column: entry (f, 0) is weight o + f of the twelve. -/
theorem wcol_apply (o : Nat) (ho : o + 4 ≤ 12) (h : S12.Slices ![o] S4) (w12 : FVec Ideal S12 .f32) (f : Fin 4) :
    wcol ![o] h w12 (ix2 f 0) = w12 (ix1 ⟨o + f.val, by omega⟩) := by
  unfold wcol
  refine (shapeCast_apply _ shapeCasts_S4_S4x1 (ix2 f 0) (ix1 f) (by
    rw [Shape.rowMajor_val_two, Shape.rowMajor_val_one]
    show f.val = f.val * 1 + 0
    omega)).trans ?_
  exact extractStridedSlice_apply _ w12 h (ix1 f) (ix1 ⟨o + f.val, by omega⟩) (fun a => by
    match a with
    | ⟨0, _⟩ => rfl)

/-- A layer's twelve weights: entry k is W (l, 0, k). -/
theorem w12Of_apply (l : Fin 3) (h : S3x1x12.Slices ![l.val, 0, 0] S1x1x12) (W : FVec Ideal S3x1x12 .f32) (k : Fin 12) :
    w12Of ![l.val, 0, 0] h W (ix1 k) = W (ix3 l 0 k) := by
  unfold w12Of
  refine (shapeCast_apply _ shapeCasts_S1x1x12_S12 (ix1 k) (ix3 0 0 k) (by
    rw [Shape.rowMajor_val_three, Shape.rowMajor_val_one]
    show (0 * 1 + 0) * 12 + k.val = k.val
    omega)).trans ?_
  exact extractStridedSlice_apply _ W h (ix3 0 0 k) (ix3 l 0 k) (fun a => by
    match a with
    | ⟨0, _⟩ => show l.val = l.val + 0; omega
    | ⟨1, _⟩ => rfl
    | ⟨2, _⟩ => show k.val = 0 + k.val; omega)

/-- A layer's bias: the entry is b (l, 0). -/
theorem biasOf_apply (l : Fin 3) (h : S3x1.Slices ![l.val, 0] S1x1) (b : FVec Ideal S3x1 .f32) :
    biasOf ![l.val, 0] h b (ix2 0 0) = b (ix2 l 0) := by
  unfold biasOf
  refine (shapeCast_a_1a_apply _ shapeCasts_S1_S1x1 0 0).trans ?_
  refine (shapeCast_1a_a_apply _ shapeCasts_S1x1_S1 0).trans ?_
  exact extractStridedSlice_apply _ b h (ix2 0 0) (ix2 l 0) (fun a => by
    match a with
    | ⟨0, _⟩ => show l.val = l.val + 0; omega
    | ⟨1, _⟩ => rfl)

/-- The edge attributes [r, r_hat]: column 0 is r, columns 1 to 3 are r_hat. -/
theorem aux_apply (r : FVec Ideal S6400000x1 .f32) (rhat : FVec Ideal S6400000x3 .f32) (e : Fin 6400000) (g : Fin 4) :
    concatenate S6400000x4 1 [⟨S6400000x1, r⟩, ⟨S6400000x3, rhat⟩] concatenates_S6400000x1_S6400000x3_S6400000x4_d1 (ix2 e g)
      = if h : g.val = 0 then r (ix2 e 0) else rhat (ix2 e ⟨g.val - 1, by omega⟩) := by
  by_cases h : g.val = 0
  · rw [dif_pos h]
    exact concatenate_pair_apply_left 1 r rhat concatenates_S6400000x1_S6400000x3_S6400000x4_d1 (ix2 e g) rfl (ix2 e 0)
      (fun c => by
        match c with
        | ⟨0, _⟩ => rfl
        | ⟨1, _⟩ => show 0 = g.val; omega)
  · rw [dif_neg h]
    exact concatenate_pair_apply_right 1 r rhat concatenates_S6400000x1_S6400000x3_S6400000x4_d1 (ix2 e g) rfl rfl
      (ix2 e ⟨g.val - 1, by omega⟩)
      (fun c hc => by
        match c, hc with
        | ⟨0, _⟩, _ => rfl
        | ⟨1, _⟩, hc => exact absurd rfl hc)
      (by show (g.val - 1) + 1 = g.val; omega)

/-- An index vector as a column: entry (e, 0) is entry e. -/
theorem idxCol_apply (a : IVec S6400000 32) (e : Fin 6400000) :
    broadcastInDim S6400000x1 ![0] bcast_S6400000_S6400000x1_0 a (ix2 e 0) = a (ix1 e) := by
  refine broadcastInDim_apply _ bcast_S6400000_S6400000x1_0 a (ix2 e 0) (ix1 e) (fun c => ?_)
  match c with
  | ⟨0, _⟩ =>
    show e.val = if (6400000 : Nat) = 1 then 0 else e.val
    rw [if_neg (by omega)]

/-- The constant zero vector over the nodes. -/
theorem zeros_vec_apply (i : S200000.Idx) :
    broadcastInDim S200000 ![] bcast_S_S200000 (constant (F := Ideal) S_ .f32 0x00000000#32) i = 0 := by
  refine (StableHlo.Predicate.bcast_scalar bcast_S_S200000 h_S_ _ i).trans ?_
  exact Ideal.ofBits_zero_f32

/-- The constant zero matrix over the nodes. -/
theorem zeros_mat_apply (i : S200000x4.Idx) :
    broadcastInDim S200000x4 ![] bcast_S_S200000x4 (constant (F := Ideal) S_ .f32 0x00000000#32) i = 0 := by
  refine (StableHlo.Predicate.bcast_scalar bcast_S_S200000x4 h_S_ _ i).trans ?_
  exact Ideal.ofBits_zero_f32

/-- The constant one vector over the edges. -/
theorem ones_vec_apply (i : S6400000.Idx) :
    broadcastInDim S6400000 ![] bcast_S_S6400000 (constant (F := Ideal) S_ .f32 0x3F800000#32) i = 1 := by
  refine (StableHlo.Predicate.bcast_scalar bcast_S_S6400000 h_S_ _ i).trans ?_
  exact Ideal.ofBits_one_f32

end Cert.KernelIdeal.NodeLayer

end
-- ==== Proof.IndexOps.lean ====
/-
  The index operations of a layer on indices that name nodes: clamping into [0, N - 1] changes nothing, and
  jnp.take in its default mode (wrap a negative index, read with a clamp, fill where the index was out of range)
  reads the vector at the index.
-/
import proofs.«426513_j76897094467615_2_alg».proof.Proof.NodeLayer
import Idealize.ShloMosaic.PureOps.Ideal
import Idealize.ShloMosaic.Lib.ValueIdx
import Idealize.ShloMosaic.Lib.ValueLayout
import Idealize.ShloMosaic.Lib.ReduceAll
import Idealize.ShloMosaic.Lib.StableHlo.Predicate

noncomputable section

namespace Cert.KernelIdeal.NodeLayer

open Idealize.ShloMosaic Idealize.ShloMosaic.ValueIdx Cert.KernelIdeal Cert.KernelIdeal.Facts₀ Cert.KernelIdeal.Facts

/-- Clamping an index that names a node leaves it as it is. -/
theorem clipIdx_apply (a : IVec S6400000 32) (e : Fin 6400000) (v : Fin 200000)
    (h : (a (ix1 e)).toInt = (v.val : ℤ)) : clipIdx a (ix1 e) = a (ix1 e) := by
  have h0 : (0#32 : BitVec 32).toInt = 0 := by decide
  have h1 : (199999#32 : BitVec 32).toInt = 199999 := by decide
  have hv := v.isLt
  show IntOp.minsi (199999#32) (IntOp.maxsi (0#32) (a (ix1 e))) = a (ix1 e)
  generalize a (ix1 e) = w at h ⊢
  have e1 : IntOp.maxsi (0#32) w = w := by
    unfold IntOp.maxsi
    rw [if_neg]
    simp only [BitVec.slt, h0, h, decide_eq_true_eq]; omega
  rw [e1]
  unfold IntOp.minsi
  rw [if_neg]
  simp only [BitVec.slt, h1, h, decide_eq_true_eq]; omega

/-- An "and" fold from 1 over bits that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; decide
    rw [List.foldl_cons, ha]
    exact foldl_andi_one f l (fun n hn => h n (List.mem_cons_of_mem _ hn))

/-- The wrap of a negative index leaves a non-negative index as it is. -/
private theorem wrap_at (w : IVec S6400000 32) (i : S6400000.Idx) (h : 0 ≤ (w i).toInt) :
    select (cmpi .slt w (broadcastInDim S6400000 ![] bcast_S_S6400000 (constantI S_ 32 0#32)))
      (addi w (broadcastInDim S6400000 ![] bcast_S_S6400000 (constantI S_ 32 200000#32))) w i = w i := by
  show Scalar.select (IntOp.cmpi .slt (w i) (0#32)) _ (w i) = w i
  have h0 : (0#32 : BitVec 32).toInt = 0 := by decide
  have hc : IntOp.cmpi .slt (w i) (0#32) = 0#1 :=
    eq_zero_of_ne_one (fun hh => by have := IntOp.cmpi_slt.1 hh; rw [h0] at this; omega)
  rw [hc]; exact select_zero _ _

/-- The range test of a column entry whose word read signed lies in [0, 199999] is 1. -/
private theorem mask_at (col : IVec S6400000x1 32) (i : S6400000x1.Idx) (h0 : 0 ≤ (col i).toInt) (h1 : (col i).toInt ≤ 199999) :
    andi (cmpi .sge col (broadcastInDim S6400000x1 ![] bcast_S_S6400000x1 (constantI S_ 32 0#32)))
        (cmpi .sle col (broadcastInDim S6400000x1 ![0, 1] bcast_S1x1_S6400000x1_0_1
          (broadcastInDim S1x1 ![1] bcast_S1_S1x1_1 (constantI S1 32 199999#32)))) i = 1#1 := by
  show IntOp.andi (IntOp.cmpi .sge (col i) (0#32)) (IntOp.cmpi .sle (col i) (199999#32)) = 1#1
  have e0 : (0#32 : BitVec 32).toInt = 0 := by decide
  have e1 : (199999#32 : BitVec 32).toInt = 199999 := by decide
  exact IntOp.andi_eq_one.2 ⟨IntOp.cmpi_sge.2 (by rw [e0]; exact h0), IntOp.cmpi_sle.2 (by rw [e1]; exact h1)⟩

/-- The "and" over the one-element second axis of a mask, at row e, is 1 when the mask's entry (e, 0) is. -/
private theorem reduce_row_one (mask : IVec S6400000x1 1) (e : Fin 6400000) (hm : mask (StableHlo.Predicate.ixP e) = 1#1) :
    Host.reduce IntOp.andi mask (constantI S_ 1 1#1) reducesTo_S6400000x1_S6400000_d1 h_S_ (ix1 e) = 1#1 := by
  rw [Host.reduce_eq_foldl]
  show List.foldl (fun r i => IntOp.andi r (mask i)) 1#1 _ = 1#1
  refine foldl_andi_one mask _ (fun i hi => ?_)
  have hd : reducesTo_S6400000x1_S6400000_d1.drop i = ix1 e := of_decide_eq_true (List.mem_filter.1 hi).2
  have hv : ((reducesTo_S6400000x1_S6400000_d1.drop i) 0 : Nat) = i 0 := Shape.ReducesTo.drop_apply_val _ i 0
  rw [hd] at hv
  have hi' : i = StableHlo.Predicate.ixP e := by
    funext b
    match b with
    | ⟨0, _⟩ => exact Fin.ext hv.symm
    | ⟨1, _⟩ => exact Fin.ext (by have := idx2_lt1 i; show (i 1).val = 0; omega)
  rw [hi']; exact hm

/-- The gather of a node vector at a column of indices: entry e is the vector at the index of e, when that index names a node. -/
private theorem gather_at (y : FVec Ideal S200000 .f32) (col : IVec S6400000x1 32) (e : Fin 6400000) (v : Fin 200000)
    (h : (col (StableHlo.Predicate.ixP e)).toInt = (v.val : ℤ)) :
    Host.gather gather_S200000_S6400000x1_S6400000_n_0_n_n_0_1_1 y col (ix1 e) = y (ix1 v) := by
  have he : (ix1 e : S6400000.Idx) = Shape.Idx.ofFin e := by funext d; match d with | ⟨0, _⟩ => rfl
  rw [he, StableHlo.Predicate.gather_take _ rfl rfl rfl rfl y col e (by decide)]
  congr 1
  funext d
  match d with
  | ⟨0, _⟩ =>
    apply Fin.ext
    show min (col (StableHlo.Predicate.ixP e)).toInt.toNat (200000 - 1) = v.val
    rw [h]; have := v.isLt; simp only [Int.toNat_natCast]; omega

/-- Reading a node vector at indices that name nodes: entry e is the vector at the index of e. -/
theorem takeSrc_apply (y : FVec Ideal S200000 .f32) (srcC : IVec S6400000 32) (s : Fin 6400000 → Fin 200000)
    (hs : ∀ e : Fin 6400000, (srcC (ix1 e)).toInt = ((s e).val : ℤ)) (e : Fin 6400000) :
    takeSrc y srcC (ix1 e) = y (ix1 (s e)) := by
  have hv := (s e).isLt
  have hse := hs e
  have he : (Shape.Idx.ofFin e : S6400000.Idx) = ix1 e := by funext d; match d with | ⟨0, _⟩ => rfl
  -- the wrapped index at e is the index of e, which is not negative
  have hw : (select (cmpi .slt srcC (broadcastInDim S6400000 ![] bcast_S_S6400000 (constantI S_ 32 0#32)))
      (addi srcC (broadcastInDim S6400000 ![] bcast_S_S6400000 (constantI S_ 32 200000#32))) srcC : IVec S6400000 32) (ix1 e)
      = srcC (ix1 e) := wrap_at srcC (ix1 e) (by rw [hse]; omega)
  -- the column's entry (e, 0) is the wrapped index at e
  have hcol : broadcastInDim S6400000x1 ![0] bcast_S6400000_S6400000x1_0
      (select (cmpi .slt srcC (broadcastInDim S6400000 ![] bcast_S_S6400000 (constantI S_ 32 0#32)))
        (addi srcC (broadcastInDim S6400000 ![] bcast_S_S6400000 (constantI S_ 32 200000#32))) srcC : IVec S6400000 32)
      (StableHlo.Predicate.ixP e) = srcC (ix1 e) :=
    ((StableHlo.Predicate.bcast_col1 _ _ e).trans (congrArg _ he)).trans hw
  -- the index is in range, so the range mask at e is 1
  have hm := mask_at (broadcastInDim S6400000x1 ![0] bcast_S6400000_S6400000x1_0
      (select (cmpi .slt srcC (broadcastInDim S6400000 ![] bcast_S_S6400000 (constantI S_ 32 0#32)))
        (addi srcC (broadcastInDim S6400000 ![] bcast_S_S6400000 (constantI S_ 32 200000#32))) srcC : IVec S6400000 32))
      (StableHlo.Predicate.ixP e) (by rw [hcol, hse]; omega) (by rw [hcol, hse]; omega)
  refine (select_apply _ _ _ _).trans ?_
  rw [reduce_row_one _ e hm, select_one]
  exact gather_at y _ e (s e) ((congrArg BitVec.toInt hcol).trans hse)

end Cert.KernelIdeal.NodeLayer

end
-- ==== Proof.KernelAtIdx.lean ====
/-
  One layer of the kernel's program at one entry, on inputs that are real numbers and indices that name nodes:
  it is the layer of the specification in its second arrangement (the linear map applied per node before the
  gather and after the sums), read in the extended reals.

  Entry (n, f) of the layer is  z n f + (scatter n + other n)  where, every pad, transpose and slice read away,
      scatter n = sum over the edges e into n of  sum_g z (s e) g * w g,
      other n   = (sum_g z n g * w (4 + g)) * indeg n + sum_g saux n g * w (8 + g) + b * indeg n,
      indeg n   = sum over the edges into n of 1,      saux n g = sum over the edges e into n of a e g,
  all sums and products of real numbers, so the extended-real operations are the real ones.
-/
import proofs.«426513_j76897094467615_2_alg».proof.Proof.NodeLayer
import proofs.«426513_j76897094467615_2_alg».proof.Proof.LayerSpec
import proofs.«426513_j76897094467615_2_alg».proof.Proof.LayoutRead
import proofs.«426513_j76897094467615_2_alg».proof.Proof.IndexOps
import proofs.«426513_j76897094467615_2_alg».proof.Proof.IndexRead
import Idealize.ShloMosaic.PureOps.Ideal
import Idealize.ShloMosaic.Lib.ValueIdx

noncomputable section

namespace Cert.KernelIdeal.NodeLayer

open Idealize.ShloMosaic Idealize.ShloMosaic.ValueIdx Cert.KernelIdeal Cert.KernelIdeal.Facts₀ Cert.KernelIdeal.Facts
open Cert.LayerSpec Cert.IndexRead

/-- A per-edge vector summed by the clamped destinations: entry n is the sum over the edges into n. -/
private theorem segSum_apply (dst : IVec S6400000 32) (d : Fin 6400000 → Fin 200000)
    (hd : ∀ e : Fin 6400000, (dst (ix1 e)).toInt = ((d e).val : ℤ))
    (g : FVec Ideal S6400000 .f32) (n : Fin 200000) :
    segSum (clipIdx dst) g (ix1 n) = ∑ e ∈ into d n, g (ix1 e) := by
  unfold segSum
  refine (scatterAdd_vec_apply scatter_S200000_S6400000x1_S6400000_n_0_0_1 rfl rfl rfl rfl _ _ g d
    (fun e => ?_) n).trans ?_
  · rw [idxCol_apply, clipIdx_apply dst e (d e) (hd e)]
    exact hd e
  · rw [zeros_vec_apply, zero_add]
    rfl

/-- The padded, transposed features at a node's column are the node's real features. -/
private theorem padT_node (z : FVec Ideal S200000x4 .f32) (z' : Fin 200000 → Fin 4 → ℝ)
    (hz : ∀ n f, z (ix2 n f) = (z' n f : EReal)) (f : Fin 4) (n : Fin 200000) :
    padT z (ix2 f ⟨n.val, by omega⟩) = (z' n f : EReal) := by
  rw [padT_apply, dif_pos (show (⟨n.val, by omega⟩ : Fin 200064).val < 200000 from n.isLt)]
  exact hz n f

/-- A weight column at row g is the real weight o + g. -/
private theorem wcol_real (w12 : FVec Ideal S12 .f32) (w' : Fin 12 → ℝ) (hw : ∀ k : Fin 12, w12 (ix1 k) = (w' k : EReal))
    (o : Nat) (ho : o + 4 ≤ 12) (h : S12.Slices ![o] S4) (g : Fin 4) :
    wcol ![o] h w12 (ix2 g 0) = (w' ⟨o + g.val, by omega⟩ : EReal) := by
  rw [wcol_apply o ho h w12 g]
  exact hw _

/-- The first kernel's first output at a node's column: the node's features against the source weights. -/
private theorem ysrc_node (z : FVec Ideal S200000x4 .f32) (z' : Fin 200000 → Fin 4 → ℝ)
    (hz : ∀ n f, z (ix2 n f) = (z' n f : EReal))
    (w12 : FVec Ideal S12 .f32) (w' : Fin 12 → ℝ) (hw : ∀ k : Fin 12, w12 (ix1 k) = (w' k : EReal))
    (m : Fin 200000) :
    ysrcRow (padT z) (wcol ![0] slices_S12_S4_0 w12) (ix2 0 ⟨m.val, by omega⟩)
      = ((∑ g : Fin 4, z' m g * w' ⟨g.val, by omega⟩ : ℝ) : EReal) := by
  rw [coe_sum]
  show ∑ g : Fin 4, padT z (ix2 g ⟨m.val, _⟩) * wcol ![0] slices_S12_S4_0 w12 (ix2 g 0) = _
  refine Finset.sum_congr rfl (fun g _ => ?_)
  rw [padT_node z z' hz g m, wcol_real w12 w' hw 0 (by omega) slices_S12_S4_0 g, EReal.coe_mul]
  exact congrArg (fun k : Fin 12 => ((z' m g : ℝ) : EReal) * ((w' k : ℝ) : EReal)) (Fin.ext (Nat.zero_add g.val))

/-- The value gathered at edge e: the source node's features against the source weights. -/
private theorem gathered_apply (z : FVec Ideal S200000x4 .f32) (z' : Fin 200000 → Fin 4 → ℝ)
    (hz : ∀ n f, z (ix2 n f) = (z' n f : EReal))
    (w12 : FVec Ideal S12 .f32) (w' : Fin 12 → ℝ) (hw : ∀ k : Fin 12, w12 (ix1 k) = (w' k : EReal))
    (src : IVec S6400000 32) (s : Fin 6400000 → Fin 200000)
    (hs : ∀ e : Fin 6400000, (src (ix1 e)).toInt = ((s e).val : ℤ)) (e : Fin 6400000) :
    takeSrc (unpadRow (ysrcRow (padT z) (wcol ![0] slices_S12_S4_0 w12))) (clipIdx src) (ix1 e)
      = ((∑ g : Fin 4, z' (s e) g * w' ⟨g.val, by omega⟩ : ℝ) : EReal) := by
  refine (takeSrc_apply _ (clipIdx src) s (fun e => ?_) e).trans ?_
  · rw [clipIdx_apply src e (s e) (hs e)]
    exact hs e
  · rw [unpadRow_apply]
    exact ysrc_node z z' hz w12 w' hw (s e)

/-- The scatter term at node n: the gathered values summed over the edges into n. -/
private theorem scat_node (z : FVec Ideal S200000x4 .f32) (z' : Fin 200000 → Fin 4 → ℝ)
    (hz : ∀ n f, z (ix2 n f) = (z' n f : EReal))
    (w12 : FVec Ideal S12 .f32) (w' : Fin 12 → ℝ) (hw : ∀ k : Fin 12, w12 (ix1 k) = (w' k : EReal))
    (src dst : IVec S6400000 32) (s d : Fin 6400000 → Fin 200000)
    (hs : ∀ e : Fin 6400000, (src (ix1 e)).toInt = ((s e).val : ℤ))
    (hd : ∀ e : Fin 6400000, (dst (ix1 e)).toInt = ((d e).val : ℤ)) (n : Fin 200000) :
    padRow (segSum (clipIdx dst) (takeSrc (unpadRow (ysrcRow (padT z) (wcol ![0] slices_S12_S4_0 w12))) (clipIdx src)))
        (ix2 0 ⟨n.val, by omega⟩)
      = ((∑ e ∈ into d n, ∑ g : Fin 4, z' (s e) g * w' ⟨g.val, by omega⟩ : ℝ) : EReal) := by
  rw [padRow_apply, dif_pos (show (⟨n.val, by omega⟩ : Fin 200064).val < 200000 from n.isLt)]
  refine (segSum_apply dst d hd _ n).trans ?_
  rw [coe_sum]
  exact Finset.sum_congr rfl (fun e _ => gathered_apply z z' hz w12 w' hw src s hs e)

/-- The in-degree row at node n: the number of edges into n, as a sum of ones. -/
private theorem indeg_node (dst : IVec S6400000 32) (d : Fin 6400000 → Fin 200000)
    (hd : ∀ e : Fin 6400000, (dst (ix1 e)).toInt = ((d e).val : ℤ)) (n : Fin 200000) :
    indegT (clipIdx dst) (ix2 0 ⟨n.val, by omega⟩) = ((∑ _e ∈ into d n, (1 : ℝ) : ℝ) : EReal) := by
  unfold indegT
  rw [padRow_apply, dif_pos (show (⟨n.val, by omega⟩ : Fin 200064).val < 200000 from n.isLt)]
  refine (segSum_apply dst d hd _ n).trans ?_
  rw [coe_sum]
  exact Finset.sum_congr rfl (fun e _ => by rw [ones_vec_apply, EReal.coe_one])

/-- Column g of the concatenated edge attributes at edge e is the real attribute. -/
private theorem attr_apply (r : FVec Ideal S6400000x1 .f32) (rhat : FVec Ideal S6400000x3 .f32) (a' : Fin 6400000 → Fin 4 → ℝ)
    (hr : ∀ e : Fin 6400000, r (ix2 e 0) = (a' e 0 : EReal))
    (hrhat : ∀ (e : Fin 6400000) (k : Fin 3), rhat (ix2 e k) = (a' e ⟨k.val + 1, by omega⟩ : EReal))
    (e : Fin 6400000) (g : Fin 4) :
    concatenate S6400000x4 1 [⟨S6400000x1, r⟩, ⟨S6400000x3, rhat⟩] concatenates_S6400000x1_S6400000x3_S6400000x4_d1 (ix2 e g)
      = (a' e g : EReal) := by
  rw [aux_apply]
  by_cases h : g.val = 0
  · rw [dif_pos h, hr e]
    exact congrArg (fun k : Fin 4 => ((a' e k : ℝ) : EReal)) (Fin.ext h.symm)
  · rw [dif_neg h, hrhat e ⟨g.val - 1, by omega⟩]
    exact congrArg (fun k : Fin 4 => ((a' e k : ℝ) : EReal)) (Fin.ext (by show g.val - 1 + 1 = g.val; omega))

/-- The summed edge attributes at (g, n): attribute g summed over the edges into n. -/
private theorem saux_node (r : FVec Ideal S6400000x1 .f32) (rhat : FVec Ideal S6400000x3 .f32) (a' : Fin 6400000 → Fin 4 → ℝ)
    (hr : ∀ e : Fin 6400000, r (ix2 e 0) = (a' e 0 : EReal))
    (hrhat : ∀ (e : Fin 6400000) (k : Fin 3), rhat (ix2 e k) = (a' e ⟨k.val + 1, by omega⟩ : EReal))
    (dst : IVec S6400000 32) (d : Fin 6400000 → Fin 200000)
    (hd : ∀ e : Fin 6400000, (dst (ix1 e)).toInt = ((d e).val : ℤ)) (g : Fin 4) (n : Fin 200000) :
    sauxT r rhat (clipIdx dst) (ix2 g ⟨n.val, by omega⟩) = ((∑ e ∈ into d n, a' e g : ℝ) : EReal) := by
  unfold sauxT
  rw [padT_apply, dif_pos (show (⟨n.val, by omega⟩ : Fin 200064).val < 200000 from n.isLt)]
  refine (scatterAdd_rows_apply scatter_S200000x4_S6400000x1_S6400000x4_1_0_0_1 rfl rfl rfl rfl _ _ _ d
    (fun e => ?_) n g).trans ?_
  · rw [idxCol_apply, clipIdx_apply dst e (d e) (hd e)]
    exact hd e
  · rw [zeros_mat_apply, zero_add, coe_sum]
    exact Finset.sum_congr rfl (fun e _ => attr_apply r rhat a' hr hrhat e g)

/-- The first kernel's second output at node n: the destination, attribute and bias parts of the update. -/
private theorem other_node (z : FVec Ideal S200000x4 .f32) (z' : Fin 200000 → Fin 4 → ℝ)
    (hz : ∀ n f, z (ix2 n f) = (z' n f : EReal))
    (r : FVec Ideal S6400000x1 .f32) (rhat : FVec Ideal S6400000x3 .f32) (a' : Fin 6400000 → Fin 4 → ℝ)
    (hr : ∀ e : Fin 6400000, r (ix2 e 0) = (a' e 0 : EReal))
    (hrhat : ∀ (e : Fin 6400000) (k : Fin 3), rhat (ix2 e k) = (a' e ⟨k.val + 1, by omega⟩ : EReal))
    (w12 : FVec Ideal S12 .f32) (w' : Fin 12 → ℝ) (hw : ∀ k : Fin 12, w12 (ix1 k) = (w' k : EReal))
    (bias : FVec Ideal S1x1 .f32) (b' : ℝ) (hb : bias (ix2 0 0) = (b' : EReal))
    (dst : IVec S6400000 32) (d : Fin 6400000 → Fin 200000)
    (hd : ∀ e : Fin 6400000, (dst (ix1 e)).toInt = ((d e).val : ℤ)) (n : Fin 200000) :
    otherRow (padT z) (sauxT r rhat (clipIdx dst)) (indegT (clipIdx dst)) (wcol ![4] slices_S12_S4_4 w12)
        (wcol ![8] slices_S12_S4_8 w12) bias (ix2 0 ⟨n.val, by omega⟩)
      = ((((∑ g : Fin 4, z' n g * w' ⟨4 + g.val, by omega⟩) * (∑ _e ∈ into d n, (1 : ℝ))
          + ∑ g : Fin 4, (∑ e ∈ into d n, a' e g) * w' ⟨8 + g.val, by omega⟩)
        + b' * (∑ _e ∈ into d n, (1 : ℝ)) : ℝ) : EReal) := by
  have hdst : (∑ g : Fin 4, padT z (ix2 g ⟨n.val, by omega⟩) * wcol ![4] slices_S12_S4_4 w12 (ix2 g 0))
      = ((∑ g : Fin 4, z' n g * w' ⟨4 + g.val, by omega⟩ : ℝ) : EReal) := by
    rw [coe_sum]
    refine Finset.sum_congr rfl (fun g _ => ?_)
    rw [padT_node z z' hz g n, wcol_real w12 w' hw 4 (by omega) slices_S12_S4_4 g, EReal.coe_mul]
  have haux : (∑ g : Fin 4, sauxT r rhat (clipIdx dst) (ix2 g ⟨n.val, by omega⟩) * wcol ![8] slices_S12_S4_8 w12 (ix2 g 0))
      = ((∑ g : Fin 4, (∑ e ∈ into d n, a' e g) * w' ⟨8 + g.val, by omega⟩ : ℝ) : EReal) := by
    rw [coe_sum]
    refine Finset.sum_congr rfl (fun g _ => ?_)
    rw [saux_node r rhat a' hr hrhat dst d hd g n, wcol_real w12 w' hw 8 (by omega) slices_S12_S4_8 g, EReal.coe_mul]
  show ((∑ g : Fin 4, padT z (ix2 g ⟨n.val, _⟩) * wcol ![4] slices_S12_S4_4 w12 (ix2 g 0))
        * indegT (clipIdx dst) (ix2 0 ⟨n.val, _⟩)
      + ∑ g : Fin 4, sauxT r rhat (clipIdx dst) (ix2 g ⟨n.val, _⟩) * wcol ![8] slices_S12_S4_8 w12 (ix2 g 0))
      + bias (ix2 0 0) * indegT (clipIdx dst) (ix2 0 ⟨n.val, _⟩) = _
  rw [hdst, haux, hb, indeg_node dst d hd n, ← EReal.coe_mul, ← EReal.coe_mul, ← EReal.coe_add, ← EReal.coe_add]

/-- One layer at entry (n, f), on real inputs and node indices, is the specification's layer (second arrangement). -/
theorem layer_apply
    (z : FVec Ideal S200000x4 .f32) (z' : Fin 200000 → Fin 4 → ℝ) (hz : ∀ n f, z (ix2 n f) = (z' n f : EReal))
    (r : FVec Ideal S6400000x1 .f32) (rhat : FVec Ideal S6400000x3 .f32) (a' : Fin 6400000 → Fin 4 → ℝ)
    (hr : ∀ e : Fin 6400000, r (ix2 e 0) = (a' e 0 : EReal))
    (hrhat : ∀ (e : Fin 6400000) (k : Fin 3), rhat (ix2 e k) = (a' e ⟨k.val + 1, by omega⟩ : EReal))
    (w12 : FVec Ideal S12 .f32) (w' : Fin 12 → ℝ) (hw : ∀ k : Fin 12, w12 (ix1 k) = (w' k : EReal))
    (bias : FVec Ideal S1x1 .f32) (b' : ℝ) (hb : bias (ix2 0 0) = (b' : EReal))
    (src dst : IVec S6400000 32) (s d : Fin 6400000 → Fin 200000)
    (hs : ∀ e : Fin 6400000, (src (ix1 e)).toInt = ((s e).val : ℤ))
    (hd : ∀ e : Fin 6400000, (dst (ix1 e)).toInt = ((d e).val : ℤ))
    (n : Fin 200000) (f : Fin 4) :
    layer (sauxT r rhat (clipIdx dst)) (indegT (clipIdx dst)) (clipIdx src) (clipIdx dst) w12 bias z (ix2 n f)
      = ((klayerR z' a' w' b' s d n f : ℝ) : EReal) := by
  unfold layer
  refine (unpadT_apply _ n f).trans ?_
  unfold klayerR
  rw [EReal.coe_add, EReal.coe_add]
  exact congrArg₂ (· + ·) (padT_node z z' hz f n)
    (congrArg₂ (· + ·) (scat_node z z' hz w12 w' hw src dst s d hs hd n)
      (other_node z z' hz r rhat a' hr hrhat w12 w' hw bias b' hb dst d hd n))

end Cert.KernelIdeal.NodeLayer

end
-- ==== Proof.KernelResult.lean ====
/-
  The kernel program's first result at one entry, on inputs that are real numbers and indices that name nodes:
  three layers of the specification. Each of the program's layers is the specification's layer in its second
  arrangement, which is the first; layer l reads row l of W and entry l of b.
-/
import proofs.«426513_j76897094467615_2_alg».proof.Proof.KernelAtIdx

noncomputable section

namespace Cert.KernelIdeal.NodeLayer

open Idealize.ShloMosaic Idealize.ShloMosaic.ValueIdx Cert.KernelIdeal Cert.KernelIdeal.Facts₀ Cert.KernelIdeal.Facts
open Cert.LayerSpec

/-- One layer of the program on real inputs is one specification layer, so its result is again real-valued. -/
private theorem layer_real
    (z : FVec Ideal S200000x4 .f32) (z' : Fin 200000 → Fin 4 → ℝ) (hz : ∀ n f, z (ix2 n f) = (z' n f : EReal))
    (r : FVec Ideal S6400000x1 .f32) (rhat : FVec Ideal S6400000x3 .f32) (a' : Fin 6400000 → Fin 4 → ℝ)
    (hr : ∀ e : Fin 6400000, r (ix2 e 0) = (a' e 0 : EReal))
    (hrhat : ∀ (e : Fin 6400000) (k : Fin 3), rhat (ix2 e k) = (a' e ⟨k.val + 1, by omega⟩ : EReal))
    (w12 : FVec Ideal S12 .f32) (w' : Fin 12 → ℝ) (hw : ∀ k : Fin 12, w12 (ix1 k) = (w' k : EReal))
    (bias : FVec Ideal S1x1 .f32) (b' : ℝ) (hb : bias (ix2 0 0) = (b' : EReal))
    (src dst : IVec S6400000 32) (s d : Fin 6400000 → Fin 200000)
    (hs : ∀ e : Fin 6400000, (src (ix1 e)).toInt = ((s e).val : ℤ))
    (hd : ∀ e : Fin 6400000, (dst (ix1 e)).toInt = ((d e).val : ℤ))
    (n : Fin 200000) (f : Fin 4) :
    layer (sauxT r rhat (clipIdx dst)) (indegT (clipIdx dst)) (clipIdx src) (clipIdx dst) w12 bias z (ix2 n f)
      = ((layerR z' a' w' b' s d n f : ℝ) : EReal) := by
  rw [layer_apply z z' hz r rhat a' hr hrhat w12 w' hw bias b' hb src dst s d hs hd n f,
    klayerR_eq_layerR]

/-- The program's first result at entry (n, f), on real inputs and node indices: three specification layers. -/
theorem result_apply
    (z : FVec Ideal S200000x4 .f32) (z' : Fin 200000 → Fin 4 → ℝ) (hz : ∀ n f, z (ix2 n f) = (z' n f : EReal))
    (r : FVec Ideal S6400000x1 .f32) (rhat : FVec Ideal S6400000x3 .f32) (a' : Fin 6400000 → Fin 4 → ℝ)
    (hr : ∀ e : Fin 6400000, r (ix2 e 0) = (a' e 0 : EReal))
    (hrhat : ∀ (e : Fin 6400000) (k : Fin 3), rhat (ix2 e k) = (a' e ⟨k.val + 1, by omega⟩ : EReal))
    (W : FVec Ideal S3x1x12 .f32) (W' : Fin 3 → Fin 12 → ℝ) (hW : ∀ (l : Fin 3) (k : Fin 12), W (ix3 l 0 k) = (W' l k : EReal))
    (b : FVec Ideal S3x1 .f32) (B' : Fin 3 → ℝ) (hB : ∀ l : Fin 3, b (ix2 l 0) = (B' l : EReal))
    (src dst : IVec S6400000 32) (s d : Fin 6400000 → Fin 200000)
    (hs : ∀ e : Fin 6400000, (src (ix1 e)).toInt = ((s e).val : ℤ))
    (hd : ∀ e : Fin 6400000, (dst (ix1 e)).toInt = ((d e).val : ℤ))
    (n : Fin 200000) (f : Fin 4) :
    result z r rhat W b src dst (ix2 n f) = ((net3R z' a' W' B' s d n f : ℝ) : EReal) := by
  have hw0 : ∀ k : Fin 12, w12Of ![0, 0, 0] slices_S3x1x12_S1x1x12_0_0_0 W (ix1 k) = (W' 0 k : EReal) :=
    fun k => (w12Of_apply 0 slices_S3x1x12_S1x1x12_0_0_0 W k).trans (hW 0 k)
  have hw1 : ∀ k : Fin 12, w12Of ![1, 0, 0] slices_S3x1x12_S1x1x12_1_0_0 W (ix1 k) = (W' 1 k : EReal) :=
    fun k => (w12Of_apply 1 slices_S3x1x12_S1x1x12_1_0_0 W k).trans (hW 1 k)
  have hw2 : ∀ k : Fin 12, w12Of ![2, 0, 0] slices_S3x1x12_S1x1x12_2_0_0 W (ix1 k) = (W' 2 k : EReal) :=
    fun k => (w12Of_apply 2 slices_S3x1x12_S1x1x12_2_0_0 W k).trans (hW 2 k)
  have hb0 : biasOf ![0, 0] slices_S3x1_S1x1_0_0 b (ix2 0 0) = (B' 0 : EReal) :=
    (biasOf_apply 0 slices_S3x1_S1x1_0_0 b).trans (hB 0)
  have hb1 : biasOf ![1, 0] slices_S3x1_S1x1_1_0 b (ix2 0 0) = (B' 1 : EReal) :=
    (biasOf_apply 1 slices_S3x1_S1x1_1_0 b).trans (hB 1)
  have hb2 : biasOf ![2, 0] slices_S3x1_S1x1_2_0 b (ix2 0 0) = (B' 2 : EReal) :=
    (biasOf_apply 2 slices_S3x1_S1x1_2_0 b).trans (hB 2)
  unfold net3R
  show layer (sauxT r rhat (clipIdx dst)) (indegT (clipIdx dst)) (clipIdx src) (clipIdx dst)
      (w12Of ![2, 0, 0] slices_S3x1x12_S1x1x12_2_0_0 W) (biasOf ![2, 0] slices_S3x1_S1x1_2_0 b)
      (layer (sauxT r rhat (clipIdx dst)) (indegT (clipIdx dst)) (clipIdx src) (clipIdx dst)
        (w12Of ![1, 0, 0] slices_S3x1x12_S1x1x12_1_0_0 W) (biasOf ![1, 0] slices_S3x1_S1x1_1_0 b)
        (layer (sauxT r rhat (clipIdx dst)) (indegT (clipIdx dst)) (clipIdx src) (clipIdx dst)
          (w12Of ![0, 0, 0] slices_S3x1x12_S1x1x12_0_0_0 W) (biasOf ![0, 0] slices_S3x1_S1x1_0_0 b) z)) (ix2 n f) = _
  exact layer_real _ _
    (fun n f => layer_real _ _
      (fun n f => layer_real z z' hz r rhat a' hr hrhat _ (W' 0) hw0 _ (B' 0) hb0 src dst s d hs hd n f)
      r rhat a' hr hrhat _ (W' 1) hw1 _ (B' 1) hb1 src dst s d hs hd n f)
    r rhat a' hr hrhat _ (W' 2) hw2 _ (B' 2) hb2 src dst s d hs hd n f

end Cert.KernelIdeal.NodeLayer

end
-- ==== Proof.RefLayers.lean ====
/-
  The reference's first result at one entry, on inputs that are real numbers and indices that name nodes: three
  layers of the specification.

  The reference's three residual updates are the same layer applied three times, layer l with row l of W as its
  weight column and entry l of b broadcast over the edges; the indices it gathers with are the inputs with a
  negative index wrapped (the identity on an index that names a node), and it sums by the raw destinations.
-/
import proofs.«426513_j76897094467615_2_alg».proof.Proof.RefLayer
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Idealize.ShloMosaic Idealize.ShloMosaic.ValueIdx Cert.ReferenceIdeal Cert.ReferenceIdeal.Facts₀
open Cert.LayerSpec

/-- The weight column of layer l: entry (k, 0) is W (l, 0, k). -/
theorem wcolOf_apply (l : Fin 3) (h : S3x1x12.Slices ![l.val, 0, 0] S1x1x12) (W : FVec Ideal S3x1x12 .f32) (k : Fin 12) :
    wcolOf ![l.val, 0, 0] h W (ix2 k 0) = W (ix3 l 0 k) := by
  unfold wcolOf
  -- the transpose reads (0, k); the reshape reads (0, 0, k); the slice shifts the first coordinate by l
  refine (transpose_ix2_apply _ transposes_S1x12_S12x1_1_0 k (0 : Fin 1)).trans ?_
  refine (shapeCast_1ab_ab_apply _ shapeCasts_S1x1x12_S1x12 (0 : Fin 1) k).trans ?_
  exact extractStridedSlice_apply _ W h (ix3 (0 : Fin 1) (0 : Fin 1) k) (ix3 l 0 k) fun ax =>
    match ax with
    | ⟨0, _⟩ => (Nat.add_zero _).symm
    | ⟨1, _⟩ => rfl
    | ⟨2, _⟩ => (Nat.zero_add _).symm

/-- The bias column of layer l: every entry is b (l, 0). -/
theorem bcolOf_apply (l : Fin 3) (h : S3x1.Slices ![l.val, 0] S1x1) (b : FVec Ideal S3x1 .f32) (e : Fin 6400000) :
    bcolOf ![l.val, 0] h b (ix2 e 0) = b (ix2 l 0) := by
  unfold bcolOf
  -- both broadcasts read the one entry of the [1]-vector; the reshape reads (0, 0); the slice shifts the row by l
  refine (broadcastInDim_apply _ bcast_S1x1_S6400000x1_0_1 _ (ix2 e 0) (ix2 (0 : Fin 1) (0 : Fin 1)) fun ax =>
    match ax with
    | ⟨0, _⟩ => rfl
    | ⟨1, _⟩ => rfl).trans ?_
  refine (broadcastInDim_apply _ bcast_S1_S1x1_1 _ (ix2 (0 : Fin 1) (0 : Fin 1)) (ix1 (0 : Fin 1)) fun ax =>
    match ax with
    | ⟨0, _⟩ => rfl).trans ?_
  refine (shapeCast_1a_a_apply _ shapeCasts_S1x1_S1 (0 : Fin 1)).trans ?_
  exact slice2_axis0_apply l.val b h (0 : Fin 1) (0 : Fin 1) l (Nat.add_zero _).symm

/-- A vector laid out as a column [E, 1] reads, at (e, 0), the vector at e. -/
private theorem col_apply {α : Type} (x : S6400000.Idx → α) (e : Fin 6400000) :
    broadcastInDim S6400000x1 ![0] bcast_S6400000_S6400000x1_0 x (ix2 e 0) = x (ix1 e) :=
  broadcastInDim_apply _ bcast_S6400000_S6400000x1_0 x (ix2 e 0) (ix1 e) fun ax =>
    match ax with
    | ⟨0, _⟩ => by
      show e.val = if (6400000 : ℕ) = 1 then 0 else e.val
      rw [if_neg (by omega)]

/-- Wrapping leaves an index that names a node as it is. -/
theorem wrapCol_apply (a : IVec S6400000 32) (e : Fin 6400000) (v : Fin 200000)
    (h : (a (ix1 e)).toInt = (v.val : ℤ)) : (wrapCol a (ix2 e 0)).toInt = (v.val : ℤ) := by
  unfold wrapCol
  rw [col_apply]
  -- the index is not negative, so the comparison with 0 is the bit 0 and the select keeps the index
  have hslt : BitVec.slt (a (ix1 e)) 0#32 = false := by
    unfold BitVec.slt
    rw [h, BitVec.toInt_zero]
    exact decide_eq_false (Int.not_lt.mpr (Int.natCast_nonneg _))
  have hc : IntOp.cmpi .slt (a (ix1 e)) 0#32 = 0#1 := by
    unfold IntOp.cmpi
    show BitVec.ofBool (BitVec.slt (a (ix1 e)) 0#32) = 0#1
    rw [hslt]
    rfl
  show (Scalar.select (IntOp.cmpi .slt (a (ix1 e)) 0#32) (IntOp.addi (a (ix1 e)) 200000#32) (a (ix1 e))).toInt = _
  rw [hc, select_zero]
  exact h

/-- The column's entry (e, 0) is the vector's entry e. -/
theorem rawCol_apply (a : IVec S6400000 32) (e : Fin 6400000) : rawCol a (ix2 e 0) = a (ix1 e) := by
  unfold rawCol
  exact col_apply a e

/-- The reference's first result at entry (n, f), on real inputs and node indices: three specification layers. -/
theorem result_apply
    (x0 : FVec Ideal S200000x4 .f32) (z' : Fin 200000 → Fin 4 → ℝ) (hz : ∀ n f, x0 (ix2 n f) = (z' n f : EReal))
    (x1 : FVec Ideal S6400000x1 .f32) (x2 : FVec Ideal S6400000x3 .f32) (a' : Fin 6400000 → Fin 4 → ℝ)
    (hr : ∀ e : Fin 6400000, x1 (ix2 e 0) = (a' e 0 : EReal))
    (hrhat : ∀ (e : Fin 6400000) (k : Fin 3), x2 (ix2 e k) = (a' e ⟨k.val + 1, by omega⟩ : EReal))
    (x3 : FVec Ideal S3x1x12 .f32) (W' : Fin 3 → Fin 12 → ℝ) (hW : ∀ (l : Fin 3) (k : Fin 12), x3 (ix3 l 0 k) = (W' l k : EReal))
    (x4 : FVec Ideal S3x1 .f32) (B' : Fin 3 → ℝ) (hB : ∀ l : Fin 3, x4 (ix2 l 0) = (B' l : EReal))
    (x5 x6 : IVec S6400000 32) (s d : Fin 6400000 → Fin 200000)
    (hs : ∀ e : Fin 6400000, (x5 (ix1 e)).toInt = ((s e).val : ℤ))
    (hd : ∀ e : Fin 6400000, (x6 (ix1 e)).toInt = ((d e).val : ℤ))
    (n : Fin 200000) (f : Fin 4) :
    refResult x0 x1 x2 x3 x4 x5 x6 (ix2 n f) = ((net3R z' a' W' B' s d n f : ℝ) : EReal) := by
  -- the three columns of indices name the nodes s e, d e, d e
  have hsC : ∀ e : Fin 6400000, (wrapCol x5 (ix2 e 0)).toInt = ((s e).val : ℤ) := fun e =>
    wrapCol_apply x5 e (s e) (hs e)
  have hdC : ∀ e : Fin 6400000, (wrapCol x6 (ix2 e 0)).toInt = ((d e).val : ℤ) := fun e =>
    wrapCol_apply x6 e (d e) (hd e)
  have hdR : ∀ e : Fin 6400000, (rawCol x6 (ix2 e 0)).toInt = ((d e).val : ℤ) := fun e =>
    (congrArg BitVec.toInt (rawCol_apply x6 e)).trans (hd e)
  -- layer l's weight column is row l of W', its bias column the constant B' l
  have hw : ∀ (l : Fin 3) (h : S3x1x12.Slices ![l.val, 0, 0] S1x1x12) (k : Fin 12),
      wcolOf ![l.val, 0, 0] h x3 (ix2 k 0) = (W' l k : EReal) := fun l h k =>
    (wcolOf_apply l h x3 k).trans (hW l k)
  have hb : ∀ (l : Fin 3) (h : S3x1.Slices ![l.val, 0] S1x1) (e : Fin 6400000),
      bcolOf ![l.val, 0] h x4 (ix2 e 0) = (B' l : EReal) := fun l h e =>
    (bcolOf_apply l h x4 e).trans (hB l)
  unfold refResult net3R
  -- the first layer, from the inputs
  have h1 : ∀ n f, refLayer x0 x1 x2 (wcolOf ![0, 0, 0] slices_S3x1x12_S1x1x12_0_0_0 x3)
      (bcolOf ![0, 0] slices_S3x1_S1x1_0_0 x4) (wrapCol x5) (wrapCol x6) (rawCol x6) (ix2 n f)
      = ((layerR z' a' (W' 0) (B' 0) s d n f : ℝ) : EReal) := fun n f =>
    refLayer_apply x0 z' hz x1 x2 a' hr hrhat _ (W' 0) (hw 0 slices_S3x1x12_S1x1x12_0_0_0) _ (B' 0)
      (hb 0 slices_S3x1_S1x1_0_0) _ _ _ s d hsC hdC hdR n f
  -- the second layer, from the first
  have h2 : ∀ n f, refLayer (refLayer x0 x1 x2 (wcolOf ![0, 0, 0] slices_S3x1x12_S1x1x12_0_0_0 x3)
        (bcolOf ![0, 0] slices_S3x1_S1x1_0_0 x4) (wrapCol x5) (wrapCol x6) (rawCol x6))
      x1 x2 (wcolOf ![1, 0, 0] slices_S3x1x12_S1x1x12_1_0_0 x3)
      (bcolOf ![1, 0] slices_S3x1_S1x1_1_0 x4) (wrapCol x5) (wrapCol x6) (rawCol x6) (ix2 n f)
      = ((layerR (layerR z' a' (W' 0) (B' 0) s d) a' (W' 1) (B' 1) s d n f : ℝ) : EReal) := fun n f =>
    refLayer_apply _ _ h1 x1 x2 a' hr hrhat _ (W' 1) (hw 1 slices_S3x1x12_S1x1x12_1_0_0) _ (B' 1)
      (hb 1 slices_S3x1_S1x1_1_0) _ _ _ s d hsC hdC hdR n f
  -- the third layer, from the second
  exact refLayer_apply _ _ h2 x1 x2 a' hr hrhat _ (W' 2) (hw 2 slices_S3x1x12_S1x1x12_2_0_0) _ (B' 2)
    (hb 2 slices_S3x1_S1x1_2_0) _ _ _ s d hsC hdC hdR n f

end Cert.ReferenceIdeal.RefValue

end
-- ==== Proof.Bridge.lean ====
/-
  The two programs' first results are one array, on inputs the precondition admits.

  The precondition makes every float entry a real number and every index a node, so both results are, entry by
  entry, the three layers of the specification over the real numbers, read in the extended reals: the
  reference's directly, the kernel program's because its arrangement of a layer is the same real number.
-/
import proofs.«426513_j76897094467615_2_alg».proof.Proof.PreDecode
import proofs.«426513_j76897094467615_2_alg».proof.Proof.KernelResult
import proofs.«426513_j76897094467615_2_alg».proof.Proof.RefLayers
import Idealize.ShloMosaic.Lib.ValueIdx

noncomputable section

namespace Cert.Proof.Bridge

open Idealize.ShloMosaic Idealize.ShloMosaic.ValueIdx

/-- Under the precondition the reference's result is the kernel program's. -/
theorem results_eq (z : FVec Ideal Cert.KernelIdeal.S200000x4 .f32) (r : FVec Ideal Cert.KernelIdeal.S6400000x1 .f32)
    (rhat : FVec Ideal Cert.KernelIdeal.S6400000x3 .f32) (W : FVec Ideal Cert.KernelIdeal.S3x1x12 .f32)
    (b : FVec Ideal Cert.KernelIdeal.S3x1 .f32) (src dst : IVec Cert.KernelIdeal.S6400000 32)
    (hpre : Cert.Pre_finite_inputs.fn (F := Ideal) z r rhat W b src dst = fun _ => 1#1) :
    Cert.ReferenceIdeal.RefValue.refResult z r rhat W b src dst = Cert.KernelIdeal.NodeLayer.result z r rhat W b src dst := by
  obtain ⟨hz, hr, hrh, hW, hb, hs, hd⟩ := Cert.Pre_finite_inputs.Decode.of_pre z r rhat W b src dst hpre
  choose zf hzf using hz
  choose rf hrf using hr
  choose rhf hrhf using hrh
  choose Wf hWf using hW
  choose bf hbf using hb
  -- the real data: features, edge attributes (r first, then r_hat), weights, biases, and the nodes the indices name
  let z' : Fin 200000 → Fin 4 → ℝ := fun n f => zf (ix2 n f)
  let a' : Fin 6400000 → Fin 4 → ℝ := fun e g =>
    if h : g.val = 0 then rf (ix2 e 0) else rhf (ix2 e ⟨g.val - 1, by omega⟩)
  let W' : Fin 3 → Fin 12 → ℝ := fun l k => Wf (ix3 l 0 k)
  let B' : Fin 3 → ℝ := fun l => bf (ix2 l 0)
  let s : Fin 6400000 → Fin 200000 := fun e => ⟨(src (ix1 e)).toInt.toNat, by have := hs (ix1 e); omega⟩
  let d : Fin 6400000 → Fin 200000 := fun e => ⟨(dst (ix1 e)).toInt.toNat, by have := hd (ix1 e); omega⟩
  have hz' : ∀ n f, z (ix2 n f) = (z' n f : EReal) := fun n f => hzf _
  have ha0 : ∀ e : Fin 6400000, a' e 0 = rf (ix2 e 0) := fun e => dif_pos rfl
  have hak : ∀ (e : Fin 6400000) (k : Fin 3), a' e ⟨k.val + 1, by omega⟩ = rhf (ix2 e k) := fun e k => by
    have h1 : ¬ ((⟨k.val + 1, by omega⟩ : Fin 4).val = 0) := Nat.succ_ne_zero _
    refine (dif_neg h1).trans ?_
    exact congrArg (fun q : Fin 3 => rhf (ix2 e q)) (Fin.ext (Nat.add_sub_cancel k.val 1))
  have hr' : ∀ e : Fin 6400000, r (ix2 e 0) = (a' e 0 : EReal) := fun e => by
    rw [ha0 e]; exact hrf _
  have hrh' : ∀ (e : Fin 6400000) (k : Fin 3), rhat (ix2 e k) = (a' e ⟨k.val + 1, by omega⟩ : EReal) := fun e k => by
    rw [hak e k]; exact hrhf _
  have hW' : ∀ (l : Fin 3) (k : Fin 12), W (ix3 l 0 k) = (W' l k : EReal) := fun l k => hWf _
  have hB' : ∀ l : Fin 3, b (ix2 l 0) = (B' l : EReal) := fun l => hbf _
  have hs' : ∀ e : Fin 6400000, (src (ix1 e)).toInt = ((s e).val : ℤ) := fun e => by
    have := hs (ix1 e)
    show (src (ix1 e)).toInt = (((src (ix1 e)).toInt.toNat : ℕ) : ℤ)
    omega
  have hd' : ∀ e : Fin 6400000, (dst (ix1 e)).toInt = ((d e).val : ℤ) := fun e => by
    have := hd (ix1 e)
    show (dst (ix1 e)).toInt = (((dst (ix1 e)).toInt.toNat : ℕ) : ℤ)
    omega
  funext i
  obtain ⟨n, f, rfl⟩ : ∃ (n : Fin 200000) (f : Fin 4), i = ix2 n f := ⟨i 0, i 1, eq_ix2 i⟩
  rw [Cert.ReferenceIdeal.RefValue.result_apply z z' hz' r rhat a' hr' hrh' W W' hW' b B' hB' src dst s d hs' hd' n f,
    Cert.KernelIdeal.NodeLayer.result_apply z z' hz' r rhat a' hr' hrh' W W' hW' b B' hB' src dst s d hs' hd' n f]

end Cert.Proof.Bridge

end
-- ==== Proof.lean ====
/-
  The certificate of the three-layer message-passing kernel program against its reference.

  The kernel program computes each layer with the Linear(12, 1) map pulled through the gather and the sum by
  destination (two small kernels per layer around a scalar gather and a scalar segment sum); the reference
  gathers the twelve-entry edge inputs, applies the map per edge and sums by destination. On real inputs and
  indices that name nodes (the precondition: finite floats, 0 <= src, dst < 200000) the two are the same
  array, entry by entry: both are three layers of the specification over the real numbers (LayerSpec.lean).

  Frames: the kernel programs' are the generated frame certificates; the reference's is its run with the
  results dropped. The idealization rewrote nothing, so `preserves` is trivial. The value claim joins the kernel
  program's run (the generated launch, with the first result's final contents kept: KernelRun.lean, read through
  the run's boundaries in KernelChain.lean) and the reference's run (RefRun.lean) by Bridge.lean.
-/
import proofs.«426513_j76897094467615_2_alg».proof.Defs
import proofs.«426513_j76897094467615_2_alg».proof.Proof.Gen.Kernel
import proofs.«426513_j76897094467615_2_alg».proof.Proof.Gen.Kernel.Skeleton
import proofs.«426513_j76897094467615_2_alg».proof.Proof.Gen.Kernel.Launch
import proofs.«426513_j76897094467615_2_alg».proof.Proof.Gen.Kernel.Points
import proofs.«426513_j76897094467615_2_alg».proof.Proof.Gen.Kernel.Frame
import proofs.«426513_j76897094467615_2_alg».proof.Proof.Gen.KernelIdeal
import proofs.«426513_j76897094467615_2_alg».proof.Proof.Gen.KernelIdeal.Skeleton
import proofs.«426513_j76897094467615_2_alg».proof.Proof.Gen.KernelIdeal.Launch
import proofs.«426513_j76897094467615_2_alg».proof.Proof.Gen.KernelIdeal.Points
import proofs.«426513_j76897094467615_2_alg».proof.Proof.Gen.KernelIdeal.Frame
import proofs.«426513_j76897094467615_2_alg».proof.Proof.Gen.ReferenceIdeal
import proofs.«426513_j76897094467615_2_alg».proof.Proof.Gen.Pre_finite_inputs
import proofs.«426513_j76897094467615_2_alg».proof.Proof.KernelRun
import proofs.«426513_j76897094467615_2_alg».proof.Proof.KernelChain
import proofs.«426513_j76897094467615_2_alg».proof.Proof.RefRun
import proofs.«426513_j76897094467615_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Both programs run; the kernel program's first result is the three layers of its arguments, the reference's the
    same array of arguments that agree (Bridge.lean); the second result is the first argument in both. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.NodeLayer.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => m ((c.tc : Thread Cert.KernelIdeal.nD Cert.KernelIdeal.τ).loc Cert.KernelIdeal.main_arg0), ?_, ?_⟩
  · refine (θ_run Cert.KernelIdeal.defs _ _).mono (fun r h c => ?_) (Cert.KernelIdeal.RunValue.run (F := Ideal) m ρ)
    obtain ⟨h88, h0, h1, h2, h3, h4, h5, h6⟩ := h c
    exact ⟨h88.trans (Cert.KernelIdeal.ChainValue.final m ρ c), h0, h0, h1, h2, h3, h4, h5, h6⟩
  · refine (θ_run Cert.ReferenceIdeal.defs _ _).mono (fun r h c => ?_) (Cert.ReferenceIdeal.RefValue.run m' ρ')
    obtain ⟨h86, h0, h1, h2, h3, h4, h5, h6⟩ := h c
    obtain ⟨a0, a1, a2, a3, a4, a5, a6⟩ := hagree c
    refine ⟨h86.trans ?_, h0.trans a0, h0, h1, h2, h3, h4, h5, h6⟩
    rw [a0, a1, a2, a3, a4, a5, a6]
    exact Cert.Proof.Bridge.results_eq _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
